-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v62_0)) (v1 : (c : Dev Cert.KernelIdeal.nD) → Buf (Elt Ideal) ((c.tc : Thread Cert.KernelIdeal.nD Cert.KernelIdeal.τ).loc Cert.KernelIdeal.main_v46_1)) (v2 : (c : Dev Cert.KernelIdeal.nD) → Buf (Elt Ideal) ((c.tc : Thread Cert.KernelIdeal.nD Cert.KernelIdeal.τ).loc Cert.KernelIdeal.main_v62_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62_0) = v0 c
          ∧ r.2.mem ((c.tc : Thread Cert.KernelIdeal.nD Cert.KernelIdeal.τ).loc Cert.KernelIdeal.main_v46_1) = v1 c
          ∧ r.2.mem ((c.tc : Thread Cert.KernelIdeal.nD Cert.KernelIdeal.τ).loc Cert.KernelIdeal.main_v62_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v143) = v0 c
          ∧ r.2.mem ((c.tc : Thread Cert.ReferenceIdeal.nD Cert.ReferenceIdeal.τ).loc Cert.ReferenceIdeal.main_v124) = v1 c
          ∧ r.2.mem ((c.tc : Thread Cert.ReferenceIdeal.nD Cert.ReferenceIdeal.τ).loc Cert.ReferenceIdeal.main_v125) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000x64 : Shape := ⟨2, ![800000, 64]⟩
abbrev S64x128 : Shape := ⟨2, ![64, 128]⟩
abbrev S64 : Shape := ⟨1, ![64]⟩
abbrev S64x64 : Shape := ⟨2, ![64, 64]⟩
abbrev S800000 : Shape := ⟨1, ![800000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S800000 : S_.BroadcastsInDim S800000 (![] : Fin 0 → Fin S800000.rank)
  reducesTo_S800000_S_d0 : S800000.ReducesTo [0] S_

variable [Facts]

def fn_part6 {F : FTy → Type} [FloatOps F] (main_arg20 : IVec S800000 32) (main_v101 : IVec S_ 1) : IVec S_ 1 :=
  let main_c_40 : IVec S_ 32 := constantI S_ 32 0#32
  let main_v102 : IVec S800000 32 := broadcastInDim S800000 ![] bcast_S_S800000 main_c_40
  let main_v103 : IVec S800000 1 := cmpi .sge main_arg20 main_v102
  let main_c_41 : IVec S_ 1 := constantI S_ 1 1#1
  let main_v104 : IVec S_ 1 := (fun x v => Host.reduce IntOp.andi x v reducesTo_S800000_S_d0 h_S_) main_v103 main_c_41
  let main_v105 : IVec S_ 1 := andi main_v101 main_v104
  let main_c_42 : IVec S_ 32 := constantI S_ 32 50000#32
  let main_v106 : IVec S800000 32 := broadcastInDim S800000 ![] bcast_S_S800000 main_c_42
  let main_v107 : IVec S800000 1 := cmpi .slt main_arg20 main_v106
  let main_c_43 : IVec S_ 1 := constantI S_ 1 1#1
  let main_v108 : IVec S_ 1 := (fun x v => Host.reduce IntOp.andi x v reducesTo_S800000_S_d0 h_S_) main_v107 main_c_43
  let main_v109 : IVec S_ 1 := andi main_v105 main_v108
  main_v109

def fn_part5 {F : FTy → Type} [FloatOps F] (main_arg18 : FVec F S64 .f32) (main_arg19 : IVec S800000 32) (main_arg20 : IVec S800000 32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S64 .f32 := Host.absf main_arg18
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_c_36 : IVec S_ 32 := constantI S_ 32 0#32
  let main_v94 : IVec S800000 32 := broadcastInDim S800000 ![] bcast_S_S800000 main_c_36
  let main_v95 : IVec S800000 1 := cmpi .sge main_arg19 main_v94
  let main_c_37 : IVec S_ 1 := constantI S_ 1 1#1
  let main_v96 : IVec S_ 1 := (fun x v => Host.reduce IntOp.andi x v reducesTo_S800000_S_d0 h_S_) main_v95 main_c_37
  let main_v97 : IVec S_ 1 := andi main_v93 main_v96
  let main_c_38 : IVec S_ 32 := constantI S_ 32 50000#32
  let main_v98 : IVec S800000 32 := broadcastInDim S800000 ![] bcast_S_S800000 main_c_38
  let main_v99 : IVec S800000 1 := cmpi .slt main_arg19 main_v98
  let main_c_39 : IVec S_ 1 := constantI S_ 1 1#1
  let main_v100 : IVec S_ 1 := (fun x v => Host.reduce IntOp.andi x v reducesTo_S800000_S_d0 h_S_) main_v99 main_c_39
  let main_v101 : IVec S_ 1 := andi main_v97 main_v100
  fn_part6 (F := F) main_arg20 main_v101

def fn_part4 {F : FTy → Type} [FloatOps F] (main_arg14 : FVec F S64 .f32) (main_arg15 : FVec F S64x64 .f32) (main_arg16 : FVec F S64 .f32) (main_arg17 : FVec F S64 .f32) (main_arg18 : FVec F S64 .f32) (main_arg19 : IVec S800000 32) (main_arg20 : IVec S800000 32) (main_v63 : IVec S_ 1) (main_v67 : IVec S_ 1) : IVec S_ 1 :=
  let main_v68 : IVec S_ 1 := andi main_v63 main_v67
  let main_v69 : FVec F S64 .f32 := Host.absf main_arg14
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x64 .f32 := Host.absf main_arg15
  let main_cst_28 : FVec F S_ .f32 := constant S_ .f32 0x7F800000#32
  let main_v75 : FVec F S64x64 .f32 := broadcastInDim S64x64 ![] bcast_S_S64x64 main_cst_28
  let main_v76 : IVec S64x64 1 := cmpf .olt main_v74 main_v75
  let main_c_29 : IVec S_ 1 := constantI S_ 1 1#1
  let main_v77 : IVec S_ 1 := (fun x v => Host.reduce IntOp.andi x v reducesTo_S64x64_S_d0_1 h_S_) main_v76 main_c_29
  let main_v78 : IVec S_ 1 := andi main_v73 main_v77
  let main_v79 : FVec F S64 .f32 := Host.absf main_arg16
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64 .f32 := Host.absf main_arg17
  let main_cst_32 : FVec F S_ .f32 := constant S_ .f32 0x7F800000#32
  fn_part5 (F := F) main_arg18 main_arg19 main_arg20 main_v83 main_v84 main_cst_32

def fn_part3 {F : FTy → Type} [FloatOps F] (main_arg11 : FVec F S64x64 .f32) (main_arg12 : FVec F S64 .f32) (main_arg13 : FVec F S64x64 .f32) (main_arg14 : FVec F S64 .f32) (main_arg15 : FVec F S64x64 .f32) (main_arg16 : FVec F S64 .f32) (main_arg17 : FVec F S64 .f32) (main_arg18 : FVec F S64 .f32) (main_arg19 : IVec S800000 32) (main_arg20 : IVec S800000 32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg11
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg12
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x64 .f32 := Host.absf main_arg13
  let main_cst_24 : FVec F S_ .f32 := constant S_ .f32 0x7F800000#32
  let main_v65 : FVec F S64x64 .f32 := broadcastInDim S64x64 ![] bcast_S_S64x64 main_cst_24
  let main_v66 : IVec S64x64 1 := cmpf .olt main_v64 main_v65
  let main_c_25 : IVec S_ 1 := constantI S_ 1 1#1
  let main_v67 : IVec S_ 1 := (fun x v => Host.reduce IntOp.andi x v reducesTo_S64x64_S_d0_1 h_S_) main_v66 main_c_25
  fn_part4 (F := F) main_arg14 main_arg15 main_arg16 main_arg17 main_arg18 main_arg19 main_arg20 main_v63 main_v67

def fn_part2 {F : FTy → Type} [FloatOps F] (main_arg7 : FVec F S64x64 .f32) (main_arg8 : FVec F S64 .f32) (main_arg9 : FVec F S64x64 .f32) (main_arg10 : FVec F S64 .f32) (main_arg11 : FVec F S64x64 .f32) (main_arg12 : FVec F S64 .f32) (main_arg13 : FVec F S64x64 .f32) (main_arg14 : FVec F S64 .f32) (main_arg15 : FVec F S64x64 .f32) (main_arg16 : FVec F S64 .f32) (main_arg17 : FVec F S64 .f32) (main_arg18 : FVec F S64 .f32) (main_arg19 : IVec S800000 32) (main_arg20 : IVec S800000 32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg9
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg12 main_arg13 main_arg14 main_arg15 main_arg16 main_arg17 main_arg18 main_arg19 main_arg20 main_v48 main_v49 main_v50

def fn_part1 {F : FTy → Type} [FloatOps F] (main_arg4 : FVec F S64 .f32) (main_arg5 : FVec F S64x128 .f32) (main_arg6 : FVec F S64 .f32) (main_arg7 : FVec F S64x64 .f32) (main_arg8 : FVec F S64 .f32) (main_arg9 : FVec F S64x64 .f32) (main_arg10 : FVec F S64 .f32) (main_arg11 : FVec F S64x64 .f32) (main_arg12 : FVec F S64 .f32) (main_arg13 : FVec F S64x64 .f32) (main_arg14 : FVec F S64 .f32) (main_arg15 : FVec F S64x64 .f32) (main_arg16 : FVec F S64 .f32) (main_arg17 : FVec F S64 .f32) (main_arg18 : FVec F S64 .f32) (main_arg19 : IVec S800000 32) (main_arg20 : IVec S800000 32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x128 .f32 := Host.absf main_arg5
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_v33

def fn {F : FTy → Type} [FloatOps F] (main_arg0 : FVec F S50000x64 .f32) (main_arg1 : FVec F S800000x64 .f32) (main_arg2 : FVec F S50000x64 .f32) (main_arg3 : FVec F S64x128 .f32) (main_arg4 : FVec F S64 .f32) (main_arg5 : FVec F S64x128 .f32) (main_arg6 : FVec F S64 .f32) (main_arg7 : FVec F S64x64 .f32) (main_arg8 : FVec F S64 .f32) (main_arg9 : FVec F S64x64 .f32) (main_arg10 : FVec F S64 .f32) (main_arg11 : FVec F S64x64 .f32) (main_arg12 : FVec F S64 .f32) (main_arg13 : FVec F S64x64 .f32) (main_arg14 : FVec F S64 .f32) (main_arg15 : FVec F S64x64 .f32) (main_arg16 : FVec F S64 .f32) (main_arg17 : FVec F S64 .f32) (main_arg18 : FVec F S64 .f32) (main_arg19 : IVec S800000 32) (main_arg20 : IVec S800000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x64 .f32 := Host.absf main_arg1
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S50000x64 .f32 := Host.absf main_arg2
  let main_cst_2 : FVec F S_ .f32 := constant S_ .f32 0x7F800000#32
  let main_v10 : FVec F S50000x64 .f32 := broadcastInDim S50000x64 ![] bcast_S_S50000x64 main_cst_2
  let main_v11 : IVec S50000x64 1 := cmpf .olt main_v9 main_v10
  let main_c_3 : IVec S_ 1 := constantI S_ 1 1#1
  let main_v12 : IVec S_ 1 := (fun x v => Host.reduce IntOp.andi x v reducesTo_S50000x64_S_d0_1 h_S_) main_v11 main_c_3
  let main_v13 : IVec S_ 1 := andi main_v8 main_v12
  let main_v14 : FVec F S64x128 .f32 := Host.absf main_arg3
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S50000x64 : Shape := ⟨2, ![50000, 64]⟩
abbrev S800000x64 : Shape := ⟨2, ![800000, 64]⟩
abbrev S64x128 : Shape := ⟨2, ![64, 128]⟩
abbrev S64 : Shape := ⟨1, ![64]⟩
abbrev S64x64 : Shape := ⟨2, ![64, 64]⟩
abbrev S800000 : Shape := ⟨1, ![800000]⟩
abbrev S50000x128 : Shape := ⟨2, ![50000, 128]⟩
abbrev S128x64 : Shape := ⟨2, ![128, 64]⟩
abbrev S1x64 : Shape := ⟨2, ![1, 64]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x128 : Shape := ⟨2, ![800000, 128]⟩
abbrev S10000x64 : Shape := ⟨2, ![10000, 64]⟩
abbrev S10000x128 : Shape := ⟨2, ![10000, 128]⟩
abbrev S10000 : Shape := ⟨1, ![10000]⟩
abbrev S10000x1 : Shape := ⟨2, ![10000, 1]⟩
abbrev S5000x64 : Shape := ⟨2, ![5000, 64]⟩
abbrev S5000 : Shape := ⟨1, ![5000]⟩
abbrev S5000x1 : Shape := ⟨2, ![5000, 1]⟩

abbrev nBuf : Space → Nat
  | .hbm => 178
  | .vmem => 34
  | .smem => 0
  | _ => 0

abbrev hbmTy0_0 (i : Nat) : BufTy := match i % 128 with
  | 0 => ⟨S50000x64, .f32⟩
  | 1 => ⟨S800000x64, .f32⟩
  | 2 => ⟨S50000x64, .f32⟩
  | 3 => ⟨S64x128, .f32⟩
  | 4 => ⟨S64, .f32⟩
  | 5 => ⟨S64x128, .f32⟩
  | 6 => ⟨S64, .f32⟩
  | 7 => ⟨S64x64, .f32⟩
  | 8 => ⟨S64, .f32⟩
  | 9 => ⟨S64x64, .f32⟩
  | 10 => ⟨S64, .f32⟩
  | 11 => ⟨S64x64, .f32⟩
  | 12 => ⟨S64, .f32⟩
  | 13 => ⟨S64x64, .f32⟩
  | 14 => ⟨S64, .f32⟩
  | 15 => ⟨S64x64, .f32⟩
  | 16 => ⟨S64, .f32⟩
  | 17 => ⟨S64, .f32⟩
  | 18 => ⟨S64, .f32⟩
  | 19 => ⟨S800000, .i32⟩
  | 20 => ⟨S800000, .i32⟩
  | 21 => ⟨S50000x128, .f32⟩
  | 22 => ⟨S128x64, .f32⟩
  | 23 => ⟨S50000x64, .f32⟩
  | 24 => ⟨S1x64, .f32⟩
  | 25 => ⟨S50000x64, .f32⟩
  | 26 => ⟨S50000x64, .f32⟩
  | 27 => ⟨S128x64, .f32⟩
  | 28 => ⟨S50000x64, .f32⟩
  | 29 => ⟨S1x64, .f32⟩
  | 30 => ⟨S50000x64, .f32⟩
  | 31 => ⟨S50000x64, .f32⟩
  | 32 => ⟨S64x64, .f32⟩
  | 33 => ⟨S50000x64, .f32⟩
  | 34 => ⟨S1x64, .f32⟩
  | 35 => ⟨S50000x64, .f32⟩
  | 36 => ⟨S50000x64, .f32⟩
  | 37 => ⟨S64x64, .f32⟩
  | 38 => ⟨S50000x64, .f32⟩
  | 39 => ⟨S1x64, .f32⟩
  | 40 => ⟨S50000x64, .f32⟩
  | 41 => ⟨S50000x64, .f32⟩
  | 42 => ⟨S64x64, .f32⟩
  | 43 => ⟨S50000x64, .f32⟩
  | 44 => ⟨S1x64, .f32⟩
  | 45 => ⟨S50000x64, .f32⟩
  | 46 => ⟨S50000x64, .f32⟩
  | 47 => ⟨S64x64, .f32⟩
  | 48 => ⟨S50000x64, .f32⟩
  | 49 => ⟨S1x64, .f32⟩
  | 50 => ⟨S50000x64, .f32⟩
  | 51 => ⟨S50000x64, .f32⟩
  | 52 => ⟨S64x64, .f32⟩
  | 53 => ⟨S50000x64, .f32⟩
  | 54 => ⟨S50000x64, .f32⟩
  | 55 => ⟨S50000x64, .f32⟩
  | 56 => ⟨S50000x64, .f32⟩
  | 57 => ⟨S_, .f32⟩
  | 58 => ⟨S50000x64, .f32⟩
  | 59 => ⟨S50000x64, .f32⟩
  | 60 => ⟨S_, .f32⟩
  | 61 => ⟨S50000x64, .f32⟩
  | 62 => ⟨S50000x64, .f32⟩
  | 63 => ⟨S50000x64, .f32⟩
  | 64 => ⟨S50000x128, .f32⟩
  | 65 => ⟨S50000x128, .f32⟩
  | 66 => ⟨S_, .i32⟩
  | 67 => ⟨S800000, .i32⟩
  | 68 => ⟨S800000, .i1⟩
  | 69 => ⟨S_, .i32⟩
  | 70 => ⟨S800000, .i32⟩
  | 71 => ⟨S800000, .i32⟩
  | 72 => ⟨S800000, .i32⟩
  | 73 => ⟨S800000x1, .i32⟩
  | 74 => ⟨S1, .i32⟩
  | 75 => ⟨S_, .i32⟩
  | 76 => ⟨S800000x1, .i32⟩
  | 77 => ⟨S800000x1, .i1⟩
  | 78 => ⟨S1x1, .i32⟩
  | 79 => ⟨S800000x1, .i32⟩
  | 80 => ⟨S800000x1, .i1⟩
  | 81 => ⟨S800000x1, .i1⟩
  | 82 => ⟨S_, .i1⟩
  | 83 => ⟨S800000, .i1⟩
  | 84 => ⟨S800000x128, .f32⟩
  | 85 => ⟨S800000x128, .i1⟩
  | 86 => ⟨S_, .f32⟩
  | 87 => ⟨S800000x128, .f32⟩
  | 88 => ⟨S800000x128, .f32⟩
  | 89 => ⟨S_, .i32⟩
  | 90 => ⟨S800000, .i32⟩
  | 91 => ⟨S800000, .i1⟩
  | 92 => ⟨S_, .i32⟩
  | 93 => ⟨S800000, .i32⟩
  | 94 => ⟨S800000, .i32⟩
  | 95 => ⟨S800000, .i32⟩
  | 96 => ⟨S800000x1, .i32⟩
  | 97 => ⟨S1, .i32⟩
  | 98 => ⟨S_, .i32⟩
  | 99 => ⟨S800000x1, .i32⟩
  | 100 => ⟨S800000x1, .i1⟩
  | 101 => ⟨S1x1, .i32⟩
  | 102 => ⟨S800000x1, .i32⟩
  | 103 => ⟨S800000x1, .i1⟩
  | 104 => ⟨S800000x1, .i1⟩
  | 105 => ⟨S_, .i1⟩
  | 106 => ⟨S800000, .i1⟩
  | 107 => ⟨S800000x128, .f32⟩
  | 108 => ⟨S800000x128, .i1⟩
  | 109 => ⟨S_, .f32⟩
  | 110 => ⟨S800000x128, .f32⟩
  | 111 => ⟨S800000x128, .f32⟩
  | 112 => ⟨S1x64, .f32⟩
  | 113 => ⟨S800000x128, .f32⟩
  | 114 => ⟨S800000x64, .f32⟩
  | 115 => ⟨S_, .f32⟩
  | 116 => ⟨S50000x128, .f32⟩
  | 117 => ⟨S800000x1, .i32⟩
  | 118 => ⟨S50000x128, .f32⟩
  | 119 => ⟨S50000x64, .f32⟩
  | 120 => ⟨S50000x128, .f32⟩
  | 121 => ⟨S_, .i32⟩
  | 122 => ⟨S800000, .i32⟩
  | 123 => ⟨S800000, .i1⟩
  | 124 => ⟨S_, .i32⟩
  | 125 => ⟨S800000, .i32⟩
  | 126 => ⟨S800000, .i32⟩
  | 127 => ⟨S800000, .i32⟩
  | _ => ⟨S50000x64, .f32⟩

abbrev hbmTy0_1 (i : Nat) : BufTy := match i % 128 with
  | 0 => ⟨S800000x1, .i32⟩
  | 1 => ⟨S1, .i32⟩
  | 2 => ⟨S_, .i32⟩
  | 3 => ⟨S800000x1, .i32⟩
  | 4 => ⟨S800000x1, .i1⟩
  | 5 => ⟨S1x1, .i32⟩
  | 6 => ⟨S800000x1, .i32⟩
  | 7 => ⟨S800000x1, .i1⟩
  | 8 => ⟨S800000x1, .i1⟩
  | 9 => ⟨S_, .i1⟩
  | 10 => ⟨S800000, .i1⟩
  | 11 => ⟨S800000x128, .f32⟩
  | 12 => ⟨S800000x128, .i1⟩
  | 13 => ⟨S_, .f32⟩
  | 14 => ⟨S800000x128, .f32⟩
  | 15 => ⟨S800000x128, .f32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S1, .i32⟩
  | 25 => ⟨S_, .i32⟩
  | 26 => ⟨S800000x1, .i32⟩
  | 27 => ⟨S800000x1, .i1⟩
  | 28 => ⟨S1x1, .i32⟩
  | 29 => ⟨S800000x1, .i32⟩
  | 30 => ⟨S800000x1, .i1⟩
  | 31 => ⟨S800000x1, .i1⟩
  | 32 => ⟨S_, .i1⟩
  | 33 => ⟨S800000, .i1⟩
  | 34 => ⟨S800000x64, .f32⟩
  | 35 => ⟨S800000x64, .i1⟩
  | 36 => ⟨S_, .f32⟩
  | 37 => ⟨S800000x64, .f32⟩
  | 38 => ⟨S800000x64, .f32⟩
  | 39 => ⟨S800000x128, .f32⟩
  | 40 => ⟨S_, .f32⟩
  | 41 => ⟨S50000x128, .f32⟩
  | 42 => ⟨S800000x1, .i32⟩
  | 43 => ⟨S50000x128, .f32⟩
  | 44 => ⟨S50000x64, .f32⟩
  | 45 => ⟨S50000x64, .f32⟩
  | 46 => ⟨S1x64, .f32⟩
  | 47 => ⟨S1x64, .f32⟩
  | 48 => ⟨S50000x64, .f32⟩
  | 49 => ⟨S50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S1x64, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S10000x128, .f32⟩
  | .local _ .vmem, ⟨9, _⟩ => ⟨S10000x128, .f32⟩
  | .local _ .vmem, ⟨10, _⟩ => ⟨S10000x64, .f32⟩
  | .local _ .vmem, ⟨11, _⟩ => ⟨S10000x64, .f32⟩
  | .local _ .vmem, ⟨12, _⟩ => ⟨S10000x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S10000x64, .f32⟩
  | .local _ .vmem, ⟨17, _⟩ => ⟨S10000x64, .f32⟩
  | .local _ .vmem, ⟨18, _⟩ => ⟨S10000x128, .f32⟩
  | .local _ .vmem, ⟨19, _⟩ => ⟨S10000x128, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S1x64, .f32⟩
  | .local _ .vmem, ⟨29, _⟩ => ⟨S1x64, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst : Ref sig .tc := ⟨.hbm, 57, rfl⟩
abbrev main_v36 : Ref sig .tc := ⟨.hbm, 58, rfl⟩
abbrev main_v37 : Ref sig .tc := ⟨.hbm, 59, rfl⟩
abbrev main_cst_0 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_call0_c : Ref sig .tc := ⟨.hbm, 66, rfl⟩
abbrev main_call0_v0 : Ref sig .tc := ⟨.hbm, 67, rfl⟩
abbrev main_call0_v1 : Ref sig .tc := ⟨.hbm, 68, rfl⟩
abbrev main_call0_c_0 : Ref sig .tc := ⟨.hbm, 69, rfl⟩
abbrev main_call0_v2 : Ref sig .tc := ⟨.hbm, 70, rfl⟩
abbrev main_call0_v3 : Ref sig .tc := ⟨.hbm, 71, rfl⟩
abbrev main_call0_v4 : Ref sig .tc := ⟨.hbm, 72, rfl⟩
abbrev main_call0_v5 : Ref sig .tc := ⟨.hbm, 73, rfl⟩
abbrev main_call0_c_1 : Ref sig .tc := ⟨.hbm, 74, rfl⟩
abbrev main_call0_c_2 : Ref sig .tc := ⟨.hbm, 75, rfl⟩
abbrev main_call0_v6 : Ref sig .tc := ⟨.hbm, 76, rfl⟩
abbrev main_call0_v7 : Ref sig .tc := ⟨.hbm, 77, rfl⟩
abbrev main_call0_v8 : Ref sig .tc := ⟨.hbm, 78, rfl⟩
abbrev main_call0_v9 : Ref sig .tc := ⟨.hbm, 79, rfl⟩
abbrev main_call0_v10 : Ref sig .tc := ⟨.hbm, 80, rfl⟩
abbrev main_call0_v11 : Ref sig .tc := ⟨.hbm, 81, rfl⟩
abbrev main_call0_c_3 : Ref sig .tc := ⟨.hbm, 82, rfl⟩
abbrev main_call0_v12 : Ref sig .tc := ⟨.hbm, 83, rfl⟩
abbrev main_call0_v13 : Ref sig .tc := ⟨.hbm, 84, rfl⟩
abbrev main_call0_v14 : Ref sig .tc := ⟨.hbm, 85, rfl⟩
abbrev main_call0_cst : Ref sig .tc := ⟨.hbm, 86, rfl⟩
abbrev main_call0_v15 : Ref sig .tc := ⟨.hbm, 87, rfl⟩
abbrev main_v43 : Ref sig .tc := ⟨.hbm, 88, rfl⟩
abbrev main_call1_c : Ref sig .tc := ⟨.hbm, 89, rfl⟩
abbrev main_call1_v0 : Ref sig .tc := ⟨.hbm, 90, rfl⟩
abbrev main_call1_v1 : Ref sig .tc := ⟨.hbm, 91, rfl⟩
abbrev main_call1_c_0 : Ref sig .tc := ⟨.hbm, 92, rfl⟩
abbrev main_call1_v2 : Ref sig .tc := ⟨.hbm, 93, rfl⟩
abbrev main_call1_v3 : Ref sig .tc := ⟨.hbm, 94, rfl⟩
abbrev main_call1_v4 : Ref sig .tc := ⟨.hbm, 95, rfl⟩
abbrev main_call1_v5 : Ref sig .tc := ⟨.hbm, 96, rfl⟩
abbrev main_call1_c_1 : Ref sig .tc := ⟨.hbm, 97, rfl⟩
abbrev main_call1_c_2 : Ref sig .tc := ⟨.hbm, 98, rfl⟩
abbrev main_call1_v6 : Ref sig .tc := ⟨.hbm, 99, rfl⟩
abbrev main_call1_v7 : Ref sig .tc := ⟨.hbm, 100, rfl⟩
abbrev main_call1_v8 : Ref sig .tc := ⟨.hbm, 101, rfl⟩
abbrev main_call1_v9 : Ref sig .tc := ⟨.hbm, 102, rfl⟩
abbrev main_call1_v10 : Ref sig .tc := ⟨.hbm, 103, rfl⟩
abbrev main_call1_v11 : Ref sig .tc := ⟨.hbm, 104, rfl⟩
abbrev main_call1_c_3 : Ref sig .tc := ⟨.hbm, 105, rfl⟩
abbrev main_call1_v12 : Ref sig .tc := ⟨.hbm, 106, rfl⟩
abbrev main_call1_v13 : Ref sig .tc := ⟨.hbm, 107, rfl⟩
abbrev main_call1_v14 : Ref sig .tc := ⟨.hbm, 108, rfl⟩
abbrev main_call1_cst : Ref sig .tc := ⟨.hbm, 109, rfl⟩
abbrev main_call1_v15 : Ref sig .tc := ⟨.hbm, 110, rfl⟩
abbrev main_v44 : Ref sig .tc := ⟨.hbm, 111, rfl⟩
abbrev main_v45 : Ref sig .tc := ⟨.hbm, 112, rfl⟩
abbrev main_v46_0 : Ref sig .tc := ⟨.hbm, 113, rfl⟩
abbrev main_v46_1 : Ref sig .tc := ⟨.hbm, 114, rfl⟩
abbrev main_cst_1 : Ref sig .tc := ⟨.hbm, 115, rfl⟩
abbrev main_v47 : Ref sig .tc := ⟨.hbm, 116, rfl⟩
abbrev main_v48 : Ref sig .tc := ⟨.hbm, 117, rfl⟩
abbrev main_v49 : Ref sig .tc := ⟨.hbm, 118, rfl⟩
abbrev main_v50 : Ref sig .tc := ⟨.hbm, 119, rfl⟩
abbrev main_v51 : Ref sig .tc := ⟨.hbm, 120, rfl⟩
abbrev main_call2_c : Ref sig .tc := ⟨.hbm, 121, rfl⟩
abbrev main_call2_v0 : Ref sig .tc := ⟨.hbm, 122, rfl⟩
abbrev main_call2_v1 : Ref sig .tc := ⟨.hbm, 123, rfl⟩
abbrev main_call2_c_0 : Ref sig .tc := ⟨.hbm, 124, rfl⟩
abbrev main_call2_v2 : Ref sig .tc := ⟨.hbm, 125, rfl⟩
abbrev main_call2_v3 : Ref sig .tc := ⟨.hbm, 126, rfl⟩
abbrev main_call2_v4 : Ref sig .tc := ⟨.hbm, 127, rfl⟩
abbrev main_call2_v5 : Ref sig .tc := ⟨.hbm, 128, rfl⟩
abbrev main_call2_c_1 : Ref sig .tc := ⟨.hbm, 129, rfl⟩
abbrev main_call2_c_2 : Ref sig .tc := ⟨.hbm, 130, rfl⟩
abbrev main_call2_v6 : Ref sig .tc := ⟨.hbm, 131, rfl⟩
abbrev main_call2_v7 : Ref sig .tc := ⟨.hbm, 132, rfl⟩
abbrev main_call2_v8 : Ref sig .tc := ⟨.hbm, 133, rfl⟩
abbrev main_call2_v9 : Ref sig .tc := ⟨.hbm, 134, rfl⟩
abbrev main_call2_v10 : Ref sig .tc := ⟨.hbm, 135, rfl⟩
abbrev main_call2_v11 : Ref sig .tc := ⟨.hbm, 136, rfl⟩
abbrev main_call2_c_3 : Ref sig .tc := ⟨.hbm, 137, rfl⟩
abbrev main_call2_v12 : Ref sig .tc := ⟨.hbm, 138, rfl⟩
abbrev main_call2_v13 : Ref sig .tc := ⟨.hbm, 139, rfl⟩
abbrev main_call2_v14 : Ref sig .tc := ⟨.hbm, 140, rfl⟩
abbrev main_call2_cst : Ref sig .tc := ⟨.hbm, 141, rfl⟩
abbrev main_call2_v15 : Ref sig .tc := ⟨.hbm, 142, rfl⟩
abbrev main_v52 : Ref sig .tc := ⟨.hbm, 143, rfl⟩
abbrev main_call3_c : Ref sig .tc := ⟨.hbm, 144, rfl⟩
abbrev main_call3_v0 : Ref sig .tc := ⟨.hbm, 145, rfl⟩
abbrev main_call3_v1 : Ref sig .tc := ⟨.hbm, 146, rfl⟩
abbrev main_call3_c_0 : Ref sig .tc := ⟨.hbm, 147, rfl⟩
abbrev main_call3_v2 : Ref sig .tc := ⟨.hbm, 148, rfl⟩
abbrev main_call3_v3 : Ref sig .tc := ⟨.hbm, 149, rfl⟩
abbrev main_call3_v4 : Ref sig .tc := ⟨.hbm, 150, rfl⟩
abbrev main_call3_v5 : Ref sig .tc := ⟨.hbm, 151, rfl⟩
abbrev main_call3_c_1 : Ref sig .tc := ⟨.hbm, 152, rfl⟩
abbrev main_call3_c_2 : Ref sig .tc := ⟨.hbm, 153, rfl⟩
abbrev main_call3_v6 : Ref sig .tc := ⟨.hbm, 154, rfl⟩
abbrev main_call3_v7 : Ref sig .tc := ⟨.hbm, 155, rfl⟩
abbrev main_call3_v8 : Ref sig .tc := ⟨.hbm, 156, rfl⟩
abbrev main_call3_v9 : Ref sig .tc := ⟨.hbm, 157, rfl⟩
abbrev main_call3_v10 : Ref sig .tc := ⟨.hbm, 158, rfl⟩
abbrev main_call3_v11 : Ref sig .tc := ⟨.hbm, 159, rfl⟩
abbrev main_call3_c_3 : Ref sig .tc := ⟨.hbm, 160, rfl⟩
abbrev main_call3_v12 : Ref sig .tc := ⟨.hbm, 161, rfl⟩
abbrev main_call3_v13 : Ref sig .tc := ⟨.hbm, 162, rfl⟩
abbrev main_call3_v14 : Ref sig .tc := ⟨.hbm, 163, rfl⟩
abbrev main_call3_cst : Ref sig .tc := ⟨.hbm, 164, rfl⟩
abbrev main_call3_v15 : Ref sig .tc := ⟨.hbm, 165, rfl⟩
abbrev main_v53 : Ref sig .tc := ⟨.hbm, 166, rfl⟩
abbrev main_v54 : Ref sig .tc := ⟨.hbm, 167, rfl⟩
abbrev main_cst_2 : Ref sig .tc := ⟨.hbm, 168, rfl⟩
abbrev main_v55 : Ref sig .tc := ⟨.hbm, 169, rfl⟩
abbrev main_v56 : Ref sig .tc := ⟨.hbm, 170, rfl⟩
abbrev main_v57 : Ref sig .tc := ⟨.hbm, 171, rfl⟩
abbrev main_v58 : Ref sig .tc := ⟨.hbm, 172, rfl⟩
abbrev main_v59 : Ref sig .tc := ⟨.hbm, 173, rfl⟩
abbrev main_v60 : Ref sig .tc := ⟨.hbm, 174, rfl⟩
abbrev main_v61 : Ref sig .tc := ⟨.hbm, 175, rfl⟩
abbrev main_v62_0 : Ref sig .tc := ⟨.hbm, 176, rfl⟩
abbrev main_v62_1 : Ref sig .tc := ⟨.hbm, 177, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg3_1 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg6_1 : Ref sig .tc := ⟨.vmem, 31, rfl⟩
abbrev cc2_stg7_0 : Ref sig .tc := ⟨.vmem, 32, rfl⟩
abbrev cc2_stg7_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem3_1 : DmaSem sig := 27
abbrev cc2_sem4_0 : DmaSem sig := 28
abbrev cc2_sem5_0 : DmaSem sig := 29
abbrev cc2_sem6_0 : DmaSem sig := 30
abbrev cc2_sem6_1 : DmaSem sig := 31
abbrev cc2_sem7_0 : DmaSem sig := 32
abbrev cc2_sem7_1 : DmaSem sig := 33

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S10000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S10000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S10000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![80], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S5000x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  concatenates_S50000x64_S50000x64_S50000x128_d1 : Shape.Concatenates [S50000x64, S50000x64] S50000x128 1
  transposes_S64x128_S128x64_1_0 : S64x128.Transposes [1, 0] S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  transposes_S64x64_S64x64_1_0 : S64x64.Transposes [1, 0] S64x64
  bcast_S_S50000x64 : S_.BroadcastsInDim S50000x64 (![] : Fin 0 → Fin S50000x64.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x128_S10000x64_0_0 : ∀ a, (![0, 0] : Fin 2 → Nat) a + S10000x64.size a ≤ S10000x128.size a
  shapeCasts_S10000x64_S10000x64 : S10000x64.ShapeCasts S10000x64
  inb_S10000x128_S10000x64_0_64 : ∀ a, (![0, 64] : Fin 2 → Nat) a + S10000x64.size a ≤ S10000x128.size a
  reduces_S10000x64_S10000 : S10000x64.Reduces [1] S10000
  shapeCasts_S10000_S10000x1 : S10000.ShapeCasts S10000x1
  broadcasts_S10000x1_S10000x64 : S10000x1.Broadcasts S10000x64
  concatenates_S10000x64_S10000x64_S10000x128_d1 : Shape.Concatenates [S10000x64, S10000x64] S10000x128 1
  inb_S10000x128_S10000x128_0_0 : ∀ a, (![0, 0] : Fin 2 → Nat) a + S10000x128.size a ≤ S10000x128.size a
  h_S10000x128 : 0 < S10000x128.numel
  bcast_S_S50000x128 : S_.BroadcastsInDim S50000x128 (![] : Fin 0 → Fin S50000x128.rank)
  slices_S50000x128_S50000x64_0_0 : S50000x128.Slices ![0, 0] S50000x64
  bcast_S800000_S800000x64_0 : S800000.BroadcastsInDim S800000x64 (![0] : Fin 1 → Fin S800000x64.rank)
  bcast_S_S800000x64 : S_.BroadcastsInDim S800000x64 (![] : Fin 0 → Fin S800000x64.rank)
  slices_S50000x128_S50000x64_0_64 : S50000x128.Slices ![0, 64] S50000x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  reduces_S5000x64_S5000 : S5000x64.Reduces [1] S5000
  shapeCasts_S5000_S5000x1 : S5000.ShapeCasts S5000x1
  broadcasts_S5000x1_S5000x64 : S5000x1.Broadcasts S5000x64
  broadcasts_S1x64_S5000x64 : S1x64.Broadcasts S5000x64
  dot_S50000x128_S128x64_S50000x64_1_0_0_1_n_n_wf : DotDims.WF S50000x128 S128x64 S50000x64 [1] [0] [0] [1] [] []
  dot_S50000x64_S64x64_S50000x64_1_0_0_1_n_n_wf : DotDims.WF S50000x64 S64x64 S50000x64 [1] [0] [0] [1] [] []
  gather_S50000x128_S800000x1_S800000x128_1_0_n_n_0_1_1128_wf : GatherDims.WF S50000x128 S800000x1 S800000x128 [1] [0] [] [0] [] 1 ![1, 128]
  dot_S10000x64_S64x64_S10000x64_1_0_0_1_n_n_wf : DotDims.WF S10000x64 S64x64 S10000x64 [1] [0] [0] [1] [] []
  scatter_S50000x128_S800000x1_S800000x128_1_0_0_1_wf : ScatterDims.WF S50000x128 S800000x1 S800000x128 [1] [0] [0] 1
  gather_S50000x64_S800000x1_S800000x64_1_0_n_n_0_1_164_wf : GatherDims.WF S50000x64 S800000x1 S800000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S800000x64.size a
  hwx0_0 : ∀ i : grid0.Coords, EltTy.bits .f32 = 32 ∨ (Rect.block (s := S800000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S800000x128.size a
  hwx0_3 : ∀ i : grid0.Coords, EltTy.bits .f32 = 32 ∨ (Rect.block (s := S800000x128) S10000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x128.size a ≤ S800000x128.size a
  hwx0_4 : ∀ i : grid0.Coords, EltTy.bits .f32 = 32 ∨ (Rect.block (s := S800000x128) S10000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x128.size a ≤ S800000x128.size a
  hwx0_5 : ∀ i : grid0.Coords, EltTy.bits .f32 = 32 ∨ (Rect.block (s := S800000x128) S10000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x64.size a ≤ S800000x64.size a
  hwx0_6 : ∀ i : grid0.Coords, EltTy.bits .f32 = 32 ∨ (Rect.block (s := S800000x64) S10000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S800000x128.size a
  hwx1_0 : ∀ i : grid1.Coords, EltTy.bits .f32 = 32 ∨ (Rect.block (s := S800000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S800000x128.size a
  hwx1_1 : ∀ i : grid1.Coords, EltTy.bits .f32 = 32 ∨ (Rect.block (s := S800000x128) S10000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S800000x64.size a
  hwx1_2 : ∀ i : grid1.Coords, EltTy.bits .f32 = 32 ∨ (Rect.block (s := S800000x64) S10000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S800000x128.size a
  hwx1_3 : ∀ i : grid1.Coords, EltTy.bits .f32 = 32 ∨ (Rect.block (s := S800000x128) S10000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S50000x64.size a
  hwx2_3 : ∀ i : grid2.Coords, EltTy.bits .f32 = 32 ∨ (Rect.block (s := S50000x64) S5000x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S50000x64.size a
  hwx2_6 : ∀ i : grid2.Coords, EltTy.bits .f32 = 32 ∨ (Rect.block (s := S50000x64) S5000x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x64.size a ≤ S50000x64.size a
  hwx2_7 : ∀ i : grid2.Coords, EltTy.bits .f32 = 32 ∨ (Rect.block (s := S50000x64) S5000x64.size (cc2_transform_7 i) (hinb2_7 i)).WholeWords (EltTy.packing .f32)

variable [Facts₀]

def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf

abbrev win0_0 : Pipeline.Window sig grid0 :=
  Pipeline.Window.ofSpec (Memref.whole main_arg1) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v45) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v43) S10000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v44) S10000x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v46_0) S10000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v46_1) S10000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v46_0) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v52) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v53) S10000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v54) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v10) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v25) S5000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v59) S5000x64.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v60) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v61) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v62_0) S5000x64.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v62_1) S5000x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S50000x64 : Shape := ⟨2, ![50000, 64]⟩
abbrev S800000x64 : Shape := ⟨2, ![800000, 64]⟩
abbrev S64x128 : Shape := ⟨2, ![64, 128]⟩
abbrev S64 : Shape := ⟨1, ![64]⟩
abbrev S64x64 : Shape := ⟨2, ![64, 64]⟩
abbrev S800000 : Shape := ⟨1, ![800000]⟩
abbrev S50000x128 : Shape := ⟨2, ![50000, 128]⟩
abbrev S128x64 : Shape := ⟨2, ![128, 64]⟩
abbrev S1x64 : Shape := ⟨2, ![1, 64]⟩
abbrev S_ : Shape := ⟨0, ![]⟩
abbrev S800000x1 : Shape := ⟨2, ![800000, 1]⟩
abbrev S50000 : Shape := ⟨1, ![50000]⟩
abbrev S50000x1 : Shape := ⟨2, ![50000, 1]⟩

abbrev nBuf : Space → Nat
  | .hbm => 218
  | .vmem => 0
  | .smem => 0
  | _ => 0

abbrev hbmTy0_0 (i : Nat) : BufTy := match i % 128 with
  | 0 => ⟨S50000x64, .f32⟩
  | 1 => ⟨S800000x64, .f32⟩
  | 2 => ⟨S50000x64, .f32⟩
  | 3 => ⟨S64x128, .f32⟩
  | 4 => ⟨S64, .f32⟩
  | 5 => ⟨S64x128, .f32⟩
  | 6 => ⟨S64, .f32⟩
  | 7 => ⟨S64x64, .f32⟩
  | 8 => ⟨S64, .f32⟩
  | 9 => ⟨S64x64, .f32⟩
  | 10 => ⟨S64, .f32⟩
  | 11 => ⟨S64x64, .f32⟩
  | 12 => ⟨S64, .f32⟩
  | 13 => ⟨S64x64, .f32⟩
  | 14 => ⟨S64, .f32⟩
  | 15 => ⟨S64x64, .f32⟩
  | 16 => ⟨S64, .f32⟩
  | 17 => ⟨S64, .f32⟩
  | 18 => ⟨S64, .f32⟩
  | 19 => ⟨S800000, .i32⟩
  | 20 => ⟨S800000, .i32⟩
  | 21 => ⟨S50000x128, .f32⟩
  | 22 => ⟨S128x64, .f32⟩
  | 23 => ⟨S50000x64, .f32⟩
  | 24 => ⟨S1x64, .f32⟩
  | 25 => ⟨S50000x64, .f32⟩
  | 26 => ⟨S50000x64, .f32⟩
  | 27 => ⟨S128x64, .f32⟩
  | 28 => ⟨S50000x64, .f32⟩
  | 29 => ⟨S1x64, .f32⟩
  | 30 => ⟨S50000x64, .f32⟩
  | 31 => ⟨S50000x64, .f32⟩
  | 32 => ⟨S64x64, .f32⟩
  | 33 => ⟨S50000x64, .f32⟩
  | 34 => ⟨S1x64, .f32⟩
  | 35 => ⟨S50000x64, .f32⟩
  | 36 => ⟨S50000x64, .f32⟩
  | 37 => ⟨S64x64, .f32⟩
  | 38 => ⟨S50000x64, .f32⟩
  | 39 => ⟨S1x64, .f32⟩
  | 40 => ⟨S50000x64, .f32⟩
  | 41 => ⟨S50000x64, .f32⟩
  | 42 => ⟨S64x64, .f32⟩
  | 43 => ⟨S800000x64, .f32⟩
  | 44 => ⟨S1x64, .f32⟩
  | 45 => ⟨S800000x64, .f32⟩
  | 46 => ⟨S800000x64, .f32⟩
  | 47 => ⟨S64x64, .f32⟩
  | 48 => ⟨S50000x64, .f32⟩
  | 49 => ⟨S1x64, .f32⟩
  | 50 => ⟨S50000x64, .f32⟩
  | 51 => ⟨S50000x64, .f32⟩
  | 52 => ⟨S64x64, .f32⟩
  | 53 => ⟨S50000x64, .f32⟩
  | 54 => ⟨S1x64, .f32⟩
  | 55 => ⟨S50000x64, .f32⟩
  | 56 => ⟨S50000x64, .f32⟩
  | 57 => ⟨S_, .i32⟩
  | 58 => ⟨S800000, .i32⟩
  | 59 => ⟨S800000, .i1⟩
  | 60 => ⟨S_, .i32⟩
  | 61 => ⟨S800000, .i32⟩
  | 62 => ⟨S800000, .i32⟩
  | 63 => ⟨S800000, .i32⟩
  | 64 => ⟨S800000x1, .i32⟩
  | 65 => ⟨S800000x64, .f32⟩
  | 66 => ⟨S_, .i32⟩
  | 67 => ⟨S800000, .i32⟩
  | 68 => ⟨S800000, .i1⟩
  | 69 => ⟨S_, .i32⟩
  | 70 => ⟨S800000, .i32⟩
  | 71 => ⟨S800000, .i32⟩
  | 72 => ⟨S800000, .i32⟩
  | 73 => ⟨S800000x1, .i32⟩
  | 74 => ⟨S800000x64, .f32⟩
  | 75 => ⟨S800000x64, .f32⟩
  | 76 => ⟨S800000x64, .f32⟩
  | 77 => ⟨S800000x64, .f32⟩
  | 78 => ⟨S800000x64, .f32⟩
  | 79 => ⟨S_, .f32⟩
  | 80 => ⟨S800000x64, .f32⟩
  | 81 => ⟨S800000x64, .f32⟩
  | 82 => ⟨S_, .f32⟩
  | 83 => ⟨S800000x64, .f32⟩
  | 84 => ⟨S800000x64, .f32⟩
  | 85 => ⟨S_, .f32⟩
  | 86 => ⟨S50000x64, .f32⟩
  | 87 => ⟨S800000x1, .i32⟩
  | 88 => ⟨S50000x64, .f32⟩
  | 89 => ⟨S_, .i32⟩
  | 90 => ⟨S800000, .i32⟩
  | 91 => ⟨S800000, .i1⟩
  | 92 => ⟨S_, .i32⟩
  | 93 => ⟨S800000, .i32⟩
  | 94 => ⟨S800000, .i32⟩
  | 95 => ⟨S800000, .i32⟩
  | 96 => ⟨S800000x1, .i32⟩
  | 97 => ⟨S800000x64, .f32⟩
  | 98 => ⟨S_, .f32⟩
  | 99 => ⟨S800000x64, .f32⟩
  | 100 => ⟨S800000x64, .f32⟩
  | 101 => ⟨S800000x64, .f32⟩
  | 102 => ⟨S50000x64, .f32⟩
  | 103 => ⟨S50000x64, .f32⟩
  | 104 => ⟨S50000x64, .f32⟩
  | 105 => ⟨S50000x64, .f32⟩
  | 106 => ⟨S_, .f32⟩
  | 107 => ⟨S50000x64, .f32⟩
  | 108 => ⟨S50000x64, .f32⟩
  | 109 => ⟨S_, .f32⟩
  | 110 => ⟨S50000x64, .f32⟩
  | 111 => ⟨S50000x64, .f32⟩
  | 112 => ⟨S50000x64, .f32⟩
  | 113 => ⟨S_, .i32⟩
  | 114 => ⟨S800000, .i32⟩
  | 115 => ⟨S800000, .i1⟩
  | 116 => ⟨S_, .i32⟩
  | 117 => ⟨S800000, .i32⟩
  | 118 => ⟨S800000, .i32⟩
  | 119 => ⟨S800000, .i32⟩
  | 120 => ⟨S800000x1, .i32⟩
  | 121 => ⟨S800000x64, .f32⟩
  | 122 => ⟨S_, .i32⟩
  | 123 => ⟨S800000, .i32⟩
  | 124 => ⟨S800000, .i1⟩
  | 125 => ⟨S_, .i32⟩
  | 126 => ⟨S800000, .i32⟩
  | 127 => ⟨S800000, .i32⟩
  | _ => ⟨S50000x64, .f32⟩

abbrev hbmTy0_1 (i : Nat) : BufTy := match i % 128 with
  | 0 => ⟨S800000, .i32⟩
  | 1 => ⟨S800000x1, .i32⟩
  | 2 => ⟨S800000x64, .f32⟩
  | 3 => ⟨S800000x64, .f32⟩
  | 4 => ⟨S_, .f32⟩
  | 5 => ⟨S800000, .f32⟩
  | 6 => ⟨S800000x1, .f32⟩
  | 7 => ⟨S800000x64, .f32⟩
  | 8 => ⟨S800000x64, .f32⟩
  | 9 => ⟨S_, .i32⟩
  | 10 => ⟨S800000, .i32⟩
  | 11 => ⟨S800000, .i1⟩
  | 12 => ⟨S_, .i32⟩
  | 13 => ⟨S800000, .i32⟩
  | 14 => ⟨S800000, .i32⟩
  | 15 => ⟨S800000, .i32⟩
  | 16 => ⟨S800000x1, .i32⟩
  | 17 => ⟨S800000x64, .f32⟩
  | 18 => ⟨S800000x64, .f32⟩
  | 19 => ⟨S_, .f32⟩
  | 20 => ⟨S50000x64, .f32⟩
  | 21 => ⟨S800000x1, .i32⟩
  | 22 => ⟨S50000x64, .f32⟩
  | 23 => ⟨S50000x64, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000x64, .f32⟩
  | 33 => ⟨S800000x64, .f32⟩
  | 34 => ⟨S_, .f32⟩
  | 35 => ⟨S50000x64, .f32⟩
  | 36 => ⟨S800000x1, .i32⟩
  | 37 => ⟨S50000x64, .f32⟩
  | 38 => ⟨S50000x64, .f32⟩
  | 39 => ⟨S_, .f32⟩
  | 40 => ⟨S50000x64, .f32⟩
  | 41 => ⟨S50000x64, .f32⟩
  | 42 => ⟨S_, .f32⟩
  | 43 => ⟨S800000x64, .f32⟩
  | 44 => ⟨S800000x64, .f32⟩
  | 45 => ⟨S50000x64, .f32⟩
  | 46 => ⟨S_, .f32⟩
  | 47 => ⟨S50000, .f32⟩
  | 48 => ⟨S50000x1, .f32⟩
  | 49 => ⟨S_, .f32⟩
  | 50 => ⟨S50000x1, .f32⟩
  | 51 => ⟨S50000x1, .f32⟩
  | 52 => ⟨S_, .i32⟩
  | 53 => ⟨S_, .f32⟩
  | 54 => ⟨S50000, .f32⟩
  | 55 => ⟨S50000x1, .f32⟩
  | 56 => ⟨S_, .f32⟩
  | 57 => ⟨S50000x1, .f32⟩
  | 58 => ⟨S50000x1, .f32⟩
  | 59 => ⟨S50000x64, .f32⟩
  | 60 => ⟨S50000x64, .f32⟩
  | 61 => ⟨S50000x64, .f32⟩
  | 62 => ⟨S_, .f32⟩
  | 63 => ⟨S_, .f32⟩
  | 64 => ⟨S_, .f32⟩
  | 65 => ⟨S_, .f32⟩
  | 66 => ⟨S50000, .f32⟩
  | 67 => ⟨S50000x1, .f32⟩
  | 68 => ⟨S50000x1, .f32⟩
  | 69 => ⟨S50000x1, .f32⟩
  | 70 => ⟨S_, .f32⟩
  | 71 => ⟨S_, .i1⟩
  | 72 => ⟨S_, .f32⟩
  | 73 => ⟨S_, .f32⟩
  | 74 => ⟨S50000x1, .f32⟩
  | 75 => ⟨S50000x1, .f32⟩
  | 76 => ⟨S50000x64, .f32⟩
  | 77 => ⟨S50000x64, .f32⟩
  | 78 => ⟨S_, .f32⟩
  | 79 => ⟨S50000x1, .f32⟩
  | 80 => ⟨S50000x1, .f32⟩
  | 81 => ⟨S50000x1, .f32⟩
  | 82 => ⟨S50000x64, .f32⟩
  | 83 => ⟨S50000x64, .f32⟩
  | 84 => ⟨S1x64, .f32⟩
  | 85 => ⟨S50000x64, .f32⟩
  | 86 => ⟨S50000x64, .f32⟩
  | 87 => ⟨S1x64, .f32⟩
  | 88 => ⟨S50000x64, .f32⟩
  | 89 => ⟨S50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c : Ref sig .tc := ⟨.hbm, 57, rfl⟩
abbrev main_v36 : Ref sig .tc := ⟨.hbm, 58, rfl⟩
abbrev main_v37 : Ref sig .tc := ⟨.hbm, 59, rfl⟩
abbrev main_c_0 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_c_1 : Ref sig .tc := ⟨.hbm, 66, rfl⟩
abbrev main_v43 : Ref sig .tc := ⟨.hbm, 67, rfl⟩
abbrev main_v44 : Ref sig .tc := ⟨.hbm, 68, rfl⟩
abbrev main_c_2 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst : Ref sig .tc := ⟨.hbm, 79, rfl⟩
abbrev main_v54 : Ref sig .tc := ⟨.hbm, 80, rfl⟩
abbrev main_v55 : Ref sig .tc := ⟨.hbm, 81, rfl⟩
abbrev main_cst_3 : Ref sig .tc := ⟨.hbm, 82, rfl⟩
abbrev main_v56 : Ref sig .tc := ⟨.hbm, 83, rfl⟩
abbrev main_v57 : Ref sig .tc := ⟨.hbm, 84, rfl⟩
abbrev main_cst_4 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_c_5 : Ref sig .tc := ⟨.hbm, 89, rfl⟩
abbrev main_v61 : Ref sig .tc := ⟨.hbm, 90, rfl⟩
abbrev main_v62 : Ref sig .tc := ⟨.hbm, 91, rfl⟩
abbrev main_c_6 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_7 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_8 : Ref sig .tc := ⟨.hbm, 106, rfl⟩
abbrev main_v75 : Ref sig .tc := ⟨.hbm, 107, rfl⟩
abbrev main_v76 : Ref sig .tc := ⟨.hbm, 108, rfl⟩
abbrev main_cst_9 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_c_10 : Ref sig .tc := ⟨.hbm, 113, rfl⟩
abbrev main_v80 : Ref sig .tc := ⟨.hbm, 114, rfl⟩
abbrev main_v81 : Ref sig .tc := ⟨.hbm, 115, rfl⟩
abbrev main_c_11 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_c_12 : Ref sig .tc := ⟨.hbm, 122, rfl⟩
abbrev main_v87 : Ref sig .tc := ⟨.hbm, 123, rfl⟩
abbrev main_v88 : Ref sig .tc := ⟨.hbm, 124, rfl⟩
abbrev main_c_13 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_cst_14 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_c_15 : Ref sig .tc := ⟨.hbm, 137, rfl⟩
abbrev main_v99 : Ref sig .tc := ⟨.hbm, 138, rfl⟩
abbrev main_v100 : Ref sig .tc := ⟨.hbm, 139, rfl⟩
abbrev main_c_16 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_cst_17 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_c_18 : Ref sig .tc := ⟨.hbm, 152, rfl⟩
abbrev main_v111 : Ref sig .tc := ⟨.hbm, 153, rfl⟩
abbrev main_v112 : Ref sig .tc := ⟨.hbm, 154, rfl⟩
abbrev main_c_19 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_cst_20 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_call0_cst : Ref sig .tc := ⟨.hbm, 167, rfl⟩
abbrev main_call0_v0 : Ref sig .tc := ⟨.hbm, 168, rfl⟩
abbrev main_v123 : Ref sig .tc := ⟨.hbm, 169, rfl⟩
abbrev main_call1_cst : Ref sig .tc := ⟨.hbm, 170, rfl⟩
abbrev main_call1_v0 : Ref sig .tc := ⟨.hbm, 171, rfl⟩
abbrev main_v124 : Ref sig .tc := ⟨.hbm, 172, rfl⟩
abbrev main_v125 : Ref sig .tc := ⟨.hbm, 173, rfl⟩
abbrev main_cst_21 : Ref sig .tc := ⟨.hbm, 174, rfl⟩
abbrev main_v126 : Ref sig .tc := ⟨.hbm, 175, rfl⟩
abbrev main_v127 : Ref sig .tc := ⟨.hbm, 176, rfl⟩
abbrev main_cst_22 : Ref sig .tc := ⟨.hbm, 177, rfl⟩
abbrev main_v128 : Ref sig .tc := ⟨.hbm, 178, rfl⟩
abbrev main_v129 : Ref sig .tc := ⟨.hbm, 179, rfl⟩
abbrev main_c_23 : Ref sig .tc := ⟨.hbm, 180, rfl⟩
abbrev main_call2_cst : Ref sig .tc := ⟨.hbm, 181, rfl⟩
abbrev main_call2_v0 : Ref sig .tc := ⟨.hbm, 182, rfl⟩
abbrev main_call2_v1 : Ref sig .tc := ⟨.hbm, 183, rfl⟩
abbrev main_call2_cst_0 : Ref sig .tc := ⟨.hbm, 184, rfl⟩
abbrev main_call2_v2 : Ref sig .tc := ⟨.hbm, 185, rfl⟩
abbrev main_call2_v3 : Ref sig .tc := ⟨.hbm, 186, rfl⟩
abbrev main_call2_v4 : Ref sig .tc := ⟨.hbm, 187, rfl⟩
abbrev main_call2_v5 : Ref sig .tc := ⟨.hbm, 188, rfl⟩
abbrev main_call2_v6 : Ref sig .tc := ⟨.hbm, 189, rfl⟩
abbrev main_call2_v7 : Ref sig .tc := ⟨.hbm, 190, rfl⟩
abbrev main_call2_cst_1 : Ref sig .tc := ⟨.hbm, 191, rfl⟩
abbrev main_call2_v8 : Ref sig .tc := ⟨.hbm, 192, rfl⟩
abbrev main_call2_cst_2 : Ref sig .tc := ⟨.hbm, 193, rfl⟩
abbrev main_call2_v9 : Ref sig .tc := ⟨.hbm, 194, rfl⟩
abbrev main_call2_v10 : Ref sig .tc := ⟨.hbm, 195, rfl⟩
abbrev main_call2_v11 : Ref sig .tc := ⟨.hbm, 196, rfl⟩
abbrev main_call2_v12 : Ref sig .tc := ⟨.hbm, 197, rfl⟩
abbrev main_call2_cst_3 : Ref sig .tc := ⟨.hbm, 198, rfl⟩
abbrev main_call2_v13 : Ref sig .tc := ⟨.hbm, 199, rfl⟩
abbrev main_call2_cst_4 : Ref sig .tc := ⟨.hbm, 200, rfl⟩
abbrev main_call2_call0_v0 : Ref sig .tc := ⟨.hbm, 201, rfl⟩
abbrev main_call2_call0_v1 : Ref sig .tc := ⟨.hbm, 202, rfl⟩
abbrev main_v130 : Ref sig .tc := ⟨.hbm, 203, rfl⟩
abbrev main_v131 : Ref sig .tc := ⟨.hbm, 204, rfl⟩
abbrev main_v132 : Ref sig .tc := ⟨.hbm, 205, rfl⟩
abbrev main_cst_24 : Ref sig .tc := ⟨.hbm, 206, rfl⟩
abbrev main_v133 : Ref sig .tc := ⟨.hbm, 207, rfl⟩
abbrev main_v134 : Ref sig .tc := ⟨.hbm, 208, rfl⟩
abbrev main_v135 : Ref sig .tc := ⟨.hbm, 209, rfl⟩
abbrev main_v136 : Ref sig .tc := ⟨.hbm, 210, rfl⟩
abbrev main_v137 : Ref sig .tc := ⟨.hbm, 211, rfl⟩
abbrev main_v138 : Ref sig .tc := ⟨.hbm, 212, rfl⟩
abbrev main_v139 : Ref sig .tc := ⟨.hbm, 213, rfl⟩
abbrev main_v140 : Ref sig .tc := ⟨.hbm, 214, rfl⟩
abbrev main_v141 : Ref sig .tc := ⟨.hbm, 215, rfl⟩
abbrev main_v142 : Ref sig .tc := ⟨.hbm, 216, rfl⟩
abbrev main_v143 : Ref sig .tc := ⟨.hbm, 217, rfl⟩

abbrev nD : Nat := 1
abbrev τ : Topo := Topo.v7x

variable {F : FTy → Type} [FloatOps F]

class Facts₀ : Prop where
  concatenates_S50000x64_S50000x64_S50000x128_d1 : Shape.Concatenates [S50000x64, S50000x64] S50000x128 1
  transposes_S64x128_S128x64_1_0 : S64x128.Transposes [1, 0] S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  transposes_S64x64_S64x64_1_0 : S64x64.Transposes [1, 0] S64x64
  bcast_S1x64_S800000x64_0_1 : S1x64.BroadcastsInDim S800000x64 (![0, 1] : Fin 2 → Fin S800000x64.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S800000x64 : S_.BroadcastsInDim S800000x64 (![] : Fin 0 → Fin S800000x64.rank)
  bcast_S_S50000x64 : S_.BroadcastsInDim S50000x64 (![] : Fin 0 → Fin S50000x64.rank)
  reducesTo_S800000x64_S800000_d1 : S800000x64.ReducesTo [1] S800000
  h_S_ : 0 < S_.numel
  bcast_S800000x1_S800000x64_0_1 : S800000x1.BroadcastsInDim S800000x64 (![0, 1] : Fin 2 → Fin S800000x64.rank)
  reducesTo_S50000x64_S50000_d1 : S50000x64.ReducesTo [1] S50000
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  dot_S50000x128_S128x64_S50000x64_1_0_0_1_n_n_wf : DotDims.WF S50000x128 S128x64 S50000x64 [1] [0] [0] [1] [] []
  dot_S50000x64_S64x64_S50000x64_1_0_0_1_n_n_wf : DotDims.WF S50000x64 S64x64 S50000x64 [1] [0] [0] [1] [] []
  dot_S800000x64_S64x64_S800000x64_1_0_0_1_n_n_wf : DotDims.WF S800000x64 S64x64 S800000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.Forms.lean ====
/-
  The closed forms of this certificate, as functions of coordinates.

  A graph layer over 50000 nodes and 800000 edges, 64 features. Node tables are affine images of the node inputs
  (`lin64`, `lin128`); an edge's gate pre-activation adds the source node's row of one table, the target node's row of
  another and the edge's own affine image; the gate is its logistic; gates are normalised by the sum of the gates of
  the edges into the same target node plus a small constant; an edge's score is an inner product of two positive
  node tables at its two ends; messages are summed over the edges into each node; the node result is a layer
  normalisation of a rectified sum, the edge result the rectified pre-activation, the position result a tanh.

  Every array is read through `cur`: the function of its two coordinates. Float literals stay as the words the two
  programs share. The three `Region` sections give what each of the three kernel launches leaves in its output
  arrays as a function of its input arrays; the `Whole` section gives the three results as functions of the inputs.
-/
import Idealize.ShloMosaic.PureOps.Ideal
import Idealize.ShloMosaic.Lib.ValueIdx

noncomputable section

namespace Cert.Forms

open Idealize.ShloMosaic Idealize.ShloMosaic.ValueIdx

/-- A matrix of extended reals over literal extents, and a vector. -/
abbrev Arr (a b : Nat) : Type := (⟨2, ![a, b]⟩ : Shape).Idx → EReal
abbrev Row (a : Nat) : Type := (⟨1, ![a]⟩ : Shape).Idx → EReal
/-- A vector of 32-bit words (row numbers). -/
abbrev Words (a : Nat) : Type := (⟨1, ![a]⟩ : Shape).Idx → BitVec 32

/-- A matrix as the function of its two coordinates; a vector as the function of its one. -/
def cur {a b : Nat} (A : Arr a b) : Fin a → Fin b → EReal := fun r j => A (ix2 r j)
def cur1 {a : Nat} (v : Row a) : Fin a → EReal := fun j => v (ix1 j)

/-- The low and the high half of a 128-wide row. -/
def lo (j : Fin 64) : Fin 128 := ⟨j.val, by omega⟩
def hi (j : Fin 64) : Fin 128 := ⟨j.val + 64, by omega⟩

/-- The literals the two programs share: 0, 1, 64, 1e-12 and 1e-5 as their single-precision words. -/
abbrev zero : EReal := Ideal.ofBits .f32 0x00000000#32
abbrev one : EReal := Ideal.ofBits .f32 0x3F800000#32
abbrev c64 : EReal := Ideal.ofBits .f32 0x42800000#32
abbrev eps : EReal := Ideal.ofBits .f32 0x2B8CBCCC#32
abbrev lneps : EReal := Ideal.ofBits .f32 0x3727C5AC#32

/-- The row number a word names in a table of 50000 rows: read signed, clamped into the table. -/
def rowOf (w : BitVec 32) : Fin 50000 := ⟨min w.toInt.toNat 49999, by omega⟩

/-! ## Pieces shared by the regions and the whole -/

/-- The gate pre-activation of an edge from its three summands. -/
def hatOf {n : Nat} (a b c : Fin n → Fin 64 → EReal) : Fin n → Fin 64 → EReal := fun e j => (a e j + b e j) + c e j

/-- An inner product over the 64 features, from the zero word. -/
def dot64 {n : Nat} (a b : Fin n → Fin 64 → EReal) : Fin n → EReal := fun e => zero + ∑ j : Fin 64, a e j * b e j

/-- Layer normalisation of the rows of `x` with gain `g` and offset `b`: mean and variance over the 64 features, each
    a sum from the zero word divided by the word 64. -/
def mean64 {n : Nat} (x : Fin n → Fin 64 → EReal) : Fin n → EReal := fun r => Ideal.div (zero + ∑ j : Fin 64, x r j) c64
def centred {n : Nat} (x : Fin n → Fin 64 → EReal) : Fin n → Fin 64 → EReal := fun r j => x r j - mean64 x r
def var64 {n : Nat} (x : Fin n → Fin 64 → EReal) : Fin n → EReal :=
  fun r => Ideal.div (zero + ∑ j : Fin 64, centred x r j * centred x r j) c64
def layerNorm {n : Nat} (x : Fin n → Fin 64 → EReal) (g b : Fin 64 → EReal) : Fin n → Fin 64 → EReal :=
  fun r j => (centred x r j * Ideal.rsqrt (var64 x r + lneps)) * g j + b j

/-- The rectified sum of two tables. -/
def reluSum {n : Nat} (x y : Fin n → Fin 64 → EReal) : Fin n → Fin 64 → EReal := fun r j => max (x r j + y r j) zero

/-! ## Region 0: the edge gate -/
section Region0
variable {n : Nat} (x0 : Arr n 64) (x1 : Arr 64 64) (x2 : Arr 1 64) (x3 x4 : Arr n 128)

/-- The edge's own affine image computed inside the launch: its row times the (already transposed) weight, plus the
    bias row. -/
def aff0 : Fin n → Fin 64 → EReal := fun e j => (∑ k : Fin 64, x0 (ix2 e k) * x1 (ix2 k j)) + x2 (ix2 0 j)
/-- The pre-activation: low halves of the two gathered rows plus the affine image. -/
def hat0 : Fin n → Fin 64 → EReal := hatOf (fun e j => x3 (ix2 e (lo j))) (fun e j => x4 (ix2 e (lo j))) (aff0 x0 x1 x2)
/-- The score: inner product of the high halves of the two gathered rows. -/
def alpha0 : Fin n → EReal := dot64 (fun e j => x3 (ix2 e (hi j))) (fun e j => x4 (ix2 e (hi j)))
/-- What the launch leaves: the gate in the low half of the wide output, gate times score in the high half, and the
    rectified pre-activation in the narrow output. -/
def gateLo : Fin n → Fin 64 → EReal := fun e j => Ideal.logistic (hat0 x0 x1 x2 x3 x4 e j)
def gateHi : Fin n → Fin 64 → EReal := fun e j => Ideal.logistic (hat0 x0 x1 x2 x3 x4 e j) * alpha0 x3 x4 e
def rect0 : Fin n → Fin 64 → EReal := fun e j => max (hat0 x0 x1 x2 x3 x4 e j) zero
end Region0

/-! ## Region 1: the edge combine -/
section Region1
variable {n : Nat} (y0 y1 : Arr n 128) (y2 : Arr n 64)

/-- The reciprocal of the gathered gate sum plus the small constant. -/
def inv1 : Fin n → Fin 64 → EReal := fun e j => Ideal.div one (y2 (ix2 e j) + eps)
/-- Low half: (gate times score) times reciprocal times the low half of the gathered row; high half: gate times
    reciprocal times the high half of the gathered row. -/
def combLo : Fin n → Fin 64 → EReal := fun e j => (y0 (ix2 e (hi j)) * inv1 y2 e j) * y1 (ix2 e (lo j))
def combHi : Fin n → Fin 64 → EReal := fun e j => (y0 (ix2 e (lo j)) * inv1 y2 e j) * y1 (ix2 e (hi j))
end Region1

/-! ## Region 2: the node finalize -/
section Region2
variable {n : Nat} (z0 z1 z2 z3 : Arr n 64) (z4 z5 : Arr 1 64)

def hout2 : Fin n → Fin 64 → EReal :=
  layerNorm (reluSum (cur z0) (cur z1)) (fun j => z4 (ix2 0 j)) (fun j => z5 (ix2 0 j))
def pout2 : Fin n → Fin 64 → EReal := fun r j => Ideal.tanh (z2 (ix2 r j) + z3 (ix2 r j))
end Region2

/-! ## The whole computation -/

/-- The inputs, by the names of the source: node features `h`, edge features `e`, node positions `p`, the weights and
    biases, the normalisation's gain and offset, and each edge's source and target node numbers. -/
structure In where
  h : Arr 50000 64
  e : Arr 800000 64
  p : Arr 50000 64
  WK : Arr 64 128
  bK : Row 64
  WV : Arr 64 128
  bV : Row 64
  WB1 : Arr 64 64
  bB1 : Row 64
  WB2 : Arr 64 64
  bB2 : Row 64
  WB3 : Arr 64 64
  bB3 : Row 64
  WC1 : Arr 64 64
  bC1 : Row 64
  WC2 : Arr 64 64
  bC2 : Row 64
  g : Row 64
  b : Row 64
  src : Words 800000
  dst : Words 800000

section Whole
variable (I : In)

/-- `x W^T + b` for a 64-feature input, and for the concatenation of two 64-feature inputs against a 128-column weight. -/
def lin64 {n : Nat} (x : Arr n 64) (W : Arr 64 64) (b : Row 64) : Fin n → Fin 64 → EReal :=
  fun r j => (∑ k : Fin 64, x (ix2 r k) * W (ix2 j k)) + b (ix1 j)
def cat {n : Nat} (x y : Arr n 64) : Fin n → Fin 128 → EReal :=
  fun r k => if h : k.val < 64 then x (ix2 r ⟨k.val, h⟩) else y (ix2 r ⟨k.val - 64, by omega⟩)
def lin128 {n : Nat} (x y : Arr n 64) (W : Arr 64 128) (b : Row 64) : Fin n → Fin 64 → EReal :=
  fun r j => (∑ k : Fin 128, cat x y r k * W (ix2 j k)) + b (ix1 j)

def qk : Fin 50000 → Fin 64 → EReal := lin128 I.h I.p I.WK I.bK
def vh : Fin 50000 → Fin 64 → EReal := lin128 I.h I.p I.WV I.bV
def B1h : Fin 50000 → Fin 64 → EReal := lin64 I.h I.WB1 I.bB1
def B2h : Fin 50000 → Fin 64 → EReal := lin64 I.h I.WB2 I.bB2
def B3e : Fin 800000 → Fin 64 → EReal := lin64 I.e I.WB3 I.bB3
def C1p : Fin 50000 → Fin 64 → EReal := lin64 I.p I.WC1 I.bC1
def C2p : Fin 50000 → Fin 64 → EReal := lin64 I.p I.WC2 I.bC2

/-- An edge's source and target rows. -/
def s (e : Fin 800000) : Fin 50000 := rowOf (I.src (ix1 e))
def d (e : Fin 800000) : Fin 50000 := rowOf (I.dst (ix1 e))
/-- Edge `e` is summed into node `r`: its target word, read signed, is `r`. -/
def into (e : Fin 800000) (r : Fin 50000) : Prop := (I.dst (ix1 e)).toInt = (r.val : Int)
instance (e : Fin 800000) (r : Fin 50000) : Decidable (into I e r) := by unfold into; infer_instance

/-- The sum over the edges into a node of an edge table, from the zero word. -/
def segSum (u : Fin 800000 → Fin 64 → EReal) : Fin 50000 → Fin 64 → EReal :=
  fun r j => zero + ∑ e : Fin 800000, if into I e r then u e j else 0

def hat : Fin 800000 → Fin 64 → EReal := hatOf (fun e j => B1h I (s I e) j) (fun e j => B2h I (d I e) j) (B3e I)
def gate : Fin 800000 → Fin 64 → EReal := fun e j => Ideal.logistic (hat I e j)
def gateSum : Fin 50000 → Fin 64 → EReal := segSum I (gate I)
def sQ : Fin 50000 → Fin 64 → EReal := fun r j => Ideal.exp (Ideal.tanh (qk I r j))
def sK : Fin 50000 → Fin 64 → EReal := fun r j => Ideal.exp (Ideal.div one (one + Ideal.exp (-(qk I r j))))
def alpha : Fin 800000 → EReal := dot64 (fun e j => sQ I (s I e) j) (fun e j => sK I (d I e) j)
def eta : Fin 800000 → Fin 64 → EReal := fun e j => Ideal.div (gate I e j) (gateSum I (d I e) j + eps)
def sumV : Fin 50000 → Fin 64 → EReal := segSum I (fun e j => (eta I e j * alpha I e) * vh I (s I e) j)
def sumP : Fin 50000 → Fin 64 → EReal := segSum I (fun e j => eta I e j * C2p I (s I e) j)

/-- The three results. -/
def hOut : Fin 50000 → Fin 64 → EReal := layerNorm (reluSum (vh I) (sumV I)) (cur1 I.g) (cur1 I.b)
def eOut : Fin 800000 → Fin 64 → EReal := fun e j => max (hat I e j) zero
def pOut : Fin 50000 → Fin 64 → EReal := fun r j => Ideal.tanh (C1p I r j + sumP I r j)

end Whole

end Cert.Forms

end
-- ==== Proof.KBufs.lean ====
/-
  The kernel program's buffers as arrays of their literal types.

  A valuation gives every buffer its contents; each buffer the value argument reads is named here once, typed as the
  matrix (or vector of words) it holds, so that arithmetic on its entries is arithmetic on extended reals. `inU`
  collects the twenty-one argument buffers as the inputs of the closed forms, and `InRange` says that every source
  and target word, read signed, names one of the 50000 nodes.
-/
import proofs.«430657_j46961172414536_3_alg».proof.Proof.Gen.KernelIdeal.Frame
import proofs.«430657_j46961172414536_3_alg».proof.Proof.Forms

noncomputable section

namespace Cert.KernelIdeal.Val

open Cert.KernelIdeal Cert.KernelIdeal.Gen Cert.Forms Idealize.ShloMosaic Idealize.ShloMosaic.TcCoe Idealize.SL.Sem
open Idealize.ShloMosaic.StableHlo Idealize.ShloMosaic.ValueIdx

variable (U : Valuation τ sig (Elt Ideal))

/-- The inputs a valuation holds. -/
def inU : In where
  h := U (Proc.devRef .tc main_arg0)
  e := U (Proc.devRef .tc main_arg1)
  p := U (Proc.devRef .tc main_arg2)
  WK := U (Proc.devRef .tc main_arg3)
  bK := U (Proc.devRef .tc main_arg4)
  WV := U (Proc.devRef .tc main_arg5)
  bV := U (Proc.devRef .tc main_arg6)
  WB1 := U (Proc.devRef .tc main_arg7)
  bB1 := U (Proc.devRef .tc main_arg8)
  WB2 := U (Proc.devRef .tc main_arg9)
  bB2 := U (Proc.devRef .tc main_arg10)
  WB3 := U (Proc.devRef .tc main_arg11)
  bB3 := U (Proc.devRef .tc main_arg12)
  WC1 := U (Proc.devRef .tc main_arg13)
  bC1 := U (Proc.devRef .tc main_arg14)
  WC2 := U (Proc.devRef .tc main_arg15)
  bC2 := U (Proc.devRef .tc main_arg16)
  g := U (Proc.devRef .tc main_arg17)
  b := U (Proc.devRef .tc main_arg18)
  src := U (Proc.devRef .tc main_arg19)
  dst := U (Proc.devRef .tc main_arg20)

end Cert.KernelIdeal.Val

namespace Cert.Forms

open Idealize.ShloMosaic.ValueIdx

/-- Every source and every target word, read signed, names a node. -/
def InRange (I : In) : Prop :=
  (∀ e : Fin 800000, 0 ≤ (I.src (ix1 e)).toInt ∧ (I.src (ix1 e)).toInt < 50000)
  ∧ (∀ e : Fin 800000, 0 ≤ (I.dst (ix1 e)).toInt ∧ (I.dst (ix1 e)).toInt < 50000)

end Cert.Forms

namespace Cert.KernelIdeal.Val

open Cert.KernelIdeal Cert.KernelIdeal.Gen Cert.Forms Idealize.ShloMosaic Idealize.ShloMosaic.TcCoe Idealize.SL.Sem
open Idealize.ShloMosaic.StableHlo Idealize.ShloMosaic.ValueIdx

variable (U : Valuation τ sig (Elt Ideal))

/-! The buffers, by the number of the value each holds. -/
abbrev b_e : Arr 800000 64 := U (Proc.devRef .tc main_arg1)
abbrev b_src : Words 800000 := U (Proc.devRef .tc main_arg19)
abbrev b_dst : Words 800000 := U (Proc.devRef .tc main_arg20)
abbrev b_v5 : Arr 50000 64 := U (Proc.devRef .tc main_v5)
abbrev b_v10 : Arr 50000 64 := U (Proc.devRef .tc main_v10)
abbrev b_v15 : Arr 50000 64 := U (Proc.devRef .tc main_v15)
abbrev b_v20 : Arr 50000 64 := U (Proc.devRef .tc main_v20)
abbrev b_v25 : Arr 50000 64 := U (Proc.devRef .tc main_v25)
abbrev b_v30 : Arr 50000 64 := U (Proc.devRef .tc main_v30)
abbrev b_v31 : Arr 64 64 := U (Proc.devRef .tc main_v31)
abbrev b_v33 : Arr 50000 64 := U (Proc.devRef .tc main_v33)
abbrev b_v40 : Arr 50000 64 := U (Proc.devRef .tc main_v40)
abbrev b_v41 : Arr 50000 128 := U (Proc.devRef .tc main_v41)
abbrev b_v42 : Arr 50000 128 := U (Proc.devRef .tc main_v42)
abbrev b_v43 : Arr 800000 128 := U (Proc.devRef .tc main_v43)
abbrev b_v44 : Arr 800000 128 := U (Proc.devRef .tc main_v44)
abbrev b_v45 : Arr 1 64 := U (Proc.devRef .tc main_v45)
abbrev b_v46_0 : Arr 800000 128 := U (Proc.devRef .tc main_v46_0)
abbrev b_v46_1 : Arr 800000 64 := U (Proc.devRef .tc main_v46_1)
abbrev b_v50 : Arr 50000 64 := U (Proc.devRef .tc main_v50)
abbrev b_v51 : Arr 50000 128 := U (Proc.devRef .tc main_v51)
abbrev b_v52 : Arr 800000 128 := U (Proc.devRef .tc main_v52)
abbrev b_v53 : Arr 800000 64 := U (Proc.devRef .tc main_v53)
abbrev b_v54 : Arr 800000 128 := U (Proc.devRef .tc main_v54)
abbrev b_v58 : Arr 50000 64 := U (Proc.devRef .tc main_v58)
abbrev b_v59 : Arr 50000 64 := U (Proc.devRef .tc main_v59)
abbrev b_v60 : Arr 1 64 := U (Proc.devRef .tc main_v60)
abbrev b_v61 : Arr 1 64 := U (Proc.devRef .tc main_v61)
abbrev b_v62_0 : Arr 50000 64 := U (Proc.devRef .tc main_v62_0)
abbrev b_v62_1 : Arr 50000 64 := U (Proc.devRef .tc main_v62_1)

end Cert.KernelIdeal.Val

end
-- ==== Proof.Algebra.lean ====
/-
  The few facts about extended reals the value argument uses.

  The words 0 and 1 denote 0 and 1; the small constant's word denotes a positive real. A logistic is never negative,
  so a sum of logistics from the zero word is never negative and that sum plus the small constant is not zero. Off
  zero a quotient is the product with the inverse, so dividing by `y` before or after other factors gives one value:
  commutativity and associativity of the product of extended reals, with no finiteness needed.
-/
import proofs.«430657_j46961172414536_3_alg».proof.Proof.Forms
import Idealize.ShloMosaic.PureOps.Ideal.Laws

noncomputable section

namespace Cert.Forms

open Idealize.ShloMosaic

theorem zero_eq : zero = 0 := Ideal.ofBits_zero_f32

theorem one_eq : one = 1 := by
  show Ideal.ofBits .f32 0x3F800000#32 = 1
  simp [Ideal.ofBits, Ideal.ieee, -EReal.coe_mul]; norm_num

/-- The small constant is a positive real. -/
theorem eps_pos : 0 < eps := by
  show (0 : EReal) < Ideal.ofBits .f32 0x2B8CBCCC#32
  simp [Ideal.ofBits, Ideal.ieee, -EReal.coe_mul]

/-- A logistic is never negative: it is 0 at the bottom, 1 at the top, and the inverse of a positive real between. -/
theorem logistic_nonneg (x : EReal) : 0 ≤ Ideal.logistic x := by
  induction x using EReal.rec with
  | bot => rw [Ideal.logistic_bot]
  | coe r => rw [Ideal.logistic_coe]; exact EReal.coe_nonneg.mpr (by positivity)
  | top => rw [Ideal.logistic_top]; exact zero_le_one

/-- A sum from the zero word of terms that are each a non-negative value or zero is non-negative. -/
theorem segsum_nonneg {ι : Type} [Fintype ι] (P : ι → Prop) [DecidablePred P] (f : ι → EReal) (hf : ∀ i, 0 ≤ f i) :
    0 ≤ zero + ∑ i : ι, if P i then f i else 0 := by
  rw [zero_eq, zero_add]
  refine Finset.sum_nonneg fun i _ => ?_
  split_ifs
  · exact hf i
  · exact le_rfl

/-- A non-negative value plus the small constant is not zero. -/
theorem add_eps_ne_zero {a : EReal} (ha : 0 ≤ a) : a + eps ≠ 0 := by
  have h : eps ≤ a + eps := by rw [add_comm]; simpa using add_le_add_right ha eps
  exact (lt_of_lt_of_le eps_pos h).ne'

/-- Off zero a quotient is the product with the inverse. -/
theorem div_of_ne {y : EReal} (hy : y ≠ 0) (x : EReal) : Ideal.div x y = x * y⁻¹ := by
  unfold Ideal.div; rw [if_neg hy]

/-- Multiplying by the reciprocal of `y` is dividing by `y`. -/
theorem mul_recip {y : EReal} (hy : y ≠ 0) (g : EReal) : g * Ideal.div one y = Ideal.div g y := by
  rw [div_of_ne hy, div_of_ne hy, one_eq, one_mul]

/-- The reciprocal may be taken before or after another factor. -/
theorem mul_mul_recip {y : EReal} (hy : y ≠ 0) (g a : EReal) : (g * a) * Ideal.div one y = Ideal.div g y * a := by
  rw [div_of_ne hy, div_of_ne hy, one_eq, one_mul, mul_right_comm]

/-- The logistic with the word 1 in the two places the host expansion writes it. -/
theorem logistic_words (x : EReal) : Ideal.div one (one + Ideal.exp (-x)) = Ideal.logistic x := by
  rw [one_eq]; rfl

/-- A sum over the edges into a node, with the membership test spelt on the target word, term by term. -/
theorem segSum_eq (I : In) (u v : Fin 800000 → EReal) (r : Fin 50000) (h : ∀ e, u e = v e) :
    (zero + ∑ e : Fin 800000, if (I.dst (ValueIdx.ix1 e)).toInt = (r.val : Int) then u e else 0)
      = zero + ∑ e : Fin 800000, if into I e r then v e else 0 := by
  refine congrArg (zero + ·) (Finset.sum_congr rfl fun e _ => ?_)
  by_cases hh : (I.dst (ValueIdx.ix1 e)).toInt = (r.val : Int)
  · rw [if_pos hh, if_pos (show into I e r from hh), h]
  · rw [if_neg hh, if_neg (show ¬ into I e r from hh)]

end Cert.Forms

end
-- ==== Proof.Region0Value.lean ====
/-
  The value of the first kernel launch (the edge gate), as a closed form of the arrays it finds.

  Every grid point t of the 80 reads rows [10000 t, 10000 t + 10000) of the edge features (64 wide) and of the two
  gathered tables (128 wide), the whole transposed weight and the whole bias row, and writes the same rows of a
  128-wide and of a 64-wide output. At a row e and a feature j the pre-activation is the sum of the low halves of the
  two gathered rows and of the affine image (edge row times weight, plus bias); the wide output holds its logistic in
  column j and the logistic times the inner product of the two high halves in column 64 + j; the narrow output holds
  its maximum with zero. The blocks tile the arrays, so after the last point each output array is that function of
  the input arrays at every coordinate.
-/
import proofs.«430657_j46961172414536_3_alg».proof.Proof.Gen.KernelIdeal.Frame
import proofs.«430657_j46961172414536_3_alg».proof.Proof.Forms
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg0

open Cert.KernelIdeal Cert.KernelIdeal.Gen Cert.Forms
open Idealize.ShloMosaic Idealize.ShloMosaic.ValueIdx Idealize.ShloMosaic.TcCoe
open Idealize.ShloMosaic.Pipeline (Dat Cfg Window)

/-! ## The body's non-pointwise operations read at a coordinate -/

/-- The product of a 10000 x 64 block with a 64 x 64 matrix into the zero accumulator, at (p, q): the sum over the
    contracted coordinate of the entries' products. -/
theorem matmul_at (A : FVec Ideal S10000x64 .f32) (B : FVec Ideal S64x64 .f32) (p : Fin 10000) (q : Fin 64) :
    matmul dot_S10000x64_S64x64_S10000x64_1_0_0_1_n_n none A B (constant (F := Ideal) S10000x64 .f32 0x00000000#32) (ix2 p q)
      = ∑ k : Fin 64, A (ix2 p k) * B (ix2 k q) := by
  show FloatOps.matmul dot_S10000x64_S64x64_S10000x64_1_0_0_1_n_n none A B _ (ix2 p q) = _
  rw [Ideal.matmul_constant_zero_apply,
    ← Equiv.sum_comp (contrEquiv1 dot_S10000x64_S64x64_S10000x64_1_0_0_1_n_n 64 rfl rfl).symm]
  refine Finset.sum_congr rfl fun k _ => ?_
  have c2 := contrEquiv1_symm_val dot_S10000x64_S64x64_S10000x64_1_0_0_1_n_n 64 rfl rfl k
  have l2 : dot_S10000x64_S64x64_S10000x64_1_0_0_1_n_n.lhsIdx (ix2 p q) ((contrEquiv1 _ 64 rfl rfl).symm k) = ix2 p k := by
    funext ax; apply Fin.ext
    match ax with
    | ⟨0, _⟩ => simp [DotDims.lhsIdx, dot_S10000x64_S64x64_S10000x64_1_0_0_1_n_n]; rfl
    | ⟨1, _⟩ => simp [DotDims.lhsIdx, dot_S10000x64_S64x64_S10000x64_1_0_0_1_n_n]; exact c2
  have r2 : dot_S10000x64_S64x64_S10000x64_1_0_0_1_n_n.rhsIdx (ix2 p q) ((contrEquiv1 _ 64 rfl rfl).symm k) = ix2 k q := by
    funext ax; apply Fin.ext
    match ax with
    | ⟨0, _⟩ => simp [DotDims.rhsIdx, dot_S10000x64_S64x64_S10000x64_1_0_0_1_n_n]; exact c2
    | ⟨1, _⟩ => simp [DotDims.rhsIdx, dot_S10000x64_S64x64_S10000x64_1_0_0_1_n_n]; rfl
  rw [l2, r2]

/-- The sum over the 64 lanes of a 10000 x 64 block from the zero word, at row p. -/
theorem laneSum_at (X : FVec Ideal S10000x64 .f32) (hφ : FKind.Formats .f32)
    (hacc : (0x00000000#32 : BitVec 32) = 0x00000000#32) (p : Fin 10000) :
    multiReduction (F := Ideal) .add [1] S10000 X 0x00000000#32 reduces_S10000x64_S10000 hφ hacc (ix1 p)
      = ∑ k : Fin 64, X (ix2 p k) := by
  refine (Ideal.multiReduction_add_single X _ reduces_S10000x64_S10000 hφ hacc (ix1 p)).trans ?_
  show ∑ k : Fin 64, X (reduces_S10000x64_S10000.lift (ix1 p) k) = _
  refine Finset.sum_congr rfl fun k _ => congrArg X ?_
  funext ax; apply Fin.ext
  match ax with
  | ⟨0, _⟩ => rfl
  | ⟨1, _⟩ => rfl

/-- A column of 10000 entries recast as a 10000 x 1 matrix reads, at (p, 0), the column at p. -/
theorem colCast_at {α : Type} (x : S10000.Idx → α) (p : Fin 10000) (z : Fin 1) :
    shapeCast S10000x1 x shapeCasts_S10000_S10000x1 (ix2 p z) = x (ix1 p) := by
  refine shapeCast_apply x shapeCasts_S10000_S10000x1 (ix2 p z) (ix1 p) ?_
  rw [Shape.rowMajor_val_one, Shape.rowMajor_val_two]
  show p.val = p.val * 1 + z.val
  have := z.isLt; omega

/-- A 10000 x 1 matrix broadcast along the columns reads, at (p, q), the matrix at (p, 0). -/
theorem colBroadcast_at {α : Type} (x : S10000x1.Idx → α) (p : Fin 10000) (q : Fin 64) :
    broadcastTo S10000x64 x broadcasts_S10000x1_S10000x64 (ix2 p q) = x (ix2 p (0 : Fin 1)) := by
  refine broadcastTo_apply x broadcasts_S10000x1_S10000x64 (ix2 p q) (ix2 p (0 : Fin 1)) fun ax => ?_
  match ax with
  | ⟨0, _⟩ =>
    show p.val = if (10000 : Nat) = 1 then 0 else p.val
    rw [if_neg (by decide)]
  | ⟨1, _⟩ => rfl

/-- Two 10000 x 64 blocks side by side read, at a column below 64, the first block there. -/
theorem concat_lo_at {α : Type} (x y : S10000x64.Idx → α) (p : Fin 10000) (q : Fin 64) :
    concatenate S10000x128 1 [⟨S10000x64, x⟩, ⟨S10000x64, y⟩] concatenates_S10000x64_S10000x64_S10000x128_d1 (ix2 p (lo q))
      = x (ix2 p q) := by
  refine concatenate_pair_apply_left (t := S10000x128) (s₁ := S10000x64) (s₂ := S10000x64) 1 x y _ (ix2 p (lo q)) rfl (ix2 p q) fun b => ?_
  match b with
  | ⟨0, _⟩ => rfl
  | ⟨1, _⟩ => rfl

/-- … and, at column 64 + q, the second block at column q. -/
theorem concat_hi_at {α : Type} (x y : S10000x64.Idx → α) (p : Fin 10000) (q : Fin 64) :
    concatenate S10000x128 1 [⟨S10000x64, x⟩, ⟨S10000x64, y⟩] concatenates_S10000x64_S10000x64_S10000x128_d1 (ix2 p (hi q))
      = y (ix2 p q) := by
  refine concatenate_pair_apply_right (t := S10000x128) (s₁ := S10000x64) (s₂ := S10000x64) 1 x y _ (ix2 p (hi q)) rfl rfl (ix2 p q) (fun b hb => ?_) ?_
  · match b with
    | ⟨0, _⟩ => rfl
    | ⟨1, _⟩ => exact absurd rfl hb
  · rfl

/-! ## The body's payloads at a coordinate -/

section Payload
variable (v0 : Vec Ideal S10000x64 .f32) (v1 : Vec Ideal S64x64 .f32) (v4 : Vec Ideal S1x64 .f32)
  (v8 v10 v12 v14 : Vec Ideal S10000x64 .f32)

/-- The pre-activation block at (p, q): the two low-half entries, plus the row of the edge block times the column of
    the weight, plus the bias entry. -/
theorem pay1_at (p : Fin 10000) (q : Fin 64) :
    k0_pay1 (F := Ideal) v0 v1 v4 v8 v12 (ix2 p q)
      = (v8 (ix2 p q) + v12 (ix2 p q)) + ((∑ k : Fin 64, v0 (ix2 p k) * v1 (ix2 k q)) + v4 (ix2 (0 : Fin 1) q)) := by
  unfold k0_pay1
  simp only [addf_apply, shapeCast_self, matmul_at, broadcastTo_1b_ab_apply]

/-- The wide payload at a column below 64: the logistic of the pre-activation. -/
theorem pay2_lo_at (p : Fin 10000) (q : Fin 64) :
    k0_pay2 (F := Ideal) v0 v1 v4 v8 v10 v12 v14 (ix2 p (lo q))
      = Ideal.logistic ((v8 (ix2 p q) + v12 (ix2 p q)) + ((∑ k : Fin 64, v0 (ix2 p k) * v1 (ix2 k q)) + v4 (ix2 (0 : Fin 1) q))) := by
  unfold k0_pay2
  simp only [concat_lo_at]
  show Ideal.logistic (k0_pay1 (F := Ideal) v0 v1 v4 v8 v12 (ix2 p q)) = _
  rw [pay1_at]

/-- The wide payload at column 64 + q: that logistic times the inner product of the two high-half rows. -/
theorem pay2_hi_at (p : Fin 10000) (q : Fin 64) :
    k0_pay2 (F := Ideal) v0 v1 v4 v8 v10 v12 v14 (ix2 p (hi q))
      = Ideal.logistic ((v8 (ix2 p q) + v12 (ix2 p q)) + ((∑ k : Fin 64, v0 (ix2 p k) * v1 (ix2 k q)) + v4 (ix2 (0 : Fin 1) q)))
        * ∑ k : Fin 64, v10 (ix2 p k) * v14 (ix2 p k) := by
  unfold k0_pay2
  simp only [concat_hi_at, mulf_apply, colBroadcast_at, colCast_at, shapeCast_self]
  show Ideal.logistic (k0_pay1 (F := Ideal) v0 v1 v4 v8 v12 (ix2 p q)) * _ = _
  rw [pay1_at, laneSum_at]
  rfl

/-- The narrow payload at (p, q): the maximum of the pre-activation and the zero word. -/
theorem pay3_at (p : Fin 10000) (q : Fin 64) :
    k0_pay3 (F := Ideal) v0 v1 v4 v8 v12 (ix2 p q)
      = max ((v8 (ix2 p q) + v12 (ix2 p q)) + ((∑ k : Fin 64, v0 (ix2 p k) * v1 (ix2 k q)) + v4 (ix2 (0 : Fin 1) q))) zero := by
  unfold k0_pay3
  simp only [maximumf_apply, broadcast_apply, pay1_at]
  rfl

end Payload

/-! ## The body's loads, and what the body leaves in the two output blocks -/

theorem zeros2 : (![0, 0] : Fin 2 → Nat) = fun _ => 0 := funext fun a => by fin_cases a <;> rfl

/-- The load of the left half of a 10000 x 128 block reads, at (p, q), the block at column q. -/
theorem ld_lo_at (X : Vec Ideal S10000x128 .f32) (p : Fin 10000) (q : Fin 64) :
    (View.ld X r0_3 : Vec Ideal S10000x64 .f32) (ix2 p q) = X (ix2 p (lo q)) := by
  show X (r0_3.idx (ix2 p q)) = X (ix2 p (lo q))
  refine congrArg X (funext fun a => Fin.ext ?_)
  match a with
  | ⟨0, _⟩ => show 0 + 1 * p.val = p.val; omega
  | ⟨1, _⟩ => show 0 + 1 * q.val = q.val; omega

/-- The load of the right half reads, at (p, q), the block at column 64 + q. -/
theorem ld_hi_at (X : Vec Ideal S10000x128 .f32) (p : Fin 10000) (q : Fin 64) :
    (View.ld X r0_4 : Vec Ideal S10000x64 .f32) (ix2 p q) = X (ix2 p (hi q)) := by
  show X (r0_4.idx (ix2 p q)) = X (ix2 p (hi q))
  refine congrArg X (funext fun a => Fin.ext ?_)
  match a with
  | ⟨0, _⟩ => show 0 + 1 * p.val = p.val; omega
  | ⟨1, _⟩ => show 64 + 1 * q.val = q.val + 64; omega

section Blocks
variable (b0 : Vec Ideal S10000x64 .f32) (b1 : Vec Ideal S64x64 .f32) (b2 : Vec Ideal S1x64 .f32)
  (b3 b4 : Vec Ideal S10000x128 .f32)

/-- The wide output block, left half: the gate of the five input blocks. -/
theorem out5_lo_at (p : Fin 10000) (q : Fin 64) :
    out0_5 (F := Ideal) b0 b1 b2 b3 b4 (ix2 p (lo q)) = gateLo (n := 10000) b0 b1 b2 b3 b4 p q := by
  unfold out0_5
  rw [View.canon_unit_zero zeros2]
  refine (pay2_lo_at _ _ _ _ _ _ _ p q).trans ?_
  rw [View.ld_unit_zero (S := S10000x64) zeros2 _ b0, View.ld_unit_zero (S := S64x64) zeros2 _ b1,
    View.ld_unit_zero (S := S1x64) zeros2 _ b2, ld_lo_at b3 p q, ld_lo_at b4 p q]
  rfl

/-- The wide output block, right half: the gate times the score. -/
theorem out5_hi_at (p : Fin 10000) (q : Fin 64) :
    out0_5 (F := Ideal) b0 b1 b2 b3 b4 (ix2 p (hi q)) = gateHi (n := 10000) b0 b1 b2 b3 b4 p q := by
  unfold out0_5
  rw [View.canon_unit_zero zeros2]
  refine (pay2_hi_at _ _ _ _ _ _ _ p q).trans ?_
  rw [View.ld_unit_zero (S := S10000x64) zeros2 _ b0, View.ld_unit_zero (S := S64x64) zeros2 _ b1,
    View.ld_unit_zero (S := S1x64) zeros2 _ b2, ld_lo_at b3 p q, ld_lo_at b4 p q]
  have hs : (∑ k : Fin 64, (View.ld b3 r0_4 : Vec Ideal S10000x64 .f32) (ix2 p k) * (View.ld b4 r0_4 : Vec Ideal S10000x64 .f32) (ix2 p k))
      = zero + ∑ k : Fin 64, b3 (ix2 p (hi k)) * b4 (ix2 p (hi k)) := by
    rw [show zero = (0 : EReal) from Ideal.ofBits_zero_f32, zero_add]
    exact Finset.sum_congr rfl fun k _ => by rw [ld_hi_at b3 p k, ld_hi_at b4 p k]
  rw [hs]
  rfl

/-- The narrow output block: the rectified pre-activation. -/
theorem out6_at (p : Fin 10000) (q : Fin 64) :
    out0_6 (F := Ideal) b0 b1 b2 b3 b4 (ix2 p q) = rect0 (n := 10000) b0 b1 b2 b3 b4 p q := by
  unfold out0_6
  rw [View.canon_unit_zero zeros2]
  refine (pay3_at _ _ _ _ _ p q).trans ?_
  rw [View.ld_unit_zero (S := S10000x64) zeros2 _ b0, View.ld_unit_zero (S := S64x64) zeros2 _ b1,
    View.ld_unit_zero (S := S1x64) zeros2 _ b2, ld_lo_at b3 p q, ld_lo_at b4 p q]
  rfl

end Blocks

/-! ## The closed forms do not care where a row sits: re-indexing the rows -/

section Reindex
variable {n m : Nat} (r : Fin n → Fin m)
  (b0 : Arr n 64) (b1 : Arr 64 64) (b2 : Arr 1 64) (b3 b4 : Arr n 128)
  (X0 : Arr m 64) (X1 : Arr 64 64) (X2 : Arr 1 64) (X3 X4 : Arr m 128)
  (h0 : ∀ p k, b0 (ix2 p k) = X0 (ix2 (r p) k)) (h1 : ∀ k j, b1 (ix2 k j) = X1 (ix2 k j))
  (h2 : ∀ j, b2 (ix2 (0 : Fin 1) j) = X2 (ix2 (0 : Fin 1) j))
  (h3 : ∀ p k, b3 (ix2 p k) = X3 (ix2 (r p) k)) (h4 : ∀ p k, b4 (ix2 p k) = X4 (ix2 (r p) k))
include h0 h1 h2 h3 h4

/-- If the small arrays are the large ones read at rows r p, the pre-activation of the small ones at p is that of
    the large ones at r p. -/
theorem hat0_reindex (p : Fin n) (j : Fin 64) : hat0 b0 b1 b2 b3 b4 p j = hat0 X0 X1 X2 X3 X4 (r p) j := by
  unfold hat0 hatOf aff0
  simp only [h0, h1, h2, h3, h4]

omit h0 h1 h2 in
theorem alpha0_reindex (p : Fin n) : alpha0 b3 b4 p = alpha0 X3 X4 (r p) := by
  unfold alpha0 dot64
  simp only [h3, h4]

theorem gateLo_reindex (p : Fin n) (j : Fin 64) : gateLo b0 b1 b2 b3 b4 p j = gateLo X0 X1 X2 X3 X4 (r p) j := by
  unfold gateLo
  rw [hat0_reindex r b0 b1 b2 b3 b4 X0 X1 X2 X3 X4 h0 h1 h2 h3 h4]

theorem gateHi_reindex (p : Fin n) (j : Fin 64) : gateHi b0 b1 b2 b3 b4 p j = gateHi X0 X1 X2 X3 X4 (r p) j := by
  unfold gateHi
  rw [hat0_reindex r b0 b1 b2 b3 b4 X0 X1 X2 X3 X4 h0 h1 h2 h3 h4, alpha0_reindex r b3 b4 X3 X4 h3 h4]

theorem rect0_reindex (p : Fin n) (j : Fin 64) : rect0 b0 b1 b2 b3 b4 p j = rect0 X0 X1 X2 X3 X4 (r p) j := by
  unfold rect0
  rw [hat0_reindex r b0 b1 b2 b3 b4 X0 X1 X2 X3 X4 h0 h1 h2 h3 h4]

end Reindex

/-! ## From blocks to the arrays -/

section Arrays
variable (V : (c : Dev nD) → (b : Ref sig .tc) → Buf (Elt Ideal) ((c : Thread nD τ).loc b)) (c : Dev nD)

/-- The five input arrays as the launch finds them: edge features, transposed weight, bias row, the two gathered
    tables. -/
abbrev x0 : Arr 800000 64 := V c (Pipeline.arrRef spec0 0)
abbrev x1 : Arr 64 64 := V c (Pipeline.arrRef spec0 1)
abbrev x2 : Arr 1 64 := V c (Pipeline.arrRef spec0 2)
abbrev x3 : Arr 800000 128 := V c (Pipeline.arrRef spec0 3)
abbrev x4 : Arr 800000 128 := V c (Pipeline.arrRef spec0 4)

/-- The index maps over the 80 points: the row-blocked windows are at block t, column block 0; the weight and the bias
    stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Row p of block t is row 10000 t + p of the array. -/
def rowAt (t : Fin cfg0.N) (p : Fin 10000) : Fin 800000 :=
  ⟨t.val * 10000 + p.val, by have h : t.val < 80 := lt_of_lt_of_eq t.isLt N_0; omega⟩

theorem blk0_at (t : Fin cfg0.N) (p : Fin 10000) (k : Fin 64) :
    (iblk0 (F := Ideal) V c 0 t : Vec Ideal S10000x64 .f32) (ix2 p k) = x0 V c (ix2 (rowAt t p) k) := by
  show V c (Pipeline.arrRef spec0 0) (((cfg0.win 0).blk t).view.emb (ix2 p k)) = V c (Pipeline.arrRef spec0 0) (ix2 (rowAt t p) k)
  obtain ⟨e0, e1, -⟩ := idx_facts t
  refine congrArg _ (funext fun a => Fin.ext ?_)
  match a with
  | ⟨0, _⟩ => show win0_0.index t (0 : Fin 2) * 10000 + 1 * p.val = t.val * 10000 + p.val; omega
  | ⟨1, _⟩ => show win0_0.index t (1 : Fin 2) * 64 + 1 * k.val = k.val; omega

theorem blk1_at (t : Fin cfg0.N) (k : Fin 64) (j : Fin 64) :
    (iblk0 (F := Ideal) V c 1 t : Vec Ideal S64x64 .f32) (ix2 k j) = x1 V c (ix2 k j) := by
  show V c (Pipeline.arrRef spec0 1) (((cfg0.win 1).blk t).view.emb (ix2 k j)) = V c (Pipeline.arrRef spec0 1) (ix2 k j)
  obtain ⟨-, -, e0, e1, -⟩ := idx_facts t
  refine congrArg _ (funext fun a => Fin.ext ?_)
  match a with
  | ⟨0, _⟩ => show win0_1.index t (0 : Fin 2) * 64 + 1 * k.val = k.val; omega
  | ⟨1, _⟩ => show win0_1.index t (1 : Fin 2) * 64 + 1 * j.val = j.val; omega

theorem blk2_at (t : Fin cfg0.N) (j : Fin 64) :
    (iblk0 (F := Ideal) V c 2 t : Vec Ideal S1x64 .f32) (ix2 (0 : Fin 1) j) = x2 V c (ix2 (0 : Fin 1) j) := by
  show V c (Pipeline.arrRef spec0 2) (((cfg0.win 2).blk t).view.emb (ix2 (0 : Fin 1) j)) = V c (Pipeline.arrRef spec0 2) (ix2 (0 : Fin 1) j)
  obtain ⟨-, -, -, -, e0, e1, -⟩ := idx_facts t
  refine congrArg _ (funext fun a => Fin.ext ?_)
  match a with
  | ⟨0, _⟩ => show win0_2.index t (0 : Fin 2) * 1 + 1 * 0 = 0; omega
  | ⟨1, _⟩ => show win0_2.index t (1 : Fin 2) * 64 + 1 * j.val = j.val; omega

theorem blk3_at (t : Fin cfg0.N) (p : Fin 10000) (k : Fin 128) :
    (iblk0 (F := Ideal) V c 3 t : Vec Ideal S10000x128 .f32) (ix2 p k) = x3 V c (ix2 (rowAt t p) k) := by
  show V c (Pipeline.arrRef spec0 3) (((cfg0.win 3).blk t).view.emb (ix2 p k)) = V c (Pipeline.arrRef spec0 3) (ix2 (rowAt t p) k)
  obtain ⟨-, -, -, -, -, -, e0, e1, -⟩ := idx_facts t
  refine congrArg _ (funext fun a => Fin.ext ?_)
  match a with
  | ⟨0, _⟩ => show win0_3.index t (0 : Fin 2) * 10000 + 1 * p.val = t.val * 10000 + p.val; omega
  | ⟨1, _⟩ => show win0_3.index t (1 : Fin 2) * 128 + 1 * k.val = k.val; omega

theorem blk4_at (t : Fin cfg0.N) (p : Fin 10000) (k : Fin 128) :
    (iblk0 (F := Ideal) V c 4 t : Vec Ideal S10000x128 .f32) (ix2 p k) = x4 V c (ix2 (rowAt t p) k) := by
  show V c (Pipeline.arrRef spec0 4) (((cfg0.win 4).blk t).view.emb (ix2 p k)) = V c (Pipeline.arrRef spec0 4) (ix2 (rowAt t p) k)
  obtain ⟨-, -, -, -, -, -, -, -, e0, e1, -⟩ := idx_facts t
  refine congrArg _ (funext fun a => Fin.ext ?_)
  match a with
  | ⟨0, _⟩ => show win0_4.index t (0 : Fin 2) * 10000 + 1 * p.val = t.val * 10000 + p.val; omega
  | ⟨1, _⟩ => show win0_4.index t (1 : Fin 2) * 128 + 1 * k.val = k.val; omega

/-- Where block t of the wide output sits in its array. -/
theorem emb5_at (t : Fin cfg0.N) (p : Fin 10000) (k : Fin 128) :
    ((cfg0.win 5).blk t).view.emb (ix2 p k) = (ix2 (rowAt t p) k : S800000x128.Idx) := by
  obtain ⟨-, -, -, -, -, -, -, -, -, -, e0, e1, -⟩ := idx_facts t
  refine funext fun a => Fin.ext ?_
  match a with
  | ⟨0, _⟩ => show win0_5.index t (0 : Fin 2) * 10000 + 1 * p.val = t.val * 10000 + p.val; omega
  | ⟨1, _⟩ => show win0_5.index t (1 : Fin 2) * 128 + 1 * k.val = k.val; omega

/-- Where block t of the narrow output sits in its array. -/
theorem emb6_at (t : Fin cfg0.N) (p : Fin 10000) (k : Fin 64) :
    ((cfg0.win 6).blk t).view.emb (ix2 p k) = (ix2 (rowAt t p) k : S800000x64.Idx) := by
  obtain ⟨-, -, -, -, -, -, -, -, -, -, -, -, e0, e1⟩ := idx_facts t
  refine funext fun a => Fin.ext ?_
  match a with
  | ⟨0, _⟩ => show win0_6.index t (0 : Fin 2) * 10000 + 1 * p.val = t.val * 10000 + p.val; omega
  | ⟨1, _⟩ => show win0_6.index t (1 : Fin 2) * 64 + 1 * k.val = k.val; omega

/-- The wide output array as one function of the input arrays: the gate in the columns below 64, gate times score in
    the columns from 64. -/
def wide : Arr 800000 128 := fun i =>
  if h : (i 1).val < 64 then gateLo (x0 V c) (x1 V c) (x2 V c) (x3 V c) (x4 V c) ⟨(i 0).val, idx2_lt0 i⟩ ⟨(i 1).val, h⟩
  else gateHi (x0 V c) (x1 V c) (x2 V c) (x3 V c) (x4 V c) ⟨(i 0).val, idx2_lt0 i⟩ ⟨(i 1).val - 64, by have := idx2_lt1 i; omega⟩

/-- The narrow output array as one function of the input arrays: the rectified pre-activation. -/
def narrow : Arr 800000 64 := fun i =>
  rect0 (x0 V c) (x1 V c) (x2 V c) (x3 V c) (x4 V c) ⟨(i 0).val, idx2_lt0 i⟩ ⟨(i 1).val, idx2_lt1 i⟩

theorem wide_lo (e : Fin 800000) (j : Fin 64) :
    wide V c (ix2 e (lo j)) = gateLo (x0 V c) (x1 V c) (x2 V c) (x3 V c) (x4 V c) e j := by
  unfold wide
  rw [dif_pos (show ((ix2 e (lo j) : (⟨2, ![800000, 128]⟩ : Shape).Idx) 1).val < 64 from j.isLt)]
  rfl

theorem wide_hi (e : Fin 800000) (j : Fin 64) :
    wide V c (ix2 e (hi j)) = gateHi (x0 V c) (x1 V c) (x2 V c) (x3 V c) (x4 V c) e j := by
  unfold wide
  rw [dif_neg (show ¬ ((ix2 e (hi j) : (⟨2, ![800000, 128]⟩ : Shape).Idx) 1).val < 64 from by show ¬ (j.val + 64 < 64); omega)]
  exact congrArg (gateHi (x0 V c) (x1 V c) (x2 V c) (x3 V c) (x4 V c) e) (Fin.ext (by show j.val + 64 - 64 = j.val; omega))

theorem narrow_at (e : Fin 800000) (j : Fin 64) :
    narrow V c (ix2 e j) = rect0 (x0 V c) (x1 V c) (x2 V c) (x3 V c) (x4 V c) e j := rfl

/-- What point t writes back to the wide output is block t of `wide`. -/
theorem flushed5_eq (t : Fin cfg0.N) :
    (dat0 (F := Ideal) V c).flushed 5 t = ((cfg0.win 5).blk t).view.read (Elt Ideal) (wide V c) := by
  show (cfg0.win 5).cut (grid0.coords t) ((dat0 (F := Ideal) V c).after 5 t) = _
  rw [after0_5]
  funext y
  obtain ⟨p, q, rfl⟩ : ∃ (p : Fin 10000) (q : Fin 128), y = ix2 p q := ⟨y 0, y 1, eq_ix2 y⟩
  show out0_5 (F := Ideal) (iblk0 V c 0 t) (iblk0 V c 1 t) (iblk0 V c 2 t) (iblk0 V c 3 t) (iblk0 V c 4 t) (ix2 p q)
    = wide V c (((cfg0.win 5).blk t).view.emb (ix2 p q))
  rw [emb5_at t p q]
  by_cases hq : q.val < 64
  · obtain ⟨j, rfl⟩ : ∃ j : Fin 64, q = lo j := ⟨⟨q.val, hq⟩, rfl⟩
    rw [wide_lo]
    refine (out5_lo_at _ _ _ _ _ p j).trans ?_
    exact gateLo_reindex (rowAt t) _ _ _ _ _ _ _ _ _ _ (blk0_at V c t) (blk1_at V c t) (blk2_at V c t) (blk3_at V c t) (blk4_at V c t) p j
  · obtain ⟨j, rfl⟩ : ∃ j : Fin 64, q = hi j :=
      ⟨⟨q.val - 64, by have := q.isLt; omega⟩, Fin.ext (by show q.val = q.val - 64 + 64; omega)⟩
    rw [wide_hi]
    refine (out5_hi_at _ _ _ _ _ p j).trans ?_
    exact gateHi_reindex (rowAt t) _ _ _ _ _ _ _ _ _ _ (blk0_at V c t) (blk1_at V c t) (blk2_at V c t) (blk3_at V c t) (blk4_at V c t) p j

/-- What point t writes back to the narrow output is block t of `narrow`. -/
theorem flushed6_eq (t : Fin cfg0.N) :
    (dat0 (F := Ideal) V c).flushed 6 t = ((cfg0.win 6).blk t).view.read (Elt Ideal) (narrow V c) := by
  show (cfg0.win 6).cut (grid0.coords t) ((dat0 (F := Ideal) V c).after 6 t) = _
  rw [after0_6]
  funext y
  obtain ⟨p, q, rfl⟩ : ∃ (p : Fin 10000) (q : Fin 64), y = ix2 p q := ⟨y 0, y 1, eq_ix2 y⟩
  show out0_6 (F := Ideal) (iblk0 V c 0 t) (iblk0 V c 1 t) (iblk0 V c 2 t) (iblk0 V c 3 t) (iblk0 V c 4 t) (ix2 p q)
    = narrow V c (((cfg0.win 6).blk t).view.emb (ix2 p q))
  rw [emb6_at t p q, narrow_at]
  refine (out6_at _ _ _ _ _ p q).trans ?_
  exact rect0_reindex (rowAt t) _ _ _ _ _ _ _ _ _ _ (blk0_at V c t) (blk1_at V c t) (blk2_at V c t) (blk3_at V c t) (blk4_at V c t) p q

/-- An index of the wide output array is in point t's block iff each coordinate is in the block's range. -/
theorem mem_blk5 (t : Fin cfg0.N) (i : S800000x128.Idx) :
    i ∈ ((cfg0.win 5).blk t).view.set ↔ ∀ a : Fin 2, win0_5.index t a * S10000x128.size a ≤ (i a).val
      ∧ (i a).val < win0_5.index t a * S10000x128.size a + S10000x128.size a := by
  show i ∈ ((View.whole main_v46_0).slice (win0_5.rect t)).set ↔ _
  rw [View.set_slice_whole, Rect.mem_set_unit]
  exact Iff.rfl

/-- The same for the narrow output array. -/
theorem mem_blk6 (t : Fin cfg0.N) (i : S800000x64.Idx) :
    i ∈ ((cfg0.win 6).blk t).view.set ↔ ∀ a : Fin 2, win0_6.index t a * S10000x64.size a ≤ (i a).val
      ∧ (i a).val < win0_6.index t a * S10000x64.size a + S10000x64.size a := by
  show i ∈ ((View.whole main_v46_1).slice (win0_6.rect t)).set ↔ _
  rw [View.set_slice_whole, Rect.mem_set_unit]
  exact Iff.rfl

/-- Row r of the wide output is in the block of point r / 10000. -/
theorem cover5 (i : S800000x128.Idx) :
    ∃ t : Fin cfg0.N, (cfg0.win 5).flush t = true ∧ i ∈ ((cfg0.win 5).blk t).view.set := by
  have hi0 : (i 0).val < 800000 := idx2_lt0 i
  have hi1 : (i 1).val < 128 := idx2_lt1 i
  obtain ⟨t, ht⟩ : ∃ t : Fin cfg0.N, t.val = (i 0).val / 10000 :=
    ⟨⟨(i 0).val / 10000, lt_of_lt_of_eq (by omega : (i 0).val / 10000 < 80) N_0.symm⟩, rfl⟩
  obtain ⟨-, -, -, -, -, -, -, -, -, -, e0, e1, -⟩ := idx_facts t
  refine ⟨t, flush0_5 t, ?_⟩
  rw [mem_blk5]
  intro a
  match a with
  | ⟨0, _⟩ =>
    show win0_5.index t (0 : Fin 2) * 10000 ≤ (i 0).val ∧ (i 0).val < win0_5.index t (0 : Fin 2) * 10000 + 10000
    omega
  | ⟨1, _⟩ =>
    show win0_5.index t (1 : Fin 2) * 128 ≤ (i 1).val ∧ (i 1).val < win0_5.index t (1 : Fin 2) * 128 + 128
    omega

/-- Row r of the narrow output is in the block of point r / 10000. -/
theorem cover6 (i : S800000x64.Idx) :
    ∃ t : Fin cfg0.N, (cfg0.win 6).flush t = true ∧ i ∈ ((cfg0.win 6).blk t).view.set := by
  have hi0 : (i 0).val < 800000 := idx2_lt0 i
  have hi1 : (i 1).val < 64 := idx2_lt1 i
  obtain ⟨t, ht⟩ : ∃ t : Fin cfg0.N, t.val = (i 0).val / 10000 :=
    ⟨⟨(i 0).val / 10000, lt_of_lt_of_eq (by omega : (i 0).val / 10000 < 80) N_0.symm⟩, rfl⟩
  obtain ⟨-, -, -, -, -, -, -, -, -, -, -, -, e0, e1⟩ := idx_facts t
  refine ⟨t, flush0_6 t, ?_⟩
  rw [mem_blk6]
  intro a
  match a with
  | ⟨0, _⟩ =>
    show win0_6.index t (0 : Fin 2) * 10000 ≤ (i 0).val ∧ (i 0).val < win0_6.index t (0 : Fin 2) * 10000 + 10000
    omega
  | ⟨1, _⟩ =>
    show win0_6.index t (1 : Fin 2) * 64 ≤ (i 1).val ∧ (i 1).val < win0_6.index t (1 : Fin 2) * 64 + 64
    omega

/-- After the last point the wide output array is `wide` of the input arrays … -/
theorem out5_eq : (dat0 (F := Ideal) V c).arrAt 5 cfg0.N = wide V c :=
  (dat0 (F := Ideal) V c).arrAt_eq_of_cover 5 (wide V c) (fun t _ => flushed5_eq V c t) cover5

/-- … and the narrow output array is `narrow` of them. -/
theorem out6_eq : (dat0 (F := Ideal) V c).arrAt 6 cfg0.N = narrow V c :=
  (dat0 (F := Ideal) V c).arrAt_eq_of_cover 6 (narrow V c) (fun t _ => flushed6_eq V c t) cover6

/-- The wide output at (e, j), j below 64: the gate. -/
theorem out5_lo (e : Fin 800000) (j : Fin 64) :
    ((dat0 (F := Ideal) V c).arrAt 5 cfg0.N : Arr 800000 128) (ix2 e (lo j))
      = gateLo (x0 V c) (x1 V c) (x2 V c) (x3 V c) (x4 V c) e j :=
  (congrFun (out5_eq V c) (ix2 e (lo j))).trans (wide_lo V c e j)

/-- The wide output at (e, 64 + j): gate times score. -/
theorem out5_hi (e : Fin 800000) (j : Fin 64) :
    ((dat0 (F := Ideal) V c).arrAt 5 cfg0.N : Arr 800000 128) (ix2 e (hi j))
      = gateHi (x0 V c) (x1 V c) (x2 V c) (x3 V c) (x4 V c) e j :=
  (congrFun (out5_eq V c) (ix2 e (hi j))).trans (wide_hi V c e j)

/-- The narrow output at (e, j): the rectified pre-activation. -/
theorem out6 (e : Fin 800000) (j : Fin 64) :
    ((dat0 (F := Ideal) V c).arrAt 6 cfg0.N : Arr 800000 64) (ix2 e j)
      = rect0 (x0 V c) (x1 V c) (x2 V c) (x3 V c) (x4 V c) e j :=
  (congrFun (out6_eq V c) (ix2 e j)).trans (narrow_at V c e j)

end Arrays

end Cert.KernelIdeal.Reg0

end
-- ==== Proof.Region1Value.lean ====
/-
  The value of the second kernel launch (the edge combine), as a closed form of the arrays it finds on entry.

  The launch walks the 800000 edge rows in 80 blocks of 10000. At each block it reads the block of the wide gate
  array, of the gathered table and of the gathered gate sums, forms the reciprocal of (gate sum + the small constant)
  from the word one, and stores the concatenation along the columns of
  [ (high half of the gate block times the reciprocal) times the low half of the table block |
    (low half of the gate block times the reciprocal) times the high half of the table block ].
  Proved here: the body's stored block read at a coordinate of either half; each input block as rows of its array;
  what a grid point writes back is that point's block of one function of the three input arrays; the blocks cover the
  array; hence the output array after the launch is that function, coordinate by coordinate (`out3_lo`, `out3_hi`).
-/
import proofs.«430657_j46961172414536_3_alg».proof.Proof.Gen.KernelIdeal.Frame
import proofs.«430657_j46961172414536_3_alg».proof.Proof.Forms
import Idealize.ShloMosaic.Lib.Pipeline.Value
import Idealize.ShloMosaic.Lib.ValueIdx

noncomputable section

namespace Cert.KernelIdeal.Reg1

open Cert.KernelIdeal Cert.KernelIdeal.Gen Cert.Forms
open Idealize.ShloMosaic Idealize.ShloMosaic.ValueIdx Idealize.ShloMosaic.TcCoe Idealize.SL.Sem
open Idealize.ShloMosaic.Pipeline (Dat)

/-! ## The stored block at a coordinate -/

/-- The body's arithmetic at a coordinate of the low half: the second operand's entry times the reciprocal of (the
    fifth operand's entry plus the small constant), times the third operand's entry. -/
theorem pay_lo (v0 v2 v4 v6 v8 : Vec Ideal S10000x64 .f32) (p : Fin 10000) (q : Fin 64) :
    k1_pay1 (F := Ideal) v0 v2 v4 v6 v8 (ix2 p (lo q))
      = (v2 (ix2 p q) * Ideal.div one (v8 (ix2 p q) + eps)) * v4 (ix2 p q) := by
  unfold k1_pay1
  simp only [shapeCast_self]
  refine (concatenate_pair_apply_left (t := S10000x128) (s₁ := S10000x64) (s₂ := S10000x64) (1 : Fin 2) _ _ _ (ix2 p (lo q)) rfl (ix2 p q) ?_).trans rfl
  intro b
  match b with
  | ⟨0, _⟩ => rfl
  | ⟨1, _⟩ => rfl

/-- The same at a coordinate of the high half: the first operand's entry times the reciprocal, times the fourth
    operand's entry. -/
theorem pay_hi (v0 v2 v4 v6 v8 : Vec Ideal S10000x64 .f32) (p : Fin 10000) (q : Fin 64) :
    k1_pay1 (F := Ideal) v0 v2 v4 v6 v8 (ix2 p (hi q))
      = (v0 (ix2 p q) * Ideal.div one (v8 (ix2 p q) + eps)) * v6 (ix2 p q) := by
  unfold k1_pay1
  simp only [shapeCast_self]
  refine (concatenate_pair_apply_right (t := S10000x128) (s₁ := S10000x64) (s₂ := S10000x64) (1 : Fin 2) _ _ _ (ix2 p (hi q)) rfl rfl (ix2 p q) ?_ ?_).trans rfl
  · intro b hb
    match b with
    | ⟨0, _⟩ => rfl
    | ⟨1, _⟩ => exact absurd rfl hb
  · rfl

/-- The zero offsets of a whole-buffer access, as a constant function. -/
theorem hz : (![0, 0] : Fin 2 → Nat) = fun _ => 0 := funext fun a => by fin_cases a <;> rfl

/-- A read of the left 64 columns of a 128-wide block, at a coordinate. -/
theorem ld_lo (x : Vec Ideal S10000x128 .f32) (p : Fin 10000) (q : Fin 64) :
    View.ld x r1_0 (ix2 p q) = x (ix2 p (lo q)) := by
  show x (r1_0.idx (ix2 p q)) = _
  congr 1
  funext a
  apply Fin.ext
  match a with
  | ⟨0, _⟩ => show 0 + 1 * p.val = p.val; omega
  | ⟨1, _⟩ => show 0 + 1 * q.val = q.val; omega

/-- A read of the right 64 columns (column offset 64), at a coordinate. -/
theorem ld_hi (x : Vec Ideal S10000x128 .f32) (p : Fin 10000) (q : Fin 64) :
    View.ld x r1_1 (ix2 p q) = x (ix2 p (hi q)) := by
  show x (r1_1.idx (ix2 p q)) = _
  congr 1
  funext a
  apply Fin.ext
  match a with
  | ⟨0, _⟩ => show 0 + 1 * p.val = p.val; omega
  | ⟨1, _⟩ => show 64 + 1 * q.val = q.val + 64; omega

/-- What the body leaves in the output block, at a coordinate of the low half: the gate block's high-half entry times
    the reciprocal, times the table block's low-half entry. -/
theorem body_lo (x0 x1 : Vec Ideal S10000x128 .f32) (x2 : Vec Ideal S10000x64 .f32) (p : Fin 10000) (q : Fin 64) :
    out1_3 (F := Ideal) x0 x1 x2 (ix2 p (lo q))
      = (x0 (ix2 p (hi q)) * Ideal.div one (x2 (ix2 p q) + eps)) * x1 (ix2 p (lo q)) := by
  unfold out1_3
  rw [View.canon_unit_zero hz, pay_lo, ld_hi, ld_lo, View.ld_unit_zero (S := S10000x64) hz]

/-- At a coordinate of the high half: the gate block's low-half entry times the reciprocal, times the table block's
    high-half entry. -/
theorem body_hi (x0 x1 : Vec Ideal S10000x128 .f32) (x2 : Vec Ideal S10000x64 .f32) (p : Fin 10000) (q : Fin 64) :
    out1_3 (F := Ideal) x0 x1 x2 (ix2 p (hi q))
      = (x0 (ix2 p (lo q)) * Ideal.div one (x2 (ix2 p q) + eps)) * x1 (ix2 p (hi q)) := by
  unfold out1_3
  rw [View.canon_unit_zero hz, pay_hi, ld_lo, ld_hi, View.ld_unit_zero (S := S10000x64) hz]

/-! ## The input arrays, and each input block as rows of its array -/

variable (V : (c : Dev nD) → (b : Ref sig .tc) → Buf (Elt Ideal) ((c : Thread nD τ).loc b)) (c : Dev nD)

/-- The three arrays the launch reads, as it finds them: the wide gate array, the gathered table, the gathered gate
    sums. -/
abbrev y0 : Arr 800000 128 := V c (Pipeline.arrRef spec1 0)
abbrev y1 : Arr 800000 128 := V c (Pipeline.arrRef spec1 1)
abbrev y2 : Arr 800000 64 := V c (Pipeline.arrRef spec1 2)

/-- The index maps over the 80 grid points: every window's block index is (the point, 0). -/
theorem idx_facts : ∀ t : Fin cfg1.N,
      win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- The gate block at point `t` is rows `10000 t … 10000 t + 9999` of the gate array. -/
theorem iblk0_apply (t : Fin cfg1.N) (x : S10000x128.Idx) (k : S800000x128.Idx)
    (hk0 : (k 0).val = t.val * 10000 + (x 0).val) (hk1 : (k 1).val = (x 1).val) :
    (iblk1 (F := Ideal) V c 0 t : Vec Ideal S10000x128 .f32) x = y0 V c k := by
  obtain ⟨e0, e1, -⟩ := idx_facts t
  show V c (Pipeline.arrRef spec1 0) (((cfg1.win 0).blk t).view.emb x) = V c (Pipeline.arrRef spec1 0) k
  congr 1
  funext a
  apply Fin.ext
  match a with
  | ⟨0, _⟩ => show win1_0.index t (0 : Fin 2) * 10000 + 1 * (x 0).val = (k 0).val; rw [e0, hk0]; omega
  | ⟨1, _⟩ => show win1_0.index t (1 : Fin 2) * 128 + 1 * (x 1).val = (k 1).val; rw [e1, hk1]; omega

/-- The table block at point `t` is the same rows of the gathered table. -/
theorem iblk1_apply (t : Fin cfg1.N) (x : S10000x128.Idx) (k : S800000x128.Idx)
    (hk0 : (k 0).val = t.val * 10000 + (x 0).val) (hk1 : (k 1).val = (x 1).val) :
    (iblk1 (F := Ideal) V c 1 t : Vec Ideal S10000x128 .f32) x = y1 V c k := by
  obtain ⟨-, -, e0, e1, -⟩ := idx_facts t
  show V c (Pipeline.arrRef spec1 1) (((cfg1.win 1).blk t).view.emb x) = V c (Pipeline.arrRef spec1 1) k
  congr 1
  funext a
  apply Fin.ext
  match a with
  | ⟨0, _⟩ => show win1_1.index t (0 : Fin 2) * 10000 + 1 * (x 0).val = (k 0).val; rw [e0, hk0]; omega
  | ⟨1, _⟩ => show win1_1.index t (1 : Fin 2) * 128 + 1 * (x 1).val = (k 1).val; rw [e1, hk1]; omega

/-- The gate-sum block at point `t` is the same rows of the gathered gate sums. -/
theorem iblk2_apply (t : Fin cfg1.N) (x : S10000x64.Idx) (k : S800000x64.Idx)
    (hk0 : (k 0).val = t.val * 10000 + (x 0).val) (hk1 : (k 1).val = (x 1).val) :
    (iblk1 (F := Ideal) V c 2 t : Vec Ideal S10000x64 .f32) x = y2 V c k := by
  obtain ⟨-, -, -, -, e0, e1, -⟩ := idx_facts t
  show V c (Pipeline.arrRef spec1 2) (((cfg1.win 2).blk t).view.emb x) = V c (Pipeline.arrRef spec1 2) k
  congr 1
  funext a
  apply Fin.ext
  match a with
  | ⟨0, _⟩ => show win1_2.index t (0 : Fin 2) * 10000 + 1 * (x 0).val = (k 0).val; rw [e0, hk0]; omega
  | ⟨1, _⟩ => show win1_2.index t (1 : Fin 2) * 64 + 1 * (x 1).val = (k 1).val; rw [e1, hk1]; omega

/-! ## The output array as one function of the input arrays -/

/-- A column of a 128-wide row is in the low half or in the high half. -/
theorem lo_or_hi (k : Fin 128) : (∃ q : Fin 64, k = lo q) ∨ (∃ q : Fin 64, k = hi q) := by
  by_cases h : k.val < 64
  · exact Or.inl ⟨⟨k.val, h⟩, Fin.ext rfl⟩
  · exact Or.inr ⟨⟨k.val - 64, by have := k.isLt; omega⟩, Fin.ext (by show k.val = k.val - 64 + 64; omega)⟩

/-- The array the launch leaves: in the low half of row `e` the low combination, in the high half the high one. -/
def comb (Y0 Y1 : Arr 800000 128) (Y2 : Arr 800000 64) : Arr 800000 128 := fun i =>
  if h : (i 1).val < 64 then combLo Y0 Y1 Y2 (i 0) ⟨(i 1).val, h⟩
  else combHi Y0 Y1 Y2 (i 0) ⟨(i 1).val - 64, by have h2 : (i 1).val < 128 := (i 1).isLt; omega⟩

theorem comb_lo (Y0 Y1 : Arr 800000 128) (Y2 : Arr 800000 64) (e : Fin 800000) (j : Fin 64) :
    comb Y0 Y1 Y2 (ix2 e (lo j)) = combLo Y0 Y1 Y2 e j := by
  have h : (lo j).val < 64 := j.isLt
  unfold comb
  exact dif_pos h

theorem comb_hi (Y0 Y1 : Arr 800000 128) (Y2 : Arr 800000 64) (e : Fin 800000) (j : Fin 64) :
    comb Y0 Y1 Y2 (ix2 e (hi j)) = combHi Y0 Y1 Y2 e j := by
  have h : ¬ (hi j).val < 64 := by show ¬ j.val + 64 < 64; omega
  unfold comb
  refine (dif_neg h).trans ?_
  show combHi Y0 Y1 Y2 e ⟨j.val + 64 - 64, _⟩ = combHi Y0 Y1 Y2 e j
  exact congrArg (combHi Y0 Y1 Y2 e) (Fin.ext (by show j.val + 64 - 64 = j.val; omega))

/-- What point `t` leaves in the output block at row `p`, low half: the low combination of the arrays at row
    `10000 t + p`. -/
theorem block_lo (t : Fin cfg1.N) (p : Fin 10000) (q : Fin 64) (e : Fin 800000) (he : e.val = t.val * 10000 + p.val) :
    out1_3 (F := Ideal) (iblk1 V c 0 t) (iblk1 V c 1 t) (iblk1 V c 2 t) (ix2 p (lo q))
      = combLo (y0 V c) (y1 V c) (y2 V c) e q := by
  refine (body_lo _ _ _ p q).trans ?_
  have h0 := iblk0_apply V c t (ix2 p (hi q)) (ix2 e (hi q)) he rfl
  have h1 := iblk1_apply V c t (ix2 p (lo q)) (ix2 e (lo q)) he rfl
  have h2 := iblk2_apply V c t (ix2 p q) (ix2 e q) he rfl
  rw [h0, h1, h2]
  rfl

/-- The same in the high half. -/
theorem block_hi (t : Fin cfg1.N) (p : Fin 10000) (q : Fin 64) (e : Fin 800000) (he : e.val = t.val * 10000 + p.val) :
    out1_3 (F := Ideal) (iblk1 V c 0 t) (iblk1 V c 1 t) (iblk1 V c 2 t) (ix2 p (hi q))
      = combHi (y0 V c) (y1 V c) (y2 V c) e q := by
  refine (body_hi _ _ _ p q).trans ?_
  have h0 := iblk0_apply V c t (ix2 p (lo q)) (ix2 e (lo q)) he rfl
  have h1 := iblk1_apply V c t (ix2 p (hi q)) (ix2 e (hi q)) he rfl
  have h2 := iblk2_apply V c t (ix2 p q) (ix2 e q) he rfl
  rw [h0, h1, h2]
  rfl

/-- So the output block of point `t` at any coordinate is the array `comb` at the coordinate `10000 t` rows below. -/
theorem block_at (t : Fin cfg1.N) (j : S10000x128.Idx) (i : S800000x128.Idx)
    (hi0 : (i 0).val = t.val * 10000 + (j 0).val) (hi1 : (i 1).val = (j 1).val) :
    out1_3 (F := Ideal) (iblk1 V c 0 t) (iblk1 V c 1 t) (iblk1 V c 2 t) j = comb (y0 V c) (y1 V c) (y2 V c) i := by
  obtain ⟨p, k, rfl⟩ : ∃ (p : Fin 10000) (k : Fin 128), j = ix2 p k := ⟨j 0, j 1, eq_ix2 j⟩
  obtain ⟨e, k', rfl⟩ : ∃ (e : Fin 800000) (k' : Fin 128), i = ix2 e k' := ⟨i 0, i 1, eq_ix2 i⟩
  obtain rfl : k' = k := Fin.ext hi1
  rcases lo_or_hi k' with ⟨q, rfl⟩ | ⟨q, rfl⟩
  · rw [comb_lo]; exact block_lo V c t p q e hi0
  · rw [comb_hi]; exact block_hi V c t p q e hi0

/-! ## From the blocks to the array -/

/-- What point `t` writes back is block `t` of `comb` of the input arrays. -/
theorem flushed3_eq (t : Fin cfg1.N) :
    (dat1 (F := Ideal) V c).flushed 3 t
      = ((cfg1.win 3).blk t).view.read (Elt Ideal) (comb (y0 V c) (y1 V c) (y2 V c)) := by
  show (cfg1.win 3).cut (grid1.coords t) ((dat1 (F := Ideal) V c).after 3 t) = _
  rw [after1_3]
  obtain ⟨-, -, -, -, -, -, e0, e1⟩ := idx_facts t
  funext j
  refine block_at V c t j (((cfg1.win 3).blk t).view.emb j) ?_ ?_
  · show win1_3.index t (0 : Fin 2) * 10000 + 1 * (j 0).val = t.val * 10000 + (j 0).val
    rw [e0]; omega
  · show win1_3.index t (1 : Fin 2) * 128 + 1 * (j 1).val = (j 1).val
    rw [e1]; omega

/-- An index of the output array is in point `t`'s block iff each coordinate is in the block's range on its axis. -/
theorem mem_blk3 (t : Fin cfg1.N) (i : S800000x128.Idx) :
    i ∈ ((cfg1.win 3).blk t).view.set ↔ ∀ a : Fin 2, win1_3.index t a * S10000x128.size a ≤ (i a).val
      ∧ (i a).val < win1_3.index t a * S10000x128.size a + S10000x128.size a := by
  show i ∈ ((View.whole main_v54).slice (win1_3.rect t)).set ↔ _
  rw [View.set_slice_whole, Rect.mem_set_unit]
  exact Iff.rfl

/-- Row `r` of the output array is in the block of point `r / 10000`. -/
theorem cover3 (i : S800000x128.Idx) :
    ∃ t : Fin cfg1.N, (cfg1.win 3).flush t = true ∧ i ∈ ((cfg1.win 3).blk t).view.set := by
  have h0 : (i 0).val < 800000 := (i 0).isLt
  have h1 : (i 1).val < 128 := (i 1).isLt
  have hN : (i 0).val / 10000 < cfg1.N := by show _ < grid1.N; rw [N_1]; omega
  obtain ⟨-, -, -, -, -, -, e0, e1⟩ := idx_facts ⟨(i 0).val / 10000, hN⟩
  refine ⟨⟨(i 0).val / 10000, hN⟩, flush1_3 _, ?_⟩
  rw [mem_blk3]
  intro a
  match a with
  | ⟨0, _⟩ =>
    show win1_3.index ⟨(i 0).val / 10000, hN⟩ (0 : Fin 2) * 10000 ≤ (i 0).val
      ∧ (i 0).val < win1_3.index ⟨(i 0).val / 10000, hN⟩ (0 : Fin 2) * 10000 + 10000
    rw [e0]; show (i 0).val / 10000 * 10000 ≤ (i 0).val ∧ (i 0).val < (i 0).val / 10000 * 10000 + 10000; omega
  | ⟨1, _⟩ =>
    show win1_3.index ⟨(i 0).val / 10000, hN⟩ (1 : Fin 2) * 128 ≤ (i 1).val
      ∧ (i 1).val < win1_3.index ⟨(i 0).val / 10000, hN⟩ (1 : Fin 2) * 128 + 128
    rw [e1]; omega

/-- The output array after the launch is `comb` of the three input arrays. -/
theorem final3 : (dat1 (F := Ideal) V c).arrAt 3 cfg1.N = comb (y0 V c) (y1 V c) (y2 V c) :=
  (dat1 (F := Ideal) V c).arrAt_eq_of_cover 3 (comb (y0 V c) (y1 V c) (y2 V c)) (fun t _ => flushed3_eq V c t) cover3

/-- Coordinate by coordinate: the low half of row `e` is the low combination … -/
theorem out3_lo (e : Fin 800000) (j : Fin 64) :
    (dat1 (F := Ideal) V c).arrAt 3 cfg1.N (ix2 e (lo j)) = combLo (y0 V c) (y1 V c) (y2 V c) e j :=
  (congrFun (final3 V c) (ix2 e (lo j))).trans (comb_lo _ _ _ e j)

/-- … and the high half the high combination. -/
theorem out3_hi (e : Fin 800000) (j : Fin 64) :
    (dat1 (F := Ideal) V c).arrAt 3 cfg1.N (ix2 e (hi j)) = combHi (y0 V c) (y1 V c) (y2 V c) e j :=
  (congrFun (final3 V c) (ix2 e (hi j))).trans (comb_hi _ _ _ e j)

end Cert.KernelIdeal.Reg1

end
-- ==== Proof.Region2Value.lean ====
/-
  What the node-finalize launch leaves in its two output arrays, as functions of its input arrays.

  Every grid point reads row block t (5000 rows) of four node tables and the whole gain row and offset row. The first
  output's block is the layer normalisation of the rectified sum of the first two tables' blocks: per row, the mean and
  the variance over the 64 features (each a sum from the zero word divided by the word 64), the centred entry times the
  reciprocal square root of the variance plus the small word, times the gain, plus the offset. The second output's block
  is the tanh of the sum of the other two tables' blocks. The ten row blocks tile the 50000 rows, so each output array is
  the same function of the input arrays, coordinate by coordinate.
-/
import proofs.«430657_j46961172414536_3_alg».proof.Proof.Gen.KernelIdeal.Frame
import proofs.«430657_j46961172414536_3_alg».proof.Proof.Forms
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.Reg2

open Idealize.ShloMosaic Idealize.ShloMosaic.ValueIdx Idealize.ShloMosaic.TcCoe Idealize.SL.Sem
open Idealize.ShloMosaic.Pipeline (Dat)
open Cert.KernelIdeal Cert.KernelIdeal.Gen Cert.Forms

/-! ## Layout operations of the body read at a coordinate -/

/-- A column `[a]` kept as `[a, 1]` reads, at `(p, u)`, the vector at `p`. -/
theorem shapeCast_a_a1_apply {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, q)`, the column at `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The sum over the 64 lanes of a row of a block, from the neutral accumulator. -/
theorem laneSum_apply (src : FVec Ideal S5000x64 .f32) (h : S5000x64.Reduces [1] S5000) (hφ : FKind.Formats .f32)
    (hacc : (0x00000000#32 : BitVec 32) = 0x00000000#32) (p : Fin 5000) :
    multiReduction (F := Ideal) .add [1] S5000 src 0x00000000#32 h hφ hacc (ix1 p)
      = ∑ k : Fin 64, src (ix2 p k) := by
  refine (Ideal.multiReduction_add_single src 0x00000000#32 h hφ hacc (ix1 p)).trans ?_
  refine Finset.sum_congr rfl fun k _ => congrArg src ?_
  funext a
  match a with
  | ⟨0, _⟩ => rfl
  | ⟨1, _⟩ => rfl

/-! ## The body's two payloads at a coordinate -/

/-- A reciprocal square root, and a tanh, of a block read at an index. -/
theorem rsqrt_apply {s : Shape} (x : FVec Ideal s .f32) (i : s.Idx) : rsqrt x i = Ideal.rsqrt (x i) := rfl
theorem tanh_apply {s : Shape} (x : FVec Ideal s .f32) (i : s.Idx) : tanh x i = Ideal.tanh (x i) := rfl

/-- The mean and the variance with the zero word's sum written without it. -/
theorem mean64_eq {n : Nat} (x : Fin n → Fin 64 → EReal) (r : Fin n) :
    mean64 x r = Ideal.div (∑ j : Fin 64, x r j) c64 := by
  unfold mean64; rw [show (zero : EReal) = 0 from Ideal.ofBits_zero_f32, zero_add]
theorem var64_eq {n : Nat} (x : Fin n → Fin 64 → EReal) (r : Fin n) :
    var64 x r = Ideal.div (∑ j : Fin 64, centred x r j * centred x r j) c64 := by
  unfold var64; rw [show (zero : EReal) = 0 from Ideal.ofBits_zero_f32, zero_add]

/-- The first output's payload at a coordinate: the layer normalisation of the rectified sum of the two blocks. -/
theorem pay1_apply (v0 v2 : Vec Ideal S5000x64 .f32) (v23 v27 : Vec Ideal S1x64 .f32) (p : Fin 5000) (q : Fin 64) :
    k2_pay1 (F := Ideal) v0 v2 v23 v27 (ix2 p q)
      = layerNorm (reluSum (cur (a := 5000) (b := 64) v0) (cur (a := 5000) (b := 64) v2))
          (fun j => v23 (ix2 (0 : Fin 1) j)) (fun j => v27 (ix2 (0 : Fin 1) j)) p q := by
  unfold k2_pay1
  simp only [shapeCast_self, addf_apply, mulf_apply, subf_apply, divf_apply, maximumf_apply, broadcast_apply,
    broadcastTo_a1_ab_apply, broadcastTo_1b_ab_apply, shapeCast_a_a1_apply, rsqrt_apply]
  rw [laneSum_apply, laneSum_apply]
  simp only [addf_apply, mulf_apply, subf_apply, divf_apply, maximumf_apply, broadcast_apply,
    broadcastTo_a1_ab_apply, shapeCast_a_a1_apply]
  rw [laneSum_apply]
  simp only [maximumf_apply, addf_apply, broadcast_apply, layerNorm, var64_eq, centred, mean64_eq, reluSum, cur]
  rfl

/-- The second output's payload at a coordinate: the tanh of the sum of the two blocks. -/
theorem pay2_apply (v32 v34 : Vec Ideal S5000x64 .f32) (p : Fin 5000) (q : Fin 64) :
    k2_pay2 (F := Ideal) v32 v34 (ix2 p q) = Ideal.tanh (v32 (ix2 p q) + v34 (ix2 p q)) := by
  unfold k2_pay2
  simp only [shapeCast_self]
  rfl

/-! ## The blocks as rows of the arrays -/

/-- The first output's block at a coordinate, once each input block's rows are rows of an array. -/
theorem blk6_apply (x0 x1 : Vec Ideal S5000x64 .f32) (x4 x5 : Vec Ideal S1x64 .f32) (A0 A1 : Arr 50000 64) (A4 A5 : Arr 1 64)
    (j : S5000x64.Idx) (r : Fin 50000) (s : Fin 64) (hs : s.val = (j 1).val)
    (h0 : ∀ k : Fin 64, x0 (ix2 (j 0) k) = A0 (ix2 r k)) (h1 : ∀ k : Fin 64, x1 (ix2 (j 0) k) = A1 (ix2 r k))
    (h4 : ∀ k : Fin 64, x4 (ix2 (0 : Fin 1) k) = A4 (ix2 (0 : Fin 1) k))
    (h5 : ∀ k : Fin 64, x5 (ix2 (0 : Fin 1) k) = A5 (ix2 (0 : Fin 1) k)) :
    k2_pay1 (F := Ideal) x0 x1 x4 x5 j = hout2 A0 A1 A4 A5 r s := by
  obtain rfl : s = j 1 := Fin.ext hs
  obtain ⟨p, q, rfl⟩ : ∃ (p : Fin 5000) (q : Fin 64), j = ix2 p q := ⟨j 0, j 1, eq_ix2 j⟩
  rw [pay1_apply]
  show layerNorm (reluSum (cur (a := 5000) (b := 64) x0) (cur (a := 5000) (b := 64) x1)) _ _ p q
    = layerNorm (reluSum (cur A0) (cur A1)) (fun j => A4 (ix2 (0 : Fin 1) j)) (fun j => A5 (ix2 (0 : Fin 1) j)) r q
  have h0' : ∀ k : Fin 64, x0 (ix2 p k) = A0 (ix2 r k) := h0
  have h1' : ∀ k : Fin 64, x1 (ix2 p k) = A1 (ix2 r k) := h1
  simp only [layerNorm, var64, centred, mean64, reluSum, cur, h0', h1', h4, h5]

/-- The second output's block at a coordinate, likewise. -/
theorem blk7_apply (x2 x3 : Vec Ideal S5000x64 .f32) (A2 A3 : Arr 50000 64)
    (j : S5000x64.Idx) (r : Fin 50000) (s : Fin 64)
    (h2 : x2 j = A2 (ix2 r s)) (h3 : x3 j = A3 (ix2 r s)) :
    k2_pay2 (F := Ideal) x2 x3 j = pout2 A2 A3 r s := by
  obtain ⟨p, q, rfl⟩ : ∃ (p : Fin 5000) (q : Fin 64), j = ix2 p q := ⟨j 0, j 1, eq_ix2 j⟩
  rw [pay2_apply, h2, h3]
  rfl

/-! ## The arrays the launch finds, and what it leaves -/

variable (V : (c : Dev nD) → (b : Ref sig .tc) → Buf (Elt Ideal) ((c : Thread nD τ).loc b)) (c : Dev nD)

/-- The six input arrays as the launch finds them: four node tables, the gain row, the offset row. -/
abbrev z0 : Arr 50000 64 := V c (Pipeline.arrRef spec2 0)
abbrev z1 : Arr 50000 64 := V c (Pipeline.arrRef spec2 1)
abbrev z2 : Arr 50000 64 := V c (Pipeline.arrRef spec2 2)
abbrev z3 : Arr 50000 64 := V c (Pipeline.arrRef spec2 3)
abbrev z4 : Arr 1 64 := V c (Pipeline.arrRef spec2 4)
abbrev z5 : Arr 1 64 := V c (Pipeline.arrRef spec2 5)

/-- The two output arrays as functions of the input arrays, index by index. -/
def G6 : Arr 50000 64 := fun i => hout2 (z0 V c) (z1 V c) (z4 V c) (z5 V c) (i 0) (i 1)
def G7 : Arr 50000 64 := fun i => pout2 (z2 V c) (z3 V c) (i 0) (i 1)

theorem hz : (![0, 0] : Fin 2 → Nat) = fun _ => 0 := funext fun a => by fin_cases a <;> rfl

/-- The index maps over the grid: the node tables and the outputs sit at row block `t`, column block 0; the two rows at
    block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ win2_7.index t (0 : Fin 2) = t.val ∧ win2_7.index t (1 : Fin 2) = 0 :=
  (by decide +kernel : ∀ t : Fin grid2.N, _)

/-- What point `t` writes back into the first output is block `t` of `G6`. -/
theorem flushed6_eq (t : Fin cfg2.N) :
    (dat2 (F := Ideal) V c).flushed 6 t = ((cfg2.win 6).blk t).view.read (Elt Ideal) (G6 V c) := by
  show (cfg2.win 6).cut (grid2.coords t) ((dat2 (F := Ideal) V c).after 6 t) = _
  rw [after2_6]
  unfold out2_6
  rw [View.canon_unit_zero hz]
  simp only [View.ld_unit_zero (S := S5000x64) hz, View.ld_unit_zero (S := S1x64) hz]
  obtain ⟨e00, e01, e10, e11, e20, e21, e30, e31, e40, e41, e50, e51, e60, e61, e70, e71⟩ := idx_facts t
  funext j
  show k2_pay1 (F := Ideal) (iblk2 V c 0 t) (iblk2 V c 1 t) (iblk2 V c 4 t) (iblk2 V c 5 t) j
    = hout2 (z0 V c) (z1 V c) (z4 V c) (z5 V c) ((((cfg2.win 6).blk t).view.emb j) 0) ((((cfg2.win 6).blk t).view.emb j) 1)
  refine blk6_apply _ _ _ _ (z0 V c) (z1 V c) (z4 V c) (z5 V c) j _ _ ?_ ?_ ?_ ?_ ?_
  · show win2_6.index t (1 : Fin 2) * 64 + 1 * (j 1).val = (j 1).val; omega
  · intro k
    show V c (Pipeline.arrRef spec2 0) (((cfg2.win 0).blk t).view.emb (ix2 (j 0) k))
      = V c (Pipeline.arrRef spec2 0) (ix2 (((cfg2.win 6).blk t).view.emb j 0) k)
    refine congrArg _ (funext fun a => Fin.ext ?_)
    match a with
    | ⟨0, _⟩ => show win2_0.index t (0 : Fin 2) * 5000 + 1 * (j 0).val = win2_6.index t (0 : Fin 2) * 5000 + 1 * (j 0).val; omega
    | ⟨1, _⟩ => show win2_0.index t (1 : Fin 2) * 64 + 1 * k.val = k.val; omega
  · intro k
    show V c (Pipeline.arrRef spec2 1) (((cfg2.win 1).blk t).view.emb (ix2 (j 0) k))
      = V c (Pipeline.arrRef spec2 1) (ix2 (((cfg2.win 6).blk t).view.emb j 0) k)
    refine congrArg _ (funext fun a => Fin.ext ?_)
    match a with
    | ⟨0, _⟩ => show win2_1.index t (0 : Fin 2) * 5000 + 1 * (j 0).val = win2_6.index t (0 : Fin 2) * 5000 + 1 * (j 0).val; omega
    | ⟨1, _⟩ => show win2_1.index t (1 : Fin 2) * 64 + 1 * k.val = k.val; omega
  · intro k
    show V c (Pipeline.arrRef spec2 4) (((cfg2.win 4).blk t).view.emb (ix2 (0 : Fin 1) k))
      = V c (Pipeline.arrRef spec2 4) (ix2 (0 : Fin 1) k)
    refine congrArg _ (funext fun a => Fin.ext ?_)
    match a with
    | ⟨0, _⟩ => show win2_4.index t (0 : Fin 2) * 1 + 1 * 0 = 0; omega
    | ⟨1, _⟩ => show win2_4.index t (1 : Fin 2) * 64 + 1 * k.val = k.val; omega
  · intro k
    show V c (Pipeline.arrRef spec2 5) (((cfg2.win 5).blk t).view.emb (ix2 (0 : Fin 1) k))
      = V c (Pipeline.arrRef spec2 5) (ix2 (0 : Fin 1) k)
    refine congrArg _ (funext fun a => Fin.ext ?_)
    match a with
    | ⟨0, _⟩ => show win2_5.index t (0 : Fin 2) * 1 + 1 * 0 = 0; omega
    | ⟨1, _⟩ => show win2_5.index t (1 : Fin 2) * 64 + 1 * k.val = k.val; omega

/-- What point `t` writes back into the second output is block `t` of `G7`. -/
theorem flushed7_eq (t : Fin cfg2.N) :
    (dat2 (F := Ideal) V c).flushed 7 t = ((cfg2.win 7).blk t).view.read (Elt Ideal) (G7 V c) := by
  show (cfg2.win 7).cut (grid2.coords t) ((dat2 (F := Ideal) V c).after 7 t) = _
  rw [after2_7]
  unfold out2_7
  rw [View.canon_unit_zero hz]
  simp only [View.ld_unit_zero (S := S5000x64) hz]
  obtain ⟨e00, e01, e10, e11, e20, e21, e30, e31, e40, e41, e50, e51, e60, e61, e70, e71⟩ := idx_facts t
  funext j
  show k2_pay2 (F := Ideal) (iblk2 V c 2 t) (iblk2 V c 3 t) j
    = pout2 (z2 V c) (z3 V c) ((((cfg2.win 7).blk t).view.emb j) 0) ((((cfg2.win 7).blk t).view.emb j) 1)
  refine blk7_apply _ _ (z2 V c) (z3 V c) j _ _ ?_ ?_
  · show V c (Pipeline.arrRef spec2 2) (((cfg2.win 2).blk t).view.emb j)
      = V c (Pipeline.arrRef spec2 2) (ix2 (((cfg2.win 7).blk t).view.emb j 0) (((cfg2.win 7).blk t).view.emb j 1))
    refine congrArg _ (funext fun a => Fin.ext ?_)
    match a with
    | ⟨0, _⟩ => show win2_2.index t (0 : Fin 2) * 5000 + 1 * (j 0).val = win2_7.index t (0 : Fin 2) * 5000 + 1 * (j 0).val; omega
    | ⟨1, _⟩ => show win2_2.index t (1 : Fin 2) * 64 + 1 * (j 1).val = win2_7.index t (1 : Fin 2) * 64 + 1 * (j 1).val; omega
  · show V c (Pipeline.arrRef spec2 3) (((cfg2.win 3).blk t).view.emb j)
      = V c (Pipeline.arrRef spec2 3) (ix2 (((cfg2.win 7).blk t).view.emb j 0) (((cfg2.win 7).blk t).view.emb j 1))
    refine congrArg _ (funext fun a => Fin.ext ?_)
    match a with
    | ⟨0, _⟩ => show win2_3.index t (0 : Fin 2) * 5000 + 1 * (j 0).val = win2_7.index t (0 : Fin 2) * 5000 + 1 * (j 0).val; omega
    | ⟨1, _⟩ => show win2_3.index t (1 : Fin 2) * 64 + 1 * (j 1).val = win2_7.index t (1 : Fin 2) * 64 + 1 * (j 1).val; omega

/-! ## The cover, and the arrays after the launch -/

/-- An index of the output array is in point `t`'s block iff each coordinate is in the block's range on its axis. -/
theorem mem_blk6 (t : Fin cfg2.N) (i : S50000x64.Idx) :
    i ∈ ((cfg2.win 6).blk t).view.set ↔ ∀ a : Fin 2, win2_6.index t a * S5000x64.size a ≤ (i a).val
      ∧ (i a).val < win2_6.index t a * S5000x64.size a + S5000x64.size a := by
  show i ∈ ((View.whole main_v62_0).slice (win2_6.rect t)).set ↔ _
  rw [View.set_slice_whole, Rect.mem_set_unit]
  exact Iff.rfl

/-- Row `r` lies in the block of point `r / 5000`: the ten row blocks cover the array. -/
theorem cover6 (i : S50000x64.Idx) :
    ∃ t : Fin cfg2.N, (cfg2.win 6).flush t = true ∧ i ∈ ((cfg2.win 6).blk t).view.set := by
  have hi0 : (i 0).val < 50000 := (i 0).isLt
  have hi1 : (i 1).val < 64 := (i 1).isLt
  have hN : cfg2.N = 10 := N_2
  have hlt : (i 0).val / 5000 < cfg2.N := by rw [hN]; omega
  obtain ⟨e00, e01, e10, e11, e20, e21, e30, e31, e40, e41, e50, e51, e60, e61, e70, e71⟩ := idx_facts ⟨(i 0).val / 5000, hlt⟩
  refine ⟨⟨(i 0).val / 5000, hlt⟩, flush2_6 _, ?_⟩
  rw [mem_blk6]
  intro a
  match a with
  | ⟨0, _⟩ =>
    show win2_6.index ⟨(i 0).val / 5000, hlt⟩ (0 : Fin 2) * 5000 ≤ (i 0).val
      ∧ (i 0).val < win2_6.index ⟨(i 0).val / 5000, hlt⟩ (0 : Fin 2) * 5000 + 5000
    rw [e60]
    show (i 0).val / 5000 * 5000 ≤ (i 0).val ∧ (i 0).val < (i 0).val / 5000 * 5000 + 5000
    omega
  | ⟨1, _⟩ =>
    show win2_6.index ⟨(i 0).val / 5000, hlt⟩ (1 : Fin 2) * 64 ≤ (i 1).val
      ∧ (i 1).val < win2_6.index ⟨(i 0).val / 5000, hlt⟩ (1 : Fin 2) * 64 + 64
    rw [e61]
    omega

/-- An index of the output array is in point `t`'s block iff each coordinate is in the block's range on its axis. -/
theorem mem_blk7 (t : Fin cfg2.N) (i : S50000x64.Idx) :
    i ∈ ((cfg2.win 7).blk t).view.set ↔ ∀ a : Fin 2, win2_7.index t a * S5000x64.size a ≤ (i a).val
      ∧ (i a).val < win2_7.index t a * S5000x64.size a + S5000x64.size a := by
  show i ∈ ((View.whole main_v62_1).slice (win2_7.rect t)).set ↔ _
  rw [View.set_slice_whole, Rect.mem_set_unit]
  exact Iff.rfl

/-- Row `r` lies in the block of point `r / 5000`: the ten row blocks cover the array. -/
theorem cover7 (i : S50000x64.Idx) :
    ∃ t : Fin cfg2.N, (cfg2.win 7).flush t = true ∧ i ∈ ((cfg2.win 7).blk t).view.set := by
  have hi0 : (i 0).val < 50000 := (i 0).isLt
  have hi1 : (i 1).val < 64 := (i 1).isLt
  have hN : cfg2.N = 10 := N_2
  have hlt : (i 0).val / 5000 < cfg2.N := by rw [hN]; omega
  obtain ⟨e00, e01, e10, e11, e20, e21, e30, e31, e40, e41, e50, e51, e60, e61, e70, e71⟩ := idx_facts ⟨(i 0).val / 5000, hlt⟩
  refine ⟨⟨(i 0).val / 5000, hlt⟩, flush2_7 _, ?_⟩
  rw [mem_blk7]
  intro a
  match a with
  | ⟨0, _⟩ =>
    show win2_7.index ⟨(i 0).val / 5000, hlt⟩ (0 : Fin 2) * 5000 ≤ (i 0).val
      ∧ (i 0).val < win2_7.index ⟨(i 0).val / 5000, hlt⟩ (0 : Fin 2) * 5000 + 5000
    rw [e70]
    show (i 0).val / 5000 * 5000 ≤ (i 0).val ∧ (i 0).val < (i 0).val / 5000 * 5000 + 5000
    omega
  | ⟨1, _⟩ =>
    show win2_7.index ⟨(i 0).val / 5000, hlt⟩ (1 : Fin 2) * 64 ≤ (i 1).val
      ∧ (i 1).val < win2_7.index ⟨(i 0).val / 5000, hlt⟩ (1 : Fin 2) * 64 + 64
    rw [e71]
    omega

/-- The first output array after the launch is `G6` of the input arrays; the second is `G7`. -/
theorem final6 : (dat2 (F := Ideal) V c).arrAt 6 cfg2.N = G6 V c :=
  (dat2 (F := Ideal) V c).arrAt_eq_of_cover 6 (G6 V c) (fun t _ => flushed6_eq V c t) cover6
theorem final7 : (dat2 (F := Ideal) V c).arrAt 7 cfg2.N = G7 V c :=
  (dat2 (F := Ideal) V c).arrAt_eq_of_cover 7 (G7 V c) (fun t _ => flushed7_eq V c t) cover7

/-- Coordinate by coordinate: the layer normalisation of the rectified sum of the first two tables' rows with the gain
    and offset rows, and the tanh of the sum of the other two tables. -/
theorem out6 (r : Fin 50000) (j : Fin 64) :
    (dat2 (F := Ideal) V c).arrAt 6 cfg2.N (ix2 r j) = hout2 (z0 V c) (z1 V c) (z4 V c) (z5 V c) r j :=
  (congrFun (final6 V c) (ix2 r j)).trans rfl
theorem out7 (r : Fin 50000) (j : Fin 64) :
    (dat2 (F := Ideal) V c).arrAt 7 cfg2.N (ix2 r j) = pout2 (z2 V c) (z3 V c) r j :=
  (congrFun (final7 V c) (ix2 r j)).trans rfl

end Cert.KernelIdeal.Reg2

end
-- ==== Proof.LibAfterAt.lean ====
/-
  Reading a straight line of operations in which every buffer is written at most once after the place that matters.

  A line `ops` comes with the list `wl` of the references its operations write, position by position. A reference outside
  `wl` keeps its contents over the whole line; the result of the operation at position `k`, if no later operation writes
  it, is that operation's function of what its operands hold after the first `k` operations; and an operand that no operation
  from position `k` on writes holds after the first `k` operations what it holds at the end. Together: each result at
  the END of the line is its operation's function of its operands at the END of the line.
-/
import Idealize.ShloMosaic.Lib.StableHlo.Run

noncomputable section

namespace Idealize.ShloMosaic.StableHlo

open Idealize.SL.Sem

variable {τ : Topo} {sig : RefSig} {Val : EltTy → Type}

/-- A line run to the end is its first `k` operations, then the rest. -/
theorem after_take_drop : ∀ (ops : List (HloOp τ sig Val)) (k : Nat) (V : Valuation τ sig Val),
    after ops V = after (ops.drop k) (after (ops.take k) V)
  | [], k, V => by rw [List.drop_nil, List.take_nil]; rfl
  | _ :: _, 0, _ => rfl
  | op :: ops, k + 1, V => by
    rw [List.drop_succ_cons, List.take_succ_cons, after_cons, after_cons]
    exact after_take_drop ops k _

/-- `wl` lists, position by position, the one reference each operation of `ops` writes. -/
def WritesAre (ops : List (HloOp τ sig Val)) (wl : List (Ref sig .tc)) : Prop :=
  List.Forall₂ (fun op r => op.writes = {Proc.devRef (τ := τ) .tc r}) ops wl

theorem WritesAre.drop {ops : List (HloOp τ sig Val)} {wl : List (Ref sig .tc)} (h : WritesAre ops wl) (k : Nat) :
    WritesAre (ops.drop k) (wl.drop k) := List.forall₂_drop k h

/-- A reference the line never writes keeps its contents. -/
theorem after_of_writesAre {ops : List (HloOp τ sig Val)} {wl : List (Ref sig .tc)} (h : WritesAre ops wl)
    (V : Valuation τ sig Val) {r : Ref sig .tc} (hr : r ∉ wl) :
    after ops V (Proc.devRef .tc r) = V (Proc.devRef .tc r) := by
  induction h generalizing V with
  | nil => rfl
  | cons hop _ ih =>
    rw [after_cons, ih _ (fun hm => hr (List.mem_cons_of_mem _ hm)), HloOp.result_of_not_mem]
    rw [hop, Finset.mem_singleton]
    exact devRef_ne_of_ne (fun e => hr (e ▸ List.mem_cons_self))

/-- The result of the operation at position `k`, not written again, is the operation's result on the first `k`. -/
theorem after_at {ops : List (HloOp τ sig Val)} {wl : List (Ref sig .tc)} (h : WritesAre ops wl)
    (V : Valuation τ sig Val) (k : Nat) {op : HloOp τ sig Val} (hk : ops[k]? = some op) {y : Ref sig .tc}
    (hy : y ∉ wl.drop (k + 1)) :
    after ops V (Proc.devRef .tc y) = op.result (after (ops.take k) V) (Proc.devRef .tc y) := by
  obtain ⟨hlt, hop⟩ := List.getElem?_eq_some_iff.mp hk
  rw [after_take_drop ops k V, List.drop_eq_getElem_cons hlt, hop, after_cons, after_of_writesAre (h.drop (k + 1)) _ hy]

/-- An operand no operation from position `k` on writes: after the first `k` it holds what it holds at the end. -/
theorem after_before {ops : List (HloOp τ sig Val)} {wl : List (Ref sig .tc)} (h : WritesAre ops wl)
    (V : Valuation τ sig Val) (k : Nat) {x : Ref sig .tc} (hx : x ∉ wl.drop k) :
    after (ops.take k) V (Proc.devRef .tc x) = after ops V (Proc.devRef .tc x) := by
  rw [after_take_drop ops k V, after_of_writesAre (h.drop k) _ hx]

section Builders

variable {ops : List (HloOp τ sig Val)} {wl : List (Ref sig .tc)} (h : WritesAre ops wl) (V : Valuation τ sig Val) (k : Nat)
variable {x a b c y : Ref sig .tc}
include h

theorem after_nullary_at {v : y.ty.Contents Val} {hy} (hk : ops[k]? = some (nullary y v hy))
    (hy' : y ∉ wl.drop (k + 1)) : after ops V (Proc.devRef .tc y) = v := by
  rw [after_at h V k hk hy', nullary_result]

theorem after_unary_at {f : x.ty.Contents Val → y.ty.Contents Val} {hx hy} (hk : ops[k]? = some (unary x y f hx hy))
    (hx' : x ∉ wl.drop k) (hy' : y ∉ wl.drop (k + 1)) :
    after ops V (Proc.devRef .tc y) = f (after ops V (Proc.devRef .tc x)) := by
  rw [after_at h V k hk hy', unary_result, ← after_before h V k hx']

theorem after_binary_at {f : a.ty.Contents Val → b.ty.Contents Val → y.ty.Contents Val} {ha hb hy}
    (hk : ops[k]? = some (binary a b y f ha hb hy)) (ha' : a ∉ wl.drop k) (hb' : b ∉ wl.drop k) (hy' : y ∉ wl.drop (k + 1)) :
    after ops V (Proc.devRef .tc y) = f (after ops V (Proc.devRef .tc a)) (after ops V (Proc.devRef .tc b)) := by
  rw [after_at h V k hk hy', binary_result, ← after_before h V k ha', ← after_before h V k hb']

theorem after_ternary_at {f : c.ty.Contents Val → a.ty.Contents Val → b.ty.Contents Val → y.ty.Contents Val} {hc ha hb hy}
    (hk : ops[k]? = some (ternary c a b y f hc ha hb hy)) (hc' : c ∉ wl.drop k) (ha' : a ∉ wl.drop k) (hb' : b ∉ wl.drop k)
    (hy' : y ∉ wl.drop (k + 1)) :
    after ops V (Proc.devRef .tc y)
      = f (after ops V (Proc.devRef .tc c)) (after ops V (Proc.devRef .tc a)) (after ops V (Proc.devRef .tc b)) := by
  rw [after_at h V k hk hy', ternary_result, ← after_before h V k hc', ← after_before h V k ha', ← after_before h V k hb']

theorem after_reshape_at {he : x.ty.elt = y.ty.elt} {hn : x.ty.shape.ShapeCasts y.ty.shape} {hx hy}
    (hk : ops[k]? = some (reshape x y he hn hx hy)) (hx' : x ∉ wl.drop k) (hy' : y ∉ wl.drop (k + 1)) :
    after ops V (Proc.devRef .tc y) = fun i => he ▸ shapeCast y.ty.shape (after ops V (Proc.devRef .tc x)) hn i := by
  rw [after_at h V k hk hy', reshape_result, ← after_before h V k hx']

end Builders

end Idealize.ShloMosaic.StableHlo

end
-- ==== Proof.KStretch0.lean ====
/-
  The first stretch of host operations of the kernel program, read entry by entry.

  The stretch is 45 operations, each writing a buffer of its own: the six node-level affine maps (a product with the
  transposed weight plus the bias broadcast down the rows; two of them over the two node inputs side by side), the
  transpose of the third edge weight, the two positive node tables exp(tanh ·) and exp(1 / (1 + exp(− ·))) of the
  first affine image, and the two 128-wide tables that put an affine image beside a positive table. For any valuation
  the stretch starts from, every buffer the stretch does not write keeps its contents, and each of these buffers
  holds, at every entry, the closed form over the starting valuation's inputs.
-/
import proofs.«430657_j46961172414536_3_alg».proof.Proof.KBufs
import proofs.«430657_j46961172414536_3_alg».proof.Proof.LibAfterAt
import Idealize.ShloMosaic.Lib.StableHlo.Run
import Idealize.ShloMosaic.Lib.Pipeline.Value
import Idealize.ShloMosaic.Lib.ValueLayout
import Idealize.ShloMosaic.PureOps.Ideal.Laws
import Idealize.ShloMosaic.Lib.StackMember

noncomputable section

namespace Cert.KernelIdeal.Val

open Cert.KernelIdeal Cert.KernelIdeal.Gen Cert.Forms Idealize.ShloMosaic Idealize.ShloMosaic.TcCoe Idealize.SL.Sem
open Idealize.ShloMosaic.StableHlo Idealize.ShloMosaic.ValueIdx

variable (U : Valuation τ sig (Elt Ideal))

/-! ## What the stretch writes -/

/-- The references the 45 operations write, in order. -/
abbrev wl_0 : List (Ref sig .tc) := [main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_cst, main_v36, main_v37, main_cst_0, main_v38, main_v39, main_v40, main_v41, main_v42]

theorem writes_0 : WritesAre (hostOps0 (F := Ideal)) wl_0 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl .nil))))))))))))))))))))))))))))))))))))))))))))

/-- Every buffer the stretch does not write keeps its contents. -/
theorem keep_0 (b : Ref sig .tc) (hb : b ∉ wl_0) :
    after (hostOps0 (F := Ideal)) U (Proc.devRef .tc b) = U (Proc.devRef .tc b) :=
  after_of_writesAre writes_0 U hb

/-! ## The operations of an affine map, read at an index -/

/-- The product of a 50000×64 matrix with a 64×64 matrix at an entry: the sum over the contracted coordinate. -/
theorem dot64_apply (x : FVec Ideal S50000x64 .f32) (W : FVec Ideal S64x64 .f32) (r : Fin 50000) (j : Fin 64) :
    Host.dotGeneral (F := Ideal) dot_S50000x64_S64x64_S50000x64_1_0_0_1_n_n none x W (ix2 r j)
      = ∑ k : Fin 64, x (ix2 r k) * W (ix2 k j) :=
  StackMember.dotGeneral_plain_apply (m := 50000) (n := 64) (k := 64) none x W r j

/-- The same for a 50000×128 matrix against a 128×64 matrix. -/
theorem dot128_apply (x : FVec Ideal S50000x128 .f32) (W : FVec Ideal S128x64 .f32) (r : Fin 50000) (j : Fin 64) :
    Host.dotGeneral (F := Ideal) dot_S50000x128_S128x64_S50000x64_1_0_0_1_n_n none x W (ix2 r j)
      = ∑ k : Fin 128, x (ix2 r k) * W (ix2 k j) :=
  StackMember.dotGeneral_plain_apply (m := 50000) (n := 64) (k := 128) none x W r j

/-- A bias vector broadcast to one row and then down the 50000 rows reads, at (r, j), its entry j. -/
theorem bias_apply (b : FVec Ideal S64 .f32) (r : Fin 50000) (j : Fin 64) :
    broadcastInDim S50000x64 ![0, 1] bcast_S1x64_S50000x64_0_1 (broadcastInDim S1x64 ![1] bcast_S64_S1x64_1 b) (ix2 r j)
      = b (ix1 j) :=
  (broadcastInDim_apply _ bcast_S1x64_S50000x64_0_1 _ (ix2 r j) (ix2 (0 : Fin 1) j)
      (fun a => match a with | ⟨0, _⟩ => rfl | ⟨1, _⟩ => rfl)).trans
    (broadcastInDim_apply _ bcast_S64_S1x64_1 b (ix2 (0 : Fin 1) j) (ix1 j) (fun a => match a with | ⟨0, _⟩ => rfl))

/-- Two 64-wide tables side by side read, at (r, k), the first or the second table. -/
theorem concat_apply (x y : FVec Ideal S50000x64 .f32) (r : Fin 50000) (k : Fin 128) :
    concatenate S50000x128 1 [⟨S50000x64, x⟩, ⟨S50000x64, y⟩] concatenates_S50000x64_S50000x64_S50000x128_d1 (ix2 r k)
      = cat x y r k := by
  unfold cat
  split
  · next h =>
    exact concatenate_pair_apply_left 1 x y _ (ix2 r k) rfl (ix2 r ⟨k.val, h⟩)
      (fun b => match b with | ⟨0, _⟩ => rfl | ⟨1, _⟩ => rfl)
  · next h =>
    exact concatenate_pair_apply_right 1 x y _ (ix2 r k) rfl rfl (ix2 r ⟨k.val - 64, by omega⟩)
      (fun b hb => match b with | ⟨0, _⟩ => rfl | ⟨1, _⟩ => absurd rfl hb)
      (by show k.val - 64 + 64 = k.val; omega)

theorem concat_lo (x y : FVec Ideal S50000x64 .f32) (r : Fin 50000) (j : Fin 64) :
    concatenate S50000x128 1 [⟨S50000x64, x⟩, ⟨S50000x64, y⟩] concatenates_S50000x64_S50000x64_S50000x128_d1 (ix2 r (lo j))
      = x (ix2 r j) :=
  concatenate_pair_apply_left 1 x y _ (ix2 r (lo j)) rfl (ix2 r j)
    (fun b => match b with | ⟨0, _⟩ => rfl | ⟨1, _⟩ => rfl)

theorem concat_hi (x y : FVec Ideal S50000x64 .f32) (r : Fin 50000) (j : Fin 64) :
    concatenate S50000x128 1 [⟨S50000x64, x⟩, ⟨S50000x64, y⟩] concatenates_S50000x64_S50000x64_S50000x128_d1 (ix2 r (hi j))
      = y (ix2 r j) :=
  concatenate_pair_apply_right 1 x y _ (ix2 r (hi j)) rfl rfl (ix2 r j)
    (fun b hb => match b with | ⟨0, _⟩ => rfl | ⟨1, _⟩ => absurd rfl hb) rfl

/-- x Wᵀ + b for a 64-feature input. -/
theorem affine64 (x : FVec Ideal S50000x64 .f32) (W : FVec Ideal S64x64 .f32) (b : FVec Ideal S64 .f32)
    (r : Fin 50000) (j : Fin 64) :
    addf (Host.dotGeneral (F := Ideal) dot_S50000x64_S64x64_S50000x64_1_0_0_1_n_n none x
        (transpose S64x64 [1, 0] W transposes_S64x64_S64x64_1_0))
      (broadcastInDim S50000x64 ![0, 1] bcast_S1x64_S50000x64_0_1 (broadcastInDim S1x64 ![1] bcast_S64_S1x64_1 b)) (ix2 r j)
      = lin64 x W b r j := by
  rw [addf_apply, dot64_apply, bias_apply]
  refine congrArg (· + b (ix1 j)) (Finset.sum_congr rfl fun k _ => ?_)
  exact congrArg (x (ix2 r k) * ·) (transpose_ix2_apply W transposes_S64x64_S64x64_1_0 k j)

/-- concat(x, y) Wᵀ + b against a 128-column weight. -/
theorem affine128 (x y : FVec Ideal S50000x64 .f32) (W : FVec Ideal S64x128 .f32) (b : FVec Ideal S64 .f32)
    (r : Fin 50000) (j : Fin 64) :
    addf (Host.dotGeneral (F := Ideal) dot_S50000x128_S128x64_S50000x64_1_0_0_1_n_n none
        (concatenate S50000x128 1 [⟨S50000x64, x⟩, ⟨S50000x64, y⟩] concatenates_S50000x64_S50000x64_S50000x128_d1)
        (transpose S128x64 [1, 0] W transposes_S64x128_S128x64_1_0))
      (broadcastInDim S50000x64 ![0, 1] bcast_S1x64_S50000x64_0_1 (broadcastInDim S1x64 ![1] bcast_S64_S1x64_1 b)) (ix2 r j)
      = lin128 x y W b r j := by
  rw [addf_apply, dot128_apply, bias_apply]
  refine congrArg (· + b (ix1 j)) (Finset.sum_congr rfl fun k _ => ?_)
  rw [concat_apply]
  exact congrArg (cat x y r k * ·) (transpose_ix2_apply W transposes_S64x128_S128x64_1_0 k j)

/-! ## The arrays after the stretch, as terms over the inputs -/

theorem a_v0 : (after (hostOps0 (F := Ideal)) U (Proc.devRef .tc main_v0) : FVec Ideal S50000x128 .f32) = (concatenate S50000x128 1 [⟨S50000x64, (U (Proc.devRef .tc main_arg0) : FVec Ideal S50000x64 .f32)⟩, ⟨S50000x64, (U (Proc.devRef .tc main_arg2) : FVec Ideal S50000x64 .f32)⟩] concatenates_S50000x64_S50000x64_S50000x128_d1) := by
  rw [after_binary_at writes_0 U 0 rfl (by decide) (by decide) (by decide), keep_0 U main_arg0 (by decide), keep_0 U main_arg2 (by decide)]

theorem a_v5 : (after (hostOps0 (F := Ideal)) U (Proc.devRef .tc main_v5) : FVec Ideal S50000x64 .f32)
    = addf (Host.dotGeneral (F := Ideal) (φ₁ := .f32) (φ₂ := .f32) dot_S50000x128_S128x64_S50000x64_1_0_0_1_n_n none
        (concatenate S50000x128 1 [⟨S50000x64, (U (Proc.devRef .tc main_arg0) : FVec Ideal S50000x64 .f32)⟩, ⟨S50000x64, (U (Proc.devRef .tc main_arg2) : FVec Ideal S50000x64 .f32)⟩] concatenates_S50000x64_S50000x64_S50000x128_d1)
        (transpose S128x64 [1, 0] (U (Proc.devRef .tc main_arg3) : FVec Ideal S64x128 .f32) transposes_S64x128_S128x64_1_0)) (broadcastInDim S50000x64 ![0, 1] bcast_S1x64_S50000x64_0_1 (broadcastInDim S1x64 ![1] bcast_S64_S1x64_1 (U (Proc.devRef .tc main_arg4) : FVec Ideal S64 .f32))) := by
  rw [after_binary_at writes_0 U 5 rfl (by decide) (by decide) (by decide), after_binary_at writes_0 U 2 rfl (by decide) (by decide) (by decide), after_unary_at writes_0 U 4 rfl (by decide) (by decide), after_unary_at writes_0 U 3 rfl (by decide) (by decide), after_unary_at writes_0 U 1 rfl (by decide) (by decide), a_v0,
    keep_0 U main_arg3 (by decide), keep_0 U main_arg4 (by decide)]

theorem a_v10 : (after (hostOps0 (F := Ideal)) U (Proc.devRef .tc main_v10) : FVec Ideal S50000x64 .f32)
    = addf (Host.dotGeneral (F := Ideal) (φ₁ := .f32) (φ₂ := .f32) dot_S50000x128_S128x64_S50000x64_1_0_0_1_n_n none
        (concatenate S50000x128 1 [⟨S50000x64, (U (Proc.devRef .tc main_arg0) : FVec Ideal S50000x64 .f32)⟩, ⟨S50000x64, (U (Proc.devRef .tc main_arg2) : FVec Ideal S50000x64 .f32)⟩] concatenates_S50000x64_S50000x64_S50000x128_d1)
        (transpose S128x64 [1, 0] (U (Proc.devRef .tc main_arg5) : FVec Ideal S64x128 .f32) transposes_S64x128_S128x64_1_0)) (broadcastInDim S50000x64 ![0, 1] bcast_S1x64_S50000x64_0_1 (broadcastInDim S1x64 ![1] bcast_S64_S1x64_1 (U (Proc.devRef .tc main_arg6) : FVec Ideal S64 .f32))) := by
  rw [after_binary_at writes_0 U 10 rfl (by decide) (by decide) (by decide), after_binary_at writes_0 U 7 rfl (by decide) (by decide) (by decide), after_unary_at writes_0 U 9 rfl (by decide) (by decide), after_unary_at writes_0 U 8 rfl (by decide) (by decide), after_unary_at writes_0 U 6 rfl (by decide) (by decide), a_v0,
    keep_0 U main_arg5 (by decide), keep_0 U main_arg6 (by decide)]

theorem a_v15 : (after (hostOps0 (F := Ideal)) U (Proc.devRef .tc main_v15) : FVec Ideal S50000x64 .f32)
    = addf (Host.dotGeneral (F := Ideal) (φ₁ := .f32) (φ₂ := .f32) dot_S50000x64_S64x64_S50000x64_1_0_0_1_n_n none (U (Proc.devRef .tc main_arg0) : FVec Ideal S50000x64 .f32)
        (transpose S64x64 [1, 0] (U (Proc.devRef .tc main_arg7) : FVec Ideal S64x64 .f32) transposes_S64x64_S64x64_1_0)) (broadcastInDim S50000x64 ![0, 1] bcast_S1x64_S50000x64_0_1 (broadcastInDim S1x64 ![1] bcast_S64_S1x64_1 (U (Proc.devRef .tc main_arg8) : FVec Ideal S64 .f32))) := by
  rw [after_binary_at writes_0 U 15 rfl (by decide) (by decide) (by decide), after_binary_at writes_0 U 12 rfl (by decide) (by decide) (by decide), after_unary_at writes_0 U 14 rfl (by decide) (by decide), after_unary_at writes_0 U 13 rfl (by decide) (by decide), after_unary_at writes_0 U 11 rfl (by decide) (by decide),
    keep_0 U main_arg0 (by decide), keep_0 U main_arg7 (by decide), keep_0 U main_arg8 (by decide)]

theorem a_v20 : (after (hostOps0 (F := Ideal)) U (Proc.devRef .tc main_v20) : FVec Ideal S50000x64 .f32)
    = addf (Host.dotGeneral (F := Ideal) (φ₁ := .f32) (φ₂ := .f32) dot_S50000x64_S64x64_S50000x64_1_0_0_1_n_n none (U (Proc.devRef .tc main_arg0) : FVec Ideal S50000x64 .f32)
        (transpose S64x64 [1, 0] (U (Proc.devRef .tc main_arg9) : FVec Ideal S64x64 .f32) transposes_S64x64_S64x64_1_0)) (broadcastInDim S50000x64 ![0, 1] bcast_S1x64_S50000x64_0_1 (broadcastInDim S1x64 ![1] bcast_S64_S1x64_1 (U (Proc.devRef .tc main_arg10) : FVec Ideal S64 .f32))) := by
  rw [after_binary_at writes_0 U 20 rfl (by decide) (by decide) (by decide), after_binary_at writes_0 U 17 rfl (by decide) (by decide) (by decide), after_unary_at writes_0 U 19 rfl (by decide) (by decide), after_unary_at writes_0 U 18 rfl (by decide) (by decide), after_unary_at writes_0 U 16 rfl (by decide) (by decide),
    keep_0 U main_arg0 (by decide), keep_0 U main_arg9 (by decide), keep_0 U main_arg10 (by decide)]

theorem a_v25 : (after (hostOps0 (F := Ideal)) U (Proc.devRef .tc main_v25) : FVec Ideal S50000x64 .f32)
    = addf (Host.dotGeneral (F := Ideal) (φ₁ := .f32) (φ₂ := .f32) dot_S50000x64_S64x64_S50000x64_1_0_0_1_n_n none (U (Proc.devRef .tc main_arg2) : FVec Ideal S50000x64 .f32)
        (transpose S64x64 [1, 0] (U (Proc.devRef .tc main_arg13) : FVec Ideal S64x64 .f32) transposes_S64x64_S64x64_1_0)) (broadcastInDim S50000x64 ![0, 1] bcast_S1x64_S50000x64_0_1 (broadcastInDim S1x64 ![1] bcast_S64_S1x64_1 (U (Proc.devRef .tc main_arg14) : FVec Ideal S64 .f32))) := by
  rw [after_binary_at writes_0 U 25 rfl (by decide) (by decide) (by decide), after_binary_at writes_0 U 22 rfl (by decide) (by decide) (by decide), after_unary_at writes_0 U 24 rfl (by decide) (by decide), after_unary_at writes_0 U 23 rfl (by decide) (by decide), after_unary_at writes_0 U 21 rfl (by decide) (by decide),
    keep_0 U main_arg2 (by decide), keep_0 U main_arg13 (by decide), keep_0 U main_arg14 (by decide)]

theorem a_v30 : (after (hostOps0 (F := Ideal)) U (Proc.devRef .tc main_v30) : FVec Ideal S50000x64 .f32)
    = addf (Host.dotGeneral (F := Ideal) (φ₁ := .f32) (φ₂ := .f32) dot_S50000x64_S64x64_S50000x64_1_0_0_1_n_n none (U (Proc.devRef .tc main_arg2) : FVec Ideal S50000x64 .f32)
        (transpose S64x64 [1, 0] (U (Proc.devRef .tc main_arg15) : FVec Ideal S64x64 .f32) transposes_S64x64_S64x64_1_0)) (broadcastInDim S50000x64 ![0, 1] bcast_S1x64_S50000x64_0_1 (broadcastInDim S1x64 ![1] bcast_S64_S1x64_1 (U (Proc.devRef .tc main_arg16) : FVec Ideal S64 .f32))) := by
  rw [after_binary_at writes_0 U 30 rfl (by decide) (by decide) (by decide), after_binary_at writes_0 U 27 rfl (by decide) (by decide) (by decide), after_unary_at writes_0 U 29 rfl (by decide) (by decide), after_unary_at writes_0 U 28 rfl (by decide) (by decide), after_unary_at writes_0 U 26 rfl (by decide) (by decide),
    keep_0 U main_arg2 (by decide), keep_0 U main_arg15 (by decide), keep_0 U main_arg16 (by decide)]

theorem a_v31 : (after (hostOps0 (F := Ideal)) U (Proc.devRef .tc main_v31) : FVec Ideal S64x64 .f32) = transpose S64x64 [1, 0] (U (Proc.devRef .tc main_arg11) : FVec Ideal S64x64 .f32) transposes_S64x64_S64x64_1_0 := by
  rw [after_unary_at writes_0 U 31 rfl (by decide) (by decide), keep_0 U main_arg11 (by decide)]

theorem a_v33 : (after (hostOps0 (F := Ideal)) U (Proc.devRef .tc main_v33) : FVec Ideal S50000x64 .f32) = Host.exp (F := Ideal) (s := S50000x64) (φ := .f32) (Host.tanh (F := Ideal) (s := S50000x64) (φ := .f32) (after (hostOps0 (F := Ideal)) U (Proc.devRef .tc main_v5) : FVec Ideal S50000x64 .f32)) := by
  rw [after_unary_at writes_0 U 33 rfl (by decide) (by decide), after_unary_at writes_0 U 32 rfl (by decide) (by decide)]

theorem a_v40 : (after (hostOps0 (F := Ideal)) U (Proc.devRef .tc main_v40) : FVec Ideal S50000x64 .f32)
    = Host.exp (F := Ideal) (s := S50000x64) (φ := .f32) (Host.divf (F := Ideal) (s := S50000x64) (φ := .f32) (broadcastInDim S50000x64 ![] bcast_S_S50000x64 (constant (F := Ideal) S_ .f32 0x3F800000#32))
        (addf (F := Ideal) (s := S50000x64) (φ := .f32) (broadcastInDim S50000x64 ![] bcast_S_S50000x64 (constant (F := Ideal) S_ .f32 0x3F800000#32))
          (Host.exp (F := Ideal) (s := S50000x64) (φ := .f32) (Host.negf (F := Ideal) (s := S50000x64) (φ := .f32) (after (hostOps0 (F := Ideal)) U (Proc.devRef .tc main_v5) : FVec Ideal S50000x64 .f32))))) := by
  rw [after_unary_at writes_0 U 42 rfl (by decide) (by decide), after_binary_at writes_0 U 41 rfl (by decide) (by decide) (by decide), after_unary_at writes_0 U 40 rfl (by decide) (by decide), after_nullary_at writes_0 U 39 rfl (by decide), after_binary_at writes_0 U 38 rfl (by decide) (by decide) (by decide), after_unary_at writes_0 U 37 rfl (by decide) (by decide), after_nullary_at writes_0 U 36 rfl (by decide), after_unary_at writes_0 U 35 rfl (by decide) (by decide), after_unary_at writes_0 U 34 rfl (by decide) (by decide)]

theorem a_v41 : (after (hostOps0 (F := Ideal)) U (Proc.devRef .tc main_v41) : FVec Ideal S50000x128 .f32) = (concatenate S50000x128 1 [⟨S50000x64, (after (hostOps0 (F := Ideal)) U (Proc.devRef .tc main_v15) : FVec Ideal S50000x64 .f32)⟩, ⟨S50000x64, (after (hostOps0 (F := Ideal)) U (Proc.devRef .tc main_v33) : FVec Ideal S50000x64 .f32)⟩] concatenates_S50000x64_S50000x64_S50000x128_d1) := by
  rw [after_binary_at writes_0 U 43 rfl (by decide) (by decide) (by decide)]

theorem a_v42 : (after (hostOps0 (F := Ideal)) U (Proc.devRef .tc main_v42) : FVec Ideal S50000x128 .f32) = (concatenate S50000x128 1 [⟨S50000x64, (after (hostOps0 (F := Ideal)) U (Proc.devRef .tc main_v20) : FVec Ideal S50000x64 .f32)⟩, ⟨S50000x64, (after (hostOps0 (F := Ideal)) U (Proc.devRef .tc main_v40) : FVec Ideal S50000x64 .f32)⟩] concatenates_S50000x64_S50000x64_S50000x128_d1) := by
  rw [after_binary_at writes_0 U 44 rfl (by decide) (by decide) (by decide)]

/-! ## The buffers after the stretch, entry by entry -/

/-- The second positive table's entry as a function of the affine image's entry: every operation is pointwise and
    the two constant arrays hold the word of 1. -/
theorem posK_apply (A : FVec Ideal S50000x64 .f32) (i : S50000x64.Idx) :
    Host.exp (F := Ideal) (s := S50000x64) (φ := .f32) (Host.divf (F := Ideal) (s := S50000x64) (φ := .f32)
        (broadcastInDim S50000x64 ![] bcast_S_S50000x64 (constant (F := Ideal) S_ .f32 0x3F800000#32))
        (addf (F := Ideal) (s := S50000x64) (φ := .f32)
          (broadcastInDim S50000x64 ![] bcast_S_S50000x64 (constant (F := Ideal) S_ .f32 0x3F800000#32))
          (Host.exp (F := Ideal) (s := S50000x64) (φ := .f32) (Host.negf (F := Ideal) (s := S50000x64) (φ := .f32) A)))) i
      = Ideal.exp (Ideal.div one (one + Ideal.exp (-(A i)))) := rfl

/-- The first positive table's entry. -/
theorem posQ_apply (A : FVec Ideal S50000x64 .f32) (i : S50000x64.Idx) :
    Host.exp (F := Ideal) (s := S50000x64) (φ := .f32) (Host.tanh (F := Ideal) (s := S50000x64) (φ := .f32) A) i
      = Ideal.exp (Ideal.tanh (A i)) := rfl

/-- %5 = concat(h, p) · WKᵀ + bK. -/
theorem s0_v5 (r : Fin 50000) (j : Fin 64) :
    b_v5 (after (hostOps0 (F := Ideal)) U) (ix2 r j) = lin128 (inU U).h (inU U).p (inU U).WK (inU U).bK r j :=
  (congrFun (a_v5 U) (ix2 r j)).trans (affine128 (inU U).h (inU U).p (inU U).WK (inU U).bK r j)

/-- %10 = concat(h, p) · WVᵀ + bV. -/
theorem s0_v10 (r : Fin 50000) (j : Fin 64) :
    b_v10 (after (hostOps0 (F := Ideal)) U) (ix2 r j) = lin128 (inU U).h (inU U).p (inU U).WV (inU U).bV r j :=
  (congrFun (a_v10 U) (ix2 r j)).trans (affine128 (inU U).h (inU U).p (inU U).WV (inU U).bV r j)

/-- %15 = h · WB1ᵀ + bB1. -/
theorem s0_v15 (r : Fin 50000) (j : Fin 64) :
    b_v15 (after (hostOps0 (F := Ideal)) U) (ix2 r j) = lin64 (inU U).h (inU U).WB1 (inU U).bB1 r j :=
  (congrFun (a_v15 U) (ix2 r j)).trans (affine64 (inU U).h (inU U).WB1 (inU U).bB1 r j)

/-- %20 = h · WB2ᵀ + bB2. -/
theorem s0_v20 (r : Fin 50000) (j : Fin 64) :
    b_v20 (after (hostOps0 (F := Ideal)) U) (ix2 r j) = lin64 (inU U).h (inU U).WB2 (inU U).bB2 r j :=
  (congrFun (a_v20 U) (ix2 r j)).trans (affine64 (inU U).h (inU U).WB2 (inU U).bB2 r j)

/-- %25 = p · WC1ᵀ + bC1. -/
theorem s0_v25 (r : Fin 50000) (j : Fin 64) :
    b_v25 (after (hostOps0 (F := Ideal)) U) (ix2 r j) = lin64 (inU U).p (inU U).WC1 (inU U).bC1 r j :=
  (congrFun (a_v25 U) (ix2 r j)).trans (affine64 (inU U).p (inU U).WC1 (inU U).bC1 r j)

/-- %30 = p · WC2ᵀ + bC2. -/
theorem s0_v30 (r : Fin 50000) (j : Fin 64) :
    b_v30 (after (hostOps0 (F := Ideal)) U) (ix2 r j) = lin64 (inU U).p (inU U).WC2 (inU U).bC2 r j :=
  (congrFun (a_v30 U) (ix2 r j)).trans (affine64 (inU U).p (inU U).WC2 (inU U).bC2 r j)

/-- %31 is the transpose of the third edge weight. -/
theorem s0_v31 (k j : Fin 64) : b_v31 (after (hostOps0 (F := Ideal)) U) (ix2 k j) = (inU U).WB3 (ix2 j k) :=
  (congrFun (a_v31 U) (ix2 k j)).trans (transpose_ix2_apply (inU U).WB3 transposes_S64x64_S64x64_1_0 k j)

/-- %33 = exp(tanh(%5)). -/
theorem s0_v33 (r : Fin 50000) (j : Fin 64) :
    b_v33 (after (hostOps0 (F := Ideal)) U) (ix2 r j) = Ideal.exp (Ideal.tanh (lin128 (inU U).h (inU U).p (inU U).WK (inU U).bK r j)) :=
  ((congrFun (a_v33 U) (ix2 r j)).trans (posQ_apply _ (ix2 r j))).trans
    (congrArg (fun t => Ideal.exp (Ideal.tanh t)) (s0_v5 U r j))

/-- %40 = exp(1 / (1 + exp(−%5))). -/
theorem s0_v40 (r : Fin 50000) (j : Fin 64) :
    b_v40 (after (hostOps0 (F := Ideal)) U) (ix2 r j)
      = Ideal.exp (Ideal.div one (one + Ideal.exp (-(lin128 (inU U).h (inU U).p (inU U).WK (inU U).bK r j)))) :=
  ((congrFun (a_v40 U) (ix2 r j)).trans (posK_apply _ (ix2 r j))).trans
    (congrArg (fun t => Ideal.exp (Ideal.div one (one + Ideal.exp (-t)))) (s0_v5 U r j))

/-- %41 = concat(%15, %33) along the columns. -/
theorem s0_v41_lo (r : Fin 50000) (j : Fin 64) :
    b_v41 (after (hostOps0 (F := Ideal)) U) (ix2 r (lo j)) = b_v15 (after (hostOps0 (F := Ideal)) U) (ix2 r j) :=
  (congrFun (a_v41 U) (ix2 r (lo j))).trans (concat_lo _ _ r j)

theorem s0_v41_hi (r : Fin 50000) (j : Fin 64) :
    b_v41 (after (hostOps0 (F := Ideal)) U) (ix2 r (hi j)) = b_v33 (after (hostOps0 (F := Ideal)) U) (ix2 r j) :=
  (congrFun (a_v41 U) (ix2 r (hi j))).trans (concat_hi _ _ r j)

/-- %42 = concat(%20, %40) along the columns. -/
theorem s0_v42_lo (r : Fin 50000) (j : Fin 64) :
    b_v42 (after (hostOps0 (F := Ideal)) U) (ix2 r (lo j)) = b_v20 (after (hostOps0 (F := Ideal)) U) (ix2 r j) :=
  (congrFun (a_v42 U) (ix2 r (lo j))).trans (concat_lo _ _ r j)

theorem s0_v42_hi (r : Fin 50000) (j : Fin 64) :
    b_v42 (after (hostOps0 (F := Ideal)) U) (ix2 r (hi j)) = b_v40 (after (hostOps0 (F := Ideal)) U) (ix2 r j) :=
  (congrFun (a_v42 U) (ix2 r (hi j))).trans (concat_hi _ _ r j)

end Cert.KernelIdeal.Val

end
-- ==== Proof.LibRowIndex.lean ====
/-
  Reading a row gather and a row scatter-add at an index.

  `x[idx]` over the rows of a matrix `x : [N, C]` at a column of row numbers `idx : [n, 1]` is the gather whose
  result row `i` is row `idx[i]` of `x`, the number read signed and clamped into `[0, N - 1]`.
  `segment_sum` of the rows of `upd : [n, C]` by the row numbers `idx : [n, 1]` into `x : [R, C]` is the
  scatter with an add body: at the ideal instance element `(r, c)` of the result is `x (r, c)` plus the sum over
  the update rows `i` whose number, read signed and NOT clamped, is `r`, of `upd (i, c)`; a row whose number is
  outside `[0, R)` contributes nowhere.
-/
import Idealize.ShloMosaic.PureOps.Ideal
import Idealize.ShloMosaic.Lib.ValueIdx

noncomputable section

namespace Idealize.ShloMosaic.RowIndex

open Idealize.ShloMosaic Idealize.ShloMosaic.ValueIdx

/-- The dimension numbers of a gather of whole rows: operand `[N, C]`, row numbers `[n, 1]`, result `[n, C]`. -/
abbrev rowGatherDims (N C n : Nat)
    (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- Result element `(i, j)` of a row gather is the operand at row `idx[i, 0]` (signed, clamped), column `j`. -/
theorem gather_rows_apply {α : Type} {N C n w : Nat} (hN : 0 < N)
    (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ w) (i : Fin n) (j : Fin C) :
    Host.gather (rowGatherDims N C n wf) x idx (ix2 i j)
      = x (ix2 (⟨min (idx (ix2 i (0 : Fin 1))).toInt.toNat (N - 1), by omega⟩ : Fin N) j) := by
  unfold Host.gather
  congr 1
  funext a
  refine Fin.ext ?_
  match a with
  | ⟨0, _⟩ =>
    -- the row axis is collapsed and named by the start index map: the clamped row number, no batch or offset part
    show (rowGatherDims N C n wf).start (ix2 i j) idx 0 + (rowGatherDims N C n wf).batchCoord (ix2 i j) 0
        + (rowGatherDims N C n wf).offCoord (ix2 i j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C n wf).startIndexMap from List.mem_singleton.mpr rfl)]
    have hsi : (rowGatherDims N C n wf).siIdx (ix2 i j) ⟨List.idxOf (0 : Fin 2) (rowGatherDims N C n wf).startIndexMap,
        List.idxOf_lt_length_iff.2 (List.mem_singleton.mpr rfl)⟩ = ix2 i (0 : Fin 1) := by
      funext b; refine Fin.ext ?_
      match b with
      | ⟨0, _⟩ => rfl
      | ⟨1, _⟩ => rfl
    rw [hsi]
    rfl
  | ⟨1, _⟩ =>
    -- the column axis is the one offset axis: the slice starts at 0 and the offset is the result's column
    show (rowGatherDims N C n wf).start (ix2 i j) idx 1 + (rowGatherDims N C n wf).batchCoord (ix2 i j) 1
        + (rowGatherDims N C n wf).offCoord (ix2 i j) 1 = j.val
    rw [GatherDims.batchCoord_eq_zero _ _ _ List.not_mem_nil]
    have hs : (rowGatherDims N C n wf).start (ix2 i j) idx 1 = 0 := by
      unfold GatherDims.start
      rw [dif_neg (show (1 : Fin 2) ∉ ([0] : List (Fin 2)) by decide)]
    have ho : (rowGatherDims N C n wf).offCoord (ix2 i j) 1 = j.val := by
      unfold GatherDims.offCoord
      rw [dif_pos ((GatherDims.mem_sKept _ _).2 ⟨show (1 : Fin 2) ∉ ([0] : List (Fin 2)) by decide, List.not_mem_nil⟩)]
      rfl
    rw [hs, ho]; omega

/-- The dimension numbers of a scatter of whole rows: operand `[R, C]`, row numbers `[n, 1]`, updates `[n, C]`. -/
abbrev rowScatterDims (R C n : Nat)
    (wf : ScatterDims.WF ⟨2, ![R, C]⟩ ⟨2, ![n, 1]⟩ ⟨2, ![n, C]⟩ [1] [0] [0] 1) :
    ScatterDims ⟨2, ![R, C]⟩ ⟨2, ![n, 1]⟩ ⟨2, ![n, C]⟩ where
  updateWindowDims := [1]
  insertedWindowDims := [0]
  scatterDimsToOperandDims := [0]
  indexVectorDim := 1
  wf := wf

/-- On the row axis the window of update element `(i, c')` starts at row `i`'s number, read signed. -/
theorem start_rows_zero {R C n w : Nat}
    (wf : ScatterDims.WF ⟨2, ![R, C]⟩ ⟨2, ![n, 1]⟩ ⟨2, ![n, C]⟩ [1] [0] [0] 1)
    (idx : IVec ⟨2, ![n, 1]⟩ w) (i : Fin n) (c' : Fin C) :
    (rowScatterDims R C n wf).start (ix2 i c') idx 0 = (idx (ix2 i (0 : Fin 1))).toInt := by
  unfold ScatterDims.start
  rw [dif_pos (show (0 : Fin 2) ∈ (rowScatterDims R C n wf).scatterDimsToOperandDims from List.mem_singleton.mpr rfl)]
  have hsi : (rowScatterDims R C n wf).siIdx (ix2 i c')
      ⟨List.idxOf (0 : Fin 2) (rowScatterDims R C n wf).scatterDimsToOperandDims,
        List.idxOf_lt_length_iff.2 (List.mem_singleton.mpr rfl)⟩ = ix2 i (0 : Fin 1) := by
    funext b; refine Fin.ext ?_
    match b with
    | ⟨0, _⟩ => rfl
    | ⟨1, _⟩ => rfl
  rw [hsi]

/-- On the column axis, which the scatter indices do not name, the window starts at `0`. -/
theorem start_rows_one {R C n w : Nat}
    (wf : ScatterDims.WF ⟨2, ![R, C]⟩ ⟨2, ![n, 1]⟩ ⟨2, ![n, C]⟩ [1] [0] [0] 1)
    (idx : IVec ⟨2, ![n, 1]⟩ w) (i : Fin n) (c' : Fin C) :
    (rowScatterDims R C n wf).start (ix2 i c') idx 1 = 0 := by
  unfold ScatterDims.start
  rw [dif_neg (show (1 : Fin 2) ∉ ([0] : List (Fin 2)) by decide)]

/-- The row axis is inserted: the window coordinate there is `0`. -/
theorem window_rows_zero {R C n : Nat}
    (wf : ScatterDims.WF ⟨2, ![R, C]⟩ ⟨2, ![n, 1]⟩ ⟨2, ![n, C]⟩ [1] [0] [0] 1)
    (i : Fin n) (c' : Fin C) :
    (rowScatterDims R C n wf).window (ix2 i c') 0 = 0 := by
  unfold ScatterDims.window
  have h : (0 : Fin 2) ∉ (rowScatterDims R C n wf).sKept := by
    show (0 : Fin 2) ∉ (List.finRange 2).filter (· ∉ ([0] : List (Fin 2)))
    decide
  rw [dif_neg h]

/-- The column axis is the one window axis: the window coordinate there is the update's column. -/
theorem window_rows_one {R C n : Nat}
    (wf : ScatterDims.WF ⟨2, ![R, C]⟩ ⟨2, ![n, 1]⟩ ⟨2, ![n, C]⟩ [1] [0] [0] 1)
    (i : Fin n) (c' : Fin C) :
    (rowScatterDims R C n wf).window (ix2 i c') 1 = c'.val := by
  unfold ScatterDims.window
  have h : (1 : Fin 2) ∈ (rowScatterDims R C n wf).sKept := by
    show (1 : Fin 2) ∈ (List.finRange 2).filter (· ∉ ([0] : List (Fin 2)))
    decide
  rw [dif_pos h]
  rfl

/-- Where update element `(i, c')` of a row scatter lands: at `(r, c)` exactly when row `i`'s number is `r` and
    `c' = c`. -/
theorem resultIdx_rows_iff {R C n w : Nat}
    (wf : ScatterDims.WF ⟨2, ![R, C]⟩ ⟨2, ![n, 1]⟩ ⟨2, ![n, C]⟩ [1] [0] [0] 1)
    (idx : IVec ⟨2, ![n, 1]⟩ w) (i : Fin n) (c' : Fin C) (r : Fin R) (c : Fin C) :
    (rowScatterDims R C n wf).resultIdx? (ix2 i c') idx = some (ix2 r c)
      ↔ (idx (ix2 i (0 : Fin 1))).toInt = (r.val : Int) ∧ c' = c := by
  have hs0 := start_rows_zero wf idx i c'
  have hs1 := start_rows_one wf idx i c'
  have hw0 := window_rows_zero wf i c'
  have hw1 := window_rows_one wf i c'
  have hr := r.isLt
  have hc := c.isLt
  have hc' := c'.isLt
  unfold ScatterDims.resultIdx?
  by_cases h : ∀ a : Fin 2, 0 ≤ (rowScatterDims R C n wf).start (ix2 i c') idx a + (rowScatterDims R C n wf).window (ix2 i c') a
      ∧ (rowScatterDims R C n wf).start (ix2 i c') idx a + (rowScatterDims R C n wf).window (ix2 i c') a
          < ((⟨2, ![R, C]⟩ : Shape).size a : Int)
  · -- the window is inside the operand: the landing index is (row number + 0, 0 + c')
    rw [dif_pos h, Option.some.injEq]
    have h0 := h 0
    have h1 := h 1
    rw [hs0, hw0] at h0
    rw [hs1, hw1] at h1
    constructor
    · intro hEq
      have e0 : ((rowScatterDims R C n wf).start (ix2 i c') idx 0 + (rowScatterDims R C n wf).window (ix2 i c') 0).toNat = r.val :=
        congrArg Fin.val (congrFun hEq 0)
      have e1 : ((rowScatterDims R C n wf).start (ix2 i c') idx 1 + (rowScatterDims R C n wf).window (ix2 i c') 1).toNat = c.val :=
        congrArg Fin.val (congrFun hEq 1)
      rw [hs0, hw0] at e0
      rw [hs1, hw1] at e1
      exact ⟨by omega, Fin.ext (by omega)⟩
    · rintro ⟨hrow, hcol⟩
      funext a
      refine Fin.ext ?_
      match a with
      | ⟨0, _⟩ =>
        show ((rowScatterDims R C n wf).start (ix2 i c') idx 0 + (rowScatterDims R C n wf).window (ix2 i c') 0).toNat = r.val
        rw [hs0, hw0]; omega
      | ⟨1, _⟩ =>
        show ((rowScatterDims R C n wf).start (ix2 i c') idx 1 + (rowScatterDims R C n wf).window (ix2 i c') 1).toNat = c.val
        rw [hs1, hw1, hcol]; omega
  · -- the window leaves the operand: the update is dropped, and a row number equal to some `r < R` would be inside
    rw [dif_neg h]
    constructor
    · intro hEq; cases hEq
    · rintro ⟨hrow, hcol⟩
      exfalso; apply h
      intro a
      match a with
      | ⟨0, _⟩ =>
        show 0 ≤ (rowScatterDims R C n wf).start (ix2 i c') idx 0 + (rowScatterDims R C n wf).window (ix2 i c') 0
          ∧ (rowScatterDims R C n wf).start (ix2 i c') idx 0 + (rowScatterDims R C n wf).window (ix2 i c') 0 < (R : Int)
        rw [hs0, hw0]; omega
      | ⟨1, _⟩ =>
        show 0 ≤ (rowScatterDims R C n wf).start (ix2 i c') idx 1 + (rowScatterDims R C n wf).window (ix2 i c') 1
          ∧ (rowScatterDims R C n wf).start (ix2 i c') idx 1 + (rowScatterDims R C n wf).window (ix2 i c') 1 < (C : Int)
        rw [hs1, hw1]; omega

/-- Element `(r, c)` of a row scatter-add at the ideal instance: the operand's element plus the updates of the rows
    numbered `r`. -/
theorem scatterAdd_rows_apply {R C n w : Nat}
    (wf : ScatterDims.WF ⟨2, ![R, C]⟩ ⟨2, ![n, 1]⟩ ⟨2, ![n, C]⟩ [1] [0] [0] 1)
    (x : (⟨2, ![R, C]⟩ : Shape).Idx → EReal) (idx : IVec ⟨2, ![n, 1]⟩ w)
    (upd : (⟨2, ![n, C]⟩ : Shape).Idx → EReal) (r : Fin R) (c : Fin C) :
    Ideal.hostScatterAdd (rowScatterDims R C n wf) x idx upd (ix2 r c)
      = x (ix2 r c) + ∑ i : Fin n, if (idx (ix2 i (0 : Fin 1))).toInt = (r.val : Int) then upd (ix2 i c) else 0 := by
  unfold Ideal.hostScatterAdd
  show _ + _ = _ + _
  congr 1
  rw [Finset.sum_filter, sum_idx2]
  refine Finset.sum_congr rfl fun i _ => ?_
  -- row by row: a row numbered `r` contributes its column-`c` element alone, any other row nothing
  by_cases hrow : (idx (ix2 i (0 : Fin 1))).toInt = (r.val : Int)
  · rw [if_pos hrow, Finset.sum_eq_single c]
    · rw [if_pos ((resultIdx_rows_iff wf idx i c r c).2 ⟨hrow, rfl⟩)]
    · intro c' _ hne
      rw [if_neg fun h => hne ((resultIdx_rows_iff wf idx i c' r c).1 h).2]
    · intro h; exact absurd (Finset.mem_univ c) h
  · rw [if_neg hrow]
    refine Finset.sum_eq_zero fun c' _ => ?_
    rw [if_neg fun h => hrow ((resultIdx_rows_iff wf idx i c' r c).1 h).1]

end Idealize.ShloMosaic.RowIndex

end
-- ==== Proof.KStretchTake.lean ====
/-
  Reading the outlined row-takes of the idealized kernel program at an index.

  A take of rows of a table `x : [50000, C]` by words `w : [800000]` is twenty-three operations: the words with 50000
  added to the negative ones, as a column; the gather of the table's rows at that column (the row number read signed
  and clamped into the table); a mask "0 ≤ word ≤ 49999" reduced by `and` over the column's unit axis and broadcast
  along the rows; and the select of the gathered row where the mask is 1, of the NaN word elsewhere. When every word,
  read signed, names one of the 50000 rows, the wrap changes nothing, the mask is 1 everywhere and the clamp is the
  identity: row `e` of the result is row `rowOf (w e)` of the table.

  The composite is stated once as a function of the table and the words (`takeFill128`, `takeFill64`) and read at an
  index (`takeFill128_apply`, `takeFill64_apply`); each of the four takes of the program leaves that composite of
  what the valuation held in its result buffer (`v43_eq` … `v53_eq`), whence `t_v43` … `t_v53`. The one-operation
  stretch that recasts the bias vector as a one-row matrix is `t_v45`. For each stretch `wl_*` lists the references
  it writes and `keep_*` says every other buffer keeps its contents.
-/
import proofs.«430657_j46961172414536_3_alg».proof.Proof.KBufs
import proofs.«430657_j46961172414536_3_alg».proof.Proof.LibAfterAt
import proofs.«430657_j46961172414536_3_alg».proof.Proof.LibRowIndex
import Idealize.ShloMosaic.Lib.StableHlo.Run
import Idealize.ShloMosaic.Lib.Pipeline.Value
import Idealize.ShloMosaic.Lib.ValueLayout
import Idealize.ShloMosaic.Lib.StableHlo.Predicate

noncomputable section

namespace Cert.KernelIdeal.Val

open Cert.KernelIdeal Cert.KernelIdeal.Gen Cert.Forms Idealize.ShloMosaic Idealize.ShloMosaic.TcCoe Idealize.SL.Sem
open Idealize.ShloMosaic.StableHlo Idealize.ShloMosaic.ValueIdx

/-! ## The words of a take -/

/-- A word that, read signed, is not negative is kept by the wrap of negative words. -/
theorem wrap_word_eq (v a : BitVec 32) (h : 0 ≤ v.toInt) : Scalar.select (IntOp.cmpi .slt v 0#32) a v = v := by
  have hs : v.slt 0#32 = false := by
    rw [Bool.eq_false_iff]
    intro hlt
    have := BitVec.slt_iff_toInt_lt.mp hlt
    have h0 : (0#32 : BitVec 32).toInt = 0 := by decide
    omega
  show (if BitVec.ofBool (v.slt 0#32) = 1 then a else v) = v
  rw [hs]
  exact if_neg (by decide)

/-- A word that names a row of the table passes both bounds of the mask. -/
theorem mask_word_eq (v : BitVec 32) (h0 : 0 ≤ v.toInt) (h1 : v.toInt < 50000) :
    IntOp.andi (IntOp.cmpi .sge v 0#32) (IntOp.cmpi .sle v 49999#32) = 1#1 := by
  have hz : (0#32 : BitVec 32).toInt = 0 := by decide
  have hm : (49999#32 : BitVec 32).toInt = 49999 := by decide
  have hs1 : (0#32 : BitVec 32).sle v = true := by
    rw [BitVec.sle_iff_toInt_le]; omega
  have hs2 : v.sle 49999#32 = true := by
    rw [BitVec.sle_iff_toInt_le]; omega
  show BitVec.ofBool ((0#32 : BitVec 32).sle v) &&& BitVec.ofBool (v.sle 49999#32) = 1#1
  rw [hs1, hs2]
  decide

/-- A left fold by `and` from 1 over words that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_one f hf l

/-- A reduction by `and` from 1 of an array of 1s is 1 everywhere. -/
theorem reduce_andi_ones {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  unfold Host.reduce
  rw [hi]
  exact foldl_andi_one (fun n => x (s.rowMajor.symm n)) (fun n => hx _) _

/-! ## The take as a function of its table and its words -/

/-- The words with the table's height added to the negative ones. -/
def wrapW (w : Words 800000) : Words 800000 :=
  select (cmpi .slt w (broadcastInDim S800000 ![] bcast_S_S800000 (constantI S_ 32 0#32)))
    (addi w (broadcastInDim S800000 ![] bcast_S_S800000 (constantI S_ 32 50000#32))) w

/-- The wrapped words as a column. -/
def colW (w : Words 800000) : IVec S800000x1 32 := broadcastInDim S800000x1 ![0] bcast_S800000_S800000x1_0 (wrapW w)

/-- Per word: does the wrapped word name a row of the table (both bounds, reduced over the unit axis). -/
def maskW (w : Words 800000) : IVec S800000 1 :=
  Host.reduce IntOp.andi
    (andi (cmpi .sge (colW w) (broadcastInDim S800000x1 ![] bcast_S_S800000x1 (constantI S_ 32 0#32)))
      (cmpi .sle (colW w) (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

theorem wrapW_apply (w : Words 800000) (e : Fin 800000) (h : 0 ≤ (w (ix1 e)).toInt) : wrapW w (ix1 e) = w (ix1 e) :=
  wrap_word_eq (w (ix1 e)) _ h

/-- Entry `(e, 0)` of the column is wrapped word `e`. -/
theorem colW_apply' (w : Words 800000) (e : Fin 800000) (z : Fin 1) : colW w (ix2 e z) = wrapW w (ix1 e) := by
  unfold colW
  refine broadcastInDim_apply _ _ _ _ (ix1 e) fun a => ?_
  match a with
  | ⟨0, _⟩ => exact (if_neg (show ¬ ((800000 : Nat) = 1) by decide)).symm

theorem colW_apply (w : Words 800000) (e : Fin 800000) (z : Fin 1) (h : 0 ≤ (w (ix1 e)).toInt) :
    colW w (ix2 e z) = w (ix1 e) := (colW_apply' w e z).trans (wrapW_apply w e h)

theorem maskW_apply (w : Words 800000) (hw : ∀ e : Fin 800000, 0 ≤ (w (ix1 e)).toInt ∧ (w (ix1 e)).toInt < 50000)
    (j : S800000.Idx) : maskW w j = 1#1 := by
  unfold maskW
  refine reduce_andi_ones _ _ _ _ (fun i => ?_) rfl j
  rw [eq_ix2 i]
  show IntOp.andi (IntOp.cmpi .sge (colW w (ix2 (i 0) (i 1))) 0#32) (IntOp.cmpi .sle (colW w (ix2 (i 0) (i 1))) 49999#32) = 1#1
  rw [colW_apply w (i 0) (i 1) (hw (i 0)).1]
  exact mask_word_eq _ (hw (i 0)).1 (hw (i 0)).2

/-- The take of rows of a 128-wide table: the gathered rows where the word names a row, the NaN word elsewhere. -/
def takeFill128 (x : Arr 50000 128) (w : Words 800000) : Arr 800000 128 :=
  select (broadcastInDim S800000x128 ![0] bcast_S800000_S800000x128_0 (maskW w))
    (Host.gather gather_S50000x128_S800000x1_S800000x128_1_0_n_n_0_1_1128 x (colW w))
    (broadcastInDim S800000x128 ![] bcast_S_S800000x128 (constant (F := Ideal) S_ .f32 0x7FC00000#32))

theorem takeFill128_apply (x : Arr 50000 128) (w : Words 800000)
    (hw : ∀ e : Fin 800000, 0 ≤ (w (ix1 e)).toInt ∧ (w (ix1 e)).toInt < 50000) (e : Fin 800000) (k : Fin 128) :
    takeFill128 x w (ix2 e k) = x (ix2 (rowOf (w (ix1 e))) k) := by
  unfold takeFill128
  rw [select_apply]
  have hm : broadcastInDim S800000x128 ![0] bcast_S800000_S800000x128_0 (maskW w) (ix2 e k) = 1#1 := maskW_apply w hw _
  rw [hm, select_one]
  refine (RowIndex.gather_rows_apply (N := 50000) (C := 128) (n := 800000) (by decide)
    gather_S50000x128_S800000x1_S800000x128_1_0_n_n_0_1_1128_wf x (colW w) e k).trans ?_
  refine congrArg (fun r => x (ix2 r k)) (Fin.ext ?_)
  show min (colW w (ix2 e 0)).toInt.toNat (50000 - 1) = min (w (ix1 e)).toInt.toNat 49999
  rw [colW_apply w e 0 (hw e).1]

/-- The take of rows of a 64-wide table. -/
def takeFill64 (x : Arr 50000 64) (w : Words 800000) : Arr 800000 64 :=
  select (broadcastInDim S800000x64 ![0] bcast_S800000_S800000x64_0 (maskW w))
    (Host.gather gather_S50000x64_S800000x1_S800000x64_1_0_n_n_0_1_164 x (colW w))
    (broadcastInDim S800000x64 ![] bcast_S_S800000x64 (constant (F := Ideal) S_ .f32 0x7FC00000#32))

theorem takeFill64_apply (x : Arr 50000 64) (w : Words 800000)
    (hw : ∀ e : Fin 800000, 0 ≤ (w (ix1 e)).toInt ∧ (w (ix1 e)).toInt < 50000) (e : Fin 800000) (j : Fin 64) :
    takeFill64 x w (ix2 e j) = x (ix2 (rowOf (w (ix1 e))) j) := by
  unfold takeFill64
  rw [select_apply]
  have hm : broadcastInDim S800000x64 ![0] bcast_S800000_S800000x64_0 (maskW w) (ix2 e j) = 1#1 := maskW_apply w hw _
  rw [hm, select_one]
  refine (RowIndex.gather_rows_apply (N := 50000) (C := 64) (n := 800000) (by decide)
    gather_S50000x64_S800000x1_S800000x64_1_0_n_n_0_1_164_wf x (colW w) e j).trans ?_
  refine congrArg (fun r => x (ix2 r j)) (Fin.ext ?_)
  show min (colW w (ix2 e 0)).toInt.toNat (50000 - 1) = min (w (ix1 e)).toInt.toNat 49999
  rw [colW_apply w e 0 (hw e).1]

/-! ## Typed references: contents moved to a reference's own type and back -/

theorem ofBuf_toBuf {Val : EltTy → Type} {T : BufTy} (x : TRef sig T) (v : T.Contents Val) : x.ofBuf (x.toBuf v) = v := by
  obtain ⟨r, h, _, _⟩ := x
  subst h
  rfl

variable (U : Valuation τ sig (Elt Ideal))

/-! ## What each stretch writes, and that it keeps everything else -/

abbrev wl_0_1 : List (Ref sig .tc) :=
  [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v43]

theorem writes_0_1 : WritesAre (hostOps0_1 (F := Ideal)) wl_0_1 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))))

theorem keep_0_1 (b : Ref sig .tc) (hb : b ∉ wl_0_1) :
    after (hostOps0_1 (F := Ideal)) U (Proc.devRef .tc b) = U (Proc.devRef .tc b) :=
  after_of_writesAre writes_0_1 U hb

abbrev wl_0_2 : List (Ref sig .tc) :=
  [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v44]

theorem writes_0_2 : WritesAre (hostOps0_2 (F := Ideal)) wl_0_2 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))))

theorem keep_0_2 (b : Ref sig .tc) (hb : b ∉ wl_0_2) :
    after (hostOps0_2 (F := Ideal)) U (Proc.devRef .tc b) = U (Proc.devRef .tc b) :=
  after_of_writesAre writes_0_2 U hb

abbrev wl_1_1 : List (Ref sig .tc) :=
  [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v52]

theorem writes_1_1 : WritesAre (hostOps1_1 (F := Ideal)) wl_1_1 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))))

theorem keep_1_1 (b : Ref sig .tc) (hb : b ∉ wl_1_1) :
    after (hostOps1_1 (F := Ideal)) U (Proc.devRef .tc b) = U (Proc.devRef .tc b) :=
  after_of_writesAre writes_1_1 U hb

abbrev wl_1_2 : List (Ref sig .tc) :=
  [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v53]

theorem writes_1_2 : WritesAre (hostOps1_2 (F := Ideal)) wl_1_2 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))))

theorem keep_1_2 (b : Ref sig .tc) (hb : b ∉ wl_1_2) :
    after (hostOps1_2 (F := Ideal)) U (Proc.devRef .tc b) = U (Proc.devRef .tc b) :=
  after_of_writesAre writes_1_2 U hb

abbrev wl_0_3 : List (Ref sig .tc) := [main_v45]

theorem writes_0_3 : WritesAre (hostOps0_3 (F := Ideal)) wl_0_3 := .cons rfl .nil

theorem keep_0_3 (b : Ref sig .tc) (hb : b ∉ wl_0_3) :
    after (hostOps0_3 (F := Ideal)) U (Proc.devRef .tc b) = U (Proc.devRef .tc b) :=
  after_of_writesAre writes_0_3 U hb

/-! ## The bias row -/

/-- The bias vector recast as a one-row matrix reads, at `(0, j)`, the vector at `j`. -/
theorem t_v45 (j : Fin 64) : b_v45 (after (hostOps0_3 (F := Ideal)) U) (ix2 0 j) = (inU U).bB3 (ix1 j) := by
  have e : after (hostOps0_3 (F := Ideal)) U (Proc.devRef .tc main_v45)
      = shapeCast S1x64 (U (Proc.devRef .tc main_arg12) : S64.Idx → EReal) shapeCasts_S64_S1x64 := by
    simp only [hostOps0_3]; after_results; rfl
  show after (hostOps0_3 (F := Ideal)) U (Proc.devRef .tc main_v45) (ix2 0 j) = _
  rw [e]
  exact shapeCast_a_1a_apply _ _ 0 j

/-! ## The four takes -/

/-- The take leaves the composite of the table and the words in its result buffer. -/
theorem v43_eq : b_v43 (after (hostOps0_1 (F := Ideal)) U) = takeFill128 (b_v41 U) (b_src U) := by
  show after (hostOps0_1 (F := Ideal)) U (Proc.devRef .tc main_v43) = _
  simp only [hostOps0_1]
  after_results_simp
  simp only [ofBuf_toBuf]
  have hs : (TRef.of main_arg19 : TRef sig ⟨S800000, .i32⟩).ofBuf (U (Proc.devRef .tc main_arg19)) = b_src U := rfl
  have ht : (TRef.of main_v41 : TRef sig ⟨S50000x128, .f32⟩).ofBuf (U (Proc.devRef .tc main_v41)) = b_v41 U := rfl
  rw [hs, ht]
  exact eq_of_heq (cast_heq _ _)

/-- The take leaves the composite of the table and the words in its result buffer. -/
theorem v44_eq : b_v44 (after (hostOps0_2 (F := Ideal)) U) = takeFill128 (b_v42 U) (b_dst U) := by
  show after (hostOps0_2 (F := Ideal)) U (Proc.devRef .tc main_v44) = _
  simp only [hostOps0_2]
  after_results_simp
  simp only [ofBuf_toBuf]
  have hs : (TRef.of main_arg20 : TRef sig ⟨S800000, .i32⟩).ofBuf (U (Proc.devRef .tc main_arg20)) = b_dst U := rfl
  have ht : (TRef.of main_v42 : TRef sig ⟨S50000x128, .f32⟩).ofBuf (U (Proc.devRef .tc main_v42)) = b_v42 U := rfl
  rw [hs, ht]
  exact eq_of_heq (cast_heq _ _)

/-- The take leaves the composite of the table and the words in its result buffer. -/
theorem v52_eq : b_v52 (after (hostOps1_1 (F := Ideal)) U) = takeFill128 (b_v51 U) (b_src U) := by
  show after (hostOps1_1 (F := Ideal)) U (Proc.devRef .tc main_v52) = _
  simp only [hostOps1_1]
  after_results_simp
  simp only [ofBuf_toBuf]
  have hs : (TRef.of main_arg19 : TRef sig ⟨S800000, .i32⟩).ofBuf (U (Proc.devRef .tc main_arg19)) = b_src U := rfl
  have ht : (TRef.of main_v51 : TRef sig ⟨S50000x128, .f32⟩).ofBuf (U (Proc.devRef .tc main_v51)) = b_v51 U := rfl
  rw [hs, ht]
  exact eq_of_heq (cast_heq _ _)

/-- The take leaves the composite of the table and the words in its result buffer. -/
theorem v53_eq : b_v53 (after (hostOps1_2 (F := Ideal)) U) = takeFill64 (b_v50 U) (b_dst U) := by
  show after (hostOps1_2 (F := Ideal)) U (Proc.devRef .tc main_v53) = _
  simp only [hostOps1_2]
  after_results_simp
  simp only [ofBuf_toBuf]
  have hs : (TRef.of main_arg20 : TRef sig ⟨S800000, .i32⟩).ofBuf (U (Proc.devRef .tc main_arg20)) = b_dst U := rfl
  have ht : (TRef.of main_v50 : TRef sig ⟨S50000x64, .f32⟩).ofBuf (U (Proc.devRef .tc main_v50)) = b_v50 U := rfl
  rw [hs, ht]
  exact eq_of_heq (cast_heq _ _)

/-- Row `e` of the first take is the source node's row of its table. -/
theorem t_v43 (hs : ∀ e : Fin 800000, 0 ≤ (b_src U (ix1 e)).toInt ∧ (b_src U (ix1 e)).toInt < 50000)
    (e : Fin 800000) (k : Fin 128) :
    b_v43 (after (hostOps0_1 (F := Ideal)) U) (ix2 e k) = b_v41 U (ix2 (rowOf (b_src U (ix1 e))) k) :=
  (congrFun (v43_eq U) (ix2 e k)).trans (takeFill128_apply _ _ hs e k)

/-- Row `e` of the second take is the target node's row of its table. -/
theorem t_v44 (hd : ∀ e : Fin 800000, 0 ≤ (b_dst U (ix1 e)).toInt ∧ (b_dst U (ix1 e)).toInt < 50000)
    (e : Fin 800000) (k : Fin 128) :
    b_v44 (after (hostOps0_2 (F := Ideal)) U) (ix2 e k) = b_v42 U (ix2 (rowOf (b_dst U (ix1 e))) k) :=
  (congrFun (v44_eq U) (ix2 e k)).trans (takeFill128_apply _ _ hd e k)

/-- Row `e` of the third take is the source node's row of its table. -/
theorem t_v52 (hs : ∀ e : Fin 800000, 0 ≤ (b_src U (ix1 e)).toInt ∧ (b_src U (ix1 e)).toInt < 50000)
    (e : Fin 800000) (k : Fin 128) :
    b_v52 (after (hostOps1_1 (F := Ideal)) U) (ix2 e k) = b_v51 U (ix2 (rowOf (b_src U (ix1 e))) k) :=
  (congrFun (v52_eq U) (ix2 e k)).trans (takeFill128_apply _ _ hs e k)

/-- Row `e` of the fourth take is the target node's row of its 64-wide table. -/
theorem t_v53 (hd : ∀ e : Fin 800000, 0 ≤ (b_dst U (ix1 e)).toInt ∧ (b_dst U (ix1 e)).toInt < 50000)
    (e : Fin 800000) (j : Fin 64) :
    b_v53 (after (hostOps1_2 (F := Ideal)) U) (ix2 e j) = b_v50 U (ix2 (rowOf (b_dst U (ix1 e))) j) :=
  (congrFun (v53_eq U) (ix2 e j)).trans (takeFill64_apply _ _ hd e j)

end Cert.KernelIdeal.Val

end
-- ==== Proof.KStretchSum.lean ====
/-
  What the two summing stretches of host operations leave in their result arrays, entry by entry.

  Each stretch builds a table of zero words over 50000 rows and 128 columns, spreads the target words of the 800000
  edges into a column, and adds every row of a wide edge array into the table row its target word names, read signed:
  entry (r, c) of the table is the zero word plus the sum, over the edges whose word is r, of the edge array's entry
  (e, c). Halves of the table are then cut out: columns 0 … 63 and columns 64 … 127. The first stretch also sets two
  node tables side by side; the second also recasts two vectors of 64 entries as one-row matrices.
  Every statement is about an arbitrary valuation before the stretch, and each stretch comes with the list of the
  references it writes: every other reference keeps its contents.
-/
import proofs.«430657_j46961172414536_3_alg».proof.Proof.KBufs
import proofs.«430657_j46961172414536_3_alg».proof.Proof.LibAfterAt
import proofs.«430657_j46961172414536_3_alg».proof.Proof.LibRowIndex
import Idealize.ShloMosaic.Lib.StableHlo.Run
import Idealize.ShloMosaic.Lib.Pipeline.Value
import Idealize.ShloMosaic.Lib.ValueLayout
import Idealize.ShloMosaic.Lib.StableHlo.Predicate

noncomputable section

namespace Cert.KernelIdeal.Val

open Cert.KernelIdeal Cert.KernelIdeal.Gen Cert.Forms Idealize.ShloMosaic Idealize.ShloMosaic.TcCoe Idealize.SL.Sem
open Idealize.ShloMosaic.StableHlo Idealize.ShloMosaic.ValueIdx

/-! ## The operations read at an index, over arbitrary arrays -/

/-- The column of the words: entry (e, 0) is word e. -/
theorem col_read (w : Words 800000) (e : Fin 800000) :
    broadcastInDim S800000x1 ![0] bcast_S800000_S800000x1_0 w (ix2 e (0 : Fin 1)) = w (ix1 e) :=
  broadcastInDim_apply _ _ _ _ (ix1 e) (fun a => by
    match a with
    | ⟨0, _⟩ => exact (if_neg (show ¬ ((800000 : Nat) = 1) by omega)).symm)

/-- The table of zero words reads the zero word everywhere. -/
theorem zeros_read (j : S50000x128.Idx) :
    broadcastInDim S50000x128 ![] bcast_S_S50000x128 (constant (F := Ideal) S_ .f32 0x00000000#32) j = zero := rfl

/-- At this instance the host's accumulating scatter is the sum form, and the program's dimension numbers are those of
    a scatter of whole rows. -/
theorem hostScatterAdd_ideal {s si su : Shape} {w : Nat} (d : ScatterDims s si su) (x : s.Idx → EReal) (idx : IVec si w)
    (upd : su.Idx → EReal) :
    Host.scatterAdd (F := Ideal) (φ := .f32) d x idx upd = Ideal.hostScatterAdd d x idx upd := rfl

theorem scatter_rec : scatter_S50000x128_S800000x1_S800000x128_1_0_0_1
    = RowIndex.rowScatterDims 50000 128 800000 scatter_S50000x128_S800000x1_S800000x128_1_0_0_1_wf := rfl

/-- The zero table with the rows of u added in by the words w, read at (r, c): the zero word plus the entries (e, c)
    of the rows whose word, read signed, is r. -/
theorem seg_read (w : Words 800000) (u : Arr 800000 128) (r : Fin 50000) (c : Fin 128) :
    Host.scatterAdd (F := Ideal) scatter_S50000x128_S800000x1_S800000x128_1_0_0_1
        (broadcastInDim S50000x128 ![] bcast_S_S50000x128 (constant (F := Ideal) S_ .f32 0x00000000#32))
        (broadcastInDim S800000x1 ![0] bcast_S800000_S800000x1_0 w) u (ix2 r c)
      = zero + ∑ e : Fin 800000, if (w (ix1 e)).toInt = (r.val : Int) then u (ix2 e c) else 0 := by
  rw [hostScatterAdd_ideal, scatter_rec, RowIndex.scatterAdd_rows_apply, zeros_read]
  refine congrArg (zero + ·) (Finset.sum_congr rfl fun e _ => ?_)
  rw [col_read]

/-- Two tables side by side: the low half of a row is the first table's row, the high half the second's. -/
theorem cat_lo (a b : Arr 50000 64) (r : Fin 50000) (j : Fin 64) :
    concatenate S50000x128 1 [⟨S50000x64, a⟩, ⟨S50000x64, b⟩] concatenates_S50000x64_S50000x64_S50000x128_d1 (ix2 r (lo j))
      = a (ix2 r j) :=
  concatenate_apply_piece (t := S50000x128) 1 [⟨S50000x64, a⟩, ⟨S50000x64, b⟩]
    concatenates_S50000x64_S50000x64_S50000x128_d1 (ix2 r (lo j)) 0 (show (0 : Nat) < 2 by omega) S50000x64 a rfl rfl 0 rfl
    (ix2 r j)
    (fun b hb => by
      match b with
      | ⟨0, _⟩ => rfl
      | ⟨1, _⟩ => exact absurd rfl hb)
    (Nat.zero_add _)

theorem cat_hi (a b : Arr 50000 64) (r : Fin 50000) (j : Fin 64) :
    concatenate S50000x128 1 [⟨S50000x64, a⟩, ⟨S50000x64, b⟩] concatenates_S50000x64_S50000x64_S50000x128_d1 (ix2 r (hi j))
      = b (ix2 r j) :=
  concatenate_apply_piece (t := S50000x128) 1 [⟨S50000x64, a⟩, ⟨S50000x64, b⟩]
    concatenates_S50000x64_S50000x64_S50000x128_d1 (ix2 r (hi j)) 1 (show (1 : Nat) < 2 by omega) S50000x64 b rfl rfl 64 rfl
    (ix2 r j)
    (fun b hb => by
      match b with
      | ⟨0, _⟩ => rfl
      | ⟨1, _⟩ => exact absurd rfl hb)
    (Nat.add_comm _ _)

/-- The two halves cut out of a wide table. -/
theorem cut_lo (x : Arr 50000 128) (r : Fin 50000) (j : Fin 64) :
    extractStridedSlice S50000x64 ![0, 0] x slices_S50000x128_S50000x64_0_0 (ix2 r j) = x (ix2 r (lo j)) :=
  slice2_axis1_apply 0 x _ r j (lo j) (Nat.zero_add _).symm

theorem cut_hi (x : Arr 50000 128) (r : Fin 50000) (j : Fin 64) :
    extractStridedSlice S50000x64 ![0, 64] x slices_S50000x128_S50000x64_0_64 (ix2 r j) = x (ix2 r (hi j)) :=
  slice2_axis1_apply 64 x _ r j (hi j) (Nat.add_comm _ _)

variable (U : Valuation τ sig (Elt Ideal))

/-! ## The first summing stretch -/

/-- The references the first stretch writes, operation by operation. -/
abbrev wl_1 : List (Ref sig .tc) := [main_cst_1, main_v47, main_v48, main_v49, main_v50, main_v51]

theorem writes_1 : WritesAre (τ := τ) (hostOps1 (F := Ideal)) wl_1 :=
  .cons rfl (.cons rfl (.cons rfl (.cons rfl (.cons rfl (.cons rfl .nil)))))

/-- Every reference the first stretch does not write keeps its contents. -/
theorem keep_1 (b : Ref sig .tc) (hb : b ∉ wl_1) :
    after (hostOps1 (F := Ideal)) U (Proc.devRef .tc b) = U (Proc.devRef .tc b) :=
  after_of_writesAre writes_1 U hb

/-- The wide table of the first stretch. -/
abbrev b_v49 : Arr 50000 128 := U (Proc.devRef .tc main_v49)

/-- The table of the first stretch at (r, c): the zero word plus the entries (e, c) of the edge array of the edges into r. -/
theorem s1_v49 (r : Fin 50000) (c : Fin 128) : b_v49 (after (hostOps1 (F := Ideal)) U) (ix2 r c)
      = zero + ∑ e : Fin 800000, if (b_dst U (ix1 e)).toInt = (r.val : Int) then b_v46_0 U (ix2 e c) else 0 := by
  have e49 : after (hostOps1 (F := Ideal)) U (Proc.devRef .tc main_v49)
      = Host.scatterAdd (F := Ideal) scatter_S50000x128_S800000x1_S800000x128_1_0_0_1
          (after (hostOps1 (F := Ideal)) U (Proc.devRef .tc main_v47)) (after (hostOps1 (F := Ideal)) U (Proc.devRef .tc main_v48))
          (after (hostOps1 (F := Ideal)) U (Proc.devRef .tc main_v46_0)) :=
    after_ternary_at writes_1 U 3 rfl (by decide) (by decide) (by decide) (by decide)
  have e47 : after (hostOps1 (F := Ideal)) U (Proc.devRef .tc main_v47)
      = broadcastInDim S50000x128 ![] bcast_S_S50000x128 (after (hostOps1 (F := Ideal)) U (Proc.devRef .tc main_cst_1)) :=
    after_unary_at writes_1 U 1 rfl (by decide) (by decide)
  have ec : after (hostOps1 (F := Ideal)) U (Proc.devRef .tc main_cst_1) = constant (F := Ideal) S_ .f32 0x00000000#32 :=
    after_nullary_at writes_1 U 0 rfl (by decide)
  have e48 : after (hostOps1 (F := Ideal)) U (Proc.devRef .tc main_v48)
      = broadcastInDim S800000x1 ![0] bcast_S800000_S800000x1_0 (after (hostOps1 (F := Ideal)) U (Proc.devRef .tc main_arg20)) :=
    after_unary_at writes_1 U 2 rfl (by decide) (by decide)
  show after (hostOps1 (F := Ideal)) U (Proc.devRef .tc main_v49) (ix2 r c) = _
  rw [e49, e47, ec, e48, keep_1 U main_arg20 (by decide), keep_1 U main_v46_0 (by decide)]
  exact seg_read (b_dst U) (b_v46_0 U) r c

/-- %50: the low half of the table. -/
theorem s1_v50 (r : Fin 50000) (j : Fin 64) : b_v50 (after (hostOps1 (F := Ideal)) U) (ix2 r j)
      = zero + ∑ e : Fin 800000, if (b_dst U (ix1 e)).toInt = (r.val : Int) then b_v46_0 U (ix2 e (lo j)) else 0 := by
  have e50 : after (hostOps1 (F := Ideal)) U (Proc.devRef .tc main_v50)
      = extractStridedSlice S50000x64 ![0, 0] (after (hostOps1 (F := Ideal)) U (Proc.devRef .tc main_v49))
          slices_S50000x128_S50000x64_0_0 :=
    after_unary_at writes_1 U 4 rfl (by decide) (by decide)
  show after (hostOps1 (F := Ideal)) U (Proc.devRef .tc main_v50) (ix2 r j) = _
  rw [e50, cut_lo]
  exact s1_v49 U r (lo j)

/-- %51: the tables %10 and %30 side by side. -/
theorem a1_v51 : after (hostOps1 (F := Ideal)) U (Proc.devRef .tc main_v51)
      = concatenate S50000x128 1 [⟨S50000x64, b_v10 U⟩, ⟨S50000x64, b_v30 U⟩] concatenates_S50000x64_S50000x64_S50000x128_d1 := by
  have e51 : after (hostOps1 (F := Ideal)) U (Proc.devRef .tc main_v51)
      = concatenate S50000x128 1 [⟨S50000x64, after (hostOps1 (F := Ideal)) U (Proc.devRef .tc main_v10)⟩,
          ⟨S50000x64, after (hostOps1 (F := Ideal)) U (Proc.devRef .tc main_v30)⟩]
          concatenates_S50000x64_S50000x64_S50000x128_d1 :=
    after_binary_at writes_1 U 5 rfl (by decide) (by decide) (by decide)
  rw [e51, keep_1 U main_v10 (by decide), keep_1 U main_v30 (by decide)]

theorem s1_v51_lo (r : Fin 50000) (j : Fin 64) :
    b_v51 (after (hostOps1 (F := Ideal)) U) (ix2 r (lo j)) = b_v10 U (ix2 r j) := by
  show after (hostOps1 (F := Ideal)) U (Proc.devRef .tc main_v51) (ix2 r (lo j)) = _
  rw [a1_v51]
  exact cat_lo (b_v10 U) (b_v30 U) r j

theorem s1_v51_hi (r : Fin 50000) (j : Fin 64) :
    b_v51 (after (hostOps1 (F := Ideal)) U) (ix2 r (hi j)) = b_v30 U (ix2 r j) := by
  show after (hostOps1 (F := Ideal)) U (Proc.devRef .tc main_v51) (ix2 r (hi j)) = _
  rw [a1_v51]
  exact cat_hi (b_v10 U) (b_v30 U) r j

/-! ## The second summing stretch -/

/-- The references the second stretch writes, operation by operation. -/
abbrev wl_2 : List (Ref sig .tc) :=
  [main_cst_2, main_v55, main_v56, main_v57, main_v58, main_v59, main_v60, main_v61]

theorem writes_2 : WritesAre (τ := τ) (hostOps2 (F := Ideal)) wl_2 :=
  .cons rfl (.cons rfl (.cons rfl (.cons rfl (.cons rfl (.cons rfl (.cons rfl (.cons rfl .nil)))))))

/-- Every reference the second stretch does not write keeps its contents. -/
theorem keep_2 (b : Ref sig .tc) (hb : b ∉ wl_2) :
    after (hostOps2 (F := Ideal)) U (Proc.devRef .tc b) = U (Proc.devRef .tc b) :=
  after_of_writesAre writes_2 U hb

/-- The wide table of the second stretch. -/
abbrev b_v57 : Arr 50000 128 := U (Proc.devRef .tc main_v57)

/-- The table of the second stretch at (r, c): the zero word plus the entries (e, c) of the edge array of the edges into r. -/
theorem s2_v57 (r : Fin 50000) (c : Fin 128) : b_v57 (after (hostOps2 (F := Ideal)) U) (ix2 r c)
      = zero + ∑ e : Fin 800000, if (b_dst U (ix1 e)).toInt = (r.val : Int) then b_v54 U (ix2 e c) else 0 := by
  have e57 : after (hostOps2 (F := Ideal)) U (Proc.devRef .tc main_v57)
      = Host.scatterAdd (F := Ideal) scatter_S50000x128_S800000x1_S800000x128_1_0_0_1
          (after (hostOps2 (F := Ideal)) U (Proc.devRef .tc main_v55)) (after (hostOps2 (F := Ideal)) U (Proc.devRef .tc main_v56))
          (after (hostOps2 (F := Ideal)) U (Proc.devRef .tc main_v54)) :=
    after_ternary_at writes_2 U 3 rfl (by decide) (by decide) (by decide) (by decide)
  have e55 : after (hostOps2 (F := Ideal)) U (Proc.devRef .tc main_v55)
      = broadcastInDim S50000x128 ![] bcast_S_S50000x128 (after (hostOps2 (F := Ideal)) U (Proc.devRef .tc main_cst_2)) :=
    after_unary_at writes_2 U 1 rfl (by decide) (by decide)
  have ec : after (hostOps2 (F := Ideal)) U (Proc.devRef .tc main_cst_2) = constant (F := Ideal) S_ .f32 0x00000000#32 :=
    after_nullary_at writes_2 U 0 rfl (by decide)
  have e56 : after (hostOps2 (F := Ideal)) U (Proc.devRef .tc main_v56)
      = broadcastInDim S800000x1 ![0] bcast_S800000_S800000x1_0 (after (hostOps2 (F := Ideal)) U (Proc.devRef .tc main_arg20)) :=
    after_unary_at writes_2 U 2 rfl (by decide) (by decide)
  show after (hostOps2 (F := Ideal)) U (Proc.devRef .tc main_v57) (ix2 r c) = _
  rw [e57, e55, ec, e56, keep_2 U main_arg20 (by decide), keep_2 U main_v54 (by decide)]
  exact seg_read (b_dst U) (b_v54 U) r c

/-- %58: the low half of the table. -/
theorem s2_v58 (r : Fin 50000) (j : Fin 64) : b_v58 (after (hostOps2 (F := Ideal)) U) (ix2 r j)
      = zero + ∑ e : Fin 800000, if (b_dst U (ix1 e)).toInt = (r.val : Int) then b_v54 U (ix2 e (lo j)) else 0 := by
  have e58 : after (hostOps2 (F := Ideal)) U (Proc.devRef .tc main_v58)
      = extractStridedSlice S50000x64 ![0, 0] (after (hostOps2 (F := Ideal)) U (Proc.devRef .tc main_v57))
          slices_S50000x128_S50000x64_0_0 :=
    after_unary_at writes_2 U 4 rfl (by decide) (by decide)
  show after (hostOps2 (F := Ideal)) U (Proc.devRef .tc main_v58) (ix2 r j) = _
  rw [e58, cut_lo]
  exact s2_v57 U r (lo j)

/-- %59: the high half of the table. -/
theorem s2_v59 (r : Fin 50000) (j : Fin 64) : b_v59 (after (hostOps2 (F := Ideal)) U) (ix2 r j)
      = zero + ∑ e : Fin 800000, if (b_dst U (ix1 e)).toInt = (r.val : Int) then b_v54 U (ix2 e (hi j)) else 0 := by
  have e59 : after (hostOps2 (F := Ideal)) U (Proc.devRef .tc main_v59)
      = extractStridedSlice S50000x64 ![0, 64] (after (hostOps2 (F := Ideal)) U (Proc.devRef .tc main_v57))
          slices_S50000x128_S50000x64_0_64 :=
    after_unary_at writes_2 U 5 rfl (by decide) (by decide)
  show after (hostOps2 (F := Ideal)) U (Proc.devRef .tc main_v59) (ix2 r j) = _
  rw [e59, cut_hi]
  exact s2_v57 U r (hi j)

/-- %60, %61: the gain and the offset of the normalisation as one-row matrices. -/
theorem s2_v60 (j : Fin 64) : b_v60 (after (hostOps2 (F := Ideal)) U) (ix2 0 j) = (inU U).g (ix1 j) := by
  have e60 : after (hostOps2 (F := Ideal)) U (Proc.devRef .tc main_v60)
      = shapeCast S1x64 (after (hostOps2 (F := Ideal)) U (Proc.devRef .tc main_arg17)) shapeCasts_S64_S1x64 :=
    after_reshape_at writes_2 U 6 rfl (by decide) (by decide)
  show after (hostOps2 (F := Ideal)) U (Proc.devRef .tc main_v60) (ix2 0 j) = _
  rw [e60, keep_2 U main_arg17 (by decide)]
  exact shapeCast_a_1a_apply _ _ 0 j

theorem s2_v61 (j : Fin 64) : b_v61 (after (hostOps2 (F := Ideal)) U) (ix2 0 j) = (inU U).b (ix1 j) := by
  have e61 : after (hostOps2 (F := Ideal)) U (Proc.devRef .tc main_v61)
      = shapeCast S1x64 (after (hostOps2 (F := Ideal)) U (Proc.devRef .tc main_arg18)) shapeCasts_S64_S1x64 :=
    after_reshape_at writes_2 U 7 rfl (by decide) (by decide)
  show after (hostOps2 (F := Ideal)) U (Proc.devRef .tc main_v61) (ix2 0 j) = _
  rw [e61, keep_2 U main_arg18 (by decide)]
  exact shapeCast_a_1a_apply _ _ 0 j

end Cert.KernelIdeal.Val

end
-- ==== Proof.KChain.lean ====
/-
  The three results of the kernel program as the closed forms of its inputs.

  The program is eight stretches of host operations around three kernel launches; the contents of every buffer at
  each of the eleven boundaries is the fold of those steps from the launch memory. A buffer a step does not write is
  carried across it, so each value is followed from the boundary where it is made to the boundary where it is read:
  the node tables from the first stretch; the gathered rows from the four row-takes (under the range hypothesis a
  take by a word is the table's row of that number); the gate, the score and the rectified pre-activation from the
  first launch; the gate sum from the first segment sum and its rows gathered by target; the two message terms from
  the second launch, where the reciprocal of the normaliser meets the gate after the score rather than before it —
  the normaliser is a sum of logistics plus a positive constant, hence not zero, and off zero the two orders agree;
  the summed messages from the second segment sum; and the normalised node result and the position result from the
  third launch. The edge result is written by the first launch and carried to the end.
-/
import proofs.«430657_j46961172414536_3_alg».proof.Proof.KBufs
import proofs.«430657_j46961172414536_3_alg».proof.Proof.Algebra
import proofs.«430657_j46961172414536_3_alg».proof.Proof.Region0Value
import proofs.«430657_j46961172414536_3_alg».proof.Proof.Region1Value
import proofs.«430657_j46961172414536_3_alg».proof.Proof.Region2Value
import proofs.«430657_j46961172414536_3_alg».proof.Proof.KStretch0
import proofs.«430657_j46961172414536_3_alg».proof.Proof.KStretchTake
import proofs.«430657_j46961172414536_3_alg».proof.Proof.KStretchSum

noncomputable section

namespace Cert.KernelIdeal.Val
open Cert.KernelIdeal Cert.KernelIdeal.Gen Cert.Forms Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-- The inputs at launch. -/
abbrev I0 : In := inU (W0 m ρ c)

omit m ρ c in
theorem cur_apply {a b : Nat} (A : Arr a b) (r : Fin a) (j : Fin b) : cur A r j = A (ix2 r j) := rfl
omit m ρ c in
theorem cur1_apply {a : Nat} (v : Row a) (j : Fin a) : cur1 v j = v (ix1 j) := rfl

/-! ## A buffer a step does not write is carried across it -/
theorem st1 (b : Ref sig .tc) (h : b ∉ wl_0) : W1 m ρ c (Proc.devRef .tc b) = W0 m ρ c (Proc.devRef .tc b) := keep_0 (W0 m ρ c) b h
theorem st2 (b : Ref sig .tc) (h : b ∉ wl_0_1) : W2 m ρ c (Proc.devRef .tc b) = W1 m ρ c (Proc.devRef .tc b) := keep_0_1 (W1 m ρ c) b h
theorem st3 (b : Ref sig .tc) (h : b ∉ wl_0_2) : W3 m ρ c (Proc.devRef .tc b) = W2 m ρ c (Proc.devRef .tc b) := keep_0_2 (W2 m ρ c) b h
theorem st4 (b : Ref sig .tc) (h : b ∉ wl_0_3) : W4 m ρ c (Proc.devRef .tc b) = W3 m ρ c (Proc.devRef .tc b) := keep_0_3 (W3 m ρ c) b h
theorem st5 (b : Ref sig .tc) (h : ∀ w, Pipeline.arrRef spec0 w ≠ b) : W5 m ρ c (Proc.devRef .tc b) = W4 m ρ c (Proc.devRef .tc b) := W5_of_ne m ρ c b h
theorem st6 (b : Ref sig .tc) (h : b ∉ wl_1) : W6 m ρ c (Proc.devRef .tc b) = W5 m ρ c (Proc.devRef .tc b) := keep_1 (W5 m ρ c) b h
theorem st7 (b : Ref sig .tc) (h : b ∉ wl_1_1) : W7 m ρ c (Proc.devRef .tc b) = W6 m ρ c (Proc.devRef .tc b) := keep_1_1 (W6 m ρ c) b h
theorem st8 (b : Ref sig .tc) (h : b ∉ wl_1_2) : W8 m ρ c (Proc.devRef .tc b) = W7 m ρ c (Proc.devRef .tc b) := keep_1_2 (W7 m ρ c) b h
theorem st9 (b : Ref sig .tc) (h : ∀ w, Pipeline.arrRef spec1 w ≠ b) : W9 m ρ c (Proc.devRef .tc b) = W8 m ρ c (Proc.devRef .tc b) := W9_of_ne m ρ c b h
theorem st10 (b : Ref sig .tc) (h : b ∉ wl_2) : W10 m ρ c (Proc.devRef .tc b) = W9 m ρ c (Proc.devRef .tc b) := keep_2 (W9 m ρ c) b h
theorem st11 (b : Ref sig .tc) (h : ∀ w, Pipeline.arrRef spec2 w ≠ b) : W11 m ρ c (Proc.devRef .tc b) = W10 m ρ c (Proc.devRef .tc b) := W11_of_ne m ρ c b h

/-- A buffer no step up to region 0's entry writes holds there what it held at launch; likewise from the first
    stretch's end. -/
theorem to4 (b : Ref sig .tc) (h2 : b ∉ wl_0_1) (h3 : b ∉ wl_0_2) (h4 : b ∉ wl_0_3) :
    W4 m ρ c (Proc.devRef .tc b) = W1 m ρ c (Proc.devRef .tc b) :=
  (st4 m ρ c b h4).trans ((st3 m ρ c b h3).trans (st2 m ρ c b h2))
theorem to8 (b : Ref sig .tc) (h5 : ∀ w, Pipeline.arrRef spec0 w ≠ b) (h6 : b ∉ wl_1) (h7 : b ∉ wl_1_1) (h8 : b ∉ wl_1_2) :
    W8 m ρ c (Proc.devRef .tc b) = W4 m ρ c (Proc.devRef .tc b) :=
  (st8 m ρ c b h8).trans ((st7 m ρ c b h7).trans ((st6 m ρ c b h6).trans (st5 m ρ c b h5)))
theorem to10 (b : Ref sig .tc) (h9 : ∀ w, Pipeline.arrRef spec1 w ≠ b) (h10 : b ∉ wl_2) :
    W10 m ρ c (Proc.devRef .tc b) = W8 m ρ c (Proc.devRef .tc b) :=
  (st10 m ρ c b h10).trans (st9 m ρ c b h9)

/-! ## The argument words at the boundaries where they are read -/
theorem src1 : b_src (W1 m ρ c) = (I0 m ρ c).src := st1 m ρ c main_arg19 (by decide)
theorem dst1 : b_dst (W1 m ρ c) = (I0 m ρ c).dst := st1 m ρ c main_arg20 (by decide)
theorem dst2 : b_dst (W2 m ρ c) = (I0 m ρ c).dst := (st2 m ρ c main_arg20 (by decide)).trans (dst1 m ρ c)
theorem dst4 : b_dst (W4 m ρ c) = (I0 m ρ c).dst := (to4 m ρ c main_arg20 (by decide) (by decide) (by decide)).trans (dst1 m ρ c)
theorem src4 : b_src (W4 m ρ c) = (I0 m ρ c).src := (to4 m ρ c main_arg19 (by decide) (by decide) (by decide)).trans (src1 m ρ c)
theorem dst5 : b_dst (W5 m ρ c) = (I0 m ρ c).dst := (st5 m ρ c main_arg20 (by decide)).trans (dst4 m ρ c)
theorem src5 : b_src (W5 m ρ c) = (I0 m ρ c).src := (st5 m ρ c main_arg19 (by decide)).trans (src4 m ρ c)
theorem src6 : b_src (W6 m ρ c) = (I0 m ρ c).src := (st6 m ρ c main_arg19 (by decide)).trans (src5 m ρ c)
theorem dst6 : b_dst (W6 m ρ c) = (I0 m ρ c).dst := (st6 m ρ c main_arg20 (by decide)).trans (dst5 m ρ c)
theorem dst7 : b_dst (W7 m ρ c) = (I0 m ρ c).dst := (st7 m ρ c main_arg20 (by decide)).trans (dst6 m ρ c)
theorem dst8 : b_dst (W8 m ρ c) = (I0 m ρ c).dst := (st8 m ρ c main_arg20 (by decide)).trans (dst7 m ρ c)
theorem dst9 : b_dst (W9 m ρ c) = (I0 m ρ c).dst := (st9 m ρ c main_arg20 (by decide)).trans (dst8 m ρ c)

/-! ## The node tables after the first stretch -/
theorem vh1 (r : Fin 50000) (j : Fin 64) : b_v10 (W1 m ρ c) (ix2 r j) = vh (I0 m ρ c) r j := s0_v10 (W0 m ρ c) r j
theorem b1h1 (r : Fin 50000) (j : Fin 64) : b_v15 (W1 m ρ c) (ix2 r j) = B1h (I0 m ρ c) r j := s0_v15 (W0 m ρ c) r j
theorem b2h1 (r : Fin 50000) (j : Fin 64) : b_v20 (W1 m ρ c) (ix2 r j) = B2h (I0 m ρ c) r j := s0_v20 (W0 m ρ c) r j
theorem c1p1 (r : Fin 50000) (j : Fin 64) : b_v25 (W1 m ρ c) (ix2 r j) = C1p (I0 m ρ c) r j := s0_v25 (W0 m ρ c) r j
theorem c2p1 (r : Fin 50000) (j : Fin 64) : b_v30 (W1 m ρ c) (ix2 r j) = C2p (I0 m ρ c) r j := s0_v30 (W0 m ρ c) r j
theorem sq1 (r : Fin 50000) (j : Fin 64) : b_v33 (W1 m ρ c) (ix2 r j) = sQ (I0 m ρ c) r j := s0_v33 (W0 m ρ c) r j
theorem sk1 (r : Fin 50000) (j : Fin 64) : b_v40 (W1 m ρ c) (ix2 r j) = sK (I0 m ρ c) r j := s0_v40 (W0 m ρ c) r j

/-! ## Region 0: its inputs at entry, its outputs at exit -/
section R0
variable (hr : InRange (I0 m ρ c))
include hr

theorem hs1 : ∀ e : Fin 800000, 0 ≤ (b_src (W1 m ρ c) (ix1 e)).toInt ∧ (b_src (W1 m ρ c) (ix1 e)).toInt < 50000 := by
  rw [src1]; exact hr.1
theorem hd2 : ∀ e : Fin 800000, 0 ≤ (b_dst (W2 m ρ c) (ix1 e)).toInt ∧ (b_dst (W2 m ρ c) (ix1 e)).toInt < 50000 := by
  rw [dst2]; exact hr.2

/-- The first gathered table at region 0's entry: the source node's rows of the two source-side tables. -/
theorem x3_lo (e : Fin 800000) (j : Fin 64) : Reg0.x3 (V4 m ρ) c (ix2 e (lo j)) = B1h (I0 m ρ c) (s (I0 m ρ c) e) j := by
  show b_v43 (W4 m ρ c) (ix2 e (lo j)) = _
  rw [show b_v43 (W4 m ρ c) = b_v43 (W2 m ρ c) from (st4 m ρ c main_v43 (by decide)).trans (st3 m ρ c main_v43 (by decide))]
  rw [show b_v43 (W2 m ρ c) (ix2 e (lo j)) = _ from t_v43 (W1 m ρ c) (hs1 m ρ c hr) e (lo j), src1, s0_v41_lo (W0 m ρ c)]
  exact b1h1 m ρ c _ j

theorem x3_hi (e : Fin 800000) (j : Fin 64) : Reg0.x3 (V4 m ρ) c (ix2 e (hi j)) = sQ (I0 m ρ c) (s (I0 m ρ c) e) j := by
  show b_v43 (W4 m ρ c) (ix2 e (hi j)) = _
  rw [show b_v43 (W4 m ρ c) = b_v43 (W2 m ρ c) from (st4 m ρ c main_v43 (by decide)).trans (st3 m ρ c main_v43 (by decide))]
  rw [show b_v43 (W2 m ρ c) (ix2 e (hi j)) = _ from t_v43 (W1 m ρ c) (hs1 m ρ c hr) e (hi j), src1, s0_v41_hi (W0 m ρ c)]
  exact sq1 m ρ c _ j

theorem x4_lo (e : Fin 800000) (j : Fin 64) : Reg0.x4 (V4 m ρ) c (ix2 e (lo j)) = B2h (I0 m ρ c) (d (I0 m ρ c) e) j := by
  show b_v44 (W4 m ρ c) (ix2 e (lo j)) = _
  rw [show b_v44 (W4 m ρ c) = b_v44 (W3 m ρ c) from st4 m ρ c main_v44 (by decide)]
  rw [show b_v44 (W3 m ρ c) (ix2 e (lo j)) = _ from t_v44 (W2 m ρ c) (hd2 m ρ c hr) e (lo j), dst2]
  rw [show b_v42 (W2 m ρ c) = b_v42 (W1 m ρ c) from st2 m ρ c main_v42 (by decide), s0_v42_lo (W0 m ρ c)]
  exact b2h1 m ρ c _ j

theorem x4_hi (e : Fin 800000) (j : Fin 64) : Reg0.x4 (V4 m ρ) c (ix2 e (hi j)) = sK (I0 m ρ c) (d (I0 m ρ c) e) j := by
  show b_v44 (W4 m ρ c) (ix2 e (hi j)) = _
  rw [show b_v44 (W4 m ρ c) = b_v44 (W3 m ρ c) from st4 m ρ c main_v44 (by decide)]
  rw [show b_v44 (W3 m ρ c) (ix2 e (hi j)) = _ from t_v44 (W2 m ρ c) (hd2 m ρ c hr) e (hi j), dst2]
  rw [show b_v42 (W2 m ρ c) = b_v42 (W1 m ρ c) from st2 m ρ c main_v42 (by decide), s0_v42_hi (W0 m ρ c)]
  exact sk1 m ρ c _ j
omit hr in
theorem x0_at (e : Fin 800000) (k : Fin 64) : Reg0.x0 (V4 m ρ) c (ix2 e k) = (I0 m ρ c).e (ix2 e k) := by
  show b_e (W4 m ρ c) (ix2 e k) = _
  rw [show b_e (W4 m ρ c) = b_e (W0 m ρ c) from (to4 m ρ c main_arg1 (by decide) (by decide) (by decide)).trans (st1 m ρ c main_arg1 (by decide))]
  rfl
omit hr in
theorem x1_at (k j : Fin 64) : Reg0.x1 (V4 m ρ) c (ix2 k j) = (I0 m ρ c).WB3 (ix2 j k) := by
  show b_v31 (W4 m ρ c) (ix2 k j) = _
  rw [show b_v31 (W4 m ρ c) = b_v31 (W1 m ρ c) from to4 m ρ c main_v31 (by decide) (by decide) (by decide)]
  exact s0_v31 (W0 m ρ c) k j

/-- A bias or gain vector argument read through a valuation. -/
abbrev rowArg (U : Valuation τ sig (Elt Ideal)) (b : Ref sig .tc) (h : (Proc.devRef (τ := τ) .tc b).ty.Contents (Elt Ideal) = Row 64 := by rfl) : Row 64 :=
  h ▸ U (Proc.devRef .tc b)
omit hr in
theorem x2_at (j : Fin 64) : Reg0.x2 (V4 m ρ) c (ix2 0 j) = (I0 m ρ c).bB3 (ix1 j) := by
  show b_v45 (W4 m ρ c) (ix2 0 j) = _
  rw [show b_v45 (W4 m ρ c) (ix2 0 j) = _ from t_v45 (W3 m ρ c) j]
  have h : W3 m ρ c (Proc.devRef .tc main_arg12) = W0 m ρ c (Proc.devRef .tc main_arg12) :=
    (st3 m ρ c main_arg12 (by decide)).trans ((st2 m ρ c main_arg12 (by decide)).trans (st1 m ρ c main_arg12 (by decide)))
  show (inU (W3 m ρ c)).bB3 (ix1 j) = (inU (W0 m ρ c)).bB3 (ix1 j)
  unfold inU; dsimp only; rw [h]
omit hr in
theorem aff_eq (e : Fin 800000) (j : Fin 64) :
    aff0 (Reg0.x0 (V4 m ρ) c) (Reg0.x1 (V4 m ρ) c) (Reg0.x2 (V4 m ρ) c) e j = B3e (I0 m ρ c) e j := by
  show (∑ k : Fin 64, Reg0.x0 (V4 m ρ) c (ix2 e k) * Reg0.x1 (V4 m ρ) c (ix2 k j)) + Reg0.x2 (V4 m ρ) c (ix2 0 j)
    = (∑ k : Fin 64, (I0 m ρ c).e (ix2 e k) * (I0 m ρ c).WB3 (ix2 j k)) + (I0 m ρ c).bB3 (ix1 j)
  rw [x2_at]
  exact congrArg (· + (I0 m ρ c).bB3 (ix1 j)) (Finset.sum_congr rfl fun k _ => by rw [x0_at, x1_at])

theorem hat_eq (e : Fin 800000) (j : Fin 64) :
    hat0 (Reg0.x0 (V4 m ρ) c) (Reg0.x1 (V4 m ρ) c) (Reg0.x2 (V4 m ρ) c) (Reg0.x3 (V4 m ρ) c) (Reg0.x4 (V4 m ρ) c) e j = hat (I0 m ρ c) e j := by
  show (Reg0.x3 (V4 m ρ) c (ix2 e (lo j)) + Reg0.x4 (V4 m ρ) c (ix2 e (lo j))) + aff0 (Reg0.x0 (V4 m ρ) c) (Reg0.x1 (V4 m ρ) c) (Reg0.x2 (V4 m ρ) c) e j
    = (B1h (I0 m ρ c) (s (I0 m ρ c) e) j + B2h (I0 m ρ c) (d (I0 m ρ c) e) j) + B3e (I0 m ρ c) e j
  rw [x3_lo m ρ c hr, x4_lo m ρ c hr, aff_eq]

theorem alpha_eq (e : Fin 800000) : alpha0 (Reg0.x3 (V4 m ρ) c) (Reg0.x4 (V4 m ρ) c) e = alpha (I0 m ρ c) e := by
  show zero + ∑ j : Fin 64, Reg0.x3 (V4 m ρ) c (ix2 e (hi j)) * Reg0.x4 (V4 m ρ) c (ix2 e (hi j))
    = zero + ∑ j : Fin 64, sQ (I0 m ρ c) (s (I0 m ρ c) e) j * sK (I0 m ρ c) (d (I0 m ρ c) e) j
  exact congrArg (zero + ·) (Finset.sum_congr rfl fun j _ => by rw [x3_hi m ρ c hr, x4_hi m ρ c hr])

/-- Region 0 leaves the gate, the gate times the score, and the rectified pre-activation. -/
theorem g5_lo (e : Fin 800000) (j : Fin 64) : b_v46_0 (W5 m ρ c) (ix2 e (lo j)) = gate (I0 m ρ c) e j := by
  rw [show b_v46_0 (W5 m ρ c) = (dat0 (F := Ideal) (V4 m ρ) c).arrAt 5 cfg0.N from W5_arr m ρ c 5, Reg0.out5_lo]
  show Ideal.logistic _ = Ideal.logistic _
  rw [hat_eq m ρ c hr]
theorem g5_hi (e : Fin 800000) (j : Fin 64) : b_v46_0 (W5 m ρ c) (ix2 e (hi j)) = gate (I0 m ρ c) e j * alpha (I0 m ρ c) e := by
  rw [show b_v46_0 (W5 m ρ c) = (dat0 (F := Ideal) (V4 m ρ) c).arrAt 5 cfg0.N from W5_arr m ρ c 5, Reg0.out5_hi]
  show Ideal.logistic _ * _ = Ideal.logistic _ * _
  rw [hat_eq m ρ c hr, alpha_eq m ρ c hr]
theorem e5 (e : Fin 800000) (j : Fin 64) : b_v46_1 (W5 m ρ c) (ix2 e j) = eOut (I0 m ρ c) e j := by
  rw [show b_v46_1 (W5 m ρ c) = (dat0 (F := Ideal) (V4 m ρ) c).arrAt 6 cfg0.N from W5_arr m ρ c 6, Reg0.out6]
  show max _ zero = max _ zero
  rw [hat_eq m ρ c hr]

/-! ## Between regions 0 and 1 -/

theorem gs6 (r : Fin 50000) (j : Fin 64) : b_v50 (W6 m ρ c) (ix2 r j) = gateSum (I0 m ρ c) r j := by
  rw [show b_v50 (W6 m ρ c) (ix2 r j) = _ from s1_v50 (W5 m ρ c) r j, dst5]
  exact segSum_eq (I0 m ρ c) _ (fun e => gate (I0 m ρ c) e j) r fun e => g5_lo m ρ c hr e j
omit hr in
theorem v51_lo (r : Fin 50000) (j : Fin 64) : b_v51 (W6 m ρ c) (ix2 r (lo j)) = vh (I0 m ρ c) r j := by
  rw [show b_v51 (W6 m ρ c) (ix2 r (lo j)) = _ from s1_v51_lo (W5 m ρ c) r j]
  rw [show b_v10 (W5 m ρ c) = b_v10 (W1 m ρ c) from (st5 m ρ c main_v10 (by decide)).trans (to4 m ρ c main_v10 (by decide) (by decide) (by decide))]
  exact vh1 m ρ c r j
omit hr in
theorem v51_hi (r : Fin 50000) (j : Fin 64) : b_v51 (W6 m ρ c) (ix2 r (hi j)) = C2p (I0 m ρ c) r j := by
  rw [show b_v51 (W6 m ρ c) (ix2 r (hi j)) = _ from s1_v51_hi (W5 m ρ c) r j]
  rw [show b_v30 (W5 m ρ c) = b_v30 (W1 m ρ c) from (st5 m ρ c main_v30 (by decide)).trans (to4 m ρ c main_v30 (by decide) (by decide) (by decide))]
  exact c2p1 m ρ c r j

theorem hs6 : ∀ e : Fin 800000, 0 ≤ (b_src (W6 m ρ c) (ix1 e)).toInt ∧ (b_src (W6 m ρ c) (ix1 e)).toInt < 50000 := by
  rw [src6]; exact hr.1
theorem hd7 : ∀ e : Fin 800000, 0 ≤ (b_dst (W7 m ρ c) (ix1 e)).toInt ∧ (b_dst (W7 m ρ c) (ix1 e)).toInt < 50000 := by
  rw [dst7]; exact hr.2

theorem y1_lo (e : Fin 800000) (j : Fin 64) : Reg1.y1 (V8 m ρ) c (ix2 e (lo j)) = vh (I0 m ρ c) (s (I0 m ρ c) e) j := by
  show b_v52 (W8 m ρ c) (ix2 e (lo j)) = _
  rw [show b_v52 (W8 m ρ c) = b_v52 (W7 m ρ c) from st8 m ρ c main_v52 (by decide)]
  rw [show b_v52 (W7 m ρ c) (ix2 e (lo j)) = _ from t_v52 (W6 m ρ c) (hs6 m ρ c hr) e (lo j), src6]
  exact v51_lo m ρ c _ j
theorem y1_hi (e : Fin 800000) (j : Fin 64) : Reg1.y1 (V8 m ρ) c (ix2 e (hi j)) = C2p (I0 m ρ c) (s (I0 m ρ c) e) j := by
  show b_v52 (W8 m ρ c) (ix2 e (hi j)) = _
  rw [show b_v52 (W8 m ρ c) = b_v52 (W7 m ρ c) from st8 m ρ c main_v52 (by decide)]
  rw [show b_v52 (W7 m ρ c) (ix2 e (hi j)) = _ from t_v52 (W6 m ρ c) (hs6 m ρ c hr) e (hi j), src6]
  exact v51_hi m ρ c _ j
theorem y2_at (e : Fin 800000) (j : Fin 64) : Reg1.y2 (V8 m ρ) c (ix2 e j) = gateSum (I0 m ρ c) (d (I0 m ρ c) e) j := by
  show b_v53 (W8 m ρ c) (ix2 e j) = _
  rw [show b_v53 (W8 m ρ c) (ix2 e j) = _ from t_v53 (W7 m ρ c) (hd7 m ρ c hr) e j, dst7]
  rw [show b_v50 (W7 m ρ c) = b_v50 (W6 m ρ c) from st7 m ρ c main_v50 (by decide)]
  exact gs6 m ρ c hr _ j
theorem y0_lo (e : Fin 800000) (j : Fin 64) : Reg1.y0 (V8 m ρ) c (ix2 e (lo j)) = gate (I0 m ρ c) e j := by
  show b_v46_0 (W8 m ρ c) (ix2 e (lo j)) = _
  rw [show b_v46_0 (W8 m ρ c) = b_v46_0 (W5 m ρ c) from
    (st8 m ρ c main_v46_0 (by decide)).trans ((st7 m ρ c main_v46_0 (by decide)).trans (st6 m ρ c main_v46_0 (by decide)))]
  exact g5_lo m ρ c hr e j
theorem y0_hi (e : Fin 800000) (j : Fin 64) : Reg1.y0 (V8 m ρ) c (ix2 e (hi j)) = gate (I0 m ρ c) e j * alpha (I0 m ρ c) e := by
  show b_v46_0 (W8 m ρ c) (ix2 e (hi j)) = _
  rw [show b_v46_0 (W8 m ρ c) = b_v46_0 (W5 m ρ c) from
    (st8 m ρ c main_v46_0 (by decide)).trans ((st7 m ρ c main_v46_0 (by decide)).trans (st6 m ρ c main_v46_0 (by decide)))]
  exact g5_hi m ρ c hr e j
omit hr in
/-- The gate sum plus the small constant is not zero: a sum of logistics is not negative. -/
theorem gsum_ne (r : Fin 50000) (j : Fin 64) : gateSum (I0 m ρ c) r j + eps ≠ 0 :=
  add_eps_ne_zero (segsum_nonneg (fun e => into (I0 m ρ c) e r) (fun e => gate (I0 m ρ c) e j) fun e => logistic_nonneg _)

/-- Region 1 leaves the two message terms: the reciprocal of the normaliser is taken after the score there and
    before it in the closed form; off zero the two agree. -/
theorem c9_lo (e : Fin 800000) (j : Fin 64) :
    b_v54 (W9 m ρ c) (ix2 e (lo j)) = (eta (I0 m ρ c) e j * alpha (I0 m ρ c) e) * vh (I0 m ρ c) (s (I0 m ρ c) e) j := by
  rw [show b_v54 (W9 m ρ c) = (dat1 (F := Ideal) (V8 m ρ) c).arrAt 3 cfg1.N from W9_arr m ρ c 3, Reg1.out3_lo]
  show (Reg1.y0 (V8 m ρ) c (ix2 e (hi j)) * Ideal.div one (Reg1.y2 (V8 m ρ) c (ix2 e j) + eps)) * Reg1.y1 (V8 m ρ) c (ix2 e (lo j)) = _
  rw [y0_hi m ρ c hr, y2_at m ρ c hr, y1_lo m ρ c hr, mul_mul_recip (gsum_ne m ρ c _ j)]
  rfl
theorem c9_hi (e : Fin 800000) (j : Fin 64) :
    b_v54 (W9 m ρ c) (ix2 e (hi j)) = eta (I0 m ρ c) e j * C2p (I0 m ρ c) (s (I0 m ρ c) e) j := by
  rw [show b_v54 (W9 m ρ c) = (dat1 (F := Ideal) (V8 m ρ) c).arrAt 3 cfg1.N from W9_arr m ρ c 3, Reg1.out3_hi]
  show (Reg1.y0 (V8 m ρ) c (ix2 e (lo j)) * Ideal.div one (Reg1.y2 (V8 m ρ) c (ix2 e j) + eps)) * Reg1.y1 (V8 m ρ) c (ix2 e (hi j)) = _
  rw [y0_lo m ρ c hr, y2_at m ρ c hr, y1_hi m ρ c hr, mul_recip (gsum_ne m ρ c _ j)]
  rfl

/-! ## Between regions 1 and 2, and the results -/
theorem sv10 (r : Fin 50000) (j : Fin 64) : b_v58 (W10 m ρ c) (ix2 r j) = sumV (I0 m ρ c) r j := by
  rw [show b_v58 (W10 m ρ c) (ix2 r j) = _ from s2_v58 (W9 m ρ c) r j, dst9]
  exact segSum_eq (I0 m ρ c) _ (fun e => (eta (I0 m ρ c) e j * alpha (I0 m ρ c) e) * vh (I0 m ρ c) (s (I0 m ρ c) e) j) r fun e => c9_lo m ρ c hr e j
theorem sp10 (r : Fin 50000) (j : Fin 64) : b_v59 (W10 m ρ c) (ix2 r j) = sumP (I0 m ρ c) r j := by
  rw [show b_v59 (W10 m ρ c) (ix2 r j) = _ from s2_v59 (W9 m ρ c) r j, dst9]
  exact segSum_eq (I0 m ρ c) _ (fun e => eta (I0 m ρ c) e j * C2p (I0 m ρ c) (s (I0 m ρ c) e) j) r fun e => c9_hi m ρ c hr e j
omit hr in
theorem to10' (b : Ref sig .tc) (h2 : b ∉ wl_0_1) (h3 : b ∉ wl_0_2) (h4 : b ∉ wl_0_3) (h5 : ∀ w, Pipeline.arrRef spec0 w ≠ b)
    (h6 : b ∉ wl_1) (h7 : b ∉ wl_1_1) (h8 : b ∉ wl_1_2) (h9 : ∀ w, Pipeline.arrRef spec1 w ≠ b) (h10 : b ∉ wl_2) :
    W10 m ρ c (Proc.devRef .tc b) = W1 m ρ c (Proc.devRef .tc b) :=
  (to10 m ρ c b h9 h10).trans ((to8 m ρ c b h5 h6 h7 h8).trans (to4 m ρ c b h2 h3 h4))
omit hr in
theorem z0_at (r : Fin 50000) (j : Fin 64) : Reg2.z0 (V10 m ρ) c (ix2 r j) = vh (I0 m ρ c) r j := by
  show b_v10 (W10 m ρ c) (ix2 r j) = _
  rw [show b_v10 (W10 m ρ c) = b_v10 (W1 m ρ c) from
    to10' m ρ c main_v10 (by decide) (by decide) (by decide) (by decide) (by decide) (by decide) (by decide) (by decide) (by decide)]
  exact vh1 m ρ c r j
omit hr in
theorem z2_at (r : Fin 50000) (j : Fin 64) : Reg2.z2 (V10 m ρ) c (ix2 r j) = C1p (I0 m ρ c) r j := by
  show b_v25 (W10 m ρ c) (ix2 r j) = _
  rw [show b_v25 (W10 m ρ c) = b_v25 (W1 m ρ c) from
    to10' m ρ c main_v25 (by decide) (by decide) (by decide) (by decide) (by decide) (by decide) (by decide) (by decide) (by decide)]
  exact c1p1 m ρ c r j
omit hr in
theorem argTo9 (b : Ref sig .tc) (h1 : b ∉ wl_0) (h2 : b ∉ wl_0_1) (h3 : b ∉ wl_0_2) (h4 : b ∉ wl_0_3) (h5 : ∀ w, Pipeline.arrRef spec0 w ≠ b)
    (h6 : b ∉ wl_1) (h7 : b ∉ wl_1_1) (h8 : b ∉ wl_1_2) (h9 : ∀ w, Pipeline.arrRef spec1 w ≠ b) :
    W9 m ρ c (Proc.devRef .tc b) = W0 m ρ c (Proc.devRef .tc b) :=
  (st9 m ρ c b h9).trans ((to8 m ρ c b h5 h6 h7 h8).trans ((to4 m ρ c b h2 h3 h4).trans (st1 m ρ c b h1)))
omit hr in
theorem z4_at (j : Fin 64) : Reg2.z4 (V10 m ρ) c (ix2 0 j) = (I0 m ρ c).g (ix1 j) := by
  show b_v60 (W10 m ρ c) (ix2 0 j) = _
  rw [show b_v60 (W10 m ρ c) (ix2 0 j) = _ from s2_v60 (W9 m ρ c) j]
  have h := argTo9 m ρ c main_arg17 (by decide) (by decide) (by decide) (by decide) (by decide) (by decide) (by decide) (by decide) (by decide)
  show (inU (W9 m ρ c)).g (ix1 j) = (inU (W0 m ρ c)).g (ix1 j)
  unfold inU; dsimp only; rw [h]
omit hr in
theorem z5_at (j : Fin 64) : Reg2.z5 (V10 m ρ) c (ix2 0 j) = (I0 m ρ c).b (ix1 j) := by
  show b_v61 (W10 m ρ c) (ix2 0 j) = _
  rw [show b_v61 (W10 m ρ c) (ix2 0 j) = _ from s2_v61 (W9 m ρ c) j]
  have h := argTo9 m ρ c main_arg18 (by decide) (by decide) (by decide) (by decide) (by decide) (by decide) (by decide) (by decide) (by decide)
  show (inU (W9 m ρ c)).b (ix1 j) = (inU (W0 m ρ c)).b (ix1 j)
  unfold inU; dsimp only; rw [h]

theorem z1_at (r : Fin 50000) (j : Fin 64) : Reg2.z1 (V10 m ρ) c (ix2 r j) = sumV (I0 m ρ c) r j := by
  show b_v58 (W10 m ρ c) (ix2 r j) = _
  exact sv10 m ρ c hr r j
theorem z3_at (r : Fin 50000) (j : Fin 64) : Reg2.z3 (V10 m ρ) c (ix2 r j) = sumP (I0 m ρ c) r j := by
  show b_v59 (W10 m ρ c) (ix2 r j) = _
  exact sp10 m ρ c hr r j

/-- The node result: the layer normalisation of the rectified sum of the value table and the summed messages. -/
theorem K_hOut (r : Fin 50000) (j : Fin 64) : b_v62_0 (W11 m ρ c) (ix2 r j) = hOut (I0 m ρ c) r j := by
  rw [show b_v62_0 (W11 m ρ c) = (dat2 (F := Ideal) (V10 m ρ) c).arrAt 6 cfg2.N from W11_arr m ρ c 6, Reg2.out6]
  have h0 : cur (Reg2.z0 (V10 m ρ) c) = vh (I0 m ρ c) := by
    funext r j; rw [cur_apply, z0_at]
  have h1 : cur (Reg2.z1 (V10 m ρ) c) = sumV (I0 m ρ c) := by
    funext r j; rw [cur_apply, z1_at m ρ c hr]
  have h4 : (fun j => Reg2.z4 (V10 m ρ) c (ix2 0 j)) = cur1 (I0 m ρ c).g := by
    funext j; rw [z4_at, cur1_apply]
  have h5 : (fun j => Reg2.z5 (V10 m ρ) c (ix2 0 j)) = cur1 (I0 m ρ c).b := by
    funext j; rw [z5_at, cur1_apply]
  show layerNorm (reluSum (cur (Reg2.z0 (V10 m ρ) c)) (cur (Reg2.z1 (V10 m ρ) c))) (fun j => Reg2.z4 (V10 m ρ) c (ix2 0 j)) (fun j => Reg2.z5 (V10 m ρ) c (ix2 0 j)) r j = _
  rw [h0, h1, h4, h5]
  rfl
/-- The position result. -/
theorem K_pOut (r : Fin 50000) (j : Fin 64) : b_v62_1 (W11 m ρ c) (ix2 r j) = pOut (I0 m ρ c) r j := by
  rw [show b_v62_1 (W11 m ρ c) = (dat2 (F := Ideal) (V10 m ρ) c).arrAt 7 cfg2.N from W11_arr m ρ c 7, Reg2.out7]
  show Ideal.tanh (Reg2.z2 (V10 m ρ) c (ix2 r j) + Reg2.z3 (V10 m ρ) c (ix2 r j)) = _
  rw [z2_at, z3_at m ρ c hr]
  rfl
/-- The edge result: written by region 0 and carried to the end. -/
theorem K_eOut (e : Fin 800000) (j : Fin 64) : b_v46_1 (W11 m ρ c) (ix2 e j) = eOut (I0 m ρ c) e j := by
  rw [show b_v46_1 (W11 m ρ c) = b_v46_1 (W5 m ρ c) from
    (st11 m ρ c main_v46_1 (by decide)).trans ((to10 m ρ c main_v46_1 (by decide) (by decide)).trans
      ((st8 m ρ c main_v46_1 (by decide)).trans ((st7 m ρ c main_v46_1 (by decide)).trans (st6 m ρ c main_v46_1 (by decide)))))]
  exact e5 m ρ c hr e j
end R0
end Cert.KernelIdeal.Val
end
-- ==== Proof.RefRun.lean ====
/-
  The idealized reference program's @main read as one straight line of host operations.

  @main is three consecutive windows of statements; three of its statements are calls of outlined functions (two
  rectified-linear maxima against a broadcast zero, and a row variance whose body in turn calls a select against a
  broadcast scalar). Each call's operations are listed at the call site over that call's own buffers, so the whole
  program is a list `ops` of 197 operations, every one writing a buffer `wl` names at the same position and no buffer
  written twice. Every weakly fair execution of @main terminates with each TensorCore buffer at the fold of the
  operations' results over the launch contents.
-/
import Idealize.ShloMosaic.Lib.StableHlo.Run
import proofs.«430657_j46961172414536_3_alg».proof.Proof.Gen.ReferenceIdeal
import proofs.«430657_j46961172414536_3_alg».proof.Proof.LibAfterAt

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]
/-- @main's 197 operations in program order, each call's operations at its call site over that call's buffers. -/
abbrev ops : List (HloOp τ sig (Elt F)) :=
  [ StableHlo.binary main_arg0 main_arg2 main_v0 ((fun a b => concatenate S50000x128 1 [⟨S50000x64, a⟩, ⟨S50000x64, b⟩] concatenates_S50000x64_S50000x64_S50000x128_d1) : (⟨S50000x64, .f32⟩ : BufTy).Contents (Elt F) → (⟨S50000x64, .f32⟩ : BufTy).Contents (Elt F) → (⟨S50000x128, .f32⟩ : BufTy).Contents (Elt F)),
    StableHlo.unary main_arg3 main_v1 ((transpose S128x64 [1, 0] · transposes_S64x128_S128x64_1_0) : (⟨S64x128, .f32⟩ : BufTy).Contents (Elt F) → (⟨S128x64, .f32⟩ : BufTy).Contents (Elt F)),
    StableHlo.binary main_v0 main_v1 main_v2 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.unary main_arg4 main_v3 (broadcastInDim S1x64 ![1] bcast_S64_S1x64_1 : (⟨S64, .f32⟩ : BufTy).Contents (Elt F) → (⟨S1x64, .f32⟩ : BufTy).Contents (Elt F)),
    StableHlo.unary main_v3 main_v4 (broadcastInDim S50000x64 ![0, 1] bcast_S1x64_S50000x64_0_1 : (⟨S1x64, .f32⟩ : BufTy).Contents (Elt F) → (⟨S50000x64, .f32⟩ : BufTy).Contents (Elt F)),
    StableHlo.binary main_v2 main_v4 main_v5 (addf : (⟨S50000x64, .f32⟩ : BufTy).Contents (Elt F) → (⟨S50000x64, .f32⟩ : BufTy).Contents (Elt F) → (⟨S50000x64, .f32⟩ : BufTy).Contents (Elt F)),
    StableHlo.unary main_arg5 main_v6 ((transpose S128x64 [1, 0] · transposes_S64x128_S128x64_1_0) : (⟨S64x128, .f32⟩ : BufTy).Contents (Elt F) → (⟨S128x64, .f32⟩ : BufTy).Contents (Elt F)),
    StableHlo.binary main_v0 main_v6 main_v7 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.unary main_arg6 main_v8 (broadcastInDim S1x64 ![1] bcast_S64_S1x64_1 : (⟨S64, .f32⟩ : BufTy).Contents (Elt F) → (⟨S1x64, .f32⟩ : BufTy).Contents (Elt F)),
    StableHlo.unary main_v8 main_v9 (broadcastInDim S50000x64 ![0, 1] bcast_S1x64_S50000x64_0_1 : (⟨S1x64, .f32⟩ : BufTy).Contents (Elt F) → (⟨S50000x64, .f32⟩ : BufTy).Contents (Elt F)),
    StableHlo.binary main_v7 main_v9 main_v10 (addf : (⟨S50000x64, .f32⟩ : BufTy).Contents (Elt F) → (⟨S50000x64, .f32⟩ : BufTy).Contents (Elt F) → (⟨S50000x64, .f32⟩ : BufTy).Contents (Elt F)),
    StableHlo.unary main_arg7 main_v11 ((transpose S64x64 [1, 0] · transposes_S64x64_S64x64_1_0) : (⟨S64x64, .f32⟩ : BufTy).Contents (Elt F) → (⟨S64x64, .f32⟩ : BufTy).Contents (Elt F)),
    StableHlo.binary main_arg0 main_v11 main_v12 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg8 main_v13 (broadcastInDim S1x64 ![1] bcast_S64_S1x64_1 : (⟨S64, .f32⟩ : BufTy).Contents (Elt F) → (⟨S1x64, .f32⟩ : BufTy).Contents (Elt F)),
    StableHlo.unary main_v13 main_v14 (broadcastInDim S50000x64 ![0, 1] bcast_S1x64_S50000x64_0_1 : (⟨S1x64, .f32⟩ : BufTy).Contents (Elt F) → (⟨S50000x64, .f32⟩ : BufTy).Contents (Elt F)),
    StableHlo.binary main_v12 main_v14 main_v15 (addf : (⟨S50000x64, .f32⟩ : BufTy).Contents (Elt F) → (⟨S50000x64, .f32⟩ : BufTy).Contents (Elt F) → (⟨S50000x64, .f32⟩ : BufTy).Contents (Elt F)),
    StableHlo.unary main_arg9 main_v16 ((transpose S64x64 [1, 0] · transposes_S64x64_S64x64_1_0) : (⟨S64x64, .f32⟩ : BufTy).Contents (Elt F) → (⟨S64x64, .f32⟩ : BufTy).Contents (Elt F)),
    StableHlo.binary main_arg0 main_v16 main_v17 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg10 main_v18 (broadcastInDim S1x64 ![1] bcast_S64_S1x64_1 : (⟨S64, .f32⟩ : BufTy).Contents (Elt F) → (⟨S1x64, .f32⟩ : BufTy).Contents (Elt F)),
    StableHlo.unary main_v18 main_v19 (broadcastInDim S50000x64 ![0, 1] bcast_S1x64_S50000x64_0_1 : (⟨S1x64, .f32⟩ : BufTy).Contents (Elt F) → (⟨S50000x64, .f32⟩ : BufTy).Contents (Elt F)),
    StableHlo.binary main_v17 main_v19 main_v20 (addf : (⟨S50000x64, .f32⟩ : BufTy).Contents (Elt F) → (⟨S50000x64, .f32⟩ : BufTy).Contents (Elt F) → (⟨S50000x64, .f32⟩ : BufTy).Contents (Elt F)),
    StableHlo.unary main_arg11 main_v21 ((transpose S64x64 [1, 0] · transposes_S64x64_S64x64_1_0) : (⟨S64x64, .f32⟩ : BufTy).Contents (Elt F) → (⟨S64x64, .f32⟩ : BufTy).Contents (Elt F)),
    StableHlo.binary main_arg1 main_v21 main_v22 ((fun l r => Host.dotGeneral dot_S800000x64_S64x64_S800000x64_1_0_0_1_n_n none l r) : (⟨S800000x64, .f32⟩ : BufTy).Contents (Elt F) → (⟨S64x64, .f32⟩ : BufTy).Contents (Elt F) → (⟨S800000x64, .f32⟩ : BufTy).Contents (Elt F)),
    StableHlo.unary main_arg12 main_v23 (broadcastInDim S1x64 ![1] bcast_S64_S1x64_1 : (⟨S64, .f32⟩ : BufTy).Contents (Elt F) → (⟨S1x64, .f32⟩ : BufTy).Contents (Elt F)),
    StableHlo.unary main_v23 main_v24 (broadcastInDim S800000x64 ![0, 1] bcast_S1x64_S800000x64_0_1 : (⟨S1x64, .f32⟩ : BufTy).Contents (Elt F) → (⟨S800000x64, .f32⟩ : BufTy).Contents (Elt F)),
    StableHlo.binary main_v22 main_v24 main_v25 (addf : (⟨S800000x64, .f32⟩ : BufTy).Contents (Elt F) → (⟨S800000x64, .f32⟩ : BufTy).Contents (Elt F) → (⟨S800000x64, .f32⟩ : BufTy).Contents (Elt F)),
    StableHlo.unary main_arg13 main_v26 ((transpose S64x64 [1, 0] · transposes_S64x64_S64x64_1_0) : (⟨S64x64, .f32⟩ : BufTy).Contents (Elt F) → (⟨S64x64, .f32⟩ : BufTy).Contents (Elt F)),
    StableHlo.binary main_arg2 main_v26 main_v27 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg14 main_v28 (broadcastInDim S1x64 ![1] bcast_S64_S1x64_1 : (⟨S64, .f32⟩ : BufTy).Contents (Elt F) → (⟨S1x64, .f32⟩ : BufTy).Contents (Elt F)),
    StableHlo.unary main_v28 main_v29 (broadcastInDim S50000x64 ![0, 1] bcast_S1x64_S50000x64_0_1 : (⟨S1x64, .f32⟩ : BufTy).Contents (Elt F) → (⟨S50000x64, .f32⟩ : BufTy).Contents (Elt F)),
    StableHlo.binary main_v27 main_v29 main_v30 (addf : (⟨S50000x64, .f32⟩ : BufTy).Contents (Elt F) → (⟨S50000x64, .f32⟩ : BufTy).Contents (Elt F) → (⟨S50000x64, .f32⟩ : BufTy).Contents (Elt F)),
    StableHlo.unary main_arg15 main_v31 ((transpose S64x64 [1, 0] · transposes_S64x64_S64x64_1_0) : (⟨S64x64, .f32⟩ : BufTy).Contents (Elt F) → (⟨S64x64, .f32⟩ : BufTy).Contents (Elt F)),
    StableHlo.binary main_arg2 main_v31 main_v32 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg16 main_v33 (broadcastInDim S1x64 ![1] bcast_S64_S1x64_1 : (⟨S64, .f32⟩ : BufTy).Contents (Elt F) → (⟨S1x64, .f32⟩ : BufTy).Contents (Elt F)),
    StableHlo.unary main_v33 main_v34 (broadcastInDim S50000x64 ![0, 1] bcast_S1x64_S50000x64_0_1 : (⟨S1x64, .f32⟩ : BufTy).Contents (Elt F) → (⟨S50000x64, .f32⟩ : BufTy).Contents (Elt F)),
    StableHlo.binary main_v32 main_v34 main_v35 (addf : (⟨S50000x64, .f32⟩ : BufTy).Contents (Elt F) → (⟨S50000x64, .f32⟩ : BufTy).Contents (Elt F) → (⟨S50000x64, .f32⟩ : BufTy).Contents (Elt F)),
    StableHlo.nullary main_c (constantI S_ 32 0#32),
    StableHlo.unary main_c main_v36 (broadcastInDim S800000 ![] bcast_S_S800000 : (⟨S_, .i32⟩ : BufTy).Contents (Elt F) → (⟨S800000, .i32⟩ : BufTy).Contents (Elt F)),
    StableHlo.binary main_arg19 main_v36 main_v37 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v38 (broadcastInDim S800000 ![] bcast_S_S800000 : (⟨S_, .i32⟩ : BufTy).Contents (Elt F) → (⟨S800000, .i32⟩ : BufTy).Contents (Elt F)),
    StableHlo.binary main_arg19 main_v38 main_v39 (addi : (⟨S800000, .i32⟩ : BufTy).Contents (Elt F) → (⟨S800000, .i32⟩ : BufTy).Contents (Elt F) → (⟨S800000, .i32⟩ : BufTy).Contents (Elt F)),
    StableHlo.ternary main_v37 main_v39 main_arg19 main_v40 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v40 main_v41 (broadcastInDim S800000x1 ![0] bcast_S800000_S800000x1_0 : (⟨S800000, .i32⟩ : BufTy).Contents (Elt F) → (⟨S800000x1, .i32⟩ : BufTy).Contents (Elt F)),
    StableHlo.binary main_v15 main_v41 main_v42 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.nullary main_c_1 (constantI S_ 32 0#32),
    StableHlo.unary main_c_1 main_v43 (broadcastInDim S800000 ![] bcast_S_S800000 : (⟨S_, .i32⟩ : BufTy).Contents (Elt F) → (⟨S800000, .i32⟩ : BufTy).Contents (Elt F)),
    StableHlo.binary main_arg20 main_v43 main_v44 (cmpi .slt : (⟨S800000, .i32⟩ : BufTy).Contents (Elt F) → (⟨S800000, .i32⟩ : BufTy).Contents (Elt F) → (⟨S800000, .i1⟩ : BufTy).Contents (Elt F)),
    StableHlo.nullary main_c_2 (constantI S_ 32 50000#32),
    StableHlo.unary main_c_2 main_v45 (broadcastInDim S800000 ![] bcast_S_S800000 : (⟨S_, .i32⟩ : BufTy).Contents (Elt F) → (⟨S800000, .i32⟩ : BufTy).Contents (Elt F)),
    StableHlo.binary main_arg20 main_v45 main_v46 (addi : (⟨S800000, .i32⟩ : BufTy).Contents (Elt F) → (⟨S800000, .i32⟩ : BufTy).Contents (Elt F) → (⟨S800000, .i32⟩ : BufTy).Contents (Elt F)),
    StableHlo.ternary main_v44 main_v46 main_arg20 main_v47 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v47 main_v48 (broadcastInDim S800000x1 ![0] bcast_S800000_S800000x1_0 : (⟨S800000, .i32⟩ : BufTy).Contents (Elt F) → (⟨S800000x1, .i32⟩ : BufTy).Contents (Elt F)),
    StableHlo.binary main_v20 main_v48 main_v49 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.binary main_v42 main_v49 main_v50 (addf : (⟨S800000x64, .f32⟩ : BufTy).Contents (Elt F) → (⟨S800000x64, .f32⟩ : BufTy).Contents (Elt F) → (⟨S800000x64, .f32⟩ : BufTy).Contents (Elt F)),
    StableHlo.binary main_v50 main_v25 main_v51 (addf : (⟨S800000x64, .f32⟩ : BufTy).Contents (Elt F) → (⟨S800000x64, .f32⟩ : BufTy).Contents (Elt F) → (⟨S800000x64, .f32⟩ : BufTy).Contents (Elt F)),
    StableHlo.unary main_v51 main_v52 (Host.negf : (⟨S800000x64, .f32⟩ : BufTy).Contents (Elt F) → (⟨S800000x64, .f32⟩ : BufTy).Contents (Elt F)),
    StableHlo.unary main_v52 main_v53 (Host.exp : (⟨S800000x64, .f32⟩ : BufTy).Contents (Elt F) → (⟨S800000x64, .f32⟩ : BufTy).Contents (Elt F)),
    StableHlo.nullary main_cst (constant S_ .f32 0x3F800000#32),
    StableHlo.unary main_cst main_v54 (broadcastInDim S800000x64 ![] bcast_S_S800000x64 : (⟨S_, .f32⟩ : BufTy).Contents (Elt F) → (⟨S800000x64, .f32⟩ : BufTy).Contents (Elt F)),
    StableHlo.binary main_v54 main_v53 main_v55 (addf : (⟨S800000x64, .f32⟩ : BufTy).Contents (Elt F) → (⟨S800000x64, .f32⟩ : BufTy).Contents (Elt F) → (⟨S800000x64, .f32⟩ : BufTy).Contents (Elt F)),
    StableHlo.nullary main_cst_3 (constant S_ .f32 0x3F800000#32),
    StableHlo.unary main_cst_3 main_v56 (broadcastInDim S800000x64 ![] bcast_S_S800000x64 : (⟨S_, .f32⟩ : BufTy).Contents (Elt F) → (⟨S800000x64, .f32⟩ : BufTy).Contents (Elt F)),
    StableHlo.binary main_v56 main_v55 main_v57 (Host.divf : (⟨S800000x64, .f32⟩ : BufTy).Contents (Elt F) → (⟨S800000x64, .f32⟩ : BufTy).Contents (Elt F) → (⟨S800000x64, .f32⟩ : BufTy).Contents (Elt F)),
    StableHlo.nullary main_cst_4 (constant S_ .f32 0x00000000#32),
    StableHlo.unary main_cst_4 main_v58 (broadcastInDim S50000x64 ![] bcast_S_S50000x64 : (⟨S_, .f32⟩ : BufTy).Contents (Elt F) → (⟨S50000x64, .f32⟩ : BufTy).Contents (Elt F)),
    StableHlo.unary main_arg20 main_v59 (broadcastInDim S800000x1 ![0] bcast_S800000_S800000x1_0 : (⟨S800000, .i32⟩ : BufTy).Contents (Elt F) → (⟨S800000x1, .i32⟩ : BufTy).Contents (Elt F)),
    StableHlo.ternary main_v58 main_v59 main_v57 main_v60 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    StableHlo.nullary main_c_5 (constantI S_ 32 0#32),
    StableHlo.unary main_c_5 main_v61 (broadcastInDim S800000 ![] bcast_S_S800000 : (⟨S_, .i32⟩ : BufTy).Contents (Elt F) → (⟨S800000, .i32⟩ : BufTy).Contents (Elt F)),
    StableHlo.binary main_arg20 main_v61 main_v62 (cmpi .slt : (⟨S800000, .i32⟩ : BufTy).Contents (Elt F) → (⟨S800000, .i32⟩ : BufTy).Contents (Elt F) → (⟨S800000, .i1⟩ : BufTy).Contents (Elt F)),
    StableHlo.nullary main_c_6 (constantI S_ 32 50000#32),
    StableHlo.unary main_c_6 main_v63 (broadcastInDim S800000 ![] bcast_S_S800000 : (⟨S_, .i32⟩ : BufTy).Contents (Elt F) → (⟨S800000, .i32⟩ : BufTy).Contents (Elt F)),
    StableHlo.binary main_arg20 main_v63 main_v64 (addi : (⟨S800000, .i32⟩ : BufTy).Contents (Elt F) → (⟨S800000, .i32⟩ : BufTy).Contents (Elt F) → (⟨S800000, .i32⟩ : BufTy).Contents (Elt F)),
    StableHlo.ternary main_v62 main_v64 main_arg20 main_v65 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v65 main_v66 (broadcastInDim S800000x1 ![0] bcast_S800000_S800000x1_0 : (⟨S800000, .i32⟩ : BufTy).Contents (Elt F) → (⟨S800000x1, .i32⟩ : BufTy).Contents (Elt F)),
    StableHlo.binary main_v60 main_v66 main_v67 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.nullary main_cst_7 (constant S_ .f32 0x2B8CBCCC#32),
    StableHlo.unary main_cst_7 main_v68 (broadcastInDim S800000x64 ![] bcast_S_S800000x64 : (⟨S_, .f32⟩ : BufTy).Contents (Elt F) → (⟨S800000x64, .f32⟩ : BufTy).Contents (Elt F)),
    StableHlo.binary main_v67 main_v68 main_v69 (addf : (⟨S800000x64, .f32⟩ : BufTy).Contents (Elt F) → (⟨S800000x64, .f32⟩ : BufTy).Contents (Elt F) → (⟨S800000x64, .f32⟩ : BufTy).Contents (Elt F)),
    StableHlo.binary main_v57 main_v69 main_v70 (Host.divf : (⟨S800000x64, .f32⟩ : BufTy).Contents (Elt F) → (⟨S800000x64, .f32⟩ : BufTy).Contents (Elt F) → (⟨S800000x64, .f32⟩ : BufTy).Contents (Elt F)),
    StableHlo.unary main_v5 main_v71 (Host.tanh : (⟨S50000x64, .f32⟩ : BufTy).Contents (Elt F) → (⟨S50000x64, .f32⟩ : BufTy).Contents (Elt F)),
    StableHlo.unary main_v71 main_v72 (Host.exp : (⟨S50000x64, .f32⟩ : BufTy).Contents (Elt F) → (⟨S50000x64, .f32⟩ : BufTy).Contents (Elt F)),
    StableHlo.unary main_v5 main_v73 (Host.negf : (⟨S50000x64, .f32⟩ : BufTy).Contents (Elt F) → (⟨S50000x64, .f32⟩ : BufTy).Contents (Elt F)),
    StableHlo.unary main_v73 main_v74 (Host.exp : (⟨S50000x64, .f32⟩ : BufTy).Contents (Elt F) → (⟨S50000x64, .f32⟩ : BufTy).Contents (Elt F)),
    StableHlo.nullary main_cst_8 (constant S_ .f32 0x3F800000#32),
    StableHlo.unary main_cst_8 main_v75 (broadcastInDim S50000x64 ![] bcast_S_S50000x64 : (⟨S_, .f32⟩ : BufTy).Contents (Elt F) → (⟨S50000x64, .f32⟩ : BufTy).Contents (Elt F)),
    StableHlo.binary main_v75 main_v74 main_v76 (addf : (⟨S50000x64, .f32⟩ : BufTy).Contents (Elt F) → (⟨S50000x64, .f32⟩ : BufTy).Contents (Elt F) → (⟨S50000x64, .f32⟩ : BufTy).Contents (Elt F)),
    StableHlo.nullary main_cst_9 (constant S_ .f32 0x3F800000#32),
    StableHlo.unary main_cst_9 main_v77 (broadcastInDim S50000x64 ![] bcast_S_S50000x64 : (⟨S_, .f32⟩ : BufTy).Contents (Elt F) → (⟨S50000x64, .f32⟩ : BufTy).Contents (Elt F)),
    StableHlo.binary main_v77 main_v76 main_v78 (Host.divf : (⟨S50000x64, .f32⟩ : BufTy).Contents (Elt F) → (⟨S50000x64, .f32⟩ : BufTy).Contents (Elt F) → (⟨S50000x64, .f32⟩ : BufTy).Contents (Elt F)),
    StableHlo.unary main_v78 main_v79 (Host.exp : (⟨S50000x64, .f32⟩ : BufTy).Contents (Elt F) → (⟨S50000x64, .f32⟩ : BufTy).Contents (Elt F)),
    StableHlo.nullary main_c_10 (constantI S_ 32 0#32),
    StableHlo.unary main_c_10 main_v80 (broadcastInDim S800000 ![] bcast_S_S800000 : (⟨S_, .i32⟩ : BufTy).Contents (Elt F) → (⟨S800000, .i32⟩ : BufTy).Contents (Elt F)),
    StableHlo.binary main_arg19 main_v80 main_v81 (cmpi .slt : (⟨S800000, .i32⟩ : BufTy).Contents (Elt F) → (⟨S800000, .i32⟩ : BufTy).Contents (Elt F) → (⟨S800000, .i1⟩ : BufTy).Contents (Elt F)),
    StableHlo.nullary main_c_11 (constantI S_ 32 50000#32),
    StableHlo.unary main_c_11 main_v82 (broadcastInDim S800000 ![] bcast_S_S800000 : (⟨S_, .i32⟩ : BufTy).Contents (Elt F) → (⟨S800000, .i32⟩ : BufTy).Contents (Elt F)),
    StableHlo.binary main_arg19 main_v82 main_v83 (addi : (⟨S800000, .i32⟩ : BufTy).Contents (Elt F) → (⟨S800000, .i32⟩ : BufTy).Contents (Elt F) → (⟨S800000, .i32⟩ : BufTy).Contents (Elt F)),
    StableHlo.ternary main_v81 main_v83 main_arg19 main_v84 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v84 main_v85 (broadcastInDim S800000x1 ![0] bcast_S800000_S800000x1_0 : (⟨S800000, .i32⟩ : BufTy).Contents (Elt F) → (⟨S800000x1, .i32⟩ : BufTy).Contents (Elt F)),
    StableHlo.binary main_v72 main_v85 main_v86 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.nullary main_c_12 (constantI S_ 32 0#32),
    StableHlo.unary main_c_12 main_v87 (broadcastInDim S800000 ![] bcast_S_S800000 : (⟨S_, .i32⟩ : BufTy).Contents (Elt F) → (⟨S800000, .i32⟩ : BufTy).Contents (Elt F)),
    StableHlo.binary main_arg20 main_v87 main_v88 (cmpi .slt : (⟨S800000, .i32⟩ : BufTy).Contents (Elt F) → (⟨S800000, .i32⟩ : BufTy).Contents (Elt F) → (⟨S800000, .i1⟩ : BufTy).Contents (Elt F)),
    StableHlo.nullary main_c_13 (constantI S_ 32 50000#32),
    StableHlo.unary main_c_13 main_v89 (broadcastInDim S800000 ![] bcast_S_S800000 : (⟨S_, .i32⟩ : BufTy).Contents (Elt F) → (⟨S800000, .i32⟩ : BufTy).Contents (Elt F)),
    StableHlo.binary main_arg20 main_v89 main_v90 (addi : (⟨S800000, .i32⟩ : BufTy).Contents (Elt F) → (⟨S800000, .i32⟩ : BufTy).Contents (Elt F) → (⟨S800000, .i32⟩ : BufTy).Contents (Elt F)),
    StableHlo.ternary main_v88 main_v90 main_arg20 main_v91 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v91 main_v92 (broadcastInDim S800000x1 ![0] bcast_S800000_S800000x1_0 : (⟨S800000, .i32⟩ : BufTy).Contents (Elt F) → (⟨S800000x1, .i32⟩ : BufTy).Contents (Elt F)),
    StableHlo.binary main_v79 main_v92 main_v93 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.binary main_v86 main_v93 main_v94 (mulf : (⟨S800000x64, .f32⟩ : BufTy).Contents (Elt F) → (⟨S800000x64, .f32⟩ : BufTy).Contents (Elt F) → (⟨S800000x64, .f32⟩ : BufTy).Contents (Elt F)),
    StableHlo.nullary main_cst_14 (constant S_ .f32 0x00000000#32),
    StableHlo.binary main_v94 main_cst_14 main_v95 ((fun x v => Host.reduceAdd x v reducesTo_S800000x64_S800000_d1 h_S_) : (⟨S800000x64, .f32⟩ : BufTy).Contents (Elt F) → (⟨S_, .f32⟩ : BufTy).Contents (Elt F) → (⟨S800000, .f32⟩ : BufTy).Contents (Elt F)),
    StableHlo.unary main_v95 main_v96 (broadcastInDim S800000x1 ![0] bcast_S800000_S800000x1_0 : (⟨S800000, .f32⟩ : BufTy).Contents (Elt F) → (⟨S800000x1, .f32⟩ : BufTy).Contents (Elt F)),
    StableHlo.unary main_v96 main_v97 (broadcastInDim S800000x64 ![0, 1] bcast_S800000x1_S800000x64_0_1 : (⟨S800000x1, .f32⟩ : BufTy).Contents (Elt F) → (⟨S800000x64, .f32⟩ : BufTy).Contents (Elt F)),
    StableHlo.binary main_v70 main_v97 main_v98 (mulf : (⟨S800000x64, .f32⟩ : BufTy).Contents (Elt F) → (⟨S800000x64, .f32⟩ : BufTy).Contents (Elt F) → (⟨S800000x64, .f32⟩ : BufTy).Contents (Elt F)),
    StableHlo.nullary main_c_15 (constantI S_ 32 0#32),
    StableHlo.unary main_c_15 main_v99 (broadcastInDim S800000 ![] bcast_S_S800000 : (⟨S_, .i32⟩ : BufTy).Contents (Elt F) → (⟨S800000, .i32⟩ : BufTy).Contents (Elt F)),
    StableHlo.binary main_arg19 main_v99 main_v100 (cmpi .slt : (⟨S800000, .i32⟩ : BufTy).Contents (Elt F) → (⟨S800000, .i32⟩ : BufTy).Contents (Elt F) → (⟨S800000, .i1⟩ : BufTy).Contents (Elt F)),
    StableHlo.nullary main_c_16 (constantI S_ 32 50000#32),
    StableHlo.unary main_c_16 main_v101 (broadcastInDim S800000 ![] bcast_S_S800000 : (⟨S_, .i32⟩ : BufTy).Contents (Elt F) → (⟨S800000, .i32⟩ : BufTy).Contents (Elt F)),
    StableHlo.binary main_arg19 main_v101 main_v102 (addi : (⟨S800000, .i32⟩ : BufTy).Contents (Elt F) → (⟨S800000, .i32⟩ : BufTy).Contents (Elt F) → (⟨S800000, .i32⟩ : BufTy).Contents (Elt F)),
    StableHlo.ternary main_v100 main_v102 main_arg19 main_v103 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v103 main_v104 (broadcastInDim S800000x1 ![0] bcast_S800000_S800000x1_0 : (⟨S800000, .i32⟩ : BufTy).Contents (Elt F) → (⟨S800000x1, .i32⟩ : BufTy).Contents (Elt F)),
    StableHlo.binary main_v10 main_v104 main_v105 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.binary main_v98 main_v105 main_v106 (mulf : (⟨S800000x64, .f32⟩ : BufTy).Contents (Elt F) → (⟨S800000x64, .f32⟩ : BufTy).Contents (Elt F) → (⟨S800000x64, .f32⟩ : BufTy).Contents (Elt F)),
    StableHlo.nullary main_cst_17 (constant S_ .f32 0x00000000#32),
    StableHlo.unary main_cst_17 main_v107 (broadcastInDim S50000x64 ![] bcast_S_S50000x64 : (⟨S_, .f32⟩ : BufTy).Contents (Elt F) → (⟨S50000x64, .f32⟩ : BufTy).Contents (Elt F)),
    StableHlo.unary main_arg20 main_v108 (broadcastInDim S800000x1 ![0] bcast_S800000_S800000x1_0 : (⟨S800000, .i32⟩ : BufTy).Contents (Elt F) → (⟨S800000x1, .i32⟩ : BufTy).Contents (Elt F)),
    StableHlo.ternary main_v107 main_v108 main_v106 main_v109 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    StableHlo.binary main_v10 main_v109 main_v110 (addf : (⟨S50000x64, .f32⟩ : BufTy).Contents (Elt F) → (⟨S50000x64, .f32⟩ : BufTy).Contents (Elt F) → (⟨S50000x64, .f32⟩ : BufTy).Contents (Elt F)),
    StableHlo.nullary main_c_18 (constantI S_ 32 0#32),
    StableHlo.unary main_c_18 main_v111 (broadcastInDim S800000 ![] bcast_S_S800000 : (⟨S_, .i32⟩ : BufTy).Contents (Elt F) → (⟨S800000, .i32⟩ : BufTy).Contents (Elt F)),
    StableHlo.binary main_arg19 main_v111 main_v112 (cmpi .slt : (⟨S800000, .i32⟩ : BufTy).Contents (Elt F) → (⟨S800000, .i32⟩ : BufTy).Contents (Elt F) → (⟨S800000, .i1⟩ : BufTy).Contents (Elt F)),
    StableHlo.nullary main_c_19 (constantI S_ 32 50000#32),
    StableHlo.unary main_c_19 main_v113 (broadcastInDim S800000 ![] bcast_S_S800000 : (⟨S_, .i32⟩ : BufTy).Contents (Elt F) → (⟨S800000, .i32⟩ : BufTy).Contents (Elt F)),
    StableHlo.binary main_arg19 main_v113 main_v114 (addi : (⟨S800000, .i32⟩ : BufTy).Contents (Elt F) → (⟨S800000, .i32⟩ : BufTy).Contents (Elt F) → (⟨S800000, .i32⟩ : BufTy).Contents (Elt F)),
    StableHlo.ternary main_v112 main_v114 main_arg19 main_v115 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v115 main_v116 (broadcastInDim S800000x1 ![0] bcast_S800000_S800000x1_0 : (⟨S800000, .i32⟩ : BufTy).Contents (Elt F) → (⟨S800000x1, .i32⟩ : BufTy).Contents (Elt F)),
    StableHlo.binary main_v35 main_v116 main_v117 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.binary main_v70 main_v117 main_v118 (mulf : (⟨S800000x64, .f32⟩ : BufTy).Contents (Elt F) → (⟨S800000x64, .f32⟩ : BufTy).Contents (Elt F) → (⟨S800000x64, .f32⟩ : BufTy).Contents (Elt F)),
    StableHlo.nullary main_cst_20 (constant S_ .f32 0x00000000#32),
    StableHlo.unary main_cst_20 main_v119 (broadcastInDim S50000x64 ![] bcast_S_S50000x64 : (⟨S_, .f32⟩ : BufTy).Contents (Elt F) → (⟨S50000x64, .f32⟩ : BufTy).Contents (Elt F)),
    StableHlo.unary main_arg20 main_v120 (broadcastInDim S800000x1 ![0] bcast_S800000_S800000x1_0 : (⟨S800000, .i32⟩ : BufTy).Contents (Elt F) → (⟨S800000x1, .i32⟩ : BufTy).Contents (Elt F)),
    StableHlo.ternary main_v119 main_v120 main_v118 main_v121 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    StableHlo.binary main_v30 main_v121 main_v122 (addf : (⟨S50000x64, .f32⟩ : BufTy).Contents (Elt F) → (⟨S50000x64, .f32⟩ : BufTy).Contents (Elt F) → (⟨S50000x64, .f32⟩ : BufTy).Contents (Elt F)),
    StableHlo.TRef.nullary main_call0.cst (constant S_ .f32 0x00000000#32),
    StableHlo.TRef.unary main_call0.cst main_call0.v0 (broadcastInDim S50000x64 ![] bcast_S_S50000x64),
    StableHlo.TRef.binary (.of main_v110 : StableHlo.TRef sig ⟨S50000x64, .f32⟩) main_call0.v0 main_call0.v1 maximumf,
    StableHlo.TRef.nullary main_call1.cst (constant S_ .f32 0x00000000#32),
    StableHlo.TRef.unary main_call1.cst main_call1.v0 (broadcastInDim S800000x64 ![] bcast_S_S800000x64),
    StableHlo.TRef.binary (.of main_v51 : StableHlo.TRef sig ⟨S800000x64, .f32⟩) main_call1.v0 main_call1.v1 maximumf,
    StableHlo.unary main_v122 main_v125 (Host.tanh : (⟨S50000x64, .f32⟩ : BufTy).Contents (Elt F) → (⟨S50000x64, .f32⟩ : BufTy).Contents (Elt F)),
    StableHlo.nullary main_cst_21 (constant S_ .f32 0x00000000#32),
    StableHlo.binary main_v123 main_cst_21 main_v126 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    StableHlo.unary main_v126 main_v127 (broadcastInDim S50000x1 ![0] bcast_S50000_S50000x1_0 : (⟨S50000, .f32⟩ : BufTy).Contents (Elt F) → (⟨S50000x1, .f32⟩ : BufTy).Contents (Elt F)),
    StableHlo.nullary main_cst_22 (constant S_ .f32 0x42800000#32),
    StableHlo.unary main_cst_22 main_v128 (broadcastInDim S50000x1 ![] bcast_S_S50000x1 : (⟨S_, .f32⟩ : BufTy).Contents (Elt F) → (⟨S50000x1, .f32⟩ : BufTy).Contents (Elt F)),
    StableHlo.binary main_v127 main_v128 main_v129 (Host.divf : (⟨S50000x1, .f32⟩ : BufTy).Contents (Elt F) → (⟨S50000x1, .f32⟩ : BufTy).Contents (Elt F) → (⟨S50000x1, .f32⟩ : BufTy).Contents (Elt F)),
    StableHlo.nullary main_c_23 (constantI S_ 32 0#32),
    StableHlo.TRef.nullary main_call2.cst (constant S_ .f32 0x00000000#32),
    StableHlo.TRef.binary (.of main_v123 : StableHlo.TRef sig ⟨S50000x64, .f32⟩) main_call2.cst main_call2.v0 (fun x v => Host.reduceAdd x v reducesTo_S50000x64_S50000_d1 h_S_),
    StableHlo.TRef.unary main_call2.v0 main_call2.v1 (broadcastInDim S50000x1 ![0] bcast_S50000_S50000x1_0),
    StableHlo.TRef.nullary main_call2.cst_0 (constant S_ .f32 0x42800000#32),
    StableHlo.TRef.unary main_call2.cst_0 main_call2.v2 (broadcastInDim S50000x1 ![] bcast_S_S50000x1),
    StableHlo.TRef.binary main_call2.v1 main_call2.v2 main_call2.v3 Host.divf,
    StableHlo.TRef.unary main_call2.v3 main_call2.v4 (broadcastInDim S50000x64 ![0, 1] bcast_S50000x1_S50000x64_0_1),
    StableHlo.TRef.binary (.of main_v123 : StableHlo.TRef sig ⟨S50000x64, .f32⟩) main_call2.v4 main_call2.v5 subf,
    StableHlo.TRef.binary main_call2.v5 main_call2.v5 main_call2.v6 mulf,
    StableHlo.TRef.unary (.of main_c_23 : StableHlo.TRef sig ⟨S_, .i32⟩) main_call2.v7 (sitofp .f32),
    StableHlo.TRef.nullary main_call2.cst_1 (constant S_ .f32 0x42800000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x64_S50000_d1 h_S_),
    StableHlo.TRef.unary main_call2.v9 main_call2.v10 (broadcastInDim S50000x1 ![0] bcast_S50000_S50000x1_0),
    StableHlo.TRef.unary main_call2.v8 main_call2.v11 (broadcastInDim S50000x1 ![] bcast_S_S50000x1),
    StableHlo.TRef.binary main_call2.v10 main_call2.v11 main_call2.v12 Host.divf,
    StableHlo.TRef.nullary main_call2.cst_3 (constant S_ .f32 0x00000000#32),
    StableHlo.TRef.binary main_call2.v8 main_call2.cst_3 main_call2.v13 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S50000x1 ![] bcast_S_S50000x1),
    StableHlo.TRef.ternary main_call2.v13 main_call2.v12 main_call2.call0.v1 main_call2.call0.v2 (fun p a b => select (broadcastInDim S50000x1 ![] bcast_S_S50000x1 p) a b),
    StableHlo.unary main_v129 main_v131 (broadcastInDim S50000x64 ![0, 1] bcast_S50000x1_S50000x64_0_1 : (⟨S50000x1, .f32⟩ : BufTy).Contents (Elt F) → (⟨S50000x64, .f32⟩ : BufTy).Contents (Elt F)),
    StableHlo.binary main_v123 main_v131 main_v132 (subf : (⟨S50000x64, .f32⟩ : BufTy).Contents (Elt F) → (⟨S50000x64, .f32⟩ : BufTy).Contents (Elt F) → (⟨S50000x64, .f32⟩ : BufTy).Contents (Elt F)),
    StableHlo.nullary main_cst_24 (constant S_ .f32 0x3727C5AC#32),
    StableHlo.unary main_cst_24 main_v133 (broadcastInDim S50000x1 ![] bcast_S_S50000x1 : (⟨S_, .f32⟩ : BufTy).Contents (Elt F) → (⟨S50000x1, .f32⟩ : BufTy).Contents (Elt F)),
    StableHlo.binary main_v130 main_v133 main_v134 (addf : (⟨S50000x1, .f32⟩ : BufTy).Contents (Elt F) → (⟨S50000x1, .f32⟩ : BufTy).Contents (Elt F) → (⟨S50000x1, .f32⟩ : BufTy).Contents (Elt F)),
    StableHlo.unary main_v134 main_v135 (Host.rsqrt : (⟨S50000x1, .f32⟩ : BufTy).Contents (Elt F) → (⟨S50000x1, .f32⟩ : BufTy).Contents (Elt F)),
    StableHlo.unary main_v135 main_v136 (broadcastInDim S50000x64 ![0, 1] bcast_S50000x1_S50000x64_0_1 : (⟨S50000x1, .f32⟩ : BufTy).Contents (Elt F) → (⟨S50000x64, .f32⟩ : BufTy).Contents (Elt F)),
    StableHlo.binary main_v132 main_v136 main_v137 (mulf : (⟨S50000x64, .f32⟩ : BufTy).Contents (Elt F) → (⟨S50000x64, .f32⟩ : BufTy).Contents (Elt F) → (⟨S50000x64, .f32⟩ : BufTy).Contents (Elt F)),
    StableHlo.unary main_arg17 main_v138 (broadcastInDim S1x64 ![1] bcast_S64_S1x64_1 : (⟨S64, .f32⟩ : BufTy).Contents (Elt F) → (⟨S1x64, .f32⟩ : BufTy).Contents (Elt F)),
    StableHlo.unary main_v138 main_v139 (broadcastInDim S50000x64 ![0, 1] bcast_S1x64_S50000x64_0_1 : (⟨S1x64, .f32⟩ : BufTy).Contents (Elt F) → (⟨S50000x64, .f32⟩ : BufTy).Contents (Elt F)),
    StableHlo.binary main_v137 main_v139 main_v140 (mulf : (⟨S50000x64, .f32⟩ : BufTy).Contents (Elt F) → (⟨S50000x64, .f32⟩ : BufTy).Contents (Elt F) → (⟨S50000x64, .f32⟩ : BufTy).Contents (Elt F)),
    StableHlo.unary main_arg18 main_v141 (broadcastInDim S1x64 ![1] bcast_S64_S1x64_1 : (⟨S64, .f32⟩ : BufTy).Contents (Elt F) → (⟨S1x64, .f32⟩ : BufTy).Contents (Elt F)),
    StableHlo.unary main_v141 main_v142 (broadcastInDim S50000x64 ![0, 1] bcast_S1x64_S50000x64_0_1 : (⟨S1x64, .f32⟩ : BufTy).Contents (Elt F) → (⟨S50000x64, .f32⟩ : BufTy).Contents (Elt F)),
    StableHlo.binary main_v140 main_v142 main_v143 (addf : (⟨S50000x64, .f32⟩ : BufTy).Contents (Elt F) → (⟨S50000x64, .f32⟩ : BufTy).Contents (Elt F) → (⟨S50000x64, .f32⟩ : BufTy).Contents (Elt F)) ]

/-- The buffer each operation of `ops` writes, position by position. -/
abbrev wl : List (Ref sig .tc) :=
  [ main_v0,
    main_v1,
    main_v2,
    main_v3,
    main_v4,
    main_v5,
    main_v6,
    main_v7,
    main_v8,
    main_v9,
    main_v10,
    main_v11,
    main_v12,
    main_v13,
    main_v14,
    main_v15,
    main_v16,
    main_v17,
    main_v18,
    main_v19,
    main_v20,
    main_v21,
    main_v22,
    main_v23,
    main_v24,
    main_v25,
    main_v26,
    main_v27,
    main_v28,
    main_v29,
    main_v30,
    main_v31,
    main_v32,
    main_v33,
    main_v34,
    main_v35,
    main_c,
    main_v36,
    main_v37,
    main_c_0,
    main_v38,
    main_v39,
    main_v40,
    main_v41,
    main_v42,
    main_c_1,
    main_v43,
    main_v44,
    main_c_2,
    main_v45,
    main_v46,
    main_v47,
    main_v48,
    main_v49,
    main_v50,
    main_v51,
    main_v52,
    main_v53,
    main_cst,
    main_v54,
    main_v55,
    main_cst_3,
    main_v56,
    main_v57,
    main_cst_4,
    main_v58,
    main_v59,
    main_v60,
    main_c_5,
    main_v61,
    main_v62,
    main_c_6,
    main_v63,
    main_v64,
    main_v65,
    main_v66,
    main_v67,
    main_cst_7,
    main_v68,
    main_v69,
    main_v70,
    main_v71,
    main_v72,
    main_v73,
    main_v74,
    main_cst_8,
    main_v75,
    main_v76,
    main_cst_9,
    main_v77,
    main_v78,
    main_v79,
    main_c_10,
    main_v80,
    main_v81,
    main_c_11,
    main_v82,
    main_v83,
    main_v84,
    main_v85,
    main_v86,
    main_c_12,
    main_v87,
    main_v88,
    main_c_13,
    main_v89,
    main_v90,
    main_v91,
    main_v92,
    main_v93,
    main_v94,
    main_cst_14,
    main_v95,
    main_v96,
    main_v97,
    main_v98,
    main_c_15,
    main_v99,
    main_v100,
    main_c_16,
    main_v101,
    main_v102,
    main_v103,
    main_v104,
    main_v105,
    main_v106,
    main_cst_17,
    main_v107,
    main_v108,
    main_v109,
    main_v110,
    main_c_18,
    main_v111,
    main_v112,
    main_c_19,
    main_v113,
    main_v114,
    main_v115,
    main_v116,
    main_v117,
    main_v118,
    main_cst_20,
    main_v119,
    main_v120,
    main_v121,
    main_v122,
    main_call0_cst,
    main_call0_v0,
    main_v123,
    main_call1_cst,
    main_call1_v0,
    main_v124,
    main_v125,
    main_cst_21,
    main_v126,
    main_v127,
    main_cst_22,
    main_v128,
    main_v129,
    main_c_23,
    main_call2_cst,
    main_call2_v0,
    main_call2_v1,
    main_call2_cst_0,
    main_call2_v2,
    main_call2_v3,
    main_call2_v4,
    main_call2_v5,
    main_call2_v6,
    main_call2_v7,
    main_call2_cst_1,
    main_call2_v8,
    main_call2_cst_2,
    main_call2_v9,
    main_call2_v10,
    main_call2_v11,
    main_call2_v12,
    main_call2_cst_3,
    main_call2_v13,
    main_call2_cst_4,
    main_call2_call0_v0,
    main_call2_call0_v1,
    main_v130,
    main_v131,
    main_v132,
    main_cst_24,
    main_v133,
    main_v134,
    main_v135,
    main_v136,
    main_v137,
    main_v138,
    main_v139,
    main_v140,
    main_v141,
    main_v142,
    main_v143 ]

set_option maxRecDepth 8192 in
set_option maxHeartbeats 4000000 in
/-- @main is that straight line: the windows and the functions unfolded at their calls, the records at their fields,
    both sides are one chain of steps once sequencing is reassociated. -/
theorem main_eq (c : Dev nD) : main (F := F) c = seq ops := by
  simp only [main, main_part0, main_part1, main_part2, fn_relu.body, fn_relu_0.body, fn_var.body, fn_where.body, seq,
    bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation names TensorCore buffers only. -/
theorem ops_sub : (ops : List (HloOp τ sig (Elt F))).Forall fun op => op.bufs ⊆ tcRefs τ sig :=
  ⟨binary_bufs_sub ..,
    unary_bufs_sub ..,
    binary_bufs_sub ..,
    unary_bufs_sub ..,
    unary_bufs_sub ..,
    binary_bufs_sub ..,
    unary_bufs_sub ..,
    binary_bufs_sub ..,
    unary_bufs_sub ..,
    unary_bufs_sub ..,
    binary_bufs_sub ..,
    unary_bufs_sub ..,
    binary_bufs_sub ..,
    unary_bufs_sub ..,
    unary_bufs_sub ..,
    binary_bufs_sub ..,
    unary_bufs_sub ..,
    binary_bufs_sub ..,
    unary_bufs_sub ..,
    unary_bufs_sub ..,
    binary_bufs_sub ..,
    unary_bufs_sub ..,
    binary_bufs_sub ..,
    unary_bufs_sub ..,
    unary_bufs_sub ..,
    binary_bufs_sub ..,
    unary_bufs_sub ..,
    binary_bufs_sub ..,
    unary_bufs_sub ..,
    unary_bufs_sub ..,
    binary_bufs_sub ..,
    unary_bufs_sub ..,
    binary_bufs_sub ..,
    unary_bufs_sub ..,
    unary_bufs_sub ..,
    binary_bufs_sub ..,
    nullary_bufs_sub ..,
    unary_bufs_sub ..,
    binary_bufs_sub ..,
    nullary_bufs_sub ..,
    unary_bufs_sub ..,
    binary_bufs_sub ..,
    ternary_bufs_sub ..,
    unary_bufs_sub ..,
    binary_bufs_sub ..,
    nullary_bufs_sub ..,
    unary_bufs_sub ..,
    binary_bufs_sub ..,
    nullary_bufs_sub ..,
    unary_bufs_sub ..,
    binary_bufs_sub ..,
    ternary_bufs_sub ..,
    unary_bufs_sub ..,
    binary_bufs_sub ..,
    binary_bufs_sub ..,
    binary_bufs_sub ..,
    unary_bufs_sub ..,
    unary_bufs_sub ..,
    nullary_bufs_sub ..,
    unary_bufs_sub ..,
    binary_bufs_sub ..,
    nullary_bufs_sub ..,
    unary_bufs_sub ..,
    binary_bufs_sub ..,
    nullary_bufs_sub ..,
    unary_bufs_sub ..,
    unary_bufs_sub ..,
    ternary_bufs_sub ..,
    nullary_bufs_sub ..,
    unary_bufs_sub ..,
    binary_bufs_sub ..,
    nullary_bufs_sub ..,
    unary_bufs_sub ..,
    binary_bufs_sub ..,
    ternary_bufs_sub ..,
    unary_bufs_sub ..,
    binary_bufs_sub ..,
    nullary_bufs_sub ..,
    unary_bufs_sub ..,
    binary_bufs_sub ..,
    binary_bufs_sub ..,
    unary_bufs_sub ..,
    unary_bufs_sub ..,
    unary_bufs_sub ..,
    unary_bufs_sub ..,
    nullary_bufs_sub ..,
    unary_bufs_sub ..,
    binary_bufs_sub ..,
    nullary_bufs_sub ..,
    unary_bufs_sub ..,
    binary_bufs_sub ..,
    unary_bufs_sub ..,
    nullary_bufs_sub ..,
    unary_bufs_sub ..,
    binary_bufs_sub ..,
    nullary_bufs_sub ..,
    unary_bufs_sub ..,
    binary_bufs_sub ..,
    ternary_bufs_sub ..,
    unary_bufs_sub ..,
    binary_bufs_sub ..,
    nullary_bufs_sub ..,
    unary_bufs_sub ..,
    binary_bufs_sub ..,
    nullary_bufs_sub ..,
    unary_bufs_sub ..,
    binary_bufs_sub ..,
    ternary_bufs_sub ..,
    unary_bufs_sub ..,
    binary_bufs_sub ..,
    binary_bufs_sub ..,
    nullary_bufs_sub ..,
    binary_bufs_sub ..,
    unary_bufs_sub ..,
    unary_bufs_sub ..,
    binary_bufs_sub ..,
    nullary_bufs_sub ..,
    unary_bufs_sub ..,
    binary_bufs_sub ..,
    nullary_bufs_sub ..,
    unary_bufs_sub ..,
    binary_bufs_sub ..,
    ternary_bufs_sub ..,
    unary_bufs_sub ..,
    binary_bufs_sub ..,
    binary_bufs_sub ..,
    nullary_bufs_sub ..,
    unary_bufs_sub ..,
    unary_bufs_sub ..,
    ternary_bufs_sub ..,
    binary_bufs_sub ..,
    nullary_bufs_sub ..,
    unary_bufs_sub ..,
    binary_bufs_sub ..,
    nullary_bufs_sub ..,
    unary_bufs_sub ..,
    binary_bufs_sub ..,
    ternary_bufs_sub ..,
    unary_bufs_sub ..,
    binary_bufs_sub ..,
    binary_bufs_sub ..,
    nullary_bufs_sub ..,
    unary_bufs_sub ..,
    unary_bufs_sub ..,
    ternary_bufs_sub ..,
    binary_bufs_sub ..,
    nullary_bufs_sub ..,
    unary_bufs_sub ..,
    binary_bufs_sub ..,
    nullary_bufs_sub ..,
    unary_bufs_sub ..,
    binary_bufs_sub ..,
    unary_bufs_sub ..,
    nullary_bufs_sub ..,
    binary_bufs_sub ..,
    unary_bufs_sub ..,
    nullary_bufs_sub ..,
    unary_bufs_sub ..,
    binary_bufs_sub ..,
    nullary_bufs_sub ..,
    nullary_bufs_sub ..,
    binary_bufs_sub ..,
    unary_bufs_sub ..,
    nullary_bufs_sub ..,
    unary_bufs_sub ..,
    binary_bufs_sub ..,
    unary_bufs_sub ..,
    binary_bufs_sub ..,
    binary_bufs_sub ..,
    unary_bufs_sub ..,
    nullary_bufs_sub ..,
    binary_bufs_sub ..,
    nullary_bufs_sub ..,
    binary_bufs_sub ..,
    unary_bufs_sub ..,
    unary_bufs_sub ..,
    binary_bufs_sub ..,
    nullary_bufs_sub ..,
    binary_bufs_sub ..,
    nullary_bufs_sub ..,
    unary_bufs_sub ..,
    unary_bufs_sub ..,
    ternary_bufs_sub ..,
    unary_bufs_sub ..,
    binary_bufs_sub ..,
    nullary_bufs_sub ..,
    unary_bufs_sub ..,
    binary_bufs_sub ..,
    unary_bufs_sub ..,
    unary_bufs_sub ..,
    binary_bufs_sub ..,
    unary_bufs_sub ..,
    unary_bufs_sub ..,
    binary_bufs_sub ..,
    unary_bufs_sub ..,
    unary_bufs_sub ..,
    binary_bufs_sub ..⟩

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- Each operation writes exactly the buffer `wl` names at its position: every builder writes its result buffer. -/
theorem writesAre : StableHlo.WritesAre (ops : List (HloOp τ sig (Elt F))) wl :=
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <|
  .cons rfl <| .nil

theorem wl_nodup : wl.Nodup := by decide

end Cert.ReferenceIdeal.HandRun

end
-- ==== Proof.RBufs.lean ====
/-
  The reference program's buffers, at the end of its run, as arrays of their literal types.

  The reference is one straight line of host operations; `fin U` is the valuation after running all of them from
  `U`. Each buffer the value argument reads is named once, typed as the matrix it holds at the end; `inR` collects
  the twenty-one argument buffers of the start valuation as the inputs of the closed forms.
-/
import proofs.«430657_j46961172414536_3_alg».proof.Proof.RefRun
import proofs.«430657_j46961172414536_3_alg».proof.Proof.Forms

noncomputable section

namespace Cert.ReferenceIdeal.Val

open Cert.ReferenceIdeal Cert.ReferenceIdeal.Gen Cert.Forms Idealize.ShloMosaic Idealize.ShloMosaic.TcCoe Idealize.SL.Sem
open Idealize.ShloMosaic.StableHlo Idealize.ShloMosaic.ValueIdx

variable (U : Valuation τ sig (Elt Ideal))

/-- The inputs a valuation holds. -/
def inR : In where
  h := U (Proc.devRef .tc main_arg0)
  e := U (Proc.devRef .tc main_arg1)
  p := U (Proc.devRef .tc main_arg2)
  WK := U (Proc.devRef .tc main_arg3)
  bK := U (Proc.devRef .tc main_arg4)
  WV := U (Proc.devRef .tc main_arg5)
  bV := U (Proc.devRef .tc main_arg6)
  WB1 := U (Proc.devRef .tc main_arg7)
  bB1 := U (Proc.devRef .tc main_arg8)
  WB2 := U (Proc.devRef .tc main_arg9)
  bB2 := U (Proc.devRef .tc main_arg10)
  WB3 := U (Proc.devRef .tc main_arg11)
  bB3 := U (Proc.devRef .tc main_arg12)
  WC1 := U (Proc.devRef .tc main_arg13)
  bC1 := U (Proc.devRef .tc main_arg14)
  WC2 := U (Proc.devRef .tc main_arg15)
  bC2 := U (Proc.devRef .tc main_arg16)
  g := U (Proc.devRef .tc main_arg17)
  b := U (Proc.devRef .tc main_arg18)
  src := U (Proc.devRef .tc main_arg19)
  dst := U (Proc.devRef .tc main_arg20)

/-- The valuation at the end of the reference's line. -/
abbrev fin : Valuation τ sig (Elt Ideal) := after (Cert.ReferenceIdeal.HandRun.ops (F := Ideal)) U

/-! The buffers at the end, by the number of the value each holds. -/
abbrev c_v5 : Arr 50000 64 := fin U (Proc.devRef .tc main_v5)
abbrev c_v10 : Arr 50000 64 := fin U (Proc.devRef .tc main_v10)
abbrev c_v15 : Arr 50000 64 := fin U (Proc.devRef .tc main_v15)
abbrev c_v20 : Arr 50000 64 := fin U (Proc.devRef .tc main_v20)
abbrev c_v25 : Arr 800000 64 := fin U (Proc.devRef .tc main_v25)
abbrev c_v30 : Arr 50000 64 := fin U (Proc.devRef .tc main_v30)
abbrev c_v35 : Arr 50000 64 := fin U (Proc.devRef .tc main_v35)
abbrev c_v42 : Arr 800000 64 := fin U (Proc.devRef .tc main_v42)
abbrev c_v49 : Arr 800000 64 := fin U (Proc.devRef .tc main_v49)
abbrev c_v51 : Arr 800000 64 := fin U (Proc.devRef .tc main_v51)
abbrev c_v57 : Arr 800000 64 := fin U (Proc.devRef .tc main_v57)
abbrev c_v60 : Arr 50000 64 := fin U (Proc.devRef .tc main_v60)
abbrev c_v67 : Arr 800000 64 := fin U (Proc.devRef .tc main_v67)
abbrev c_v70 : Arr 800000 64 := fin U (Proc.devRef .tc main_v70)
abbrev c_v72 : Arr 50000 64 := fin U (Proc.devRef .tc main_v72)
abbrev c_v79 : Arr 50000 64 := fin U (Proc.devRef .tc main_v79)
abbrev c_v86 : Arr 800000 64 := fin U (Proc.devRef .tc main_v86)
abbrev c_v93 : Arr 800000 64 := fin U (Proc.devRef .tc main_v93)
abbrev c_v95 : Row 800000 := fin U (Proc.devRef .tc main_v95)
abbrev c_v98 : Arr 800000 64 := fin U (Proc.devRef .tc main_v98)
abbrev c_v105 : Arr 800000 64 := fin U (Proc.devRef .tc main_v105)
abbrev c_v106 : Arr 800000 64 := fin U (Proc.devRef .tc main_v106)
abbrev c_v109 : Arr 50000 64 := fin U (Proc.devRef .tc main_v109)
abbrev c_v110 : Arr 50000 64 := fin U (Proc.devRef .tc main_v110)
abbrev c_v117 : Arr 800000 64 := fin U (Proc.devRef .tc main_v117)
abbrev c_v118 : Arr 800000 64 := fin U (Proc.devRef .tc main_v118)
abbrev c_v121 : Arr 50000 64 := fin U (Proc.devRef .tc main_v121)
abbrev c_v122 : Arr 50000 64 := fin U (Proc.devRef .tc main_v122)
abbrev c_v123 : Arr 50000 64 := fin U (Proc.devRef .tc main_v123)
abbrev c_v124 : Arr 800000 64 := fin U (Proc.devRef .tc main_v124)
abbrev c_v125 : Arr 50000 64 := fin U (Proc.devRef .tc main_v125)
abbrev c_v143 : Arr 50000 64 := fin U (Proc.devRef .tc main_v143)

end Cert.ReferenceIdeal.Val

end
-- ==== Proof.RStageT.lean ====
/-
  The reference program's seven affine tables, read at a coordinate.

  Each table is a matrix product of an input (or of two inputs side by side) with a TRANSPOSED weight, plus a bias
  row broadcast down the rows. Read at row r and feature j it is the sum over the contracted coordinate of the
  input's entry times the weight's entry at (j, k), plus the bias at j. The two shapes (64 and 128 contracted
  coordinates) are proved once over variables and then instantiated at the program's buffers; an argument buffer holds
  at the end of the line what it held at the start.
-/
import proofs.«430657_j46961172414536_3_alg».proof.Proof.RBufs
import proofs.«430657_j46961172414536_3_alg».proof.Proof.LibAfterAt
import Idealize.ShloMosaic.Lib.Pipeline.Value
import Idealize.ShloMosaic.Lib.StackMember
import Idealize.ShloMosaic.PureOps.Ideal.Laws

noncomputable section

namespace Cert.ReferenceIdeal.Val

open Cert.ReferenceIdeal Cert.ReferenceIdeal.Gen Cert.ReferenceIdeal.HandRun Cert.Forms Idealize.ShloMosaic Idealize.ShloMosaic.TcCoe Idealize.SL.Sem Idealize.ShloMosaic.StableHlo Idealize.ShloMosaic.ValueIdx

/-! ## The two shapes, over variables -/

section Shapes
variable {n : Nat}

/-- A transposed matrix at (k, j) is the matrix at (j, k). -/
theorem transpose_at {a b : Nat} (ht : (⟨2, ![a, b]⟩ : Shape).Transposes [1, 0] ⟨2, ![b, a]⟩) (W : Arr a b) (k : Fin b) (j : Fin a) :
    transpose ⟨2, ![b, a]⟩ [1, 0] W ht (ix2 k j) = W (ix2 j k) :=
  transpose_apply [1, 0] W ht (ix2 k j) (ix2 j k) (fun c => match c with | ⟨0, _⟩ => rfl | ⟨1, _⟩ => rfl)

/-- A bias vector made a one-row matrix and then repeated down the rows reads, at (r, j), the vector at j. -/
theorem bias_at (h1 : (⟨1, ![64]⟩ : Shape).BroadcastsInDim ⟨2, ![1, 64]⟩ ![1])
    (h2 : (⟨2, ![1, 64]⟩ : Shape).BroadcastsInDim ⟨2, ![n, 64]⟩ ![0, 1]) (b : Row 64) (r : Fin n) (j : Fin 64) :
    broadcastInDim ⟨2, ![n, 64]⟩ ![0, 1] h2 (broadcastInDim ⟨2, ![1, 64]⟩ ![1] h1 b) (ix2 r j) = b (ix1 j) := by
  refine (broadcastInDim_apply _ h2 _ (ix2 r j) (ix2 0 j) ?_).trans (broadcastInDim_apply _ h1 b (ix2 0 j) (ix1 j) ?_)
  · intro c; match c with | ⟨0, _⟩ => rfl | ⟨1, _⟩ => rfl
  · intro c; match c with | ⟨0, _⟩ => rfl

/-- The 64-input affine map: the product with the transposed weight plus the broadcast bias is `lin64`. -/
theorem lin64_at (D : DotDims ⟨2, ![n, 64]⟩ ⟨2, ![64, 64]⟩ ⟨2, ![n, 64]⟩) (hD : D = DotDims.plain n 64 64)
    (ht : (⟨2, ![64, 64]⟩ : Shape).Transposes [1, 0] ⟨2, ![64, 64]⟩)
    (h1 : (⟨1, ![64]⟩ : Shape).BroadcastsInDim ⟨2, ![1, 64]⟩ ![1])
    (h2 : (⟨2, ![1, 64]⟩ : Shape).BroadcastsInDim ⟨2, ![n, 64]⟩ ![0, 1])
    (x : Arr n 64) (W : Arr 64 64) (b : Row 64) (r : Fin n) (j : Fin 64) :
    addf (φ := .f32) (Host.dotGeneral (F := Ideal) (φ₁ := .f32) (φ₂ := .f32) D none x (transpose ⟨2, ![64, 64]⟩ [1, 0] W ht))
        (broadcastInDim ⟨2, ![n, 64]⟩ ![0, 1] h2 (broadcastInDim ⟨2, ![1, 64]⟩ ![1] h1 b)) (ix2 r j)
      = lin64 x W b r j := by
  subst hD
  rw [addf_apply, bias_at, StackMember.dotGeneral_plain_apply]
  unfold lin64
  congr 1
  exact Finset.sum_congr rfl fun k _ => by rw [transpose_at]

end Shapes

section Shapes128
variable {n : Nat}

/-- Two 64-wide matrices side by side, at (r, k): the first below 64, the second from 64 on. -/
theorem cat_at (hc : Shape.Concatenates [(⟨2, ![n, 64]⟩ : Shape), ⟨2, ![n, 64]⟩] ⟨2, ![n, 128]⟩ 1) (x y : Arr n 64)
    (r : Fin n) (k : Fin 128) :
    concatenate ⟨2, ![n, 128]⟩ 1 [⟨⟨2, ![n, 64]⟩, x⟩, ⟨⟨2, ![n, 64]⟩, y⟩] hc (ix2 r k) = cat x y r k := by
  unfold cat
  split
  · next h =>
    exact concatenate_pair_apply_left 1 x y hc (ix2 r k) rfl (ix2 r ⟨k.val, h⟩)
      (fun c => match c with | ⟨0, _⟩ => rfl | ⟨1, _⟩ => rfl)
  · next h =>
    exact concatenate_pair_apply_right 1 x y hc (ix2 r k) rfl rfl (ix2 r ⟨k.val - 64, by omega⟩)
      (fun c hne => match c, hne with | ⟨0, _⟩, _ => rfl | ⟨1, _⟩, hne => absurd rfl hne)
      (by show (k.val - 64) + 64 = k.val; omega)

/-- The 128-input affine map: the product of the two inputs side by side with the transposed weight, plus the
    broadcast bias, is `lin128`. -/
theorem lin128_at (D : DotDims ⟨2, ![n, 128]⟩ ⟨2, ![128, 64]⟩ ⟨2, ![n, 64]⟩) (hD : D = DotDims.plain n 128 64)
    (hc : Shape.Concatenates [(⟨2, ![n, 64]⟩ : Shape), ⟨2, ![n, 64]⟩] ⟨2, ![n, 128]⟩ 1)
    (ht : (⟨2, ![64, 128]⟩ : Shape).Transposes [1, 0] ⟨2, ![128, 64]⟩)
    (h1 : (⟨1, ![64]⟩ : Shape).BroadcastsInDim ⟨2, ![1, 64]⟩ ![1])
    (h2 : (⟨2, ![1, 64]⟩ : Shape).BroadcastsInDim ⟨2, ![n, 64]⟩ ![0, 1])
    (x y : Arr n 64) (W : Arr 64 128) (b : Row 64) (r : Fin n) (j : Fin 64) :
    addf (φ := .f32) (Host.dotGeneral (F := Ideal) (φ₁ := .f32) (φ₂ := .f32) D none
          (concatenate ⟨2, ![n, 128]⟩ 1 [⟨⟨2, ![n, 64]⟩, x⟩, ⟨⟨2, ![n, 64]⟩, y⟩] hc)
          (transpose ⟨2, ![128, 64]⟩ [1, 0] W ht))
        (broadcastInDim ⟨2, ![n, 64]⟩ ![0, 1] h2 (broadcastInDim ⟨2, ![1, 64]⟩ ![1] h1 b)) (ix2 r j)
      = lin128 x y W b r j := by
  subst hD
  rw [addf_apply, bias_at, StackMember.dotGeneral_plain_apply]
  unfold lin128
  congr 1
  exact Finset.sum_congr rfl fun k _ => by rw [transpose_at, cat_at]

end Shapes128

/-! ## The program's buffers -/

variable (U : Valuation τ sig (Elt Ideal))

/-- A buffer no operation writes — every argument — holds at the end what it held at the start. -/
theorem arg_keep (b : Ref sig .tc) (hb : b ∉ HandRun.wl) :
    after (HandRun.ops (F := Ideal)) U (Proc.devRef .tc b) = U (Proc.devRef .tc b) :=
  after_of_writesAre (HandRun.writesAre (F := Ideal)) U hb

theorem r_arg (b : Ref sig .tc) (hb : b ∉ HandRun.wl) : fin U (Proc.devRef .tc b) = U (Proc.devRef .tc b) :=
  arg_keep U b hb

/-- The table of value 5 at (r, j): inputs `h` and `p` side by side times the transposed weight `WK` plus bias `bK`. -/
theorem r_v5 (r : Fin 50000) (j : Fin 64) : c_v5 U (ix2 r j) = lin128 (inR U).h (inR U).p (inR U).WK (inR U).bK r j := by
  have sA := after_binary_at (HandRun.writesAre (F := Ideal)) U 5 rfl (by decide) (by decide) (by decide)
  have sD := after_binary_at (HandRun.writesAre (F := Ideal)) U 2 rfl (by decide) (by decide) (by decide)
  have sK := after_binary_at (HandRun.writesAre (F := Ideal)) U 0 rfl (by decide) (by decide) (by decide)
  have sT := after_unary_at (HandRun.writesAre (F := Ideal)) U 1 rfl (by decide) (by decide)
  have sB := after_unary_at (HandRun.writesAre (F := Ideal)) U 3 rfl (by decide) (by decide)
  have sC := after_unary_at (HandRun.writesAre (F := Ideal)) U 4 rfl (by decide) (by decide)
  show after (HandRun.ops (F := Ideal)) U (Proc.devRef .tc main_v5) (ix2 r j) = _
  rw [sA, sD, sK, sT, sC, sB, arg_keep U main_arg0 (by decide), arg_keep U main_arg2 (by decide),
    arg_keep U main_arg3 (by decide), arg_keep U main_arg4 (by decide)]
  exact lin128_at _ rfl _ _ _ _ _ _ _ _ r j

/-- The table of value 10 at (r, j): inputs `h` and `p` side by side times the transposed weight `WV` plus bias `bV`. -/
theorem r_v10 (r : Fin 50000) (j : Fin 64) : c_v10 U (ix2 r j) = lin128 (inR U).h (inR U).p (inR U).WV (inR U).bV r j := by
  have sA := after_binary_at (HandRun.writesAre (F := Ideal)) U 10 rfl (by decide) (by decide) (by decide)
  have sD := after_binary_at (HandRun.writesAre (F := Ideal)) U 7 rfl (by decide) (by decide) (by decide)
  have sK := after_binary_at (HandRun.writesAre (F := Ideal)) U 0 rfl (by decide) (by decide) (by decide)
  have sT := after_unary_at (HandRun.writesAre (F := Ideal)) U 6 rfl (by decide) (by decide)
  have sB := after_unary_at (HandRun.writesAre (F := Ideal)) U 8 rfl (by decide) (by decide)
  have sC := after_unary_at (HandRun.writesAre (F := Ideal)) U 9 rfl (by decide) (by decide)
  show after (HandRun.ops (F := Ideal)) U (Proc.devRef .tc main_v10) (ix2 r j) = _
  rw [sA, sD, sK, sT, sC, sB, arg_keep U main_arg0 (by decide), arg_keep U main_arg2 (by decide),
    arg_keep U main_arg5 (by decide), arg_keep U main_arg6 (by decide)]
  exact lin128_at _ rfl _ _ _ _ _ _ _ _ r j

/-- The table of value 15 at (r, j): input `h` times the transposed weight `WB1` plus bias `bB1`. -/
theorem r_v15 (r : Fin 50000) (j : Fin 64) : c_v15 U (ix2 r j) = lin64 (inR U).h (inR U).WB1 (inR U).bB1 r j := by
  have sA := after_binary_at (HandRun.writesAre (F := Ideal)) U 15 rfl (by decide) (by decide) (by decide)
  have sD := after_binary_at (HandRun.writesAre (F := Ideal)) U 12 rfl (by decide) (by decide) (by decide)
  have sT := after_unary_at (HandRun.writesAre (F := Ideal)) U 11 rfl (by decide) (by decide)
  have sB := after_unary_at (HandRun.writesAre (F := Ideal)) U 13 rfl (by decide) (by decide)
  have sC := after_unary_at (HandRun.writesAre (F := Ideal)) U 14 rfl (by decide) (by decide)
  show after (HandRun.ops (F := Ideal)) U (Proc.devRef .tc main_v15) (ix2 r j) = _
  rw [sA, sD, sT, sC, sB, arg_keep U main_arg0 (by decide), arg_keep U main_arg7 (by decide),
    arg_keep U main_arg8 (by decide)]
  exact lin64_at _ rfl _ _ _ _ _ _ r j

/-- The table of value 20 at (r, j): input `h` times the transposed weight `WB2` plus bias `bB2`. -/
theorem r_v20 (r : Fin 50000) (j : Fin 64) : c_v20 U (ix2 r j) = lin64 (inR U).h (inR U).WB2 (inR U).bB2 r j := by
  have sA := after_binary_at (HandRun.writesAre (F := Ideal)) U 20 rfl (by decide) (by decide) (by decide)
  have sD := after_binary_at (HandRun.writesAre (F := Ideal)) U 17 rfl (by decide) (by decide) (by decide)
  have sT := after_unary_at (HandRun.writesAre (F := Ideal)) U 16 rfl (by decide) (by decide)
  have sB := after_unary_at (HandRun.writesAre (F := Ideal)) U 18 rfl (by decide) (by decide)
  have sC := after_unary_at (HandRun.writesAre (F := Ideal)) U 19 rfl (by decide) (by decide)
  show after (HandRun.ops (F := Ideal)) U (Proc.devRef .tc main_v20) (ix2 r j) = _
  rw [sA, sD, sT, sC, sB, arg_keep U main_arg0 (by decide), arg_keep U main_arg9 (by decide),
    arg_keep U main_arg10 (by decide)]
  exact lin64_at _ rfl _ _ _ _ _ _ r j

/-- The table of value 25 at (r, j): input `e` times the transposed weight `WB3` plus bias `bB3`. -/
theorem r_v25 (r : Fin 800000) (j : Fin 64) : c_v25 U (ix2 r j) = lin64 (inR U).e (inR U).WB3 (inR U).bB3 r j := by
  have sA := after_binary_at (HandRun.writesAre (F := Ideal)) U 25 rfl (by decide) (by decide) (by decide)
  have sD := after_binary_at (HandRun.writesAre (F := Ideal)) U 22 rfl (by decide) (by decide) (by decide)
  have sT := after_unary_at (HandRun.writesAre (F := Ideal)) U 21 rfl (by decide) (by decide)
  have sB := after_unary_at (HandRun.writesAre (F := Ideal)) U 23 rfl (by decide) (by decide)
  have sC := after_unary_at (HandRun.writesAre (F := Ideal)) U 24 rfl (by decide) (by decide)
  show after (HandRun.ops (F := Ideal)) U (Proc.devRef .tc main_v25) (ix2 r j) = _
  rw [sA, sD, sT, sC, sB, arg_keep U main_arg1 (by decide), arg_keep U main_arg11 (by decide),
    arg_keep U main_arg12 (by decide)]
  exact lin64_at _ rfl _ _ _ _ _ _ r j

/-- The table of value 30 at (r, j): input `p` times the transposed weight `WC1` plus bias `bC1`. -/
theorem r_v30 (r : Fin 50000) (j : Fin 64) : c_v30 U (ix2 r j) = lin64 (inR U).p (inR U).WC1 (inR U).bC1 r j := by
  have sA := after_binary_at (HandRun.writesAre (F := Ideal)) U 30 rfl (by decide) (by decide) (by decide)
  have sD := after_binary_at (HandRun.writesAre (F := Ideal)) U 27 rfl (by decide) (by decide) (by decide)
  have sT := after_unary_at (HandRun.writesAre (F := Ideal)) U 26 rfl (by decide) (by decide)
  have sB := after_unary_at (HandRun.writesAre (F := Ideal)) U 28 rfl (by decide) (by decide)
  have sC := after_unary_at (HandRun.writesAre (F := Ideal)) U 29 rfl (by decide) (by decide)
  show after (HandRun.ops (F := Ideal)) U (Proc.devRef .tc main_v30) (ix2 r j) = _
  rw [sA, sD, sT, sC, sB, arg_keep U main_arg2 (by decide), arg_keep U main_arg13 (by decide),
    arg_keep U main_arg14 (by decide)]
  exact lin64_at _ rfl _ _ _ _ _ _ r j

/-- The table of value 35 at (r, j): input `p` times the transposed weight `WC2` plus bias `bC2`. -/
theorem r_v35 (r : Fin 50000) (j : Fin 64) : c_v35 U (ix2 r j) = lin64 (inR U).p (inR U).WC2 (inR U).bC2 r j := by
  have sA := after_binary_at (HandRun.writesAre (F := Ideal)) U 35 rfl (by decide) (by decide) (by decide)
  have sD := after_binary_at (HandRun.writesAre (F := Ideal)) U 32 rfl (by decide) (by decide) (by decide)
  have sT := after_unary_at (HandRun.writesAre (F := Ideal)) U 31 rfl (by decide) (by decide)
  have sB := after_unary_at (HandRun.writesAre (F := Ideal)) U 33 rfl (by decide) (by decide)
  have sC := after_unary_at (HandRun.writesAre (F := Ideal)) U 34 rfl (by decide) (by decide)
  show after (HandRun.ops (F := Ideal)) U (Proc.devRef .tc main_v35) (ix2 r j) = _
  rw [sA, sD, sT, sC, sB, arg_keep U main_arg2 (by decide), arg_keep U main_arg15 (by decide),
    arg_keep U main_arg16 (by decide)]
  exact lin64_at _ rfl _ _ _ _ _ _ r j

end Cert.ReferenceIdeal.Val

end
-- ==== Proof.RStageA.lean ====
/-
  What part of the reference's line of host operations leaves in its buffers, coordinate by coordinate.

  The edge gate: an edge's pre-activation is the source node's row of one node table plus the target node's row of
  another plus the edge's own row; the gate is one over one plus the exponential of the negated pre-activation; the
  gates of the edges into a node are summed into a zero table and that sum is read back at each edge's target; the
  normalised gate divides by that sum plus a small word. The edge score: two positive node tables (the exponential of a
  hyperbolic tangent, and the exponential of a logistic) are read at an edge's two ends and their inner product over the
  64 features is taken from the zero word; the normalised gate is scaled by that score.

  Every row gather reads its row numbers through "add the table height when negative", then clamps; on words that
  already name a row the gathered row is the row the word names.
-/
import proofs.«430657_j46961172414536_3_alg».proof.Proof.RBufs
import proofs.«430657_j46961172414536_3_alg».proof.Proof.LibAfterAt
import proofs.«430657_j46961172414536_3_alg».proof.Proof.LibRowIndex
import Idealize.ShloMosaic.Lib.Pipeline.Value
import Idealize.ShloMosaic.Lib.ValueLayout
import Idealize.ShloMosaic.PureOps.Ideal.Laws
import Idealize.ShloMosaic.Lib.StableHlo.Predicate

noncomputable section

namespace Cert.ReferenceIdeal.Val

open Cert.ReferenceIdeal Cert.ReferenceIdeal.Gen Cert.ReferenceIdeal.HandRun Cert.Forms Idealize.ShloMosaic Idealize.ShloMosaic.TcCoe Idealize.SL.Sem
open Idealize.ShloMosaic.StableHlo Idealize.ShloMosaic.ValueIdx

/-! ## Pure pieces, over variables -/

/-- A vector of words laid as a one-column matrix reads, at row `e`, the word at `e`. -/
theorem col_apply {α : Type} (v : (⟨1, ![800000]⟩ : Shape).Idx → α) (e : Fin 800000) :
    broadcastInDim S800000x1 ![0] bcast_S800000_S800000x1_0 v (ix2 e (0 : Fin 1)) = v (ix1 e) := by
  refine broadcastInDim_apply _ _ v _ (ix1 e) fun a => ?_
  match a with
  | ⟨0, _⟩ => rfl

/-- A word that is not negative read signed is not below the zero word. -/
theorem slt_zero_of_nonneg (w : BitVec 32) (h : 0 ≤ w.toInt) : IntOp.cmpi .slt w 0#32 = 0#1 := by
  unfold IntOp.cmpi
  have : w.slt 0#32 = false := by
    rw [Bool.eq_false_iff]
    intro hs
    rw [BitVec.slt_iff_toInt_lt] at hs
    simp at hs
    omega
  simp [this]

/-- The words a gather reads: "add the table height when negative" leaves a word that is not negative alone. -/
theorem wrap_apply (w : Words 800000) (e : Fin 800000) (h : 0 ≤ (w (ix1 e)).toInt) :
    select (cmpi .slt w (broadcastInDim S800000 ![] bcast_S_S800000 (constantI S_ 32 0#32)))
        (addi w (broadcastInDim S800000 ![] bcast_S_S800000 (constantI S_ 32 50000#32))) w (ix1 e) = w (ix1 e) := by
  refine (select_apply _ _ _ _).trans ?_
  have hc : cmpi .slt w (broadcastInDim S800000 ![] bcast_S_S800000 (constantI S_ 32 0#32)) (ix1 e) = 0#1 :=
    slt_zero_of_nonneg _ h
  rw [hc]
  exact select_zero _ _

/-- A row gather through the wrapped words: at `(e, j)` the table's row named by word `e`, column `j`. -/
theorem gather_wrap_apply (x : Arr 50000 64) (w : Words 800000)
    (hw : ∀ e : Fin 800000, 0 ≤ (w (ix1 e)).toInt ∧ (w (ix1 e)).toInt < 50000) (e : Fin 800000) (j : Fin 64) :
    Host.gather gather_S50000x64_S800000x1_S800000x64_1_0_n_n_0_1_164 x
        (broadcastInDim S800000x1 ![0] bcast_S800000_S800000x1_0
          (select (cmpi .slt w (broadcastInDim S800000 ![] bcast_S_S800000 (constantI S_ 32 0#32)))
            (addi w (broadcastInDim S800000 ![] bcast_S_S800000 (constantI S_ 32 50000#32))) w)) (ix2 e j)
      = x (ix2 (rowOf (w (ix1 e))) j) := by
  refine (RowIndex.gather_rows_apply (N := 50000) (C := 64) (n := 800000) (by decide)
    gather_S50000x64_S800000x1_S800000x64_1_0_n_n_0_1_164_wf x _ e j).trans ?_
  have hidx := (col_apply (select (cmpi .slt w (broadcastInDim S800000 ![] bcast_S_S800000 (constantI S_ 32 0#32)))
    (addi w (broadcastInDim S800000 ![] bcast_S_S800000 (constantI S_ 32 50000#32))) w) e).trans (wrap_apply w e (hw e).1)
  refine congrArg x (congrArg (fun r : Fin 50000 => ix2 r j) (Fin.ext ?_))
  show min _ (50000 - 1) = min (w (ix1 e)).toInt.toNat 49999
  rw [hidx]

/-- A row scatter-add through a column of words: at `(r, j)` the table's element plus the update rows whose word, read
    signed, is `r`. -/
theorem segsum_apply (x : Arr 50000 64) (w : Words 800000) (u : Arr 800000 64) (r : Fin 50000) (j : Fin 64) :
    Host.scatterAdd (F := Ideal) (φ := .f32) scatter_S50000x64_S800000x1_S800000x64_1_0_0_1 x
        (broadcastInDim S800000x1 ![0] bcast_S800000_S800000x1_0 w) u (ix2 r j)
      = x (ix2 r j) + ∑ e : Fin 800000, if (w (ix1 e)).toInt = (r.val : Int) then u (ix2 e j) else 0 := by
  unfold Host.scatterAdd
  rw [Ideal.hostScatterAdd_def]
  refine (RowIndex.scatterAdd_rows_apply (R := 50000) (C := 64) (n := 800000)
    scatter_S50000x64_S800000x1_S800000x64_1_0_0_1_wf x _ u r j).trans ?_
  refine congrArg (x (ix2 r j) + ·) (Finset.sum_congr rfl fun i _ => ?_)
  rw [col_apply]

/-- A row scatter-add into a splat word through a column of words. -/
theorem segsum_word_apply (c : BitVec 32) (w : Words 800000) (u : Arr 800000 64) (r : Fin 50000) (j : Fin 64) :
    Host.scatterAdd (F := Ideal) (φ := .f32) scatter_S50000x64_S800000x1_S800000x64_1_0_0_1
        (broadcastInDim S50000x64 ![] bcast_S_S50000x64 (constant (F := Ideal) S_ .f32 c))
        (broadcastInDim S800000x1 ![0] bcast_S800000_S800000x1_0 w) u (ix2 r j)
      = Ideal.ofBits .f32 c + ∑ e : Fin 800000, if (w (ix1 e)).toInt = (r.val : Int) then u (ix2 e j) else 0 :=
  segsum_apply _ w u r j

/-- A quotient whose divisor adds a splat word, at an index. -/
theorem div_add_word_apply (a b : Arr 800000 64) (c : BitVec 32) (i : S800000x64.Idx) :
    Host.divf (F := Ideal) (s := S800000x64) (φ := .f32) a
        (addf (F := Ideal) (s := S800000x64) (φ := .f32) b
          (broadcastInDim S800000x64 ![] bcast_S_S800000x64 (constant (F := Ideal) S_ .f32 c))) i
      = Ideal.div (a i) (b i + Ideal.ofBits .f32 c) := rfl

/-- Over a vector index `e`, the matrix index with column `k` put back is `(e, k)`. -/
theorem lift_row (h : S800000x64.Reduces [1] S800000) (e : Fin 800000) (k : Fin 64) :
    h.lift (ix1 e) k = ix2 e k := by
  funext c
  refine Fin.ext ?_
  match c with
  | ⟨0, _⟩ => rfl
  | ⟨1, _⟩ => rfl

/-- The sum over the 64 columns of a product of two matrices, from a splat word, at row `e`. -/
theorem rowdot_apply (a b : Arr 800000 64) (c : BitVec 32) (e : Fin 800000) :
    Host.reduceAdd (F := Ideal) (φ := .f32) (mulf (F := Ideal) (s := S800000x64) (φ := .f32) a b)
        (constant (F := Ideal) S_ .f32 c) reducesTo_S800000x64_S800000_d1 h_S_ (ix1 e)
      = Ideal.ofBits .f32 c + ∑ j : Fin 64, a (ix2 e j) * b (ix2 e j) := by
  have hr : S800000x64.Reduces [1] S800000 := by decide
  unfold Host.reduceAdd
  rw [Ideal.hostReduceAdd_def, Ideal.hostReduceAdd_single reducesTo_S800000x64_S800000_d1 hr]
  refine congrArg₂ (· + ·) rfl (Finset.sum_congr rfl fun k _ => ?_)
  rw [lift_row hr e k]
  rfl

/-- A column laid along the rows of an 800000 x 64 matrix reads, at `(e, j)`, the column at `e`. -/
theorem rows_apply {α : Type} (v : (⟨1, ![800000]⟩ : Shape).Idx → α) (e : Fin 800000) (j : Fin 64) :
    broadcastInDim S800000x64 ![0, 1] bcast_S800000x1_S800000x64_0_1
        (broadcastInDim S800000x1 ![0] bcast_S800000_S800000x1_0 v) (ix2 e j) = v (ix1 e) := by
  refine (broadcastInDim_apply _ _ _ _ (ix2 e (0 : Fin 1)) fun a => ?_).trans (col_apply v e)
  match a with
  | ⟨0, _⟩ => rfl
  | ⟨1, _⟩ => rfl

variable (U : Valuation τ sig (Elt Ideal))

/-! ## The buffers -/

/-- The source node's row of the first node table, at each edge. -/
theorem r_v42 (hs : ∀ e : Fin 800000, 0 ≤ ((inR U).src (ix1 e)).toInt ∧ ((inR U).src (ix1 e)).toInt < 50000)
    (e : Fin 800000) (j : Fin 64) :
    c_v42 U (ix2 e j) = c_v15 U (ix2 (rowOf ((inR U).src (ix1 e))) j) := by
  have s0 : fin U (Proc.devRef .tc main_c) = constantI S_ 32 0#32 :=
    after_nullary_at (HandRun.writesAre (F := Ideal)) U 36 rfl (by decide)
  have s1 : fin U (Proc.devRef .tc main_v36) = broadcastInDim S800000 ![] bcast_S_S800000 (fin U (Proc.devRef .tc main_c)) :=
    after_unary_at (HandRun.writesAre (F := Ideal)) U 37 rfl (by decide) (by decide)
  have s2 : fin U (Proc.devRef .tc main_v37) = cmpi .slt (fin U (Proc.devRef .tc main_arg19)) (fin U (Proc.devRef .tc main_v36)) :=
    after_binary_at (HandRun.writesAre (F := Ideal)) U 38 rfl (by decide) (by decide) (by decide)
  have s3 : fin U (Proc.devRef .tc main_c_0) = constantI S_ 32 50000#32 :=
    after_nullary_at (HandRun.writesAre (F := Ideal)) U 39 rfl (by decide)
  have s4 : fin U (Proc.devRef .tc main_v38) = broadcastInDim S800000 ![] bcast_S_S800000 (fin U (Proc.devRef .tc main_c_0)) :=
    after_unary_at (HandRun.writesAre (F := Ideal)) U 40 rfl (by decide) (by decide)
  have s5 : fin U (Proc.devRef .tc main_v39) = addi (fin U (Proc.devRef .tc main_arg19)) (fin U (Proc.devRef .tc main_v38)) :=
    after_binary_at (HandRun.writesAre (F := Ideal)) U 41 rfl (by decide) (by decide) (by decide)
  have s6 : fin U (Proc.devRef .tc main_v40)
      = select (fin U (Proc.devRef .tc main_v37)) (fin U (Proc.devRef .tc main_v39)) (fin U (Proc.devRef .tc main_arg19)) :=
    after_ternary_at (HandRun.writesAre (F := Ideal)) U 42 rfl (by decide) (by decide) (by decide) (by decide)
  have s7 : fin U (Proc.devRef .tc main_v41)
      = broadcastInDim S800000x1 ![0] bcast_S800000_S800000x1_0 (fin U (Proc.devRef .tc main_v40)) :=
    after_unary_at (HandRun.writesAre (F := Ideal)) U 43 rfl (by decide) (by decide)
  have s8 : fin U (Proc.devRef .tc main_v42)
      = Host.gather gather_S50000x64_S800000x1_S800000x64_1_0_n_n_0_1_164 (fin U (Proc.devRef .tc main_v15))
          (fin U (Proc.devRef .tc main_v41)) :=
    after_binary_at (HandRun.writesAre (F := Ideal)) U 44 rfl (by decide) (by decide) (by decide)
  have sa : fin U (Proc.devRef .tc main_arg19) = (inR U).src :=
    after_of_writesAre (HandRun.writesAre (F := Ideal)) U (by decide)
  show fin U (Proc.devRef .tc main_v42) (ix2 e j) = _
  rw [s8, s7, s6, s5, s4, s3, s2, s1, s0, sa]
  exact gather_wrap_apply _ _ hs e j

/-- The target node's row of the second node table, at each edge. -/
theorem r_v49 (hd : ∀ e : Fin 800000, 0 ≤ ((inR U).dst (ix1 e)).toInt ∧ ((inR U).dst (ix1 e)).toInt < 50000)
    (e : Fin 800000) (j : Fin 64) :
    c_v49 U (ix2 e j) = c_v20 U (ix2 (rowOf ((inR U).dst (ix1 e))) j) := by
  have s0 : fin U (Proc.devRef .tc main_c_1) = constantI S_ 32 0#32 :=
    after_nullary_at (HandRun.writesAre (F := Ideal)) U 45 rfl (by decide)
  have s1 : fin U (Proc.devRef .tc main_v43) = broadcastInDim S800000 ![] bcast_S_S800000 (fin U (Proc.devRef .tc main_c_1)) :=
    after_unary_at (HandRun.writesAre (F := Ideal)) U 46 rfl (by decide) (by decide)
  have s2 : fin U (Proc.devRef .tc main_v44) = cmpi .slt (fin U (Proc.devRef .tc main_arg20)) (fin U (Proc.devRef .tc main_v43)) :=
    after_binary_at (HandRun.writesAre (F := Ideal)) U 47 rfl (by decide) (by decide) (by decide)
  have s3 : fin U (Proc.devRef .tc main_c_2) = constantI S_ 32 50000#32 :=
    after_nullary_at (HandRun.writesAre (F := Ideal)) U 48 rfl (by decide)
  have s4 : fin U (Proc.devRef .tc main_v45) = broadcastInDim S800000 ![] bcast_S_S800000 (fin U (Proc.devRef .tc main_c_2)) :=
    after_unary_at (HandRun.writesAre (F := Ideal)) U 49 rfl (by decide) (by decide)
  have s5 : fin U (Proc.devRef .tc main_v46) = addi (fin U (Proc.devRef .tc main_arg20)) (fin U (Proc.devRef .tc main_v45)) :=
    after_binary_at (HandRun.writesAre (F := Ideal)) U 50 rfl (by decide) (by decide) (by decide)
  have s6 : fin U (Proc.devRef .tc main_v47)
      = select (fin U (Proc.devRef .tc main_v44)) (fin U (Proc.devRef .tc main_v46)) (fin U (Proc.devRef .tc main_arg20)) :=
    after_ternary_at (HandRun.writesAre (F := Ideal)) U 51 rfl (by decide) (by decide) (by decide) (by decide)
  have s7 : fin U (Proc.devRef .tc main_v48)
      = broadcastInDim S800000x1 ![0] bcast_S800000_S800000x1_0 (fin U (Proc.devRef .tc main_v47)) :=
    after_unary_at (HandRun.writesAre (F := Ideal)) U 52 rfl (by decide) (by decide)
  have s8 : fin U (Proc.devRef .tc main_v49)
      = Host.gather gather_S50000x64_S800000x1_S800000x64_1_0_n_n_0_1_164 (fin U (Proc.devRef .tc main_v20))
          (fin U (Proc.devRef .tc main_v48)) :=
    after_binary_at (HandRun.writesAre (F := Ideal)) U 53 rfl (by decide) (by decide) (by decide)
  have sa : fin U (Proc.devRef .tc main_arg20) = (inR U).dst :=
    after_of_writesAre (HandRun.writesAre (F := Ideal)) U (by decide)
  show fin U (Proc.devRef .tc main_v49) (ix2 e j) = _
  rw [s8, s7, s6, s5, s4, s3, s2, s1, s0, sa]
  exact gather_wrap_apply _ _ hd e j

/-- The gate pre-activation: the two gathered rows, then the edge's own row. -/
theorem r_v51 (e : Fin 800000) (j : Fin 64) :
    c_v51 U (ix2 e j) = (c_v42 U (ix2 e j) + c_v49 U (ix2 e j)) + c_v25 U (ix2 e j) := by
  have s0 : fin U (Proc.devRef .tc main_v50) = addf (F := Ideal) (s := S800000x64) (φ := .f32) (fin U (Proc.devRef .tc main_v42)) (fin U (Proc.devRef .tc main_v49)) :=
    after_binary_at (HandRun.writesAre (F := Ideal)) U 54 rfl (by decide) (by decide) (by decide)
  have s1 : fin U (Proc.devRef .tc main_v51) = addf (F := Ideal) (s := S800000x64) (φ := .f32) (fin U (Proc.devRef .tc main_v50)) (fin U (Proc.devRef .tc main_v25)) :=
    after_binary_at (HandRun.writesAre (F := Ideal)) U 55 rfl (by decide) (by decide) (by decide)
  show fin U (Proc.devRef .tc main_v51) (ix2 e j) = _
  rw [s1, s0]
  rfl

/-- The gate: one over one plus the exponential of the negated pre-activation. -/
theorem r_v57 (e : Fin 800000) (j : Fin 64) :
    c_v57 U (ix2 e j) = Ideal.div one (one + Ideal.exp (-(c_v51 U (ix2 e j)))) := by
  have s0 : fin U (Proc.devRef .tc main_v52) = Host.negf (F := Ideal) (s := S800000x64) (φ := .f32) (fin U (Proc.devRef .tc main_v51)) :=
    after_unary_at (HandRun.writesAre (F := Ideal)) U 56 rfl (by decide) (by decide)
  have s1 : fin U (Proc.devRef .tc main_v53) = Host.exp (F := Ideal) (s := S800000x64) (φ := .f32) (fin U (Proc.devRef .tc main_v52)) :=
    after_unary_at (HandRun.writesAre (F := Ideal)) U 57 rfl (by decide) (by decide)
  have s2 : fin U (Proc.devRef .tc main_cst) = constant (F := Ideal) S_ .f32 0x3F800000#32 :=
    after_nullary_at (HandRun.writesAre (F := Ideal)) U 58 rfl (by decide)
  have s3 : fin U (Proc.devRef .tc main_v54) = broadcastInDim S800000x64 ![] bcast_S_S800000x64 (fin U (Proc.devRef .tc main_cst)) :=
    after_unary_at (HandRun.writesAre (F := Ideal)) U 59 rfl (by decide) (by decide)
  have s4 : fin U (Proc.devRef .tc main_v55) = addf (F := Ideal) (s := S800000x64) (φ := .f32) (fin U (Proc.devRef .tc main_v54)) (fin U (Proc.devRef .tc main_v53)) :=
    after_binary_at (HandRun.writesAre (F := Ideal)) U 60 rfl (by decide) (by decide) (by decide)
  have s5 : fin U (Proc.devRef .tc main_cst_3) = constant (F := Ideal) S_ .f32 0x3F800000#32 :=
    after_nullary_at (HandRun.writesAre (F := Ideal)) U 61 rfl (by decide)
  have s6 : fin U (Proc.devRef .tc main_v56) = broadcastInDim S800000x64 ![] bcast_S_S800000x64 (fin U (Proc.devRef .tc main_cst_3)) :=
    after_unary_at (HandRun.writesAre (F := Ideal)) U 62 rfl (by decide) (by decide)
  have s7 : fin U (Proc.devRef .tc main_v57) = Host.divf (F := Ideal) (s := S800000x64) (φ := .f32) (fin U (Proc.devRef .tc main_v56)) (fin U (Proc.devRef .tc main_v55)) :=
    after_binary_at (HandRun.writesAre (F := Ideal)) U 63 rfl (by decide) (by decide) (by decide)
  show fin U (Proc.devRef .tc main_v57) (ix2 e j) = _
  rw [s7, s6, s5, s4, s3, s2, s1, s0]
  rfl

/-- The gate sum: the gates of the edges whose target word, read signed, is the node, added into a zero table. -/
theorem r_v60 (r : Fin 50000) (j : Fin 64) :
    c_v60 U (ix2 r j)
      = zero + ∑ e : Fin 800000, if ((inR U).dst (ix1 e)).toInt = (r.val : Int) then c_v57 U (ix2 e j) else 0 := by
  have s0 : fin U (Proc.devRef .tc main_cst_4) = constant (F := Ideal) S_ .f32 0x00000000#32 :=
    after_nullary_at (HandRun.writesAre (F := Ideal)) U 64 rfl (by decide)
  have s1 : fin U (Proc.devRef .tc main_v58) = broadcastInDim S50000x64 ![] bcast_S_S50000x64 (fin U (Proc.devRef .tc main_cst_4)) :=
    after_unary_at (HandRun.writesAre (F := Ideal)) U 65 rfl (by decide) (by decide)
  have s2 : fin U (Proc.devRef .tc main_v59) = broadcastInDim S800000x1 ![0] bcast_S800000_S800000x1_0 (fin U (Proc.devRef .tc main_arg20)) :=
    after_unary_at (HandRun.writesAre (F := Ideal)) U 66 rfl (by decide) (by decide)
  have s3 : fin U (Proc.devRef .tc main_v60)
      = Host.scatterAdd (F := Ideal) (φ := .f32) scatter_S50000x64_S800000x1_S800000x64_1_0_0_1 (fin U (Proc.devRef .tc main_v58)) (fin U (Proc.devRef .tc main_v59)) (fin U (Proc.devRef .tc main_v57)) :=
    after_ternary_at (HandRun.writesAre (F := Ideal)) U 67 rfl (by decide) (by decide) (by decide) (by decide)
  have sa : fin U (Proc.devRef .tc main_arg20) = (inR U).dst :=
    after_of_writesAre (HandRun.writesAre (F := Ideal)) U (by decide)
  show fin U (Proc.devRef .tc main_v60) (ix2 r j) = _
  rw [s3, s2, s1, s0, sa]
  exact segsum_word_apply _ _ _ r j

/-- The gate sum read back at each edge's target node. -/
theorem r_v67 (hd : ∀ e : Fin 800000, 0 ≤ ((inR U).dst (ix1 e)).toInt ∧ ((inR U).dst (ix1 e)).toInt < 50000)
    (e : Fin 800000) (j : Fin 64) :
    c_v67 U (ix2 e j) = c_v60 U (ix2 (rowOf ((inR U).dst (ix1 e))) j) := by
  have s0 : fin U (Proc.devRef .tc main_c_5) = constantI S_ 32 0#32 :=
    after_nullary_at (HandRun.writesAre (F := Ideal)) U 68 rfl (by decide)
  have s1 : fin U (Proc.devRef .tc main_v61) = broadcastInDim S800000 ![] bcast_S_S800000 (fin U (Proc.devRef .tc main_c_5)) :=
    after_unary_at (HandRun.writesAre (F := Ideal)) U 69 rfl (by decide) (by decide)
  have s2 : fin U (Proc.devRef .tc main_v62) = cmpi .slt (fin U (Proc.devRef .tc main_arg20)) (fin U (Proc.devRef .tc main_v61)) :=
    after_binary_at (HandRun.writesAre (F := Ideal)) U 70 rfl (by decide) (by decide) (by decide)
  have s3 : fin U (Proc.devRef .tc main_c_6) = constantI S_ 32 50000#32 :=
    after_nullary_at (HandRun.writesAre (F := Ideal)) U 71 rfl (by decide)
  have s4 : fin U (Proc.devRef .tc main_v63) = broadcastInDim S800000 ![] bcast_S_S800000 (fin U (Proc.devRef .tc main_c_6)) :=
    after_unary_at (HandRun.writesAre (F := Ideal)) U 72 rfl (by decide) (by decide)
  have s5 : fin U (Proc.devRef .tc main_v64) = addi (fin U (Proc.devRef .tc main_arg20)) (fin U (Proc.devRef .tc main_v63)) :=
    after_binary_at (HandRun.writesAre (F := Ideal)) U 73 rfl (by decide) (by decide) (by decide)
  have s6 : fin U (Proc.devRef .tc main_v65)
      = select (fin U (Proc.devRef .tc main_v62)) (fin U (Proc.devRef .tc main_v64)) (fin U (Proc.devRef .tc main_arg20)) :=
    after_ternary_at (HandRun.writesAre (F := Ideal)) U 74 rfl (by decide) (by decide) (by decide) (by decide)
  have s7 : fin U (Proc.devRef .tc main_v66)
      = broadcastInDim S800000x1 ![0] bcast_S800000_S800000x1_0 (fin U (Proc.devRef .tc main_v65)) :=
    after_unary_at (HandRun.writesAre (F := Ideal)) U 75 rfl (by decide) (by decide)
  have s8 : fin U (Proc.devRef .tc main_v67)
      = Host.gather gather_S50000x64_S800000x1_S800000x64_1_0_n_n_0_1_164 (fin U (Proc.devRef .tc main_v60))
          (fin U (Proc.devRef .tc main_v66)) :=
    after_binary_at (HandRun.writesAre (F := Ideal)) U 76 rfl (by decide) (by decide) (by decide)
  have sa : fin U (Proc.devRef .tc main_arg20) = (inR U).dst :=
    after_of_writesAre (HandRun.writesAre (F := Ideal)) U (by decide)
  show fin U (Proc.devRef .tc main_v67) (ix2 e j) = _
  rw [s8, s7, s6, s5, s4, s3, s2, s1, s0, sa]
  exact gather_wrap_apply _ _ hd e j

/-- The normalised gate: the gate over the gathered gate sum plus the small word. -/
theorem r_v70 (e : Fin 800000) (j : Fin 64) :
    c_v70 U (ix2 e j) = Ideal.div (c_v57 U (ix2 e j)) (c_v67 U (ix2 e j) + eps) := by
  have s0 : fin U (Proc.devRef .tc main_cst_7) = constant (F := Ideal) S_ .f32 0x2B8CBCCC#32 :=
    after_nullary_at (HandRun.writesAre (F := Ideal)) U 77 rfl (by decide)
  have s1 : fin U (Proc.devRef .tc main_v68) = broadcastInDim S800000x64 ![] bcast_S_S800000x64 (fin U (Proc.devRef .tc main_cst_7)) :=
    after_unary_at (HandRun.writesAre (F := Ideal)) U 78 rfl (by decide) (by decide)
  have s2 : fin U (Proc.devRef .tc main_v69) = addf (F := Ideal) (s := S800000x64) (φ := .f32) (fin U (Proc.devRef .tc main_v67)) (fin U (Proc.devRef .tc main_v68)) :=
    after_binary_at (HandRun.writesAre (F := Ideal)) U 79 rfl (by decide) (by decide) (by decide)
  have s3 : fin U (Proc.devRef .tc main_v70) = Host.divf (F := Ideal) (s := S800000x64) (φ := .f32) (fin U (Proc.devRef .tc main_v57)) (fin U (Proc.devRef .tc main_v69)) :=
    after_binary_at (HandRun.writesAre (F := Ideal)) U 80 rfl (by decide) (by decide) (by decide)
  show fin U (Proc.devRef .tc main_v70) (ix2 e j) = _
  rw [s3, s2, s1, s0]
  exact div_add_word_apply _ _ _ _

/-- The first positive node table: the exponential of the hyperbolic tangent. -/
theorem r_v72 (r : Fin 50000) (j : Fin 64) : c_v72 U (ix2 r j) = Ideal.exp (Ideal.tanh (c_v5 U (ix2 r j))) := by
  have s0 : fin U (Proc.devRef .tc main_v71) = Host.tanh (F := Ideal) (s := S50000x64) (φ := .f32) (fin U (Proc.devRef .tc main_v5)) :=
    after_unary_at (HandRun.writesAre (F := Ideal)) U 81 rfl (by decide) (by decide)
  have s1 : fin U (Proc.devRef .tc main_v72) = Host.exp (F := Ideal) (s := S50000x64) (φ := .f32) (fin U (Proc.devRef .tc main_v71)) :=
    after_unary_at (HandRun.writesAre (F := Ideal)) U 82 rfl (by decide) (by decide)
  show fin U (Proc.devRef .tc main_v72) (ix2 r j) = _
  rw [s1, s0]
  rfl

/-- The second positive node table: the exponential of one over one plus the exponential of the negation. -/
theorem r_v79 (r : Fin 50000) (j : Fin 64) :
    c_v79 U (ix2 r j) = Ideal.exp (Ideal.div one (one + Ideal.exp (-(c_v5 U (ix2 r j))))) := by
  have s0 : fin U (Proc.devRef .tc main_v73) = Host.negf (F := Ideal) (s := S50000x64) (φ := .f32) (fin U (Proc.devRef .tc main_v5)) :=
    after_unary_at (HandRun.writesAre (F := Ideal)) U 83 rfl (by decide) (by decide)
  have s1 : fin U (Proc.devRef .tc main_v74) = Host.exp (F := Ideal) (s := S50000x64) (φ := .f32) (fin U (Proc.devRef .tc main_v73)) :=
    after_unary_at (HandRun.writesAre (F := Ideal)) U 84 rfl (by decide) (by decide)
  have s2 : fin U (Proc.devRef .tc main_cst_8) = constant (F := Ideal) S_ .f32 0x3F800000#32 :=
    after_nullary_at (HandRun.writesAre (F := Ideal)) U 85 rfl (by decide)
  have s3 : fin U (Proc.devRef .tc main_v75) = broadcastInDim S50000x64 ![] bcast_S_S50000x64 (fin U (Proc.devRef .tc main_cst_8)) :=
    after_unary_at (HandRun.writesAre (F := Ideal)) U 86 rfl (by decide) (by decide)
  have s4 : fin U (Proc.devRef .tc main_v76) = addf (F := Ideal) (s := S50000x64) (φ := .f32) (fin U (Proc.devRef .tc main_v75)) (fin U (Proc.devRef .tc main_v74)) :=
    after_binary_at (HandRun.writesAre (F := Ideal)) U 87 rfl (by decide) (by decide) (by decide)
  have s5 : fin U (Proc.devRef .tc main_cst_9) = constant (F := Ideal) S_ .f32 0x3F800000#32 :=
    after_nullary_at (HandRun.writesAre (F := Ideal)) U 88 rfl (by decide)
  have s6 : fin U (Proc.devRef .tc main_v77) = broadcastInDim S50000x64 ![] bcast_S_S50000x64 (fin U (Proc.devRef .tc main_cst_9)) :=
    after_unary_at (HandRun.writesAre (F := Ideal)) U 89 rfl (by decide) (by decide)
  have s7 : fin U (Proc.devRef .tc main_v78) = Host.divf (F := Ideal) (s := S50000x64) (φ := .f32) (fin U (Proc.devRef .tc main_v77)) (fin U (Proc.devRef .tc main_v76)) :=
    after_binary_at (HandRun.writesAre (F := Ideal)) U 90 rfl (by decide) (by decide) (by decide)
  have s8 : fin U (Proc.devRef .tc main_v79) = Host.exp (F := Ideal) (s := S50000x64) (φ := .f32) (fin U (Proc.devRef .tc main_v78)) :=
    after_unary_at (HandRun.writesAre (F := Ideal)) U 91 rfl (by decide) (by decide)
  show fin U (Proc.devRef .tc main_v79) (ix2 r j) = _
  rw [s8, s7, s6, s5, s4, s3, s2, s1, s0]
  rfl

/-- The first positive node table at each edge's source node. -/
theorem r_v86 (hs : ∀ e : Fin 800000, 0 ≤ ((inR U).src (ix1 e)).toInt ∧ ((inR U).src (ix1 e)).toInt < 50000)
    (e : Fin 800000) (j : Fin 64) :
    c_v86 U (ix2 e j) = c_v72 U (ix2 (rowOf ((inR U).src (ix1 e))) j) := by
  have s0 : fin U (Proc.devRef .tc main_c_10) = constantI S_ 32 0#32 :=
    after_nullary_at (HandRun.writesAre (F := Ideal)) U 92 rfl (by decide)
  have s1 : fin U (Proc.devRef .tc main_v80) = broadcastInDim S800000 ![] bcast_S_S800000 (fin U (Proc.devRef .tc main_c_10)) :=
    after_unary_at (HandRun.writesAre (F := Ideal)) U 93 rfl (by decide) (by decide)
  have s2 : fin U (Proc.devRef .tc main_v81) = cmpi .slt (fin U (Proc.devRef .tc main_arg19)) (fin U (Proc.devRef .tc main_v80)) :=
    after_binary_at (HandRun.writesAre (F := Ideal)) U 94 rfl (by decide) (by decide) (by decide)
  have s3 : fin U (Proc.devRef .tc main_c_11) = constantI S_ 32 50000#32 :=
    after_nullary_at (HandRun.writesAre (F := Ideal)) U 95 rfl (by decide)
  have s4 : fin U (Proc.devRef .tc main_v82) = broadcastInDim S800000 ![] bcast_S_S800000 (fin U (Proc.devRef .tc main_c_11)) :=
    after_unary_at (HandRun.writesAre (F := Ideal)) U 96 rfl (by decide) (by decide)
  have s5 : fin U (Proc.devRef .tc main_v83) = addi (fin U (Proc.devRef .tc main_arg19)) (fin U (Proc.devRef .tc main_v82)) :=
    after_binary_at (HandRun.writesAre (F := Ideal)) U 97 rfl (by decide) (by decide) (by decide)
  have s6 : fin U (Proc.devRef .tc main_v84)
      = select (fin U (Proc.devRef .tc main_v81)) (fin U (Proc.devRef .tc main_v83)) (fin U (Proc.devRef .tc main_arg19)) :=
    after_ternary_at (HandRun.writesAre (F := Ideal)) U 98 rfl (by decide) (by decide) (by decide) (by decide)
  have s7 : fin U (Proc.devRef .tc main_v85)
      = broadcastInDim S800000x1 ![0] bcast_S800000_S800000x1_0 (fin U (Proc.devRef .tc main_v84)) :=
    after_unary_at (HandRun.writesAre (F := Ideal)) U 99 rfl (by decide) (by decide)
  have s8 : fin U (Proc.devRef .tc main_v86)
      = Host.gather gather_S50000x64_S800000x1_S800000x64_1_0_n_n_0_1_164 (fin U (Proc.devRef .tc main_v72))
          (fin U (Proc.devRef .tc main_v85)) :=
    after_binary_at (HandRun.writesAre (F := Ideal)) U 100 rfl (by decide) (by decide) (by decide)
  have sa : fin U (Proc.devRef .tc main_arg19) = (inR U).src :=
    after_of_writesAre (HandRun.writesAre (F := Ideal)) U (by decide)
  show fin U (Proc.devRef .tc main_v86) (ix2 e j) = _
  rw [s8, s7, s6, s5, s4, s3, s2, s1, s0, sa]
  exact gather_wrap_apply _ _ hs e j

/-- The second positive node table at each edge's target node. -/
theorem r_v93 (hd : ∀ e : Fin 800000, 0 ≤ ((inR U).dst (ix1 e)).toInt ∧ ((inR U).dst (ix1 e)).toInt < 50000)
    (e : Fin 800000) (j : Fin 64) :
    c_v93 U (ix2 e j) = c_v79 U (ix2 (rowOf ((inR U).dst (ix1 e))) j) := by
  have s0 : fin U (Proc.devRef .tc main_c_12) = constantI S_ 32 0#32 :=
    after_nullary_at (HandRun.writesAre (F := Ideal)) U 101 rfl (by decide)
  have s1 : fin U (Proc.devRef .tc main_v87) = broadcastInDim S800000 ![] bcast_S_S800000 (fin U (Proc.devRef .tc main_c_12)) :=
    after_unary_at (HandRun.writesAre (F := Ideal)) U 102 rfl (by decide) (by decide)
  have s2 : fin U (Proc.devRef .tc main_v88) = cmpi .slt (fin U (Proc.devRef .tc main_arg20)) (fin U (Proc.devRef .tc main_v87)) :=
    after_binary_at (HandRun.writesAre (F := Ideal)) U 103 rfl (by decide) (by decide) (by decide)
  have s3 : fin U (Proc.devRef .tc main_c_13) = constantI S_ 32 50000#32 :=
    after_nullary_at (HandRun.writesAre (F := Ideal)) U 104 rfl (by decide)
  have s4 : fin U (Proc.devRef .tc main_v89) = broadcastInDim S800000 ![] bcast_S_S800000 (fin U (Proc.devRef .tc main_c_13)) :=
    after_unary_at (HandRun.writesAre (F := Ideal)) U 105 rfl (by decide) (by decide)
  have s5 : fin U (Proc.devRef .tc main_v90) = addi (fin U (Proc.devRef .tc main_arg20)) (fin U (Proc.devRef .tc main_v89)) :=
    after_binary_at (HandRun.writesAre (F := Ideal)) U 106 rfl (by decide) (by decide) (by decide)
  have s6 : fin U (Proc.devRef .tc main_v91)
      = select (fin U (Proc.devRef .tc main_v88)) (fin U (Proc.devRef .tc main_v90)) (fin U (Proc.devRef .tc main_arg20)) :=
    after_ternary_at (HandRun.writesAre (F := Ideal)) U 107 rfl (by decide) (by decide) (by decide) (by decide)
  have s7 : fin U (Proc.devRef .tc main_v92)
      = broadcastInDim S800000x1 ![0] bcast_S800000_S800000x1_0 (fin U (Proc.devRef .tc main_v91)) :=
    after_unary_at (HandRun.writesAre (F := Ideal)) U 108 rfl (by decide) (by decide)
  have s8 : fin U (Proc.devRef .tc main_v93)
      = Host.gather gather_S50000x64_S800000x1_S800000x64_1_0_n_n_0_1_164 (fin U (Proc.devRef .tc main_v79))
          (fin U (Proc.devRef .tc main_v92)) :=
    after_binary_at (HandRun.writesAre (F := Ideal)) U 109 rfl (by decide) (by decide) (by decide)
  have sa : fin U (Proc.devRef .tc main_arg20) = (inR U).dst :=
    after_of_writesAre (HandRun.writesAre (F := Ideal)) U (by decide)
  show fin U (Proc.devRef .tc main_v93) (ix2 e j) = _
  rw [s8, s7, s6, s5, s4, s3, s2, s1, s0, sa]
  exact gather_wrap_apply _ _ hd e j

/-- The edge score: the inner product of the two gathered rows over the 64 features, from the zero word. -/
theorem r_v95 (e : Fin 800000) :
    c_v95 U (ix1 e) = zero + ∑ j : Fin 64, c_v86 U (ix2 e j) * c_v93 U (ix2 e j) := by
  have s0 : fin U (Proc.devRef .tc main_v94) = mulf (F := Ideal) (s := S800000x64) (φ := .f32) (fin U (Proc.devRef .tc main_v86)) (fin U (Proc.devRef .tc main_v93)) :=
    after_binary_at (HandRun.writesAre (F := Ideal)) U 110 rfl (by decide) (by decide) (by decide)
  have s1 : fin U (Proc.devRef .tc main_cst_14) = constant (F := Ideal) S_ .f32 0x00000000#32 :=
    after_nullary_at (HandRun.writesAre (F := Ideal)) U 111 rfl (by decide)
  have s2 : fin U (Proc.devRef .tc main_v95)
      = Host.reduceAdd (F := Ideal) (φ := .f32) (fin U (Proc.devRef .tc main_v94)) (fin U (Proc.devRef .tc main_cst_14)) reducesTo_S800000x64_S800000_d1 h_S_ :=
    after_binary_at (HandRun.writesAre (F := Ideal)) U 112 rfl (by decide) (by decide) (by decide)
  show fin U (Proc.devRef .tc main_v95) (ix1 e) = _
  rw [s2, s1, s0]
  exact rowdot_apply _ _ _ e

/-- The scored gate: the normalised gate times the edge's score. -/
theorem r_v98 (e : Fin 800000) (j : Fin 64) : c_v98 U (ix2 e j) = c_v70 U (ix2 e j) * c_v95 U (ix1 e) := by
  have s0 : fin U (Proc.devRef .tc main_v96) = broadcastInDim S800000x1 ![0] bcast_S800000_S800000x1_0 (fin U (Proc.devRef .tc main_v95)) :=
    after_unary_at (HandRun.writesAre (F := Ideal)) U 113 rfl (by decide) (by decide)
  have s1 : fin U (Proc.devRef .tc main_v97) = broadcastInDim S800000x64 ![0, 1] bcast_S800000x1_S800000x64_0_1 (fin U (Proc.devRef .tc main_v96)) :=
    after_unary_at (HandRun.writesAre (F := Ideal)) U 114 rfl (by decide) (by decide)
  have s2 : fin U (Proc.devRef .tc main_v98) = mulf (F := Ideal) (s := S800000x64) (φ := .f32) (fin U (Proc.devRef .tc main_v70)) (fin U (Proc.devRef .tc main_v97)) :=
    after_binary_at (HandRun.writesAre (F := Ideal)) U 115 rfl (by decide) (by decide) (by decide)
  show fin U (Proc.devRef .tc main_v98) (ix2 e j) = _
  rw [s2, s1, s0]
  refine (mulf_apply _ _ _).trans ?_
  rw [rows_apply]

end Cert.ReferenceIdeal.Val

end
-- ==== Proof.RStageB.lean ====
/-
  What the last part of the reference's line of host operations leaves in its buffers, coordinate by coordinate.

  The messages: an edge's scored gate times the source node's row of the value table, and its normalised gate times the
  source node's row of a position table; each is summed over the edges into a node (the edges whose target word, read
  signed, is the node) into a table of the zero word, and added to a node table. The three results: the rectified node
  sum layer-normalised over its 64 features (mean and variance each a row sum from the zero word divided by the word
  64, the variance's divisor spelled as 64 minus the converted integer 0 and guarded by a comparison that holds), the
  rectified edge pre-activation, and the hyperbolic tangent of the position sum.
-/
import proofs.«430657_j46961172414536_3_alg».proof.Proof.RBufs
import proofs.«430657_j46961172414536_3_alg».proof.Proof.LibAfterAt
import proofs.«430657_j46961172414536_3_alg».proof.Proof.LibRowIndex
import proofs.«430657_j46961172414536_3_alg».proof.Proof.RStageA
import Idealize.ShloMosaic.Lib.Pipeline.Value
import Idealize.ShloMosaic.Lib.ValueLayout
import Idealize.ShloMosaic.PureOps.Ideal.Laws
import Idealize.ShloMosaic.Lib.StableHlo.Predicate

noncomputable section

namespace Cert.ReferenceIdeal.Val

open Cert.ReferenceIdeal Cert.ReferenceIdeal.Gen Cert.ReferenceIdeal.HandRun Cert.Forms Idealize.ShloMosaic Idealize.ShloMosaic.TcCoe Idealize.SL.Sem Idealize.ShloMosaic.StableHlo Idealize.ShloMosaic.ValueIdx

variable (U : Valuation τ sig (Elt Ideal))

/-! The words at the end are the argument's words: no operation writes an argument. -/

theorem stB_src_end : fin U (Proc.devRef .tc main_arg19) = (inR U).src :=
  after_of_writesAre (HandRun.writesAre (F := Ideal)) U (by decide)

theorem stB_dst_end : fin U (Proc.devRef .tc main_arg20) = (inR U).dst :=
  after_of_writesAre (HandRun.writesAre (F := Ideal)) U (by decide)

/-! ## Pointwise stages -/

theorem stB_v106 : c_v106 U = mulf (F := Ideal) (s := S800000x64) (φ := .f32) (c_v98 U) (c_v105 U) :=
  after_binary_at (HandRun.writesAre (F := Ideal)) U 125 rfl (by decide) (by decide) (by decide)

/-- %106 = %98 · %105. -/
theorem r_v106 (e : Fin 800000) (j : Fin 64) : c_v106 U (ix2 e j) = c_v98 U (ix2 e j) * c_v105 U (ix2 e j) :=
  (congrFun (stB_v106 U) (ix2 e j)).trans (mulf_apply _ _ _)

theorem stB_v110 : c_v110 U = addf (F := Ideal) (s := S50000x64) (φ := .f32) (c_v10 U) (c_v109 U) :=
  after_binary_at (HandRun.writesAre (F := Ideal)) U 130 rfl (by decide) (by decide) (by decide)

/-- %110 = %10 + %109. -/
theorem r_v110 (r : Fin 50000) (j : Fin 64) : c_v110 U (ix2 r j) = c_v10 U (ix2 r j) + c_v109 U (ix2 r j) :=
  (congrFun (stB_v110 U) (ix2 r j)).trans (addf_apply _ _ _)

theorem stB_v118 : c_v118 U = mulf (F := Ideal) (s := S800000x64) (φ := .f32) (c_v70 U) (c_v117 U) :=
  after_binary_at (HandRun.writesAre (F := Ideal)) U 140 rfl (by decide) (by decide) (by decide)

/-- %118 = %70 · %117. -/
theorem r_v118 (e : Fin 800000) (j : Fin 64) : c_v118 U (ix2 e j) = c_v70 U (ix2 e j) * c_v117 U (ix2 e j) :=
  (congrFun (stB_v118 U) (ix2 e j)).trans (mulf_apply _ _ _)

theorem stB_v122 : c_v122 U = addf (F := Ideal) (s := S50000x64) (φ := .f32) (c_v30 U) (c_v121 U) :=
  after_binary_at (HandRun.writesAre (F := Ideal)) U 145 rfl (by decide) (by decide) (by decide)

/-- %122 = %30 + %121. -/
theorem r_v122 (r : Fin 50000) (j : Fin 64) : c_v122 U (ix2 r j) = c_v30 U (ix2 r j) + c_v121 U (ix2 r j) :=
  (congrFun (stB_v122 U) (ix2 r j)).trans (addf_apply _ _ _)

theorem stB_v125 : c_v125 U = Host.tanh (F := Ideal) (s := S50000x64) (φ := .f32) (c_v122 U) :=
  after_unary_at (HandRun.writesAre (F := Ideal)) U 152 rfl (by decide) (by decide)

/-- %125 = tanh %122. -/
theorem r_v125 (r : Fin 50000) (j : Fin 64) : c_v125 U (ix2 r j) = Ideal.tanh (c_v122 U (ix2 r j)) :=
  congrFun (stB_v125 U) (ix2 r j)

/-- %105 = %10[src]: the source node's row of %10, at each edge. -/
theorem r_v105 (hs : ∀ e : Fin 800000, 0 ≤ ((inR U).src (ix1 e)).toInt ∧ ((inR U).src (ix1 e)).toInt < 50000)
    (e : Fin 800000) (j : Fin 64) :
    c_v105 U (ix2 e j) = c_v10 U (ix2 (rowOf ((inR U).src (ix1 e))) j) := by
  have s0 : fin U (Proc.devRef .tc main_c_15) = constantI S_ 32 0#32 :=
    after_nullary_at (HandRun.writesAre (F := Ideal)) U 116 rfl (by decide)
  have s1 : fin U (Proc.devRef .tc main_v99) = broadcastInDim S800000 ![] bcast_S_S800000 (fin U (Proc.devRef .tc main_c_15)) :=
    after_unary_at (HandRun.writesAre (F := Ideal)) U 117 rfl (by decide) (by decide)
  have s2 : fin U (Proc.devRef .tc main_v100) = cmpi .slt (fin U (Proc.devRef .tc main_arg19)) (fin U (Proc.devRef .tc main_v99)) :=
    after_binary_at (HandRun.writesAre (F := Ideal)) U 118 rfl (by decide) (by decide) (by decide)
  have s3 : fin U (Proc.devRef .tc main_c_16) = constantI S_ 32 50000#32 :=
    after_nullary_at (HandRun.writesAre (F := Ideal)) U 119 rfl (by decide)
  have s4 : fin U (Proc.devRef .tc main_v101) = broadcastInDim S800000 ![] bcast_S_S800000 (fin U (Proc.devRef .tc main_c_16)) :=
    after_unary_at (HandRun.writesAre (F := Ideal)) U 120 rfl (by decide) (by decide)
  have s5 : fin U (Proc.devRef .tc main_v102) = addi (fin U (Proc.devRef .tc main_arg19)) (fin U (Proc.devRef .tc main_v101)) :=
    after_binary_at (HandRun.writesAre (F := Ideal)) U 121 rfl (by decide) (by decide) (by decide)
  have s6 : fin U (Proc.devRef .tc main_v103)
      = select (fin U (Proc.devRef .tc main_v100)) (fin U (Proc.devRef .tc main_v102)) (fin U (Proc.devRef .tc main_arg19)) :=
    after_ternary_at (HandRun.writesAre (F := Ideal)) U 122 rfl (by decide) (by decide) (by decide) (by decide)
  have s7 : fin U (Proc.devRef .tc main_v104)
      = broadcastInDim S800000x1 ![0] bcast_S800000_S800000x1_0 (fin U (Proc.devRef .tc main_v103)) :=
    after_unary_at (HandRun.writesAre (F := Ideal)) U 123 rfl (by decide) (by decide)
  have s8 : fin U (Proc.devRef .tc main_v105)
      = Host.gather gather_S50000x64_S800000x1_S800000x64_1_0_n_n_0_1_164 (fin U (Proc.devRef .tc main_v10))
          (fin U (Proc.devRef .tc main_v104)) :=
    after_binary_at (HandRun.writesAre (F := Ideal)) U 124 rfl (by decide) (by decide) (by decide)
  show fin U (Proc.devRef .tc main_v105) (ix2 e j) = _
  rw [s8, s7, s6, s5, s4, s3, s2, s1, s0, stB_src_end]
  exact gather_wrap_apply _ _ hs e j

/-- %117 = %35[src]: the source node's row of %35, at each edge. -/
theorem r_v117 (hs : ∀ e : Fin 800000, 0 ≤ ((inR U).src (ix1 e)).toInt ∧ ((inR U).src (ix1 e)).toInt < 50000)
    (e : Fin 800000) (j : Fin 64) :
    c_v117 U (ix2 e j) = c_v35 U (ix2 (rowOf ((inR U).src (ix1 e))) j) := by
  have s0 : fin U (Proc.devRef .tc main_c_18) = constantI S_ 32 0#32 :=
    after_nullary_at (HandRun.writesAre (F := Ideal)) U 131 rfl (by decide)
  have s1 : fin U (Proc.devRef .tc main_v111) = broadcastInDim S800000 ![] bcast_S_S800000 (fin U (Proc.devRef .tc main_c_18)) :=
    after_unary_at (HandRun.writesAre (F := Ideal)) U 132 rfl (by decide) (by decide)
  have s2 : fin U (Proc.devRef .tc main_v112) = cmpi .slt (fin U (Proc.devRef .tc main_arg19)) (fin U (Proc.devRef .tc main_v111)) :=
    after_binary_at (HandRun.writesAre (F := Ideal)) U 133 rfl (by decide) (by decide) (by decide)
  have s3 : fin U (Proc.devRef .tc main_c_19) = constantI S_ 32 50000#32 :=
    after_nullary_at (HandRun.writesAre (F := Ideal)) U 134 rfl (by decide)
  have s4 : fin U (Proc.devRef .tc main_v113) = broadcastInDim S800000 ![] bcast_S_S800000 (fin U (Proc.devRef .tc main_c_19)) :=
    after_unary_at (HandRun.writesAre (F := Ideal)) U 135 rfl (by decide) (by decide)
  have s5 : fin U (Proc.devRef .tc main_v114) = addi (fin U (Proc.devRef .tc main_arg19)) (fin U (Proc.devRef .tc main_v113)) :=
    after_binary_at (HandRun.writesAre (F := Ideal)) U 136 rfl (by decide) (by decide) (by decide)
  have s6 : fin U (Proc.devRef .tc main_v115)
      = select (fin U (Proc.devRef .tc main_v112)) (fin U (Proc.devRef .tc main_v114)) (fin U (Proc.devRef .tc main_arg19)) :=
    after_ternary_at (HandRun.writesAre (F := Ideal)) U 137 rfl (by decide) (by decide) (by decide) (by decide)
  have s7 : fin U (Proc.devRef .tc main_v116)
      = broadcastInDim S800000x1 ![0] bcast_S800000_S800000x1_0 (fin U (Proc.devRef .tc main_v115)) :=
    after_unary_at (HandRun.writesAre (F := Ideal)) U 138 rfl (by decide) (by decide)
  have s8 : fin U (Proc.devRef .tc main_v117)
      = Host.gather gather_S50000x64_S800000x1_S800000x64_1_0_n_n_0_1_164 (fin U (Proc.devRef .tc main_v35))
          (fin U (Proc.devRef .tc main_v116)) :=
    after_binary_at (HandRun.writesAre (F := Ideal)) U 139 rfl (by decide) (by decide) (by decide)
  show fin U (Proc.devRef .tc main_v117) (ix2 e j) = _
  rw [s8, s7, s6, s5, s4, s3, s2, s1, s0, stB_src_end]
  exact gather_wrap_apply _ _ hs e j

/-- %109: the rows of %106 summed into the node rows the target words name, into a table of the zero word. -/
theorem r_v109 (r : Fin 50000) (j : Fin 64) :
    c_v109 U (ix2 r j)
      = zero + ∑ e : Fin 800000, if ((inR U).dst (ix1 e)).toInt = (r.val : Int) then c_v106 U (ix2 e j) else 0 := by
  have s0 : fin U (Proc.devRef .tc main_cst_17) = constant (F := Ideal) S_ .f32 0x00000000#32 :=
    after_nullary_at (HandRun.writesAre (F := Ideal)) U 126 rfl (by decide)
  have s1 : fin U (Proc.devRef .tc main_v107) = broadcastInDim S50000x64 ![] bcast_S_S50000x64 (fin U (Proc.devRef .tc main_cst_17)) :=
    after_unary_at (HandRun.writesAre (F := Ideal)) U 127 rfl (by decide) (by decide)
  have s2 : fin U (Proc.devRef .tc main_v108) = broadcastInDim S800000x1 ![0] bcast_S800000_S800000x1_0 (fin U (Proc.devRef .tc main_arg20)) :=
    after_unary_at (HandRun.writesAre (F := Ideal)) U 128 rfl (by decide) (by decide)
  have s3 : fin U (Proc.devRef .tc main_v109)
      = Host.scatterAdd (F := Ideal) (φ := .f32) scatter_S50000x64_S800000x1_S800000x64_1_0_0_1 (fin U (Proc.devRef .tc main_v107))
          (fin U (Proc.devRef .tc main_v108)) (fin U (Proc.devRef .tc main_v106)) :=
    after_ternary_at (HandRun.writesAre (F := Ideal)) U 129 rfl (by decide) (by decide) (by decide) (by decide)
  show fin U (Proc.devRef .tc main_v109) (ix2 r j) = _
  rw [s3, s2, s1, s0, stB_dst_end]
  exact segsum_word_apply _ _ _ r j

/-- %121: the rows of %118 summed into the node rows the target words name, into a table of the zero word. -/
theorem r_v121 (r : Fin 50000) (j : Fin 64) :
    c_v121 U (ix2 r j)
      = zero + ∑ e : Fin 800000, if ((inR U).dst (ix1 e)).toInt = (r.val : Int) then c_v118 U (ix2 e j) else 0 := by
  have s0 : fin U (Proc.devRef .tc main_cst_20) = constant (F := Ideal) S_ .f32 0x00000000#32 :=
    after_nullary_at (HandRun.writesAre (F := Ideal)) U 141 rfl (by decide)
  have s1 : fin U (Proc.devRef .tc main_v119) = broadcastInDim S50000x64 ![] bcast_S_S50000x64 (fin U (Proc.devRef .tc main_cst_20)) :=
    after_unary_at (HandRun.writesAre (F := Ideal)) U 142 rfl (by decide) (by decide)
  have s2 : fin U (Proc.devRef .tc main_v120) = broadcastInDim S800000x1 ![0] bcast_S800000_S800000x1_0 (fin U (Proc.devRef .tc main_arg20)) :=
    after_unary_at (HandRun.writesAre (F := Ideal)) U 143 rfl (by decide) (by decide)
  have s3 : fin U (Proc.devRef .tc main_v121)
      = Host.scatterAdd (F := Ideal) (φ := .f32) scatter_S50000x64_S800000x1_S800000x64_1_0_0_1 (fin U (Proc.devRef .tc main_v119))
          (fin U (Proc.devRef .tc main_v120)) (fin U (Proc.devRef .tc main_v118)) :=
    after_ternary_at (HandRun.writesAre (F := Ideal)) U 144 rfl (by decide) (by decide) (by decide) (by decide)
  show fin U (Proc.devRef .tc main_v121) (ix2 r j) = _
  rw [s3, s2, s1, s0, stB_dst_end]
  exact segsum_word_apply _ _ _ r j

/-! ## The rectified tables -/

/-- %123 = max(%110, 0): the zero word laid out over the table, then the maximum. -/
theorem r_v123 (r : Fin 50000) (j : Fin 64) : c_v123 U (ix2 r j) = max (c_v110 U (ix2 r j)) zero := by
  have s0 : fin U (Proc.devRef .tc main_call0_cst) = constant (F := Ideal) S_ .f32 0x00000000#32 :=
    after_nullary_at (HandRun.writesAre (F := Ideal)) U 146 rfl (by decide)
  have s1 : fin U (Proc.devRef .tc main_call0_v0) = broadcastInDim S50000x64 ![] bcast_S_S50000x64 (fin U (Proc.devRef .tc main_call0_cst)) :=
    after_unary_at (HandRun.writesAre (F := Ideal)) U 147 rfl (by decide) (by decide)
  have s2 : fin U (Proc.devRef .tc main_v123) = maximumf (F := Ideal) (s := S50000x64) (φ := .f32) (fin U (Proc.devRef .tc main_v110))
      (fin U (Proc.devRef .tc main_call0_v0)) :=
    after_binary_at (HandRun.writesAre (F := Ideal)) U 148 rfl (by decide) (by decide) (by decide)
  show fin U (Proc.devRef .tc main_v123) (ix2 r j) = _
  rw [s2, s1, s0]
  rfl

/-- %124 = max(%51, 0). -/
theorem r_v124 (e : Fin 800000) (j : Fin 64) : c_v124 U (ix2 e j) = max (c_v51 U (ix2 e j)) zero := by
  have s0 : fin U (Proc.devRef .tc main_call1_cst) = constant (F := Ideal) S_ .f32 0x00000000#32 :=
    after_nullary_at (HandRun.writesAre (F := Ideal)) U 149 rfl (by decide)
  have s1 : fin U (Proc.devRef .tc main_call1_v0) = broadcastInDim S800000x64 ![] bcast_S_S800000x64 (fin U (Proc.devRef .tc main_call1_cst)) :=
    after_unary_at (HandRun.writesAre (F := Ideal)) U 150 rfl (by decide) (by decide)
  have s2 : fin U (Proc.devRef .tc main_v124) = maximumf (F := Ideal) (s := S800000x64) (φ := .f32) (fin U (Proc.devRef .tc main_v51))
      (fin U (Proc.devRef .tc main_call1_v0)) :=
    after_binary_at (HandRun.writesAre (F := Ideal)) U 151 rfl (by decide) (by decide) (by decide)
  show fin U (Proc.devRef .tc main_v124) (ix2 e j) = _
  rw [s2, s1, s0]
  rfl

/-! ## Layer normalisation: pure pieces, over variables -/

/-- A scalar word laid out over a whole array reads as that word everywhere. -/
theorem ln_splat_apply {t : Shape} (h : S_.BroadcastsInDim t ![]) (b : BitVec 32) (i : t.Idx) :
    broadcastInDim t ![] h (constant (F := Ideal) S_ .f32 b) i = Ideal.ofBits .f32 b :=
  (Predicate.bcast_scalar h h_S_ _ i).trans (constant_apply _ _)

/-- A vector laid as a one-column matrix reads, at row `r`, the vector at `r`. -/
theorem ln_col_apply {α : Type} (v : (⟨1, ![50000]⟩ : Shape).Idx → α) (r : Fin 50000) :
    broadcastInDim S50000x1 ![0] bcast_S50000_S50000x1_0 v (ix2 r (0 : Fin 1)) = v (ix1 r) := by
  refine broadcastInDim_apply _ _ v _ (ix1 r) fun a => ?_
  match a with
  | ⟨0, _⟩ => rfl

/-- A one-column matrix laid along the rows of a 50000 x 64 matrix reads, at `(r, j)`, the column at `r`. -/
theorem ln_rows_apply {α : Type} (v : S50000x1.Idx → α) (r : Fin 50000) (j : Fin 64) :
    broadcastInDim S50000x64 ![0, 1] bcast_S50000x1_S50000x64_0_1 v (ix2 r j) = v (ix2 r (0 : Fin 1)) := by
  refine broadcastInDim_apply _ _ v _ (ix2 r (0 : Fin 1)) fun a => ?_
  match a with
  | ⟨0, _⟩ => rfl
  | ⟨1, _⟩ => rfl

/-- A 64-vector laid as a one-row matrix and then down the 50000 rows reads, at `(r, j)`, the vector at `j`. -/
theorem ln_feat_apply {α : Type} (g : S64.Idx → α) (r : Fin 50000) (j : Fin 64) :
    broadcastInDim S50000x64 ![0, 1] bcast_S1x64_S50000x64_0_1 (broadcastInDim S1x64 ![1] bcast_S64_S1x64_1 g) (ix2 r j)
      = g (ix1 j) := by
  refine (broadcastInDim_apply _ _ _ _ (ix2 (0 : Fin 1) j) fun a => ?_).trans
    (broadcastInDim_apply _ _ g _ (ix1 j) fun a => ?_)
  · match a with
    | ⟨0, _⟩ => rfl
    | ⟨1, _⟩ => rfl
  · match a with
    | ⟨0, _⟩ => rfl

/-- Over a vector index `r`, the matrix index with column `k` put back is `(r, k)`. -/
theorem ln_lift_row (h : S50000x64.Reduces [1] S50000) (r : Fin 50000) (k : Fin 64) : h.lift (ix1 r) k = ix2 r k := by
  funext c
  refine Fin.ext ?_
  match c with
  | ⟨0, _⟩ => rfl
  | ⟨1, _⟩ => rfl

/-- The sum over the 64 columns of a matrix, from a splat word, at row `r`. -/
theorem ln_rowsum_apply (x : Arr 50000 64) (c : BitVec 32) (r : Fin 50000) :
    Host.reduceAdd (F := Ideal) (φ := .f32) x (constant (F := Ideal) S_ .f32 c) reducesTo_S50000x64_S50000_d1 h_S_ (ix1 r)
      = Ideal.ofBits .f32 c + ∑ j : Fin 64, x (ix2 r j) := by
  have hr : S50000x64.Reduces [1] S50000 := by decide
  unfold Host.reduceAdd
  rw [Ideal.hostReduceAdd_def, Ideal.hostReduceAdd_single reducesTo_S50000x64_S50000_d1 hr]
  refine congrArg₂ (· + ·) rfl (Finset.sum_congr rfl fun k _ => ?_)
  rw [ln_lift_row hr r k]

/-! ## Layer normalisation: the arrays the program builds, as functions of the table -/

/-- The column of row means: the row sums from the zero word over the splat word 64. -/
def lnMeanCol (x : Arr 50000 64) : Arr 50000 1 :=
  Host.divf (F := Ideal) (s := S50000x1) (φ := .f32)
    (broadcastInDim S50000x1 ![0] bcast_S50000_S50000x1_0
      (Host.reduceAdd (F := Ideal) (φ := .f32) x (constant (F := Ideal) S_ .f32 0x00000000#32)
        reducesTo_S50000x64_S50000_d1 h_S_))
    (broadcastInDim S50000x1 ![] bcast_S_S50000x1 (constant (F := Ideal) S_ .f32 0x42800000#32))

/-- The table minus its row means. -/
def lnCtr (x : Arr 50000 64) : Arr 50000 64 :=
  subf (F := Ideal) (s := S50000x64) (φ := .f32) x
    (broadcastInDim S50000x64 ![0, 1] bcast_S50000x1_S50000x64_0_1 (lnMeanCol x))

/-- The variance's divisor as the program spells it: the word 64 minus the converted integer 0. -/
def lnCnt : S_.Idx → EReal :=
  subf (F := Ideal) (s := S_) (φ := .f32) (constant (F := Ideal) S_ .f32 0x42800000#32)
    (sitofp (F := Ideal) .f32 (constantI S_ 32 0#32))

/-- The column of row variances: the row sums of the squared centred table over the divisor, guarded by "the divisor is
    positive" against a junk word. -/
def lnVarCol (x : Arr 50000 64) : Arr 50000 1 :=
  select
    (broadcastInDim S50000x1 ![] bcast_S_S50000x1
      (cmpf (F := Ideal) (s := S_) (φ := .f32) .ogt lnCnt (constant (F := Ideal) S_ .f32 0x00000000#32)))
    (Host.divf (F := Ideal) (s := S50000x1) (φ := .f32)
      (broadcastInDim S50000x1 ![0] bcast_S50000_S50000x1_0
        (Host.reduceAdd (F := Ideal) (φ := .f32) (mulf (F := Ideal) (s := S50000x64) (φ := .f32) (lnCtr x) (lnCtr x))
          (constant (F := Ideal) S_ .f32 0x00000000#32) reducesTo_S50000x64_S50000_d1 h_S_))
      (broadcastInDim S50000x1 ![] bcast_S_S50000x1 lnCnt))
    (broadcastInDim S50000x1 ![] bcast_S_S50000x1 (id (constant (F := Ideal) S_ .f32 0x7FC00000#32)))

/-- The normalised table: centred, times the reciprocal root of the variance plus the small word, times the gain, plus
    the offset. -/
def lnArr (x : Arr 50000 64) (g b : Row 64) : Arr 50000 64 :=
  addf (F := Ideal) (s := S50000x64) (φ := .f32)
    (mulf (F := Ideal) (s := S50000x64) (φ := .f32)
      (mulf (F := Ideal) (s := S50000x64) (φ := .f32) (lnCtr x)
        (broadcastInDim S50000x64 ![0, 1] bcast_S50000x1_S50000x64_0_1
          (Host.rsqrt (F := Ideal) (s := S50000x1) (φ := .f32)
            (addf (F := Ideal) (s := S50000x1) (φ := .f32) (lnVarCol x)
              (broadcastInDim S50000x1 ![] bcast_S_S50000x1 (constant (F := Ideal) S_ .f32 0x3727C5AC#32))))))
      (broadcastInDim S50000x64 ![0, 1] bcast_S1x64_S50000x64_0_1 (broadcastInDim S1x64 ![1] bcast_S64_S1x64_1 g)))
    (broadcastInDim S50000x64 ![0, 1] bcast_S1x64_S50000x64_0_1 (broadcastInDim S1x64 ![1] bcast_S64_S1x64_1 b))

/-! The two words the guard compares, as extended reals. -/

theorem ln_zero_val : zero = 0 := by
  simp [Ideal.ofBits, Ideal.ieee]

theorem ln_c64_val : c64 = ((64 : ℝ) : EReal) := by
  simp [Ideal.ofBits, Ideal.ieee, -EReal.coe_mul]; norm_num

theorem ln_zero_lt_c64 : zero < c64 := by
  rw [ln_zero_val, ln_c64_val]
  exact_mod_cast (by norm_num : (0 : ℝ) < 64)

/-- The divisor is the word 64: the converted integer 0 is the extended real 0. -/
theorem lnCnt_apply (i : S_.Idx) : lnCnt i = c64 := by
  show c64 - (((0#32 : BitVec 32).toInt : ℝ) : EReal) = c64
  have h : (0#32 : BitVec 32).toInt = 0 := by decide
  rw [h, Int.cast_zero, EReal.coe_zero, sub_zero]

/-- The guard holds: 64 is above 0. -/
theorem ln_guard : Ideal.cmp .ogt c64 zero = 1#1 := by
  show BitVec.ofBool (decide (zero < c64)) = 1#1
  rw [decide_eq_true ln_zero_lt_c64]
  rfl

/-- The host's quotient and reciprocal root at an index. -/
theorem ln_divf_apply {s : Shape} (a b : FVec Ideal s .f32) (i : s.Idx) :
    Host.divf (F := Ideal) a b i = Ideal.div (a i) (b i) := rfl

theorem ln_rsqrt_apply {s : Shape} (a : FVec Ideal s .f32) (i : s.Idx) :
    Host.rsqrt (F := Ideal) a i = Ideal.rsqrt (a i) := rfl

theorem lnMeanCol_apply (x : Arr 50000 64) (r : Fin 50000) : lnMeanCol x (ix2 r (0 : Fin 1)) = mean64 (cur x) r := by
  refine (ln_divf_apply _ _ _).trans ?_
  rw [ln_col_apply, ln_rowsum_apply, ln_splat_apply]
  rfl

theorem lnCtr_apply (x : Arr 50000 64) (r : Fin 50000) (j : Fin 64) : lnCtr x (ix2 r j) = centred (cur x) r j := by
  refine (subf_apply _ _ _).trans ?_
  rw [ln_rows_apply, lnMeanCol_apply]
  rfl

theorem lnVarCol_apply (x : Arr 50000 64) (r : Fin 50000) : lnVarCol x (ix2 r (0 : Fin 1)) = var64 (cur x) r := by
  refine (select_apply _ _ _ _).trans ?_
  have hp : broadcastInDim S50000x1 ![] bcast_S_S50000x1
      (cmpf (F := Ideal) (s := S_) (φ := .f32) .ogt lnCnt (constant (F := Ideal) S_ .f32 0x00000000#32))
      (ix2 r (0 : Fin 1)) = 1#1 := by
    refine (Predicate.bcast_scalar _ h_S_ _ _).trans ?_
    refine (cmpf_apply _ _ _ _).trans ?_
    rw [lnCnt_apply]
    exact ln_guard
  rw [hp, select_one]
  refine (ln_divf_apply _ _ _).trans ?_
  rw [ln_col_apply, ln_rowsum_apply, Predicate.bcast_scalar _ h_S_ lnCnt, lnCnt_apply]
  refine congrArg (fun t => Ideal.div (zero + t) c64) (Finset.sum_congr rfl fun j _ => ?_)
  rw [mulf_apply, lnCtr_apply]

theorem lnArr_apply (x : Arr 50000 64) (g b : Row 64) (r : Fin 50000) (j : Fin 64) :
    lnArr x g b (ix2 r j) = layerNorm (cur x) (cur1 g) (cur1 b) r j := by
  refine (addf_apply _ _ _).trans ?_
  rw [mulf_apply, mulf_apply, ln_rows_apply, ln_feat_apply, ln_feat_apply, lnCtr_apply, ln_rsqrt_apply, addf_apply,
    lnVarCol_apply, ln_splat_apply]
  rfl

/-! ## Layer normalisation: the stages -/

/-- The gain and the offset at the end are the arguments' vectors. -/
theorem stB_g_end : fin U (Proc.devRef .tc main_arg17) = (inR U).g :=
  after_of_writesAre (HandRun.writesAre (F := Ideal)) U (by decide)

theorem stB_b_end : fin U (Proc.devRef .tc main_arg18) = (inR U).b :=
  after_of_writesAre (HandRun.writesAre (F := Ideal)) U (by decide)

/-- %129: the column of the row means of %123. -/
theorem stB_v129 : fin U (Proc.devRef .tc main_v129) = lnMeanCol (c_v123 U) := by
  have s0 : fin U (Proc.devRef .tc main_cst_21) = constant (F := Ideal) S_ .f32 0x00000000#32 :=
    after_nullary_at (HandRun.writesAre (F := Ideal)) U 153 rfl (by decide)
  have s1 : fin U (Proc.devRef .tc main_v126) = Host.reduceAdd (F := Ideal) (φ := .f32) (fin U (Proc.devRef .tc main_v123)) (fin U (Proc.devRef .tc main_cst_21))
      reducesTo_S50000x64_S50000_d1 h_S_ :=
    after_binary_at (HandRun.writesAre (F := Ideal)) U 154 rfl (by decide) (by decide) (by decide)
  have s2 : fin U (Proc.devRef .tc main_v127) = broadcastInDim S50000x1 ![0] bcast_S50000_S50000x1_0 (fin U (Proc.devRef .tc main_v126)) :=
    after_unary_at (HandRun.writesAre (F := Ideal)) U 155 rfl (by decide) (by decide)
  have s3 : fin U (Proc.devRef .tc main_cst_22) = constant (F := Ideal) S_ .f32 0x42800000#32 :=
    after_nullary_at (HandRun.writesAre (F := Ideal)) U 156 rfl (by decide)
  have s4 : fin U (Proc.devRef .tc main_v128) = broadcastInDim S50000x1 ![] bcast_S_S50000x1 (fin U (Proc.devRef .tc main_cst_22)) :=
    after_unary_at (HandRun.writesAre (F := Ideal)) U 157 rfl (by decide) (by decide)
  have s5 : fin U (Proc.devRef .tc main_v129) = Host.divf (F := Ideal) (s := S50000x1) (φ := .f32) (fin U (Proc.devRef .tc main_v127)) (fin U (Proc.devRef .tc main_v128)) :=
    after_binary_at (HandRun.writesAre (F := Ideal)) U 158 rfl (by decide) (by decide) (by decide)
  rw [s5, s4, s3, s2, s1, s0]
  rfl

/-- The variance function's own centred table: its own row means of %123, subtracted. -/
theorem stB_call2_v5 : fin U (Proc.devRef .tc main_call2_v5) = lnCtr (c_v123 U) := by
  have s0 : fin U (Proc.devRef .tc main_call2_cst) = constant (F := Ideal) S_ .f32 0x00000000#32 :=
    after_nullary_at (HandRun.writesAre (F := Ideal)) U 160 rfl (by decide)
  have s1 : fin U (Proc.devRef .tc main_call2_v0) = Host.reduceAdd (F := Ideal) (φ := .f32) (fin U (Proc.devRef .tc main_v123)) (fin U (Proc.devRef .tc main_call2_cst))
      reducesTo_S50000x64_S50000_d1 h_S_ :=
    after_binary_at (HandRun.writesAre (F := Ideal)) U 161 rfl (by decide) (by decide) (by decide)
  have s2 : fin U (Proc.devRef .tc main_call2_v1) = broadcastInDim S50000x1 ![0] bcast_S50000_S50000x1_0 (fin U (Proc.devRef .tc main_call2_v0)) :=
    after_unary_at (HandRun.writesAre (F := Ideal)) U 162 rfl (by decide) (by decide)
  have s3 : fin U (Proc.devRef .tc main_call2_cst_0) = constant (F := Ideal) S_ .f32 0x42800000#32 :=
    after_nullary_at (HandRun.writesAre (F := Ideal)) U 163 rfl (by decide)
  have s4 : fin U (Proc.devRef .tc main_call2_v2) = broadcastInDim S50000x1 ![] bcast_S_S50000x1 (fin U (Proc.devRef .tc main_call2_cst_0)) :=
    after_unary_at (HandRun.writesAre (F := Ideal)) U 164 rfl (by decide) (by decide)
  have s5 : fin U (Proc.devRef .tc main_call2_v3) = Host.divf (F := Ideal) (s := S50000x1) (φ := .f32) (fin U (Proc.devRef .tc main_call2_v1)) (fin U (Proc.devRef .tc main_call2_v2)) :=
    after_binary_at (HandRun.writesAre (F := Ideal)) U 165 rfl (by decide) (by decide) (by decide)
  have s6 : fin U (Proc.devRef .tc main_call2_v4) = broadcastInDim S50000x64 ![0, 1] bcast_S50000x1_S50000x64_0_1 (fin U (Proc.devRef .tc main_call2_v3)) :=
    after_unary_at (HandRun.writesAre (F := Ideal)) U 166 rfl (by decide) (by decide)
  have s7 : fin U (Proc.devRef .tc main_call2_v5) = subf (F := Ideal) (s := S50000x64) (φ := .f32) (fin U (Proc.devRef .tc main_v123)) (fin U (Proc.devRef .tc main_call2_v4)) :=
    after_binary_at (HandRun.writesAre (F := Ideal)) U 167 rfl (by decide) (by decide) (by decide)
  rw [s7, s6, s5, s4, s3, s2, s1, s0]
  rfl

/-- The divisor the variance function computes. -/
theorem stB_call2_v8 : fin U (Proc.devRef .tc main_call2_v8) = lnCnt := by
  have s0 : fin U (Proc.devRef .tc main_c_23) = constantI S_ 32 0#32 :=
    after_nullary_at (HandRun.writesAre (F := Ideal)) U 159 rfl (by decide)
  have s1 : fin U (Proc.devRef .tc main_call2_v7) = sitofp (F := Ideal) .f32 (fin U (Proc.devRef .tc main_c_23)) :=
    after_unary_at (HandRun.writesAre (F := Ideal)) U 169 rfl (by decide) (by decide)
  have s2 : fin U (Proc.devRef .tc main_call2_cst_1) = constant (F := Ideal) S_ .f32 0x42800000#32 :=
    after_nullary_at (HandRun.writesAre (F := Ideal)) U 170 rfl (by decide)
  have s3 : fin U (Proc.devRef .tc main_call2_v8) = subf (F := Ideal) (s := S_) (φ := .f32) (fin U (Proc.devRef .tc main_call2_cst_1)) (fin U (Proc.devRef .tc main_call2_v7)) :=
    after_binary_at (HandRun.writesAre (F := Ideal)) U 171 rfl (by decide) (by decide) (by decide)
  rw [s3, s2, s1, s0]
  rfl

/-- %130: the column of the row variances of %123. -/
theorem stB_v130 : fin U (Proc.devRef .tc main_v130) = lnVarCol (c_v123 U) := by
  have s0 : fin U (Proc.devRef .tc main_call2_v6) = mulf (F := Ideal) (s := S50000x64) (φ := .f32) (fin U (Proc.devRef .tc main_call2_v5)) (fin U (Proc.devRef .tc main_call2_v5)) :=
    after_binary_at (HandRun.writesAre (F := Ideal)) U 168 rfl (by decide) (by decide) (by decide)
  have s1 : fin U (Proc.devRef .tc main_call2_cst_2) = constant (F := Ideal) S_ .f32 0x00000000#32 :=
    after_nullary_at (HandRun.writesAre (F := Ideal)) U 172 rfl (by decide)
  have s2 : fin U (Proc.devRef .tc main_call2_v9) = Host.reduceAdd (F := Ideal) (φ := .f32) (fin U (Proc.devRef .tc main_call2_v6)) (fin U (Proc.devRef .tc main_call2_cst_2))
      reducesTo_S50000x64_S50000_d1 h_S_ :=
    after_binary_at (HandRun.writesAre (F := Ideal)) U 173 rfl (by decide) (by decide) (by decide)
  have s3 : fin U (Proc.devRef .tc main_call2_v10) = broadcastInDim S50000x1 ![0] bcast_S50000_S50000x1_0 (fin U (Proc.devRef .tc main_call2_v9)) :=
    after_unary_at (HandRun.writesAre (F := Ideal)) U 174 rfl (by decide) (by decide)
  have s4 : fin U (Proc.devRef .tc main_call2_v11) = broadcastInDim S50000x1 ![] bcast_S_S50000x1 (fin U (Proc.devRef .tc main_call2_v8)) :=
    after_unary_at (HandRun.writesAre (F := Ideal)) U 175 rfl (by decide) (by decide)
  have s5 : fin U (Proc.devRef .tc main_call2_v12) = Host.divf (F := Ideal) (s := S50000x1) (φ := .f32) (fin U (Proc.devRef .tc main_call2_v10)) (fin U (Proc.devRef .tc main_call2_v11)) :=
    after_binary_at (HandRun.writesAre (F := Ideal)) U 176 rfl (by decide) (by decide) (by decide)
  have s6 : fin U (Proc.devRef .tc main_call2_cst_3) = constant (F := Ideal) S_ .f32 0x00000000#32 :=
    after_nullary_at (HandRun.writesAre (F := Ideal)) U 177 rfl (by decide)
  have s7 : fin U (Proc.devRef .tc main_call2_v13) = cmpf (F := Ideal) (s := S_) (φ := .f32) .ogt (fin U (Proc.devRef .tc main_call2_v8)) (fin U (Proc.devRef .tc main_call2_cst_3)) :=
    after_binary_at (HandRun.writesAre (F := Ideal)) U 178 rfl (by decide) (by decide) (by decide)
  have s8 : fin U (Proc.devRef .tc main_call2_cst_4) = constant (F := Ideal) S_ .f32 0x7FC00000#32 :=
    after_nullary_at (HandRun.writesAre (F := Ideal)) U 179 rfl (by decide)
  have s9 : fin U (Proc.devRef .tc main_call2_call0_v0) = id (fin U (Proc.devRef .tc main_call2_cst_4)) :=
    after_unary_at (HandRun.writesAre (F := Ideal)) U 180 rfl (by decide) (by decide)
  have s10 : fin U (Proc.devRef .tc main_call2_call0_v1) = broadcastInDim S50000x1 ![] bcast_S_S50000x1 (fin U (Proc.devRef .tc main_call2_call0_v0)) :=
    after_unary_at (HandRun.writesAre (F := Ideal)) U 181 rfl (by decide) (by decide)
  have s11 : fin U (Proc.devRef .tc main_v130) = select (broadcastInDim S50000x1 ![] bcast_S_S50000x1 (fin U (Proc.devRef .tc main_call2_v13)))
      (fin U (Proc.devRef .tc main_call2_v12)) (fin U (Proc.devRef .tc main_call2_call0_v1)) :=
    after_ternary_at (HandRun.writesAre (F := Ideal)) U 182 rfl (by decide) (by decide) (by decide) (by decide)
  rw [s11, s10, s9, s8, s7, s6, s5, s4, s3, s2, s1, s0, stB_call2_v8, stB_call2_v5]
  rfl

/-- %132: %123 minus its row means. -/
theorem stB_v132 : fin U (Proc.devRef .tc main_v132) = lnCtr (c_v123 U) := by
  have s0 : fin U (Proc.devRef .tc main_v131) = broadcastInDim S50000x64 ![0, 1] bcast_S50000x1_S50000x64_0_1 (fin U (Proc.devRef .tc main_v129)) :=
    after_unary_at (HandRun.writesAre (F := Ideal)) U 183 rfl (by decide) (by decide)
  have s1 : fin U (Proc.devRef .tc main_v132) = subf (F := Ideal) (s := S50000x64) (φ := .f32) (fin U (Proc.devRef .tc main_v123)) (fin U (Proc.devRef .tc main_v131)) :=
    after_binary_at (HandRun.writesAre (F := Ideal)) U 184 rfl (by decide) (by decide) (by decide)
  rw [s1, s0, stB_v129]
  rfl

/-- %143 as an array: the layer normalisation of %123 with the gain and offset arguments. -/
theorem stB_v143 : c_v143 U = lnArr (c_v123 U) (inR U).g (inR U).b := by
  have s0 : fin U (Proc.devRef .tc main_cst_24) = constant (F := Ideal) S_ .f32 0x3727C5AC#32 :=
    after_nullary_at (HandRun.writesAre (F := Ideal)) U 185 rfl (by decide)
  have s1 : fin U (Proc.devRef .tc main_v133) = broadcastInDim S50000x1 ![] bcast_S_S50000x1 (fin U (Proc.devRef .tc main_cst_24)) :=
    after_unary_at (HandRun.writesAre (F := Ideal)) U 186 rfl (by decide) (by decide)
  have s2 : fin U (Proc.devRef .tc main_v134) = addf (F := Ideal) (s := S50000x1) (φ := .f32) (fin U (Proc.devRef .tc main_v130)) (fin U (Proc.devRef .tc main_v133)) :=
    after_binary_at (HandRun.writesAre (F := Ideal)) U 187 rfl (by decide) (by decide) (by decide)
  have s3 : fin U (Proc.devRef .tc main_v135) = Host.rsqrt (F := Ideal) (s := S50000x1) (φ := .f32) (fin U (Proc.devRef .tc main_v134)) :=
    after_unary_at (HandRun.writesAre (F := Ideal)) U 188 rfl (by decide) (by decide)
  have s4 : fin U (Proc.devRef .tc main_v136) = broadcastInDim S50000x64 ![0, 1] bcast_S50000x1_S50000x64_0_1 (fin U (Proc.devRef .tc main_v135)) :=
    after_unary_at (HandRun.writesAre (F := Ideal)) U 189 rfl (by decide) (by decide)
  have s5 : fin U (Proc.devRef .tc main_v137) = mulf (F := Ideal) (s := S50000x64) (φ := .f32) (fin U (Proc.devRef .tc main_v132)) (fin U (Proc.devRef .tc main_v136)) :=
    after_binary_at (HandRun.writesAre (F := Ideal)) U 190 rfl (by decide) (by decide) (by decide)
  have s6 : fin U (Proc.devRef .tc main_v138) = broadcastInDim S1x64 ![1] bcast_S64_S1x64_1 (fin U (Proc.devRef .tc main_arg17)) :=
    after_unary_at (HandRun.writesAre (F := Ideal)) U 191 rfl (by decide) (by decide)
  have s7 : fin U (Proc.devRef .tc main_v139) = broadcastInDim S50000x64 ![0, 1] bcast_S1x64_S50000x64_0_1 (fin U (Proc.devRef .tc main_v138)) :=
    after_unary_at (HandRun.writesAre (F := Ideal)) U 192 rfl (by decide) (by decide)
  have s8 : fin U (Proc.devRef .tc main_v140) = mulf (F := Ideal) (s := S50000x64) (φ := .f32) (fin U (Proc.devRef .tc main_v137)) (fin U (Proc.devRef .tc main_v139)) :=
    after_binary_at (HandRun.writesAre (F := Ideal)) U 193 rfl (by decide) (by decide) (by decide)
  have s9 : fin U (Proc.devRef .tc main_v141) = broadcastInDim S1x64 ![1] bcast_S64_S1x64_1 (fin U (Proc.devRef .tc main_arg18)) :=
    after_unary_at (HandRun.writesAre (F := Ideal)) U 194 rfl (by decide) (by decide)
  have s10 : fin U (Proc.devRef .tc main_v142) = broadcastInDim S50000x64 ![0, 1] bcast_S1x64_S50000x64_0_1 (fin U (Proc.devRef .tc main_v141)) :=
    after_unary_at (HandRun.writesAre (F := Ideal)) U 195 rfl (by decide) (by decide)
  have s11 : fin U (Proc.devRef .tc main_v143) = addf (F := Ideal) (s := S50000x64) (φ := .f32) (fin U (Proc.devRef .tc main_v140)) (fin U (Proc.devRef .tc main_v142)) :=
    after_binary_at (HandRun.writesAre (F := Ideal)) U 196 rfl (by decide) (by decide) (by decide)
  show fin U (Proc.devRef .tc main_v143) = _
  rw [s11, s10, s9, s8, s7, s6, s5, s4, s3, s2, s1, s0, stB_v130, stB_v132, stB_g_end, stB_b_end]
  rfl

/-- %143: the layer normalisation of the rows of %123, with the gain and the offset. -/
theorem r_v143 (r : Fin 50000) (j : Fin 64) :
    c_v143 U (ix2 r j) = layerNorm (cur (c_v123 U)) (cur1 (inR U).g) (cur1 (inR U).b) r j :=
  (congrFun (stB_v143 U) (ix2 r j)).trans (lnArr_apply _ _ _ r j)

end Cert.ReferenceIdeal.Val

end
-- ==== Proof.RChain.lean ====
/-
  The three results of the reference program as the closed forms of its inputs.

  The reference is one line of host operations; every buffer at its end is its operation's function of its operands
  at the end. Following the line: the affine node and edge tables; the rows gathered by source and by target (under
  the range hypothesis a gather by a word is the table's row of that number); the gate, which the line spells as
  one over one plus the exponential of the negated pre-activation with the word 1.0 — the logistic; the gate sum
  over the edges into each node; the normalised gate; the score, an inner product of two positive tables at the
  edge's two ends; the two summed messages; and the rectified, normalised node result, the rectified edge result
  and the position result.
-/
import proofs.«430657_j46961172414536_3_alg».proof.Proof.RBufs
import proofs.«430657_j46961172414536_3_alg».proof.Proof.Algebra
import proofs.«430657_j46961172414536_3_alg».proof.Proof.RStageT
import proofs.«430657_j46961172414536_3_alg».proof.Proof.RStageA
import proofs.«430657_j46961172414536_3_alg».proof.Proof.RStageB

noncomputable section

namespace Cert.ReferenceIdeal.Val
open Cert.ReferenceIdeal Cert.ReferenceIdeal.Gen Cert.ReferenceIdeal.HandRun Cert.Forms Idealize.ShloMosaic Idealize.ShloMosaic.TcCoe Idealize.SL.Sem Idealize.ShloMosaic.StableHlo Idealize.ShloMosaic.ValueIdx

variable (U : Valuation τ sig (Elt Ideal))
variable (hs : ∀ e : Fin 800000, 0 ≤ ((inR U).src (ix1 e)).toInt ∧ ((inR U).src (ix1 e)).toInt < 50000)
variable (hd : ∀ e : Fin 800000, 0 ≤ ((inR U).dst (ix1 e)).toInt ∧ ((inR U).dst (ix1 e)).toInt < 50000)

/-! ## The edge gate -/
include hs hd in
theorem hatR (e : Fin 800000) (j : Fin 64) : c_v51 U (ix2 e j) = hat (inR U) e j := by
  rw [r_v51, r_v42 U hs, r_v49 U hd, r_v15, r_v20, r_v25]
  rfl
include hs hd in
theorem gateR (e : Fin 800000) (j : Fin 64) : c_v57 U (ix2 e j) = gate (inR U) e j := by
  rw [r_v57, hatR U hs hd, logistic_words]
  rfl
include hs hd in
theorem gsR (r : Fin 50000) (j : Fin 64) : c_v60 U (ix2 r j) = gateSum (inR U) r j := by
  rw [r_v60]
  exact segSum_eq (inR U) _ (fun e => gate (inR U) e j) r fun e => gateR U hs hd e j
include hs hd in
theorem etaR (e : Fin 800000) (j : Fin 64) : c_v70 U (ix2 e j) = eta (inR U) e j := by
  rw [r_v70, gateR U hs hd, r_v67 U hd, gsR U hs hd]
  rfl

/-! ## The score -/
theorem sqR (r : Fin 50000) (j : Fin 64) : c_v72 U (ix2 r j) = sQ (inR U) r j := by
  rw [r_v72, r_v5]; rfl
theorem skR (r : Fin 50000) (j : Fin 64) : c_v79 U (ix2 r j) = sK (inR U) r j := by
  rw [r_v79, r_v5]; rfl
include hs hd in
theorem alphaR (e : Fin 800000) : c_v95 U (ix1 e) = alpha (inR U) e := by
  rw [r_v95]
  exact congrArg (zero + ·) (Finset.sum_congr rfl fun j _ => by rw [r_v86 U hs, r_v93 U hd, sqR, skR]; rfl)

/-! ## The summed messages -/
include hs hd in
theorem msgV (e : Fin 800000) (j : Fin 64) :
    c_v106 U (ix2 e j) = (eta (inR U) e j * alpha (inR U) e) * vh (inR U) (s (inR U) e) j := by
  rw [r_v106, r_v98, etaR U hs hd, alphaR U hs hd, r_v105 U hs, r_v10]
  rfl
include hs hd in
theorem sumVR (r : Fin 50000) (j : Fin 64) : c_v109 U (ix2 r j) = sumV (inR U) r j := by
  rw [r_v109]
  exact segSum_eq (inR U) _ (fun e => (eta (inR U) e j * alpha (inR U) e) * vh (inR U) (s (inR U) e) j) r fun e => msgV U hs hd e j
include hs hd in
theorem msgP (e : Fin 800000) (j : Fin 64) : c_v118 U (ix2 e j) = eta (inR U) e j * C2p (inR U) (s (inR U) e) j := by
  rw [r_v118, etaR U hs hd, r_v117 U hs, r_v35]
  rfl
include hs hd in
theorem sumPR (r : Fin 50000) (j : Fin 64) : c_v121 U (ix2 r j) = sumP (inR U) r j := by
  rw [r_v121]
  exact segSum_eq (inR U) _ (fun e => eta (inR U) e j * C2p (inR U) (s (inR U) e) j) r fun e => msgP U hs hd e j

/-! ## The three results -/
include hs hd in
theorem reluR (r : Fin 50000) (j : Fin 64) : c_v123 U (ix2 r j) = reluSum (vh (inR U)) (sumV (inR U)) r j := by
  rw [r_v123, r_v110, r_v10, sumVR U hs hd]
  rfl
include hs hd in
/-- The node result. -/
theorem R_hOut (r : Fin 50000) (j : Fin 64) : c_v143 U (ix2 r j) = hOut (inR U) r j := by
  rw [r_v143]
  have h : cur (c_v123 U) = reluSum (vh (inR U)) (sumV (inR U)) := funext fun r => funext fun j => reluR U hs hd r j
  rw [h]
  rfl
include hs hd in
/-- The edge result. -/
theorem R_eOut (e : Fin 800000) (j : Fin 64) : c_v124 U (ix2 e j) = eOut (inR U) e j := by
  rw [r_v124, hatR U hs hd]
  rfl
include hs hd in
/-- The position result. -/
theorem R_pOut (r : Fin 50000) (j : Fin 64) : c_v125 U (ix2 r j) = pOut (inR U) r j := by
  rw [r_v125, r_v122, r_v30, sumPR U hs hd]
  rfl

end Cert.ReferenceIdeal.Val
end
-- ==== Proof.PreIdx.lean ====
/-
  The integer-range part of the precondition, read back.

  The precondition is one scalar bit: the conjunction of a finiteness test per float input and then, outermost, four tests
  of the two arrays of row numbers: every source number is at least 0, every source number is below 50000, every
  destination number is at least 0, every destination number is below 50000. Each of the four is an all-reduction by
  `and` of an elementwise signed comparison with a broadcast constant. If the precondition is 1, each of the four
  reductions is 1 (a conjunction of bits is 1 only when both bits are), so each compared element is 1 (a fold by `and`
  from 1 that ends at 1 met only 1s), and a signed comparison bit that is 1 says the signed values compare that way.
  Hence every source and destination row number, read signed, lies in [0, 50000).
-/
import proofs.«430657_j46961172414536_3_alg».proof.Pre_finite_inputs
import Idealize.ShloMosaic.Lib.ReduceAll
import Idealize.ShloMosaic.Lib.ValueIdx
import Idealize.ShloMosaic.Lib.StableHlo.Predicate

noncomputable section

namespace Cert.PreIdx

open Idealize.ShloMosaic Idealize.ShloMosaic.ValueIdx Cert.Pre_finite_inputs

/-- The scalar shape has one index. -/
instance subsingleton_scalar_idx : Subsingleton S_.Idx := ⟨fun a b => funext fun d => d.elim0⟩

/-! ## Words: a signed comparison bit that is 1 -/

/-- "x ≥ 0" signed, as a bit that is 1, says the signed value of x is not negative. -/
theorem toInt_nonneg_of_sge {x : BitVec 32} (h : IntOp.cmpi .sge x 0#32 = 1#1) : 0 ≤ x.toInt := by
  unfold IntOp.cmpi at h
  have h1 := (StableHlo.Predicate.ofBool_eq_one_iff _).1 h
  simp only [BitVec.sle, decide_eq_true_eq] at h1
  have h0 : (0#32 : BitVec 32).toInt = 0 := by decide
  omega

/-- "x < 50000" signed, as a bit that is 1, says the signed value of x is below 50000. -/
theorem toInt_lt_of_slt {x : BitVec 32} (h : IntOp.cmpi .slt x 50000#32 = 1#1) : x.toInt < 50000 := by
  unfold IntOp.cmpi at h
  have h1 := (StableHlo.Predicate.ofBool_eq_one_iff _).1 h
  simp only [BitVec.slt, decide_eq_true_eq] at h1
  have h0 : (50000#32 : BitVec 32).toInt = 50000 := by decide
  omega

/-! ## One all-reduction of a comparison with a broadcast constant -/

variable [hP : Cert.Pre_finite_inputs.Facts]

/-- The all-reduction of "x ≥ 0" over the 800000 numbers is 1: every number is non-negative. -/
theorem all_sge (x : IVec S800000 32) (hb : S_.BroadcastsInDim S800000 (![] : Fin 0 → Fin S800000.rank))
    (hr : S800000.ReducesTo [0] S_) (hu : 0 < S_.numel)
    (h : Host.reduce IntOp.andi (cmpi .sge x (broadcastInDim S800000 ![] hb (constantI S_ 32 0#32))) (constantI S_ 1 1#1) hr hu
      ValueIdx.ix0 = 1#1) (e : Fin 800000) : 0 ≤ (x (ValueIdx.ix1 e)).toInt :=
  toInt_nonneg_of_sge (Host.reduce_andi_all _ _ hr hu _ h (ValueIdx.ix1 e))

/-- The all-reduction of "x < 50000" over the 800000 numbers is 1: every number is below 50000. -/
theorem all_slt (x : IVec S800000 32) (hb : S_.BroadcastsInDim S800000 (![] : Fin 0 → Fin S800000.rank))
    (hr : S800000.ReducesTo [0] S_) (hu : 0 < S_.numel)
    (h : Host.reduce IntOp.andi (cmpi .slt x (broadcastInDim S800000 ![] hb (constantI S_ 32 50000#32))) (constantI S_ 1 1#1) hr hu
      ValueIdx.ix0 = 1#1) (e : Fin 800000) : (x (ValueIdx.ix1 e)).toInt < 50000 :=
  toInt_lt_of_slt (Host.reduce_andi_all _ _ hr hu _ h (ValueIdx.ix1 e))

/-! ## The last two parts of the chain of definitions -/

/-- The last part: its value is the running conjunction and the two destination tests. -/
theorem part6_one {F : FTy → Type} [FloatOps F] (dst : IVec S800000 32) (v : IVec S_ 1)
    (h : fn_part6 (F := F) dst v ValueIdx.ix0 = 1#1) :
    v ValueIdx.ix0 = 1#1 ∧ ∀ e : Fin 800000, 0 ≤ (dst (ValueIdx.ix1 e)).toInt ∧ (dst (ValueIdx.ix1 e)).toInt < 50000 := by
  obtain ⟨h1, hlt⟩ := IntOp.andi_eq_one.1 h
  obtain ⟨hv, hge⟩ := IntOp.andi_eq_one.1 h1
  exact ⟨hv, fun e => ⟨all_sge dst _ _ _ hge e, all_slt dst _ _ _ hlt e⟩⟩

/-- The part before it: its value carries the two source tests and then the two destination tests. -/
theorem part5_one {F : FTy → Type} [FloatOps F] (a18 : FVec F S64 .f32) (src dst : IVec S800000 32) (v83 : IVec S_ 1)
    (v84 : FVec F S64 .f32) (c : FVec F S_ .f32)
    (h : fn_part5 (F := F) a18 src dst v83 v84 c ValueIdx.ix0 = 1#1) :
    (∀ e : Fin 800000, 0 ≤ (src (ValueIdx.ix1 e)).toInt ∧ (src (ValueIdx.ix1 e)).toInt < 50000)
      ∧ (∀ e : Fin 800000, 0 ≤ (dst (ValueIdx.ix1 e)).toInt ∧ (dst (ValueIdx.ix1 e)).toInt < 50000) := by
  obtain ⟨hv, hd⟩ := part6_one (F := F) dst _ h
  obtain ⟨h1, hlt⟩ := IntOp.andi_eq_one.1 hv
  obtain ⟨_, hge⟩ := IntOp.andi_eq_one.1 h1
  exact ⟨fun e => ⟨all_sge src _ _ _ hge e, all_slt src _ _ _ hlt e⟩, hd⟩

/-! ## The precondition -/

/-- The precondition is 1: every source and every destination row number, read signed, is in [0, 50000). -/
theorem idx_of_pre {F : FTy → Type} [FloatOps F]
    (a0 : FVec F S50000x64 .f32) (a1 : FVec F S800000x64 .f32) (a2 : FVec F S50000x64 .f32) (a3 : FVec F S64x128 .f32)
    (a4 : FVec F S64 .f32) (a5 : FVec F S64x128 .f32) (a6 : FVec F S64 .f32) (a7 : FVec F S64x64 .f32) (a8 : FVec F S64 .f32)
    (a9 : FVec F S64x64 .f32) (a10 : FVec F S64 .f32) (a11 : FVec F S64x64 .f32) (a12 : FVec F S64 .f32)
    (a13 : FVec F S64x64 .f32) (a14 : FVec F S64 .f32) (a15 : FVec F S64x64 .f32) (a16 : FVec F S64 .f32)
    (a17 : FVec F S64 .f32) (a18 : FVec F S64 .f32) (src dst : IVec S800000 32)
    (h : Cert.Pre_finite_inputs.fn (F := F) a0 a1 a2 a3 a4 a5 a6 a7 a8 a9 a10 a11 a12 a13 a14 a15 a16 a17 a18 src dst = fun _ => 1#1) :
    (∀ e : Fin 800000, 0 ≤ (src (ValueIdx.ix1 e)).toInt ∧ (src (ValueIdx.ix1 e)).toInt < 50000)
      ∧ (∀ e : Fin 800000, 0 ≤ (dst (ValueIdx.ix1 e)).toInt ∧ (dst (ValueIdx.ix1 e)).toInt < 50000) := by
  have h0 : fn_part5 (F := F) a18 src dst _ _ _ ValueIdx.ix0 = 1#1 := congrFun h ValueIdx.ix0
  exact part5_one (F := F) a18 src dst _ _ _ h0

end Cert.PreIdx

end
-- ==== Proof.lean ====
/-
  The certificate's claim.

  Both programs compute one graph layer over 50000 nodes and 800000 edges. The kernel program does it with three
  kernel launches among host operations, gathering rows with the fill form of a row-take and normalising the gate by
  a reciprocal; the reference does it in one line of host operations with plain gathers and a quotient. Under the
  precondition — every float input finite and every source and target word a node number in [0, 50000) — the fill
  form never fills and every gather reads the row its word names, so each of the three results is, on both sides,
  the same closed form of the same inputs (Forms.lean: the layer normalisation of the rectified sum of the value
  table and the summed, normalised, scored messages; the rectified gate pre-activation; the tanh of the position
  table plus the summed normalised messages). The only law used between the two sides is that off zero the quotient
  is the product with the inverse, together with commutativity and associativity of the product of extended reals;
  the normaliser is a sum of logistics plus a positive constant and so is not zero. Finiteness of the inputs is
  not used.

  The frames of the two kernel programs are the generated ones; the reference's frame is its run with the results
  dropped; the idealization rewrote no operation.
-/
import proofs.«430657_j46961172414536_3_alg».proof.Defs
import proofs.«430657_j46961172414536_3_alg».proof.Proof.Gen.Kernel
import proofs.«430657_j46961172414536_3_alg».proof.Proof.Gen.Kernel.Frame
import proofs.«430657_j46961172414536_3_alg».proof.Proof.Gen.KernelIdeal
import proofs.«430657_j46961172414536_3_alg».proof.Proof.Gen.KernelIdeal.Frame
import proofs.«430657_j46961172414536_3_alg».proof.Proof.Gen.ReferenceIdeal
import proofs.«430657_j46961172414536_3_alg».proof.Proof.Gen.Pre_finite_inputs
import proofs.«430657_j46961172414536_3_alg».proof.Proof.KRun
import proofs.«430657_j46961172414536_3_alg».proof.Proof.KChain
import proofs.«430657_j46961172414536_3_alg».proof.Proof.RChain
import proofs.«430657_j46961172414536_3_alg».proof.Proof.PreIdx

noncomputable section

namespace Cert.Proof

open Idealize.ShloMosaic Idealize.ShloMosaic.TcCoe Idealize.SL.Sem Idealize.ShloMosaic.StableHlo Idealize.ShloMosaic.ValueIdx Cert.Forms

/-- Two matrices that agree at every pair of coordinates are equal. -/
theorem arr_ext {a b : Nat} (A B : Arr a b) (h : ∀ r j, A (ix2 r j) = B (ix2 r j)) : A = B :=
  funext fun i => by rw [eq_ix2 i]; exact h _ _

/-- The reference runs, and leaves its arguments as launched: its line of host operations writes none of them. -/
theorem frame_ri : Cert.frame_ReferenceIdeal (hReferenceIdeal := Cert.ReferenceIdeal.Gen.facts) (hPre_finite_inputs := Cert.Pre_finite_inputs.Gen.facts) := by
  intro m ρ _
  open Cert.ReferenceIdeal Cert.ReferenceIdeal.Gen Cert.ReferenceIdeal in
  exact (θ_run Cert.ReferenceIdeal.defs _ _).mono (fun r h c =>
    ⟨(h c main_arg0).trans (Val.r_arg _ main_arg0 (by decide)),
      (h c main_arg1).trans (Val.r_arg _ main_arg1 (by decide)),
      (h c main_arg2).trans (Val.r_arg _ main_arg2 (by decide)),
      (h c main_arg3).trans (Val.r_arg _ main_arg3 (by decide)),
      (h c main_arg4).trans (Val.r_arg _ main_arg4 (by decide)),
      (h c main_arg5).trans (Val.r_arg _ main_arg5 (by decide)),
      (h c main_arg6).trans (Val.r_arg _ main_arg6 (by decide)),
      (h c main_arg7).trans (Val.r_arg _ main_arg7 (by decide)),
      (h c main_arg8).trans (Val.r_arg _ main_arg8 (by decide)),
      (h c main_arg9).trans (Val.r_arg _ main_arg9 (by decide)),
      (h c main_arg10).trans (Val.r_arg _ main_arg10 (by decide)),
      (h c main_arg11).trans (Val.r_arg _ main_arg11 (by decide)),
      (h c main_arg12).trans (Val.r_arg _ main_arg12 (by decide)),
      (h c main_arg13).trans (Val.r_arg _ main_arg13 (by decide)),
      (h c main_arg14).trans (Val.r_arg _ main_arg14 (by decide)),
      (h c main_arg15).trans (Val.r_arg _ main_arg15 (by decide)),
      (h c main_arg16).trans (Val.r_arg _ main_arg16 (by decide)),
      (h c main_arg17).trans (Val.r_arg _ main_arg17 (by decide)),
      (h c main_arg18).trans (Val.r_arg _ main_arg18 (by decide)),
      (h c main_arg19).trans (Val.r_arg _ main_arg19 (by decide)),
      (h c main_arg20).trans (Val.r_arg _ main_arg20 (by decide))⟩)
    (Cert.ReferenceIdeal.HandRun.run_main (F := Ideal) m ρ)

/-- Under the precondition every source and target word names a node. -/
theorem inRange_of_pre (m : (ℓ : Loc Cert.KernelIdeal.nD Cert.KernelIdeal.τ Cert.KernelIdeal.sig) → Buf (Elt Ideal) ℓ)
    (ρ : Dev Cert.KernelIdeal.nD → PrngReg)
    (hpre : Cert.Pre_KernelIdeal (hPre_finite_inputs := Cert.Pre_finite_inputs.Gen.facts) m) (c : Dev Cert.KernelIdeal.nD) :
    InRange (Cert.KernelIdeal.Val.inU (Cert.KernelIdeal.Gen.W0 m ρ c)) :=
  Cert.PreIdx.idx_of_pre (hP := Cert.Pre_finite_inputs.Gen.facts) _ _ _ _ _ _ _ _ _ _ _ _ _ _ _ _ _ _ _ _ _ (hpre c)

/-- The two programs, run from memories that agree on the arguments, end with equal results: each result is the same
    closed form of the same inputs. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Gen.W11 m ρ c (Proc.devRef .tc Cert.KernelIdeal.main_v62_0),
    fun c => Cert.KernelIdeal.Gen.W11 m ρ c (Proc.devRef .tc Cert.KernelIdeal.main_v46_1),
    fun c => Cert.KernelIdeal.Gen.W11 m ρ c (Proc.devRef .tc Cert.KernelIdeal.main_v62_1),
    Cert.KernelIdeal.Gen.run_values m ρ, ?_⟩
  refine (θ_run Cert.ReferenceIdeal.defs _ _).mono (fun r h c => ?_) (Cert.ReferenceIdeal.HandRun.run_main (F := Ideal) m' ρ')
  have hr := inRange_of_pre m ρ hpre c
  have e0 : launchContents m' c (Proc.devRef .tc Cert.ReferenceIdeal.main_arg0) = Cert.KernelIdeal.Gen.W0 m ρ c (Proc.devRef .tc Cert.KernelIdeal.main_arg0) := (hagree c).1
  have e1 : launchContents m' c (Proc.devRef .tc Cert.ReferenceIdeal.main_arg1) = Cert.KernelIdeal.Gen.W0 m ρ c (Proc.devRef .tc Cert.KernelIdeal.main_arg1) := (hagree c).2.1
  have e2 : launchContents m' c (Proc.devRef .tc Cert.ReferenceIdeal.main_arg2) = Cert.KernelIdeal.Gen.W0 m ρ c (Proc.devRef .tc Cert.KernelIdeal.main_arg2) := (hagree c).2.2.1
  have e3 : launchContents m' c (Proc.devRef .tc Cert.ReferenceIdeal.main_arg3) = Cert.KernelIdeal.Gen.W0 m ρ c (Proc.devRef .tc Cert.KernelIdeal.main_arg3) := (hagree c).2.2.2.1
  have e4 : launchContents m' c (Proc.devRef .tc Cert.ReferenceIdeal.main_arg4) = Cert.KernelIdeal.Gen.W0 m ρ c (Proc.devRef .tc Cert.KernelIdeal.main_arg4) := (hagree c).2.2.2.2.1
  have e5 : launchContents m' c (Proc.devRef .tc Cert.ReferenceIdeal.main_arg5) = Cert.KernelIdeal.Gen.W0 m ρ c (Proc.devRef .tc Cert.KernelIdeal.main_arg5) := (hagree c).2.2.2.2.2.1
  have e6 : launchContents m' c (Proc.devRef .tc Cert.ReferenceIdeal.main_arg6) = Cert.KernelIdeal.Gen.W0 m ρ c (Proc.devRef .tc Cert.KernelIdeal.main_arg6) := (hagree c).2.2.2.2.2.2.1
  have e7 : launchContents m' c (Proc.devRef .tc Cert.ReferenceIdeal.main_arg7) = Cert.KernelIdeal.Gen.W0 m ρ c (Proc.devRef .tc Cert.KernelIdeal.main_arg7) := (hagree c).2.2.2.2.2.2.2.1
  have e8 : launchContents m' c (Proc.devRef .tc Cert.ReferenceIdeal.main_arg8) = Cert.KernelIdeal.Gen.W0 m ρ c (Proc.devRef .tc Cert.KernelIdeal.main_arg8) := (hagree c).2.2.2.2.2.2.2.2.1
  have e9 : launchContents m' c (Proc.devRef .tc Cert.ReferenceIdeal.main_arg9) = Cert.KernelIdeal.Gen.W0 m ρ c (Proc.devRef .tc Cert.KernelIdeal.main_arg9) := (hagree c).2.2.2.2.2.2.2.2.2.1
  have e10 : launchContents m' c (Proc.devRef .tc Cert.ReferenceIdeal.main_arg10) = Cert.KernelIdeal.Gen.W0 m ρ c (Proc.devRef .tc Cert.KernelIdeal.main_arg10) := (hagree c).2.2.2.2.2.2.2.2.2.2.1
  have e11 : launchContents m' c (Proc.devRef .tc Cert.ReferenceIdeal.main_arg11) = Cert.KernelIdeal.Gen.W0 m ρ c (Proc.devRef .tc Cert.KernelIdeal.main_arg11) := (hagree c).2.2.2.2.2.2.2.2.2.2.2.1
  have e12 : launchContents m' c (Proc.devRef .tc Cert.ReferenceIdeal.main_arg12) = Cert.KernelIdeal.Gen.W0 m ρ c (Proc.devRef .tc Cert.KernelIdeal.main_arg12) := (hagree c).2.2.2.2.2.2.2.2.2.2.2.2.1
  have e13 : launchContents m' c (Proc.devRef .tc Cert.ReferenceIdeal.main_arg13) = Cert.KernelIdeal.Gen.W0 m ρ c (Proc.devRef .tc Cert.KernelIdeal.main_arg13) := (hagree c).2.2.2.2.2.2.2.2.2.2.2.2.2.1
  have e14 : launchContents m' c (Proc.devRef .tc Cert.ReferenceIdeal.main_arg14) = Cert.KernelIdeal.Gen.W0 m ρ c (Proc.devRef .tc Cert.KernelIdeal.main_arg14) := (hagree c).2.2.2.2.2.2.2.2.2.2.2.2.2.2.1
  have e15 : launchContents m' c (Proc.devRef .tc Cert.ReferenceIdeal.main_arg15) = Cert.KernelIdeal.Gen.W0 m ρ c (Proc.devRef .tc Cert.KernelIdeal.main_arg15) := (hagree c).2.2.2.2.2.2.2.2.2.2.2.2.2.2.2.1
  have e16 : launchContents m' c (Proc.devRef .tc Cert.ReferenceIdeal.main_arg16) = Cert.KernelIdeal.Gen.W0 m ρ c (Proc.devRef .tc Cert.KernelIdeal.main_arg16) := (hagree c).2.2.2.2.2.2.2.2.2.2.2.2.2.2.2.2.1
  have e17 : launchContents m' c (Proc.devRef .tc Cert.ReferenceIdeal.main_arg17) = Cert.KernelIdeal.Gen.W0 m ρ c (Proc.devRef .tc Cert.KernelIdeal.main_arg17) := (hagree c).2.2.2.2.2.2.2.2.2.2.2.2.2.2.2.2.2.1
  have e18 : launchContents m' c (Proc.devRef .tc Cert.ReferenceIdeal.main_arg18) = Cert.KernelIdeal.Gen.W0 m ρ c (Proc.devRef .tc Cert.KernelIdeal.main_arg18) := (hagree c).2.2.2.2.2.2.2.2.2.2.2.2.2.2.2.2.2.2.1
  have e19 : launchContents m' c (Proc.devRef .tc Cert.ReferenceIdeal.main_arg19) = Cert.KernelIdeal.Gen.W0 m ρ c (Proc.devRef .tc Cert.KernelIdeal.main_arg19) := (hagree c).2.2.2.2.2.2.2.2.2.2.2.2.2.2.2.2.2.2.2.1
  have e20 : launchContents m' c (Proc.devRef .tc Cert.ReferenceIdeal.main_arg20) = Cert.KernelIdeal.Gen.W0 m ρ c (Proc.devRef .tc Cert.KernelIdeal.main_arg20) := (hagree c).2.2.2.2.2.2.2.2.2.2.2.2.2.2.2.2.2.2.2.2
  have hI : Cert.ReferenceIdeal.Val.inR (launchContents m' c) = Cert.KernelIdeal.Val.inU (Cert.KernelIdeal.Gen.W0 m ρ c) := by
    unfold Cert.ReferenceIdeal.Val.inR Cert.KernelIdeal.Val.inU
    rw [e0, e1, e2, e3, e4, e5, e6, e7, e8, e9, e10, e11, e12, e13, e14, e15, e16, e17, e18, e19, e20]
  have hs : ∀ e : Fin 800000, 0 ≤ ((Cert.ReferenceIdeal.Val.inR (launchContents m' c)).src (ix1 e)).toInt ∧ ((Cert.ReferenceIdeal.Val.inR (launchContents m' c)).src (ix1 e)).toInt < 50000 := by
    rw [hI]; exact hr.1
  have hd : ∀ e : Fin 800000, 0 ≤ ((Cert.ReferenceIdeal.Val.inR (launchContents m' c)).dst (ix1 e)).toInt ∧ ((Cert.ReferenceIdeal.Val.inR (launchContents m' c)).dst (ix1 e)).toInt < 50000 := by
    rw [hI]; exact hr.2
  refine ⟨?_, ?_, ?_, (h c Cert.ReferenceIdeal.main_arg0).trans (Cert.ReferenceIdeal.Val.r_arg _ Cert.ReferenceIdeal.main_arg0 (by decide)),
    (h c Cert.ReferenceIdeal.main_arg1).trans (Cert.ReferenceIdeal.Val.r_arg _ Cert.ReferenceIdeal.main_arg1 (by decide)),
    (h c Cert.ReferenceIdeal.main_arg2).trans (Cert.ReferenceIdeal.Val.r_arg _ Cert.ReferenceIdeal.main_arg2 (by decide)),
    (h c Cert.ReferenceIdeal.main_arg3).trans (Cert.ReferenceIdeal.Val.r_arg _ Cert.ReferenceIdeal.main_arg3 (by decide)),
    (h c Cert.ReferenceIdeal.main_arg4).trans (Cert.ReferenceIdeal.Val.r_arg _ Cert.ReferenceIdeal.main_arg4 (by decide)),
    (h c Cert.ReferenceIdeal.main_arg5).trans (Cert.ReferenceIdeal.Val.r_arg _ Cert.ReferenceIdeal.main_arg5 (by decide)),
    (h c Cert.ReferenceIdeal.main_arg6).trans (Cert.ReferenceIdeal.Val.r_arg _ Cert.ReferenceIdeal.main_arg6 (by decide)),
    (h c Cert.ReferenceIdeal.main_arg7).trans (Cert.ReferenceIdeal.Val.r_arg _ Cert.ReferenceIdeal.main_arg7 (by decide)),
    (h c Cert.ReferenceIdeal.main_arg8).trans (Cert.ReferenceIdeal.Val.r_arg _ Cert.ReferenceIdeal.main_arg8 (by decide)),
    (h c Cert.ReferenceIdeal.main_arg9).trans (Cert.ReferenceIdeal.Val.r_arg _ Cert.ReferenceIdeal.main_arg9 (by decide)),
    (h c Cert.ReferenceIdeal.main_arg10).trans (Cert.ReferenceIdeal.Val.r_arg _ Cert.ReferenceIdeal.main_arg10 (by decide)),
    (h c Cert.ReferenceIdeal.main_arg11).trans (Cert.ReferenceIdeal.Val.r_arg _ Cert.ReferenceIdeal.main_arg11 (by decide)),
    (h c Cert.ReferenceIdeal.main_arg12).trans (Cert.ReferenceIdeal.Val.r_arg _ Cert.ReferenceIdeal.main_arg12 (by decide)),
    (h c Cert.ReferenceIdeal.main_arg13).trans (Cert.ReferenceIdeal.Val.r_arg _ Cert.ReferenceIdeal.main_arg13 (by decide)),
    (h c Cert.ReferenceIdeal.main_arg14).trans (Cert.ReferenceIdeal.Val.r_arg _ Cert.ReferenceIdeal.main_arg14 (by decide)),
    (h c Cert.ReferenceIdeal.main_arg15).trans (Cert.ReferenceIdeal.Val.r_arg _ Cert.ReferenceIdeal.main_arg15 (by decide)),
    (h c Cert.ReferenceIdeal.main_arg16).trans (Cert.ReferenceIdeal.Val.r_arg _ Cert.ReferenceIdeal.main_arg16 (by decide)),
    (h c Cert.ReferenceIdeal.main_arg17).trans (Cert.ReferenceIdeal.Val.r_arg _ Cert.ReferenceIdeal.main_arg17 (by decide)),
    (h c Cert.ReferenceIdeal.main_arg18).trans (Cert.ReferenceIdeal.Val.r_arg _ Cert.ReferenceIdeal.main_arg18 (by decide)),
    (h c Cert.ReferenceIdeal.main_arg19).trans (Cert.ReferenceIdeal.Val.r_arg _ Cert.ReferenceIdeal.main_arg19 (by decide)),
    (h c Cert.ReferenceIdeal.main_arg20).trans (Cert.ReferenceIdeal.Val.r_arg _ Cert.ReferenceIdeal.main_arg20 (by decide))⟩
  · refine (h c Cert.ReferenceIdeal.main_v143).trans (arr_ext (a := 50000) (b := 64) _ _ fun r j => ?_)
    refine (Cert.ReferenceIdeal.Val.R_hOut (launchContents m' c) hs hd r j).trans ?_
    rw [hI]
    exact (Cert.KernelIdeal.Val.K_hOut m ρ c hr r j).symm
  · refine (h c Cert.ReferenceIdeal.main_v124).trans (arr_ext (a := 800000) (b := 64) _ _ fun e j => ?_)
    refine (Cert.ReferenceIdeal.Val.R_eOut (launchContents m' c) hs hd e j).trans ?_
    rw [hI]
    exact (Cert.KernelIdeal.Val.K_eOut m ρ c hr e j).symm
  · refine (h c Cert.ReferenceIdeal.main_v125).trans (arr_ext (a := 50000) (b := 64) _ _ fun r j => ?_)
    refine (Cert.ReferenceIdeal.Val.R_pOut (launchContents m' c) hs hd r j).trans ?_
    rw [hI]
    exact (Cert.KernelIdeal.Val.K_pOut m ρ c hr r j).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_ri,
  trivial,
  algebraic⟩

end Cert.Proof

end
